-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v406) = v0 c
          ∧ r.2.mem ((c.tc : Thread Cert.ReferenceIdeal.nD Cert.ReferenceIdeal.τ).loc Cert.ReferenceIdeal.main_v409) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x500x4 : Shape := ⟨3, ![64, 500, 4]⟩
abbrev S64x500x151 : Shape := ⟨3, ![64, 500, 151]⟩
abbrev S64x2 : Shape := ⟨2, ![64, 2]⟩
abbrev S_ : Shape := ⟨0, ![]⟩

class Facts : Prop where
  bcast_S_S64x500x4 : S_.BroadcastsInDim S64x500x4 (![] : Fin 0 → Fin S64x500x4.rank)
  reducesTo_S64x500x4_S_d0_1_2 : S64x500x4.ReducesTo [0, 1, 2] S_
  h_S_ : 0 < S_.numel
  bcast_S_S64x500x151 : S_.BroadcastsInDim S64x500x151 (![] : Fin 0 → Fin S64x500x151.rank)
  reducesTo_S64x500x151_S_d0_1_2 : S64x500x151.ReducesTo [0, 1, 2] S_
  bcast_S_S64x2 : S_.BroadcastsInDim S64x2 (![] : Fin 0 → Fin S64x2.rank)
  reducesTo_S64x2_S_d0_1 : S64x2.ReducesTo [0, 1] S_

variable [Facts]

def fn_part2 {F : FTy → Type} [FloatOps F] (main_arg7 : FVec F S64x2 .f32) (main_v33 : IVec S_ 1) : IVec S_ 1 :=
  let main_v34 : FVec F S64x2 .f32 := Host.absf main_arg7
  let main_cst_12 : FVec F S_ .f32 := constant S_ .f32 0x7F800000#32
  let main_v35 : FVec F S64x2 .f32 := broadcastInDim S64x2 ![] bcast_S_S64x2 main_cst_12
  let main_v36 : IVec S64x2 1 := cmpf .olt main_v34 main_v35
  let main_c_13 : IVec S_ 1 := constantI S_ 1 1#1
  let main_v37 : IVec S_ 1 := (fun x v => Host.reduce IntOp.andi x v reducesTo_S64x2_S_d0_1 h_S_) main_v36 main_c_13
  let main_v38 : IVec S_ 1 := andi main_v33 main_v37
  main_v38

def fn_part1 {F : FTy → Type} [FloatOps F] (main_arg4 : FVec F S64x500x4 .f32) (main_arg5 : FVec F S64x500x4 .f32) (main_arg6 : FVec F S64x500x4 .f32) (main_arg7 : FVec F S64x2 .f32) (main_v13 : IVec S_ 1) (main_v16 : IVec S64x500x151 1) : IVec S_ 1 :=
  let main_c_5 : IVec S_ 1 := constantI S_ 1 1#1
  let main_v17 : IVec S_ 1 := (fun x v => Host.reduce IntOp.andi x v reducesTo_S64x500x151_S_d0_1_2 h_S_) main_v16 main_c_5
  let main_v18 : IVec S_ 1 := andi main_v13 main_v17
  let main_v19 : FVec F S64x500x4 .f32 := Host.absf main_arg4
  let main_cst_6 : FVec F S_ .f32 := constant S_ .f32 0x7F800000#32
  let main_v20 : FVec F S64x500x4 .f32 := broadcastInDim S64x500x4 ![] bcast_S_S64x500x4 main_cst_6
  let main_v21 : IVec S64x500x4 1 := cmpf .olt main_v19 main_v20
  let main_c_7 : IVec S_ 1 := constantI S_ 1 1#1
  let main_v22 : IVec S_ 1 := (fun x v => Host.reduce IntOp.andi x v reducesTo_S64x500x4_S_d0_1_2 h_S_) main_v21 main_c_7
  let main_v23 : IVec S_ 1 := andi main_v18 main_v22
  let main_v24 : FVec F S64x500x4 .f32 := Host.absf main_arg5
  let main_cst_8 : FVec F S_ .f32 := constant S_ .f32 0x7F800000#32
  let main_v25 : FVec F S64x500x4 .f32 := broadcastInDim S64x500x4 ![] bcast_S_S64x500x4 main_cst_8
  let main_v26 : IVec S64x500x4 1 := cmpf .olt main_v24 main_v25
  let main_c_9 : IVec S_ 1 := constantI S_ 1 1#1
  let main_v27 : IVec S_ 1 := (fun x v => Host.reduce IntOp.andi x v reducesTo_S64x500x4_S_d0_1_2 h_S_) main_v26 main_c_9
  let main_v28 : IVec S_ 1 := andi main_v23 main_v27
  let main_v29 : FVec F S64x500x4 .f32 := Host.absf main_arg6
  let main_cst_10 : FVec F S_ .f32 := constant S_ .f32 0x7F800000#32
  let main_v30 : FVec F S64x500x4 .f32 := broadcastInDim S64x500x4 ![] bcast_S_S64x500x4 main_cst_10
  let main_v31 : IVec S64x500x4 1 := cmpf .olt main_v29 main_v30
  let main_c_11 : IVec S_ 1 := constantI S_ 1 1#1
  let main_v32 : IVec S_ 1 := (fun x v => Host.reduce IntOp.andi x v reducesTo_S64x500x4_S_d0_1_2 h_S_) main_v31 main_c_11
  let main_v33 : IVec S_ 1 := andi main_v28 main_v32
  fn_part2 (F := F) main_arg7 main_v33

def fn {F : FTy → Type} [FloatOps F] (main_arg0 : FVec F S64x500x4 .f32) (main_arg1 : FVec F S64x500x151 .f32) (main_arg2 : FVec F S64x500x151 .f32) (main_arg3 : FVec F S64x500x151 .f32) (main_arg4 : FVec F S64x500x4 .f32) (main_arg5 : FVec F S64x500x4 .f32) (main_arg6 : FVec F S64x500x4 .f32) (main_arg7 : FVec F S64x2 .f32) : IVec S_ 1 :=
  let main_v0 : FVec F S64x500x4 .f32 := Host.absf main_arg0
  let main_cst : FVec F S_ .f32 := constant S_ .f32 0x7F800000#32
  let main_v1 : FVec F S64x500x4 .f32 := broadcastInDim S64x500x4 ![] bcast_S_S64x500x4 main_cst
  let main_v2 : IVec S64x500x4 1 := cmpf .olt main_v0 main_v1
  let main_c : IVec S_ 1 := constantI S_ 1 1#1
  let main_v3 : IVec S_ 1 := (fun x v => Host.reduce IntOp.andi x v reducesTo_S64x500x4_S_d0_1_2 h_S_) main_v2 main_c
  let main_v4 : FVec F S64x500x151 .f32 := Host.absf main_arg1
  let main_cst_0 : FVec F S_ .f32 := constant S_ .f32 0x7F800000#32
  let main_v5 : FVec F S64x500x151 .f32 := broadcastInDim S64x500x151 ![] bcast_S_S64x500x151 main_cst_0
  let main_v6 : IVec S64x500x151 1 := cmpf .olt main_v4 main_v5
  let main_c_1 : IVec S_ 1 := constantI S_ 1 1#1
  let main_v7 : IVec S_ 1 := (fun x v => Host.reduce IntOp.andi x v reducesTo_S64x500x151_S_d0_1_2 h_S_) main_v6 main_c_1
  let main_v8 : IVec S_ 1 := andi main_v3 main_v7
  let main_v9 : FVec F S64x500x151 .f32 := Host.absf main_arg2
  let main_cst_2 : FVec F S_ .f32 := constant S_ .f32 0x7F800000#32
  let main_v10 : FVec F S64x500x151 .f32 := broadcastInDim S64x500x151 ![] bcast_S_S64x500x151 main_cst_2
  let main_v11 : IVec S64x500x151 1 := cmpf .olt main_v9 main_v10
  let main_c_3 : IVec S_ 1 := constantI S_ 1 1#1
  let main_v12 : IVec S_ 1 := (fun x v => Host.reduce IntOp.andi x v reducesTo_S64x500x151_S_d0_1_2 h_S_) main_v11 main_c_3
  let main_v13 : IVec S_ 1 := andi main_v8 main_v12
  let main_v14 : FVec F S64x500x151 .f32 := Host.absf main_arg3
  let main_cst_4 : FVec F S_ .f32 := constant S_ .f32 0x7F800000#32
  let main_v15 : FVec F S64x500x151 .f32 := broadcastInDim S64x500x151 ![] bcast_S_S64x500x151 main_cst_4
  let main_v16 : IVec S64x500x151 1 := cmpf .olt main_v14 main_v15
  fn_part1 (F := F) main_arg4 main_arg5 main_arg6 main_arg7 main_v13 main_v16
-- ==== Kernel.lean ====
abbrev S64x500x4 : Shape := ⟨3, ![64, 500, 4]⟩
abbrev S64x500x151 : Shape := ⟨3, ![64, 500, 151]⟩
abbrev S64x2 : Shape := ⟨2, ![64, 2]⟩
abbrev S64x1 : Shape := ⟨2, ![64, 1]⟩
abbrev S64 : Shape := ⟨1, ![64]⟩
abbrev S64x4 : Shape := ⟨2, ![64, 4]⟩
abbrev S64x1x4 : Shape := ⟨3, ![64, 1, 4]⟩
abbrev S64x500x500 : Shape := ⟨3, ![64, 500, 500]⟩
abbrev S1x500x4 : Shape := ⟨3, ![1, 500, 4]⟩
abbrev S1x500x151 : Shape := ⟨3, ![1, 500, 151]⟩
abbrev S1x1x4 : Shape := ⟨3, ![1, 1, 4]⟩
abbrev S1x500x500 : Shape := ⟨3, ![1, 500, 500]⟩
abbrev S500x500 : Shape := ⟨2, ![500, 500]⟩
abbrev S500x4 : Shape := ⟨2, ![500, 4]⟩
abbrev S500x151 : Shape := ⟨2, ![500, 151]⟩
abbrev S4 : Shape := ⟨1, ![4]⟩
abbrev S1 : Shape := ⟨1, ![1]⟩
abbrev S500x1 : Shape := ⟨2, ![500, 1]⟩
abbrev S500 : Shape := ⟨1, ![500]⟩
abbrev S500x150 : Shape := ⟨2, ![500, 150]⟩
abbrev S150x500 : Shape := ⟨2, ![150, 500]⟩
abbrev S1x500 : Shape := ⟨2, ![1, 500]⟩
abbrev S1x64x4 : Shape := ⟨3, ![1, 64, 4]⟩
abbrev S64x500 : Shape := ⟨2, ![64, 500]⟩
abbrev S1x64x500 : Shape := ⟨3, ![1, 64, 500]⟩
abbrev S1x52x4 : Shape := ⟨3, ![1, 52, 4]⟩
abbrev S52x4 : Shape := ⟨2, ![52, 4]⟩
abbrev S52x500 : Shape := ⟨2, ![52, 500]⟩
abbrev S52x1 : Shape := ⟨2, ![52, 1]⟩
abbrev S52 : Shape := ⟨1, ![52]⟩
abbrev S1x52x500 : Shape := ⟨3, ![1, 52, 500]⟩

abbrev nBuf : Space → Nat
  | .hbm => 20
  | .vmem => 22
  | .smem => 0
  | _ => 0

abbrev bufTy : (tb : Table) → Fin (tcTables nBuf tb) → BufTy
  | .hbm, ⟨0, _⟩ => ⟨S64x500x4, .f32⟩
  | .hbm, ⟨1, _⟩ => ⟨S64x500x151, .f32⟩
  | .hbm, ⟨2, _⟩ => ⟨S64x500x151, .f32⟩
  | .hbm, ⟨3, _⟩ => ⟨S64x500x151, .f32⟩
  | .hbm, ⟨4, _⟩ => ⟨S64x500x4, .f32⟩
  | .hbm, ⟨5, _⟩ => ⟨S64x500x4, .f32⟩
  | .hbm, ⟨6, _⟩ => ⟨S64x500x4, .f32⟩
  | .hbm, ⟨7, _⟩ => ⟨S64x2, .f32⟩
  | .hbm, ⟨8, _⟩ => ⟨S64x1, .f32⟩
  | .hbm, ⟨9, _⟩ => ⟨S64, .f32⟩
  | .hbm, ⟨10, _⟩ => ⟨S64x1, .f32⟩
  | .hbm, ⟨11, _⟩ => ⟨S64, .f32⟩
  | .hbm, ⟨12, _⟩ => ⟨S64x1, .f32⟩
  | .hbm, ⟨13, _⟩ => ⟨S64x1, .f32⟩
  | .hbm, ⟨14, _⟩ => ⟨S64x1, .f32⟩
  | .hbm, ⟨15, _⟩ => ⟨S64x1, .f32⟩
  | .hbm, ⟨16, _⟩ => ⟨S64x4, .f32⟩
  | .hbm, ⟨17, _⟩ => ⟨S64x1x4, .f32⟩
  | .hbm, ⟨18, _⟩ => ⟨S64x500x500, .f32⟩
  | .hbm, ⟨19, _⟩ => ⟨S64x500x500, .f32⟩
  | .local _ .vmem, ⟨0, _⟩ => ⟨S1x500x4, .f32⟩
  | .local _ .vmem, ⟨1, _⟩ => ⟨S1x500x4, .f32⟩
  | .local _ .vmem, ⟨2, _⟩ => ⟨S1x500x151, .f32⟩
  | .local _ .vmem, ⟨3, _⟩ => ⟨S1x500x151, .f32⟩
  | .local _ .vmem, ⟨4, _⟩ => ⟨S1x500x151, .f32⟩
  | .local _ .vmem, ⟨5, _⟩ => ⟨S1x500x151, .f32⟩
  | .local _ .vmem, ⟨6, _⟩ => ⟨S1x500x151, .f32⟩
  | .local _ .vmem, ⟨7, _⟩ => ⟨S1x500x151, .f32⟩
  | .local _ .vmem, ⟨8, _⟩ => ⟨S1x500x4, .f32⟩
  | .local _ .vmem, ⟨9, _⟩ => ⟨S1x500x4, .f32⟩
  | .local _ .vmem, ⟨10, _⟩ => ⟨S1x500x4, .f32⟩
  | .local _ .vmem, ⟨11, _⟩ => ⟨S1x500x4, .f32⟩
  | .local _ .vmem, ⟨12, _⟩ => ⟨S1x500x4, .f32⟩
  | .local _ .vmem, ⟨13, _⟩ => ⟨S1x500x4, .f32⟩
  | .local _ .vmem, ⟨14, _⟩ => ⟨S1x1x4, .f32⟩
  | .local _ .vmem, ⟨15, _⟩ => ⟨S1x1x4, .f32⟩
  | .local _ .vmem, ⟨16, _⟩ => ⟨S1x500x500, .f32⟩
  | .local _ .vmem, ⟨17, _⟩ => ⟨S1x500x500, .f32⟩
  | .local _ .vmem, ⟨18, _⟩ => ⟨S1x500x500, .f32⟩
  | .local _ .vmem, ⟨19, _⟩ => ⟨S1x500x500, .f32⟩
  | .local _ .vmem, ⟨20, _⟩ => ⟨S500x500, .f32⟩
  | .local _ .vmem, ⟨21, _⟩ => ⟨S500x500, .f32⟩
  | _, _ => ⟨S64x500x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c7_i32 : BitVec 32 := 7#32
  let v133 : BitVec 32 := Scalar.addi c0_i32 c7_i32
  let c1_i32 : BitVec 32 := 1#32
  ⟨c0_i32, v133, c1_i32⟩
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32 : BitVec 32 := 64#32
  let v407 : BitVec 32 := Scalar.muli arg13 c64_i32
  v407
def k0_off1 (k0_t1 : Fin k0_t1_loop.trips) : Fin 3 → Nat :=
  let c0_85 : Index := 0#32
  let c0_i32 : BitVec 32 := 0#32
  let c1_i32 : BitVec 32 := 1#32
  let arg13 : BitVec 32 := Scf.iv c0_i32 c1_i32 k0_t1
  let c64_i32 : BitVec 32 := 64#32
  let v407 : BitVec 32 := Scalar.muli arg13 c64_i32
  let v408 : BitVec 32 := v407
  let v409 : Index := Scalar.indexCast v408
  let c0_86 : Index := 0#32
  ![0, v409.toNat, 0]
def k0_off2 (k0_t1 : Fin k0_t1_loop.trips) : Fin 2 → Nat :=
  let c0_i32 : BitVec 32 := 0#32
  let c1_i32 : BitVec 32 := 1#32
  let arg13 : BitVec 32 := Scf.iv c0_i32 c1_i32 k0_t1
  let c64_i32 : BitVec 32 := 64#32
  let v407 : BitVec 32 := Scalar.muli arg13 c64_i32
  let v408 : BitVec 32 := v407
  let v418 : Index := Scalar.indexCast v408
  let c0_91 : Index := 0#32
  ![v418.toNat, 0]
def k0_off3 (k0_t1 : Fin k0_t1_loop.trips) : Fin 3 → Nat :=
  let c0_115 : Index := 0#32
  let c0_i32 : BitVec 32 := 0#32
  let c1_i32 : BitVec 32 := 1#32
  let arg13 : BitVec 32 := Scf.iv c0_i32 c1_i32 k0_t1
  let c64_i32 : BitVec 32 := 64#32
  let v407 : BitVec 32 := Scalar.muli arg13 c64_i32
  let v408 : BitVec 32 := v407
  let v681 : Index := Scalar.indexCast v408
  let c0_116 : Index := 0#32
  ![0, v681.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x500x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x500x151 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x500x151 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x500x151 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x500x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x500x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x500x4 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x4 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x500x500 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x500x500 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S64x2_S64x1_0_0 : S64x2.Slices ![0, 0] S64x1
  shapeCasts_S64x1_S64 : S64x1.ShapeCasts S64
  slices_S64x2_S64x1_0_1 : S64x2.Slices ![0, 1] S64x1
  bcast_S64_S64x1_0 : S64.BroadcastsInDim S64x1 (![0] : Fin 1 → Fin S64x1.rank)
  concatenates_S64x1_S64x1_S64x1_S64x1_S64x4_d1 : Shape.Concatenates [S64x1, S64x1, S64x1, S64x1] S64x4 1
  shapeCasts_S64x4_S64x1x4 : S64x4.ShapeCasts S64x1x4
  inb_S1x500x4_S1x500x4_0_0_0 : ∀ a, (![0, 0, 0] : Fin 3 → Nat) a + S1x500x4.size a ≤ S1x500x4.size a
  h_S1x500x4 : 0 < S1x500x4.numel
  shapeCasts_S1x500x4_S500x4 : S1x500x4.ShapeCasts S500x4
  inb_S1x500x151_S1x500x151_0_0_0 : ∀ a, (![0, 0, 0] : Fin 3 → Nat) a + S1x500x151.size a ≤ S1x500x151.size a
  h_S1x500x151 : 0 < S1x500x151.numel
  shapeCasts_S1x500x151_S500x151 : S1x500x151.ShapeCasts S500x151
  inb_S1x1x4_S1x1x4_0_0_0 : ∀ a, (![0, 0, 0] : Fin 3 → Nat) a + S1x1x4.size a ≤ S1x1x4.size a
  h_S1x1x4 : 0 < S1x1x4.numel
  shapeCasts_S1x1x4_S4 : S1x1x4.ShapeCasts S4
  slices_S4_o0_S1 : S4.Slices ![0] S1
  inpos_S1_p0 : ∀ a, (![0] : Fin 1 → Nat) a < S1.size a
  slices_S4_o1_S1 : S4.Slices ![1] S1
  slices_S500x4_o0_0_S500x1 : S500x4.Slices ![0, 0] S500x1
  shapeCasts_S500x1_S500 : S500x1.ShapeCasts S500
  slices_S500x4_o0_1_S500x1 : S500x4.Slices ![0, 1] S500x1
  slices_S500x4_o0_2_S500x1 : S500x4.Slices ![0, 2] S500x1
  slices_S500x4_o0_3_S500x1 : S500x4.Slices ![0, 3] S500x1
  reduces_S500x151_S500 : S500x151.Reduces [1] S500
  shapeCasts_S500_S500x1 : S500.ShapeCasts S500x1
  broadcasts_S500x1_S500x151 : S500x1.Broadcasts S500x151
  slices_S500x151_o0_0_S500x150 : S500x151.Slices ![0, 0] S500x150
  reduces_S500x150_S500 : S500x150.Reduces [1] S500
  bitsLt_bf16_f32 : FTy.bits .bf16 < FTy.bits .f32
  transposes_S500x150_p1_0_S150x500 : S500x150.Transposes [1, 0] S150x500
  transposes_S500x1_p1_0_S1x500 : S500x1.Transposes [1, 0] S1x500
  broadcasts_S500x1_S500x500 : S500x1.Broadcasts S500x500
  broadcasts_S1x500_S500x500 : S1x500.Broadcasts S500x500
  inb_S500x500_S500x500_0_0 : ∀ a, (![0, 0] : Fin 2 → Nat) a + S500x500.size a ≤ S500x500.size a
  h_S500x500 : 0 < S500x500.numel
  shapeCasts_S500x500_S500x500 : S500x500.ShapeCasts S500x500
  h_S1x64x4 : 0 < S1x64x4.numel
  shapeCasts_S1x64x4_S64x4 : S1x64x4.ShapeCasts S64x4
  h_S64x500 : 0 < S64x500.numel
  slices_S64x4_o0_0_S64x1 : S64x4.Slices ![0, 0] S64x1
  slices_S64x4_o0_1_S64x1 : S64x4.Slices ![0, 1] S64x1
  slices_S64x4_o0_2_S64x1 : S64x4.Slices ![0, 2] S64x1
  slices_S64x4_o0_3_S64x1 : S64x4.Slices ![0, 3] S64x1
  shapeCasts_S64_S64x1 : S64.ShapeCasts S64x1
  shapeCasts_S500_S1x500 : S500.ShapeCasts S1x500
  broadcasts_S64x1_S64x500 : S64x1.Broadcasts S64x500
  broadcasts_S1x500_S64x500 : S1x500.Broadcasts S64x500
  h_S1x64x500 : 0 < S1x64x500.numel
  shapeCasts_S1x64x500_S64x500 : S1x64x500.ShapeCasts S64x500
  shapeCasts_S64x500_S1x64x500 : S64x500.ShapeCasts S1x64x500
  inb_S1x500x4_S1x52x4_0_448_0 : ∀ a, (![0, 448, 0] : Fin 3 → Nat) a + S1x52x4.size a ≤ S1x500x4.size a
  h_S1x52x4 : 0 < S1x52x4.numel
  shapeCasts_S1x52x4_S52x4 : S1x52x4.ShapeCasts S52x4
  inb_S500x500_S52x500_448_0 : ∀ a, (![448, 0] : Fin 2 → Nat) a + S52x500.size a ≤ S500x500.size a
  h_S52x500 : 0 < S52x500.numel
  slices_S52x4_o0_0_S52x1 : S52x4.Slices ![0, 0] S52x1
  shapeCasts_S52x1_S52 : S52x1.ShapeCasts S52
  slices_S52x4_o0_1_S52x1 : S52x4.Slices ![0, 1] S52x1
  slices_S52x4_o0_2_S52x1 : S52x4.Slices ![0, 2] S52x1
  slices_S52x4_o0_3_S52x1 : S52x4.Slices ![0, 3] S52x1
  shapeCasts_S52_S52x1 : S52.ShapeCasts S52x1
  broadcasts_S52x1_S52x500 : S52x1.Broadcasts S52x500
  broadcasts_S1x500_S52x500 : S1x500.Broadcasts S52x500
  inb_S1x500x500_S1x52x500_0_448_0 : ∀ a, (![0, 448, 0] : Fin 3 → Nat) a + S1x52x500.size a ≤ S1x500x500.size a
  h_S1x52x500 : 0 < S1x52x500.numel
  shapeCasts_S1x52x500_S52x500 : S1x52x500.ShapeCasts S52x500
  shapeCasts_S52x500_S1x52x500 : S52x500.ShapeCasts S1x52x500
  dot_S500x150_S150x500_S500x500_1_0_0_1_n_n_wf : DotDims.WF S500x150 S150x500 S500x500 [1] [0] [0] [1] [] []
  hrank0 : 0 < grid0.rank
  k0_t1_ok : k0_t1_loop.OK
  k0_mult1_dvd : ∀ k0_t1 : Fin k0_t1_loop.trips, 64 ∣ (k0_mult1 k0_t1).toNat
  k0_off1_inb : ∀ k0_t1 : Fin k0_t1_loop.trips, ∀ a, (k0_off1 k0_t1) a + S1x64x4.size a ≤ S1x500x4.size a
  k0_off2_inb : ∀ k0_t1 : Fin k0_t1_loop.trips, ∀ a, (k0_off2 k0_t1) a + S64x500.size a ≤ S500x500.size a
  k0_off3_inb : ∀ k0_t1 : Fin k0_t1_loop.trips, ∀ a, (k0_off3 k0_t1) a + S1x64x500.size a ≤ S1x500x500.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x500x4.size a ≤ S64x500x4.size a
  hwx0_0 : ∀ i : grid0.Coords, EltTy.bits .f32 = 32 ∨ (Rect.block (s := S64x500x4) S1x500x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x500x151.size a ≤ S64x500x151.size a
  hwx0_1 : ∀ i : grid0.Coords, EltTy.bits .f32 = 32 ∨ (Rect.block (s := S64x500x151) S1x500x151.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x500x151.size a ≤ S64x500x151.size a
  hwx0_2 : ∀ i : grid0.Coords, EltTy.bits .f32 = 32 ∨ (Rect.block (s := S64x500x151) S1x500x151.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x500x151.size a ≤ S64x500x151.size a
  hwx0_3 : ∀ i : grid0.Coords, EltTy.bits .f32 = 32 ∨ (Rect.block (s := S64x500x151) S1x500x151.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x500x4.size a ≤ S64x500x4.size a
  hwx0_4 : ∀ i : grid0.Coords, EltTy.bits .f32 = 32 ∨ (Rect.block (s := S64x500x4) S1x500x4.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x500x4.size a ≤ S64x500x4.size a
  hwx0_5 : ∀ i : grid0.Coords, EltTy.bits .f32 = 32 ∨ (Rect.block (s := S64x500x4) S1x500x4.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x500x4.size a ≤ S64x500x4.size a
  hwx0_6 : ∀ i : grid0.Coords, EltTy.bits .f32 = 32 ∨ (Rect.block (s := S64x500x4) S1x500x4.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x4.size a ≤ S64x1x4.size a
  hwx0_7 : ∀ i : grid0.Coords, EltTy.bits .f32 = 32 ∨ (Rect.block (s := S64x1x4) S1x1x4.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x500x500.size a ≤ S64x500x500.size a
  hwx0_8 : ∀ i : grid0.Coords, EltTy.bits .f32 = 32 ∨ (Rect.block (s := S64x500x500) S1x500x500.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x500x500.size a ≤ S64x500x500.size a
  hwx0_9 : ∀ i : grid0.Coords, EltTy.bits .f32 = 32 ∨ (Rect.block (s := S64x500x500) S1x500x500.size (cc0_transform_9 i) (hinb0_9 i)).WholeWords (EltTy.packing .f32)

variable [Facts₀]

def dot_S500x150_S150x500_S500x500_1_0_0_1_n_n : DotDims S500x150 S150x500 S500x500 where
  lhsContracting := [1]
  rhsContracting := [0]
  lhsNonContracting := [0]
  rhsNonContracting := [1]
  lhsBatch := []
  rhsBatch := []
  wf := dot_S500x150_S150x500_S500x500_1_0_0_1_n_n_wf

abbrev win0_0 : Pipeline.Window sig grid0 :=
  Pipeline.Window.ofSpec (Memref.whole main_arg0) S1x500x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x500x151.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x500x151.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x500x151.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x500x4.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x500x4.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x500x4.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v9) S1x1x4.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v10_0) S1x500x500.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v10_1) S1x500x500.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S64x500x4 : Shape := ⟨3, ![64, 500, 4]⟩
abbrev S64x500x151 : Shape := ⟨3, ![64, 500, 151]⟩
abbrev S64x2 : Shape := ⟨2, ![64, 2]⟩
abbrev S64x1 : Shape := ⟨2, ![64, 1]⟩
abbrev S64 : Shape := ⟨1, ![64]⟩
abbrev S64x4 : Shape := ⟨2, ![64, 4]⟩
abbrev S64x500x1 : Shape := ⟨3, ![64, 500, 1]⟩
abbrev S64x500 : Shape := ⟨2, ![64, 500]⟩
abbrev S_ : Shape := ⟨0, ![]⟩
abbrev S64x1x4 : Shape := ⟨3, ![64, 1, 4]⟩
abbrev S64x500x2 : Shape := ⟨3, ![64, 500, 2]⟩
abbrev S64x500x150 : Shape := ⟨3, ![64, 500, 150]⟩
abbrev S64x1x500 : Shape := ⟨3, ![64, 1, 500]⟩
abbrev S64x500x500 : Shape := ⟨3, ![64, 500, 500]⟩
abbrev S64x500x1x2 : Shape := ⟨4, ![64, 500, 1, 2]⟩
abbrev S64x1x500x2 : Shape := ⟨4, ![64, 1, 500, 2]⟩
abbrev S64x500x500x2 : Shape := ⟨4, ![64, 500, 500, 2]⟩
abbrev S64x500x500x1 : Shape := ⟨4, ![64, 500, 500, 1]⟩
abbrev S64x150x500 : Shape := ⟨3, ![64, 150, 500]⟩

abbrev nBuf : Space → Nat
  | .hbm => 476
  | .vmem => 0
  | .smem => 0
  | _ => 0

abbrev hbmTy0_0 (i : Nat) : BufTy := match i % 128 with
  | 0 => ⟨S64x500x4, .f32⟩
  | 1 => ⟨S64x500x151, .f32⟩
  | 2 => ⟨S64x500x151, .f32⟩
  | 3 => ⟨S64x500x151, .f32⟩
  | 4 => ⟨S64x500x4, .f32⟩
  | 5 => ⟨S64x500x4, .f32⟩
  | 6 => ⟨S64x500x4, .f32⟩
  | 7 => ⟨S64x2, .f32⟩
  | 8 => ⟨S64x1, .f32⟩
  | 9 => ⟨S64, .f32⟩
  | 10 => ⟨S64x1, .f32⟩
  | 11 => ⟨S64, .f32⟩
  | 12 => ⟨S64x1, .f32⟩
  | 13 => ⟨S64x1, .f32⟩
  | 14 => ⟨S64x1, .f32⟩
  | 15 => ⟨S64x1, .f32⟩
  | 16 => ⟨S64x4, .f32⟩
  | 17 => ⟨S64x500x1, .f32⟩
  | 18 => ⟨S64x500, .f32⟩
  | 19 => ⟨S64x500x1, .f32⟩
  | 20 => ⟨S64x500, .f32⟩
  | 21 => ⟨S64x500x1, .f32⟩
  | 22 => ⟨S64x500, .f32⟩
  | 23 => ⟨S64x500x1, .f32⟩
  | 24 => ⟨S64x500, .f32⟩
  | 25 => ⟨S_, .f32⟩
  | 26 => ⟨S64x500, .f32⟩
  | 27 => ⟨S64x500, .f32⟩
  | 28 => ⟨S64x500, .f32⟩
  | 29 => ⟨S_, .f32⟩
  | 30 => ⟨S64x500, .f32⟩
  | 31 => ⟨S64x500, .f32⟩
  | 32 => ⟨S64x500, .f32⟩
  | 33 => ⟨S_, .f32⟩
  | 34 => ⟨S64x500, .f32⟩
  | 35 => ⟨S64x500, .f32⟩
  | 36 => ⟨S64x500, .f32⟩
  | 37 => ⟨S_, .f32⟩
  | 38 => ⟨S64x500, .f32⟩
  | 39 => ⟨S64x500, .f32⟩
  | 40 => ⟨S64x500, .f32⟩
  | 41 => ⟨S64x500x1, .f32⟩
  | 42 => ⟨S64x500x1, .f32⟩
  | 43 => ⟨S64x500x1, .f32⟩
  | 44 => ⟨S64x500x1, .f32⟩
  | 45 => ⟨S64x500x4, .f32⟩
  | 46 => ⟨S64x1x4, .f32⟩
  | 47 => ⟨S64x500x4, .f32⟩
  | 48 => ⟨S64x500x4, .f32⟩
  | 49 => ⟨S64x500x1, .f32⟩
  | 50 => ⟨S64x500, .f32⟩
  | 51 => ⟨S64x500x1, .f32⟩
  | 52 => ⟨S64x500, .f32⟩
  | 53 => ⟨S64x500x1, .f32⟩
  | 54 => ⟨S64x500, .f32⟩
  | 55 => ⟨S64x500x1, .f32⟩
  | 56 => ⟨S64x500, .f32⟩
  | 57 => ⟨S64x500, .f32⟩
  | 58 => ⟨S_, .f32⟩
  | 59 => ⟨S64x500, .f32⟩
  | 60 => ⟨S64x500, .f32⟩
  | 61 => ⟨S64x500, .f32⟩
  | 62 => ⟨S_, .f32⟩
  | 63 => ⟨S64x500, .f32⟩
  | 64 => ⟨S64x500, .f32⟩
  | 65 => ⟨S64x500, .f32⟩
  | 66 => ⟨S64x500, .f32⟩
  | 67 => ⟨S64x500x1, .f32⟩
  | 68 => ⟨S64x500x1, .f32⟩
  | 69 => ⟨S64x500x1, .f32⟩
  | 70 => ⟨S64x500x1, .f32⟩
  | 71 => ⟨S64x500x4, .f32⟩
  | 72 => ⟨S64x500x2, .f32⟩
  | 73 => ⟨S64x500x2, .f32⟩
  | 74 => ⟨S_, .f32⟩
  | 75 => ⟨S64x500, .f32⟩
  | 76 => ⟨S_, .f32⟩
  | 77 => ⟨S64x500, .f32⟩
  | 78 => ⟨S64x500, .f32⟩
  | 79 => ⟨S64x500x1, .f32⟩
  | 80 => ⟨S64x500x151, .f32⟩
  | 81 => ⟨S64x500x151, .f32⟩
  | 82 => ⟨S64x500x151, .f32⟩
  | 83 => ⟨S_, .f32⟩
  | 84 => ⟨S64x500, .f32⟩
  | 85 => ⟨S64x500x1, .f32⟩
  | 86 => ⟨S64x500x151, .f32⟩
  | 87 => ⟨S64x500x151, .f32⟩
  | 88 => ⟨S64x500x150, .f32⟩
  | 89 => ⟨S_, .f32⟩
  | 90 => ⟨S64x500, .f32⟩
  | 91 => ⟨S_, .f32⟩
  | 92 => ⟨S64x500, .f32⟩
  | 93 => ⟨S64x500, .f32⟩
  | 94 => ⟨S64x500x1, .f32⟩
  | 95 => ⟨S64x500x151, .f32⟩
  | 96 => ⟨S64x500x151, .f32⟩
  | 97 => ⟨S64x500x151, .f32⟩
  | 98 => ⟨S_, .f32⟩
  | 99 => ⟨S64x500, .f32⟩
  | 100 => ⟨S64x500x1, .f32⟩
  | 101 => ⟨S64x500x151, .f32⟩
  | 102 => ⟨S64x500x151, .f32⟩
  | 103 => ⟨S64x500x150, .f32⟩
  | 104 => ⟨S_, .f32⟩
  | 105 => ⟨S64x500, .f32⟩
  | 106 => ⟨S_, .f32⟩
  | 107 => ⟨S64x500, .f32⟩
  | 108 => ⟨S64x500, .f32⟩
  | 109 => ⟨S64x500x1, .f32⟩
  | 110 => ⟨S64x500x151, .f32⟩
  | 111 => ⟨S64x500x151, .f32⟩
  | 112 => ⟨S64x500x151, .f32⟩
  | 113 => ⟨S_, .f32⟩
  | 114 => ⟨S64x500, .f32⟩
  | 115 => ⟨S64x500x1, .f32⟩
  | 116 => ⟨S64x500x151, .f32⟩
  | 117 => ⟨S64x500x151, .f32⟩
  | 118 => ⟨S64x500x150, .f32⟩
  | 119 => ⟨S_, .f32⟩
  | 120 => ⟨S64x500, .f32⟩
  | 121 => ⟨S64x500x1, .f32⟩
  | 122 => ⟨S64x500, .f32⟩
  | 123 => ⟨S64x500x1, .f32⟩
  | 124 => ⟨S64x500, .f32⟩
  | 125 => ⟨S64x500x1, .f32⟩
  | 126 => ⟨S64x500, .f32⟩
  | 127 => ⟨S64x500x1, .f32⟩
  | _ => ⟨S64x500x4, .f32⟩

abbrev hbmTy0_1 (i : Nat) : BufTy := match i % 128 with
  | 0 => ⟨S64x500, .f32⟩
  | 1 => ⟨S_, .f32⟩
  | 2 => ⟨S64x500, .f32⟩
  | 3 => ⟨S64x500, .f32⟩
  | 4 => ⟨S64x500, .f32⟩
  | 5 => ⟨S_, .f32⟩
  | 6 => ⟨S64x500, .f32⟩
  | 7 => ⟨S64x500, .f32⟩
  | 8 => ⟨S64x500, .f32⟩
  | 9 => ⟨S_, .f32⟩
  | 10 => ⟨S64x500, .f32⟩
  | 11 => ⟨S64x500, .f32⟩
  | 12 => ⟨S64x500, .f32⟩
  | 13 => ⟨S_, .f32⟩
  | 14 => ⟨S64x500, .f32⟩
  | 15 => ⟨S64x500, .f32⟩
  | 16 => ⟨S64x500, .f32⟩
  | 17 => ⟨S64x500x1, .f32⟩
  | 18 => ⟨S64x500x1, .f32⟩
  | 19 => ⟨S64x500x1, .f32⟩
  | 20 => ⟨S64x500x1, .f32⟩
  | 21 => ⟨S64x500x4, .f32⟩
  | 22 => ⟨S64x1x4, .f32⟩
  | 23 => ⟨S64x500x4, .f32⟩
  | 24 => ⟨S64x500x4, .f32⟩
  | 25 => ⟨S64x500x1, .f32⟩
  | 26 => ⟨S64x500, .f32⟩
  | 27 => ⟨S64x500x1, .f32⟩
  | 28 => ⟨S64x500, .f32⟩
  | 29 => ⟨S64x500x1, .f32⟩
  | 30 => ⟨S64x500, .f32⟩
  | 31 => ⟨S64x500x1, .f32⟩
  | 32 => ⟨S64x500, .f32⟩
  | 33 => ⟨S_, .f32⟩
  | 34 => ⟨S64x500, .f32⟩
  | 35 => ⟨S64x500, .f32⟩
  | 36 => ⟨S64x500, .f32⟩
  | 37 => ⟨S_, .f32⟩
  | 38 => ⟨S64x500, .f32⟩
  | 39 => ⟨S64x500, .f32⟩
  | 40 => ⟨S64x500, .f32⟩
  | 41 => ⟨S_, .f32⟩
  | 42 => ⟨S64x500, .f32⟩
  | 43 => ⟨S64x500, .f32⟩
  | 44 => ⟨S64x500, .f32⟩
  | 45 => ⟨S_, .f32⟩
  | 46 => ⟨S64x500, .f32⟩
  | 47 => ⟨S64x500, .f32⟩
  | 48 => ⟨S64x500, .f32⟩
  | 49 => ⟨S64x500x1, .f32⟩
  | 50 => ⟨S64x500x1, .f32⟩
  | 51 => ⟨S64x500x1, .f32⟩
  | 52 => ⟨S64x500x1, .f32⟩
  | 53 => ⟨S64x500x4, .f32⟩
  | 54 => ⟨S64x1x4, .f32⟩
  | 55 => ⟨S64x500x4, .f32⟩
  | 56 => ⟨S64x500x4, .f32⟩
  | 57 => ⟨S64x1x4, .f32⟩
  | 58 => ⟨S64x500x4, .f32⟩
  | 59 => ⟨S64x500x4, .f32⟩
  | 60 => ⟨S64x500x1, .f32⟩
  | 61 => ⟨S64x500, .f32⟩
  | 62 => ⟨S64x500x1, .f32⟩
  | 63 => ⟨S64x500x1, .f32⟩
  | 64 => ⟨S64x500, .f32⟩
  | 65 => ⟨S64x1x500, .f32⟩
  | 66 => ⟨S64x500x500, .f32⟩
  | 67 => ⟨S64x500x500, .f32⟩
  | 68 => ⟨S64x500x500, .f32⟩
  | 69 => ⟨S64x500x500, .f32⟩
  | 70 => ⟨S64x500x1, .f32⟩
  | 71 => ⟨S64x500, .f32⟩
  | 72 => ⟨S64x500x1, .f32⟩
  | 73 => ⟨S64x500x1, .f32⟩
  | 74 => ⟨S64x500, .f32⟩
  | 75 => ⟨S64x1x500, .f32⟩
  | 76 => ⟨S64x500x500, .f32⟩
  | 77 => ⟨S64x500x500, .f32⟩
  | 78 => ⟨S64x500x500, .f32⟩
  | 79 => ⟨S64x500x500, .f32⟩
  | 80 => ⟨S64x500x500, .f32⟩
  | 81 => ⟨S64x500x1, .f32⟩
  | 82 => ⟨S64x500, .f32⟩
  | 83 => ⟨S64x500x1, .f32⟩
  | 84 => ⟨S64x500x1, .f32⟩
  | 85 => ⟨S64x500, .f32⟩
  | 86 => ⟨S64x1x500, .f32⟩
  | 87 => ⟨S64x500x500, .f32⟩
  | 88 => ⟨S64x500x500, .f32⟩
  | 89 => ⟨S64x500x500, .f32⟩
  | 90 => ⟨S64x500x500, .f32⟩
  | 91 => ⟨S64x500x1, .f32⟩
  | 92 => ⟨S64x500, .f32⟩
  | 93 => ⟨S64x500x1, .f32⟩
  | 94 => ⟨S64x500x1, .f32⟩
  | 95 => ⟨S64x500, .f32⟩
  | 96 => ⟨S64x1x500, .f32⟩
  | 97 => ⟨S64x500x500, .f32⟩
  | 98 => ⟨S64x500x500, .f32⟩
  | 99 => ⟨S64x500x500, .f32⟩
  | 100 => ⟨S64x500x500, .f32⟩
  | 101 => ⟨S64x500x500, .f32⟩
  | 102 => ⟨S_, .f32⟩
  | 103 => ⟨S64x500x500, .f32⟩
  | 104 => ⟨S64x500x500, .f32⟩
  | 105 => ⟨S_, .f32⟩
  | 106 => ⟨S64x500x500, .f32⟩
  | 107 => ⟨S64x500x500, .f32⟩
  | 108 => ⟨S_, .f32⟩
  | 109 => ⟨S64x500x500, .f32⟩
  | 110 => ⟨S64x500x500, .f32⟩
  | 111 => ⟨S_, .f32⟩
  | 112 => ⟨S64x500x500, .f32⟩
  | 113 => ⟨S64x500x500, .f32⟩
  | 114 => ⟨S64x1x500, .f32⟩
  | 115 => ⟨S64x500x500, .f32⟩
  | 116 => ⟨S64x500x500, .f32⟩
  | 117 => ⟨S64x1x500, .f32⟩
  | 118 => ⟨S64x500x500, .f32⟩
  | 119 => ⟨S64x500x500, .f32⟩
  | 120 => ⟨S64x500x1, .f32⟩
  | 121 => ⟨S64x500, .f32⟩
  | 122 => ⟨S64x500x1, .f32⟩
  | 123 => ⟨S64x500, .f32⟩
  | 124 => ⟨S64x500, .f32⟩
  | 125 => ⟨S64x500x1, .f32⟩
  | 126 => ⟨S64x500, .f32⟩
  | 127 => ⟨S64x500x1, .f32⟩
  | _ => ⟨S64x500x4, .f32⟩

abbrev hbmTy0_2 (i : Nat) : BufTy := match i % 128 with
  | 0 => ⟨S64x500, .f32⟩
  | 1 => ⟨S64x500, .f32⟩
  | 2 => ⟨S64x500, .f32⟩
  | 3 => ⟨S64x500x1, .f32⟩
  | 4 => ⟨S64x500, .f32⟩
  | 5 => ⟨S64x500x1, .f32⟩
  | 6 => ⟨S64x500, .f32⟩
  | 7 => ⟨S64x500, .f32⟩
  | 8 => ⟨S64x500x1, .f32⟩
  | 9 => ⟨S64x500, .f32⟩
  | 10 => ⟨S64x500x1, .f32⟩
  | 11 => ⟨S64x500, .f32⟩
  | 12 => ⟨S64x500, .f32⟩
  | 13 => ⟨S64x500, .f32⟩
  | 14 => ⟨S64x500x2, .f32⟩
  | 15 => ⟨S64x500x1x2, .f32⟩
  | 16 => ⟨S64x500x2, .f32⟩
  | 17 => ⟨S64x1x500x2, .f32⟩
  | 18 => ⟨S64x500x500x2, .f32⟩
  | 19 => ⟨S64x500x500x2, .f32⟩
  | 20 => ⟨S64x500x500x2, .f32⟩
  | 21 => ⟨S64x500x2, .f32⟩
  | 22 => ⟨S64x500x1x2, .f32⟩
  | 23 => ⟨S64x500x2, .f32⟩
  | 24 => ⟨S64x1x500x2, .f32⟩
  | 25 => ⟨S64x500x500x2, .f32⟩
  | 26 => ⟨S64x500x500x2, .f32⟩
  | 27 => ⟨S64x500x500x2, .f32⟩
  | 28 => ⟨S64x500x500x2, .f32⟩
  | 29 => ⟨S_, .f32⟩
  | 30 => ⟨S_, .f32⟩
  | 31 => ⟨S64x500x500x2, .f32⟩
  | 32 => ⟨S64x500x500x2, .f32⟩
  | 33 => ⟨S64x500x500x1, .f32⟩
  | 34 => ⟨S64x500x500, .f32⟩
  | 35 => ⟨S64x500x500x1, .f32⟩
  | 36 => ⟨S64x500x500, .f32⟩
  | 37 => ⟨S64x500x500, .f32⟩
  | 38 => ⟨S64x500x1, .f32⟩
  | 39 => ⟨S64x1x500, .f32⟩
  | 40 => ⟨S64x500x500, .f32⟩
  | 41 => ⟨S64x500x500, .f32⟩
  | 42 => ⟨S64x500x500, .f32⟩
  | 43 => ⟨S64x500x500, .f32⟩
  | 44 => ⟨S64x500x500, .f32⟩
  | 45 => ⟨S64x500x2, .f32⟩
  | 46 => ⟨S64x500x1x2, .f32⟩
  | 47 => ⟨S64x500x2, .f32⟩
  | 48 => ⟨S64x1x500x2, .f32⟩
  | 49 => ⟨S64x500x500x2, .f32⟩
  | 50 => ⟨S64x500x500x2, .f32⟩
  | 51 => ⟨S64x500x500x2, .f32⟩
  | 52 => ⟨S64x500x2, .f32⟩
  | 53 => ⟨S64x500x1x2, .f32⟩
  | 54 => ⟨S64x500x2, .f32⟩
  | 55 => ⟨S64x1x500x2, .f32⟩
  | 56 => ⟨S64x500x500x2, .f32⟩
  | 57 => ⟨S64x500x500x2, .f32⟩
  | 58 => ⟨S64x500x500x2, .f32⟩
  | 59 => ⟨S64x500x500x2, .f32⟩
  | 60 => ⟨S_, .f32⟩
  | 61 => ⟨S_, .f32⟩
  | 62 => ⟨S64x500x500x2, .f32⟩
  | 63 => ⟨S64x500x500x2, .f32⟩
  | 64 => ⟨S64x500x500x1, .f32⟩
  | 65 => ⟨S64x500x500, .f32⟩
  | 66 => ⟨S64x500x500x1, .f32⟩
  | 67 => ⟨S64x500x500, .f32⟩
  | 68 => ⟨S64x500x500, .f32⟩
  | 69 => ⟨S64x500x500, .f32⟩
  | 70 => ⟨S64x500x500, .f32⟩
  | 71 => ⟨S64x500x500, .f32⟩
  | 72 => ⟨S_, .f32⟩
  | 73 => ⟨S_, .f32⟩
  | 74 => ⟨S64x500x500, .f32⟩
  | 75 => ⟨S64x500x500, .f32⟩
  | 76 => ⟨S64x500x1, .f32⟩
  | 77 => ⟨S64x500, .f32⟩
  | 78 => ⟨S64x500x1, .f32⟩
  | 79 => ⟨S64x500, .f32⟩
  | 80 => ⟨S64x500, .f32⟩
  | 81 => ⟨S64x500x1, .f32⟩
  | 82 => ⟨S64x500, .f32⟩
  | 83 => ⟨S64x500x1, .f32⟩
  | 84 => ⟨S64x500, .f32⟩
  | 85 => ⟨S64x500, .f32⟩
  | 86 => ⟨S64x500, .f32⟩
  | 87 => ⟨S64x500x1, .f32⟩
  | 88 => ⟨S64x500, .f32⟩
  | 89 => ⟨S64x500x1, .f32⟩
  | 90 => ⟨S64x500, .f32⟩
  | 91 => ⟨S64x500, .f32⟩
  | 92 => ⟨S64x500x1, .f32⟩
  | 93 => ⟨S64x500, .f32⟩
  | 94 => ⟨S64x500x1, .f32⟩
  | 95 => ⟨S64x500, .f32⟩
  | 96 => ⟨S64x500, .f32⟩
  | 97 => ⟨S64x500, .f32⟩
  | 98 => ⟨S64x500x2, .f32⟩
  | 99 => ⟨S64x500x1x2, .f32⟩
  | 100 => ⟨S64x500x2, .f32⟩
  | 101 => ⟨S64x1x500x2, .f32⟩
  | 102 => ⟨S64x500x500x2, .f32⟩
  | 103 => ⟨S64x500x500x2, .f32⟩
  | 104 => ⟨S64x500x500x2, .f32⟩
  | 105 => ⟨S64x500x2, .f32⟩
  | 106 => ⟨S64x500x1x2, .f32⟩
  | 107 => ⟨S64x500x2, .f32⟩
  | 108 => ⟨S64x1x500x2, .f32⟩
  | 109 => ⟨S64x500x500x2, .f32⟩
  | 110 => ⟨S64x500x500x2, .f32⟩
  | 111 => ⟨S64x500x500x2, .f32⟩
  | 112 => ⟨S64x500x500x2, .f32⟩
  | 113 => ⟨S_, .f32⟩
  | 114 => ⟨S_, .f32⟩
  | 115 => ⟨S64x500x500x2, .f32⟩
  | 116 => ⟨S64x500x500x2, .f32⟩
  | 117 => ⟨S64x500x500x1, .f32⟩
  | 118 => ⟨S64x500x500, .f32⟩
  | 119 => ⟨S64x500x500x1, .f32⟩
  | 120 => ⟨S64x500x500, .f32⟩
  | 121 => ⟨S64x500x500, .f32⟩
  | 122 => ⟨S64x500x1, .f32⟩
  | 123 => ⟨S64x1x500, .f32⟩
  | 124 => ⟨S64x500x500, .f32⟩
  | 125 => ⟨S64x500x500, .f32⟩
  | 126 => ⟨S64x500x500, .f32⟩
  | 127 => ⟨S64x500x500, .f32⟩
  | _ => ⟨S64x500x4, .f32⟩

abbrev hbmTy0_3 (i : Nat) : BufTy := match i % 128 with
  | 0 => ⟨S64x500x500, .f32⟩
  | 1 => ⟨S64x500x2, .f32⟩
  | 2 => ⟨S64x500x1x2, .f32⟩
  | 3 => ⟨S64x500x2, .f32⟩
  | 4 => ⟨S64x1x500x2, .f32⟩
  | 5 => ⟨S64x500x500x2, .f32⟩
  | 6 => ⟨S64x500x500x2, .f32⟩
  | 7 => ⟨S64x500x500x2, .f32⟩
  | 8 => ⟨S64x500x2, .f32⟩
  | 9 => ⟨S64x500x1x2, .f32⟩
  | 10 => ⟨S64x500x2, .f32⟩
  | 11 => ⟨S64x1x500x2, .f32⟩
  | 12 => ⟨S64x500x500x2, .f32⟩
  | 13 => ⟨S64x500x500x2, .f32⟩
  | 14 => ⟨S64x500x500x2, .f32⟩
  | 15 => ⟨S64x500x500x2, .f32⟩
  | 16 => ⟨S_, .f32⟩
  | 17 => ⟨S_, .f32⟩
  | 18 => ⟨S64x500x500x2, .f32⟩
  | 19 => ⟨S64x500x500x2, .f32⟩
  | 20 => ⟨S64x500x500x1, .f32⟩
  | 21 => ⟨S64x500x500, .f32⟩
  | 22 => ⟨S64x500x500x1, .f32⟩
  | 23 => ⟨S64x500x500, .f32⟩
  | 24 => ⟨S64x500x500, .f32⟩
  | 25 => ⟨S64x500x500, .f32⟩
  | 26 => ⟨S64x500x500, .f32⟩
  | 27 => ⟨S64x500x500, .f32⟩
  | 28 => ⟨S_, .f32⟩
  | 29 => ⟨S_, .f32⟩
  | 30 => ⟨S64x500x500, .f32⟩
  | 31 => ⟨S64x500x500, .f32⟩
  | 32 => ⟨S64x500x150, .f32⟩
  | 33 => ⟨S_, .f32⟩
  | 34 => ⟨S64x500, .f32⟩
  | 35 => ⟨S64x500x1, .f32⟩
  | 36 => ⟨S64x500x150, .f32⟩
  | 37 => ⟨S_, .f32⟩
  | 38 => ⟨S64x500, .f32⟩
  | 39 => ⟨S64x1x500, .f32⟩
  | 40 => ⟨S64x500x500, .f32⟩
  | 41 => ⟨S64x500x500, .f32⟩
  | 42 => ⟨S64x500x500, .f32⟩
  | 43 => ⟨S64x150x500, .f32⟩
  | 44 => ⟨S64x500x500, .f32⟩
  | 45 => ⟨S_, .f32⟩
  | 46 => ⟨S64x500x500, .f32⟩
  | 47 => ⟨S64x500x500, .f32⟩
  | 48 => ⟨S64x500x500, .f32⟩
  | 49 => ⟨S_, .f32⟩
  | 50 => ⟨S64x500x500, .f32⟩
  | 51 => ⟨S64x500x500, .f32⟩
  | 52 => ⟨S64x500x500, .f32⟩
  | 53 => ⟨S_, .f32⟩
  | 54 => ⟨S64x500x500, .f32⟩
  | 55 => ⟨S64x500x500, .f32⟩
  | 56 => ⟨S_, .f32⟩
  | 57 => ⟨S64x500x500, .f32⟩
  | 58 => ⟨S64x500x500, .f32⟩
  | 59 => ⟨S64x500x150, .f32⟩
  | 60 => ⟨S_, .f32⟩
  | 61 => ⟨S64x500, .f32⟩
  | 62 => ⟨S64x500x1, .f32⟩
  | 63 => ⟨S64x500x150, .f32⟩
  | 64 => ⟨S_, .f32⟩
  | 65 => ⟨S64x500, .f32⟩
  | 66 => ⟨S64x1x500, .f32⟩
  | 67 => ⟨S64x500x500, .f32⟩
  | 68 => ⟨S64x500x500, .f32⟩
  | 69 => ⟨S64x500x500, .f32⟩
  | 70 => ⟨S64x150x500, .f32⟩
  | 71 => ⟨S64x500x500, .f32⟩
  | 72 => ⟨S_, .f32⟩
  | 73 => ⟨S64x500x500, .f32⟩
  | 74 => ⟨S64x500x500, .f32⟩
  | 75 => ⟨S64x500x500, .f32⟩
  | 76 => ⟨S_, .f32⟩
  | 77 => ⟨S64x500x500, .f32⟩
  | 78 => ⟨S64x500x500, .f32⟩
  | 79 => ⟨S64x500x500, .f32⟩
  | 80 => ⟨S_, .f32⟩
  | 81 => ⟨S64x500x500, .f32⟩
  | 82 => ⟨S64x500x500, .f32⟩
  | 83 => ⟨S_, .f32⟩
  | 84 => ⟨S64x500x500, .f32⟩
  | 85 => ⟨S64x500x500, .f32⟩
  | 86 => ⟨S64x500x500, .f32⟩
  | 87 => ⟨S64x500x500, .f32⟩
  | 88 => ⟨S64x500x500, .f32⟩
  | 89 => ⟨S64x500x500, .f32⟩
  | 90 => ⟨S64x500x500, .f32⟩
  | 91 => ⟨S64x500x500, .f32⟩
  | _ => ⟨S64x500x4, .f32⟩

abbrev hbmTy (i : Nat) : BufTy := match i / 128 with
  | 0 => hbmTy0_0 i
  | 1 => hbmTy0_1 i
  | 2 => hbmTy0_2 i
  | 3 => hbmTy0_3 i
  | _ => ⟨S64x500x4, .f32⟩

abbrev bufTy : (tb : Table) → Fin (tcTables nBuf tb) → BufTy
  | .hbm, ⟨i, _⟩ => hbmTy i
  | _, _ => ⟨S64x500x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_0 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_3 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_4 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_cst_5 : Ref sig .tc := ⟨.hbm, 74, rfl⟩
abbrev main_v60 : Ref sig .tc := ⟨.hbm, 75, rfl⟩
abbrev main_cst_6 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_cst_7 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_cst_8 : Ref sig .tc := ⟨.hbm, 89, rfl⟩
abbrev main_v72 : Ref sig .tc := ⟨.hbm, 90, rfl⟩
abbrev main_cst_9 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_cst_10 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_cst_11 : Ref sig .tc := ⟨.hbm, 104, rfl⟩
abbrev main_v84 : Ref sig .tc := ⟨.hbm, 105, rfl⟩
abbrev main_cst_12 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_cst_13 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_cst_14 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_cst_15 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_cst_16 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_cst_17 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_cst_18 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_cst_19 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_cst_20 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_cst_21 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_cst_22 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_v160 : Ref sig .tc := ⟨.hbm, 192, rfl⟩
abbrev main_v161 : Ref sig .tc := ⟨.hbm, 193, rfl⟩
abbrev main_v162 : Ref sig .tc := ⟨.hbm, 194, rfl⟩
abbrev main_v163 : Ref sig .tc := ⟨.hbm, 195, rfl⟩
abbrev main_v164 : Ref sig .tc := ⟨.hbm, 196, rfl⟩
abbrev main_v165 : Ref sig .tc := ⟨.hbm, 197, rfl⟩
abbrev main_v166 : Ref sig .tc := ⟨.hbm, 198, rfl⟩
abbrev main_v167 : Ref sig .tc := ⟨.hbm, 199, rfl⟩
abbrev main_v168 : Ref sig .tc := ⟨.hbm, 200, rfl⟩
abbrev main_v169 : Ref sig .tc := ⟨.hbm, 201, rfl⟩
abbrev main_v170 : Ref sig .tc := ⟨.hbm, 202, rfl⟩
abbrev main_v171 : Ref sig .tc := ⟨.hbm, 203, rfl⟩
abbrev main_v172 : Ref sig .tc := ⟨.hbm, 204, rfl⟩
abbrev main_v173 : Ref sig .tc := ⟨.hbm, 205, rfl⟩
abbrev main_v174 : Ref sig .tc := ⟨.hbm, 206, rfl⟩
abbrev main_v175 : Ref sig .tc := ⟨.hbm, 207, rfl⟩
abbrev main_v176 : Ref sig .tc := ⟨.hbm, 208, rfl⟩
abbrev main_v177 : Ref sig .tc := ⟨.hbm, 209, rfl⟩
abbrev main_v178 : Ref sig .tc := ⟨.hbm, 210, rfl⟩
abbrev main_v179 : Ref sig .tc := ⟨.hbm, 211, rfl⟩
abbrev main_v180 : Ref sig .tc := ⟨.hbm, 212, rfl⟩
abbrev main_v181 : Ref sig .tc := ⟨.hbm, 213, rfl⟩
abbrev main_v182 : Ref sig .tc := ⟨.hbm, 214, rfl⟩
abbrev main_v183 : Ref sig .tc := ⟨.hbm, 215, rfl⟩
abbrev main_v184 : Ref sig .tc := ⟨.hbm, 216, rfl⟩
abbrev main_v185 : Ref sig .tc := ⟨.hbm, 217, rfl⟩
abbrev main_v186 : Ref sig .tc := ⟨.hbm, 218, rfl⟩
abbrev main_v187 : Ref sig .tc := ⟨.hbm, 219, rfl⟩
abbrev main_v188 : Ref sig .tc := ⟨.hbm, 220, rfl⟩
abbrev main_v189 : Ref sig .tc := ⟨.hbm, 221, rfl⟩
abbrev main_v190 : Ref sig .tc := ⟨.hbm, 222, rfl⟩
abbrev main_v191 : Ref sig .tc := ⟨.hbm, 223, rfl⟩
abbrev main_v192 : Ref sig .tc := ⟨.hbm, 224, rfl⟩
abbrev main_v193 : Ref sig .tc := ⟨.hbm, 225, rfl⟩
abbrev main_v194 : Ref sig .tc := ⟨.hbm, 226, rfl⟩
abbrev main_v195 : Ref sig .tc := ⟨.hbm, 227, rfl⟩
abbrev main_v196 : Ref sig .tc := ⟨.hbm, 228, rfl⟩
abbrev main_v197 : Ref sig .tc := ⟨.hbm, 229, rfl⟩
abbrev main_cst_23 : Ref sig .tc := ⟨.hbm, 230, rfl⟩
abbrev main_v198 : Ref sig .tc := ⟨.hbm, 231, rfl⟩
abbrev main_v199 : Ref sig .tc := ⟨.hbm, 232, rfl⟩
abbrev main_cst_24 : Ref sig .tc := ⟨.hbm, 233, rfl⟩
abbrev main_v200 : Ref sig .tc := ⟨.hbm, 234, rfl⟩
abbrev main_v201 : Ref sig .tc := ⟨.hbm, 235, rfl⟩
abbrev main_cst_25 : Ref sig .tc := ⟨.hbm, 236, rfl⟩
abbrev main_v202 : Ref sig .tc := ⟨.hbm, 237, rfl⟩
abbrev main_v203 : Ref sig .tc := ⟨.hbm, 238, rfl⟩
abbrev main_cst_26 : Ref sig .tc := ⟨.hbm, 239, rfl⟩
abbrev main_v204 : Ref sig .tc := ⟨.hbm, 240, rfl⟩
abbrev main_v205 : Ref sig .tc := ⟨.hbm, 241, rfl⟩
abbrev main_v206 : Ref sig .tc := ⟨.hbm, 242, rfl⟩
abbrev main_v207 : Ref sig .tc := ⟨.hbm, 243, rfl⟩
abbrev main_v208 : Ref sig .tc := ⟨.hbm, 244, rfl⟩
abbrev main_v209 : Ref sig .tc := ⟨.hbm, 245, rfl⟩
abbrev main_v210 : Ref sig .tc := ⟨.hbm, 246, rfl⟩
abbrev main_v211 : Ref sig .tc := ⟨.hbm, 247, rfl⟩
abbrev main_v212 : Ref sig .tc := ⟨.hbm, 248, rfl⟩
abbrev main_v213 : Ref sig .tc := ⟨.hbm, 249, rfl⟩
abbrev main_v214 : Ref sig .tc := ⟨.hbm, 250, rfl⟩
abbrev main_v215 : Ref sig .tc := ⟨.hbm, 251, rfl⟩
abbrev main_v216 : Ref sig .tc := ⟨.hbm, 252, rfl⟩
abbrev main_v217 : Ref sig .tc := ⟨.hbm, 253, rfl⟩
abbrev main_v218 : Ref sig .tc := ⟨.hbm, 254, rfl⟩
abbrev main_v219 : Ref sig .tc := ⟨.hbm, 255, rfl⟩
abbrev main_v220 : Ref sig .tc := ⟨.hbm, 256, rfl⟩
abbrev main_v221 : Ref sig .tc := ⟨.hbm, 257, rfl⟩
abbrev main_v222 : Ref sig .tc := ⟨.hbm, 258, rfl⟩
abbrev main_v223 : Ref sig .tc := ⟨.hbm, 259, rfl⟩
abbrev main_v224 : Ref sig .tc := ⟨.hbm, 260, rfl⟩
abbrev main_v225 : Ref sig .tc := ⟨.hbm, 261, rfl⟩
abbrev main_v226 : Ref sig .tc := ⟨.hbm, 262, rfl⟩
abbrev main_v227 : Ref sig .tc := ⟨.hbm, 263, rfl⟩
abbrev main_v228 : Ref sig .tc := ⟨.hbm, 264, rfl⟩
abbrev main_v229 : Ref sig .tc := ⟨.hbm, 265, rfl⟩
abbrev main_v230 : Ref sig .tc := ⟨.hbm, 266, rfl⟩
abbrev main_v231 : Ref sig .tc := ⟨.hbm, 267, rfl⟩
abbrev main_v232 : Ref sig .tc := ⟨.hbm, 268, rfl⟩
abbrev main_v233 : Ref sig .tc := ⟨.hbm, 269, rfl⟩
abbrev main_v234 : Ref sig .tc := ⟨.hbm, 270, rfl⟩
abbrev main_v235 : Ref sig .tc := ⟨.hbm, 271, rfl⟩
abbrev main_v236 : Ref sig .tc := ⟨.hbm, 272, rfl⟩
abbrev main_v237 : Ref sig .tc := ⟨.hbm, 273, rfl⟩
abbrev main_v238 : Ref sig .tc := ⟨.hbm, 274, rfl⟩
abbrev main_v239 : Ref sig .tc := ⟨.hbm, 275, rfl⟩
abbrev main_v240 : Ref sig .tc := ⟨.hbm, 276, rfl⟩
abbrev main_v241 : Ref sig .tc := ⟨.hbm, 277, rfl⟩
abbrev main_v242 : Ref sig .tc := ⟨.hbm, 278, rfl⟩
abbrev main_v243 : Ref sig .tc := ⟨.hbm, 279, rfl⟩
abbrev main_v244 : Ref sig .tc := ⟨.hbm, 280, rfl⟩
abbrev main_v245 : Ref sig .tc := ⟨.hbm, 281, rfl⟩
abbrev main_v246 : Ref sig .tc := ⟨.hbm, 282, rfl⟩
abbrev main_v247 : Ref sig .tc := ⟨.hbm, 283, rfl⟩
abbrev main_v248 : Ref sig .tc := ⟨.hbm, 284, rfl⟩
abbrev main_cst_27 : Ref sig .tc := ⟨.hbm, 285, rfl⟩
abbrev main_call0_v0 : Ref sig .tc := ⟨.hbm, 286, rfl⟩
abbrev main_call0_v1 : Ref sig .tc := ⟨.hbm, 287, rfl⟩
abbrev main_v249 : Ref sig .tc := ⟨.hbm, 288, rfl⟩
abbrev main_v250 : Ref sig .tc := ⟨.hbm, 289, rfl⟩
abbrev main_v251 : Ref sig .tc := ⟨.hbm, 290, rfl⟩
abbrev main_v252 : Ref sig .tc := ⟨.hbm, 291, rfl⟩
abbrev main_v253 : Ref sig .tc := ⟨.hbm, 292, rfl⟩
abbrev main_v254 : Ref sig .tc := ⟨.hbm, 293, rfl⟩
abbrev main_v255 : Ref sig .tc := ⟨.hbm, 294, rfl⟩
abbrev main_v256 : Ref sig .tc := ⟨.hbm, 295, rfl⟩
abbrev main_v257 : Ref sig .tc := ⟨.hbm, 296, rfl⟩
abbrev main_v258 : Ref sig .tc := ⟨.hbm, 297, rfl⟩
abbrev main_v259 : Ref sig .tc := ⟨.hbm, 298, rfl⟩
abbrev main_v260 : Ref sig .tc := ⟨.hbm, 299, rfl⟩
abbrev main_v261 : Ref sig .tc := ⟨.hbm, 300, rfl⟩
abbrev main_v262 : Ref sig .tc := ⟨.hbm, 301, rfl⟩
abbrev main_v263 : Ref sig .tc := ⟨.hbm, 302, rfl⟩
abbrev main_v264 : Ref sig .tc := ⟨.hbm, 303, rfl⟩
abbrev main_v265 : Ref sig .tc := ⟨.hbm, 304, rfl⟩
abbrev main_v266 : Ref sig .tc := ⟨.hbm, 305, rfl⟩
abbrev main_v267 : Ref sig .tc := ⟨.hbm, 306, rfl⟩
abbrev main_v268 : Ref sig .tc := ⟨.hbm, 307, rfl⟩
abbrev main_v269 : Ref sig .tc := ⟨.hbm, 308, rfl⟩
abbrev main_v270 : Ref sig .tc := ⟨.hbm, 309, rfl⟩
abbrev main_v271 : Ref sig .tc := ⟨.hbm, 310, rfl⟩
abbrev main_v272 : Ref sig .tc := ⟨.hbm, 311, rfl⟩
abbrev main_v273 : Ref sig .tc := ⟨.hbm, 312, rfl⟩
abbrev main_v274 : Ref sig .tc := ⟨.hbm, 313, rfl⟩
abbrev main_v275 : Ref sig .tc := ⟨.hbm, 314, rfl⟩
abbrev main_v276 : Ref sig .tc := ⟨.hbm, 315, rfl⟩
abbrev main_cst_28 : Ref sig .tc := ⟨.hbm, 316, rfl⟩
abbrev main_call1_v0 : Ref sig .tc := ⟨.hbm, 317, rfl⟩
abbrev main_call1_v1 : Ref sig .tc := ⟨.hbm, 318, rfl⟩
abbrev main_v277 : Ref sig .tc := ⟨.hbm, 319, rfl⟩
abbrev main_v278 : Ref sig .tc := ⟨.hbm, 320, rfl⟩
abbrev main_v279 : Ref sig .tc := ⟨.hbm, 321, rfl⟩
abbrev main_v280 : Ref sig .tc := ⟨.hbm, 322, rfl⟩
abbrev main_v281 : Ref sig .tc := ⟨.hbm, 323, rfl⟩
abbrev main_v282 : Ref sig .tc := ⟨.hbm, 324, rfl⟩
abbrev main_v283 : Ref sig .tc := ⟨.hbm, 325, rfl⟩
abbrev main_v284 : Ref sig .tc := ⟨.hbm, 326, rfl⟩
abbrev main_v285 : Ref sig .tc := ⟨.hbm, 327, rfl⟩
abbrev main_cst_29 : Ref sig .tc := ⟨.hbm, 328, rfl⟩
abbrev main_call2_v0 : Ref sig .tc := ⟨.hbm, 329, rfl⟩
abbrev main_call2_v1 : Ref sig .tc := ⟨.hbm, 330, rfl⟩
abbrev main_v286 : Ref sig .tc := ⟨.hbm, 331, rfl⟩
abbrev main_v287 : Ref sig .tc := ⟨.hbm, 332, rfl⟩
abbrev main_v288 : Ref sig .tc := ⟨.hbm, 333, rfl⟩
abbrev main_v289 : Ref sig .tc := ⟨.hbm, 334, rfl⟩
abbrev main_v290 : Ref sig .tc := ⟨.hbm, 335, rfl⟩
abbrev main_v291 : Ref sig .tc := ⟨.hbm, 336, rfl⟩
abbrev main_v292 : Ref sig .tc := ⟨.hbm, 337, rfl⟩
abbrev main_v293 : Ref sig .tc := ⟨.hbm, 338, rfl⟩
abbrev main_v294 : Ref sig .tc := ⟨.hbm, 339, rfl⟩
abbrev main_v295 : Ref sig .tc := ⟨.hbm, 340, rfl⟩
abbrev main_v296 : Ref sig .tc := ⟨.hbm, 341, rfl⟩
abbrev main_v297 : Ref sig .tc := ⟨.hbm, 342, rfl⟩
abbrev main_v298 : Ref sig .tc := ⟨.hbm, 343, rfl⟩
abbrev main_v299 : Ref sig .tc := ⟨.hbm, 344, rfl⟩
abbrev main_v300 : Ref sig .tc := ⟨.hbm, 345, rfl⟩
abbrev main_v301 : Ref sig .tc := ⟨.hbm, 346, rfl⟩
abbrev main_v302 : Ref sig .tc := ⟨.hbm, 347, rfl⟩
abbrev main_v303 : Ref sig .tc := ⟨.hbm, 348, rfl⟩
abbrev main_v304 : Ref sig .tc := ⟨.hbm, 349, rfl⟩
abbrev main_v305 : Ref sig .tc := ⟨.hbm, 350, rfl⟩
abbrev main_v306 : Ref sig .tc := ⟨.hbm, 351, rfl⟩
abbrev main_v307 : Ref sig .tc := ⟨.hbm, 352, rfl⟩
abbrev main_v308 : Ref sig .tc := ⟨.hbm, 353, rfl⟩
abbrev main_v309 : Ref sig .tc := ⟨.hbm, 354, rfl⟩
abbrev main_v310 : Ref sig .tc := ⟨.hbm, 355, rfl⟩
abbrev main_v311 : Ref sig .tc := ⟨.hbm, 356, rfl⟩
abbrev main_v312 : Ref sig .tc := ⟨.hbm, 357, rfl⟩
abbrev main_v313 : Ref sig .tc := ⟨.hbm, 358, rfl⟩
abbrev main_v314 : Ref sig .tc := ⟨.hbm, 359, rfl⟩
abbrev main_v315 : Ref sig .tc := ⟨.hbm, 360, rfl⟩
abbrev main_v316 : Ref sig .tc := ⟨.hbm, 361, rfl⟩
abbrev main_v317 : Ref sig .tc := ⟨.hbm, 362, rfl⟩
abbrev main_v318 : Ref sig .tc := ⟨.hbm, 363, rfl⟩
abbrev main_v319 : Ref sig .tc := ⟨.hbm, 364, rfl⟩
abbrev main_v320 : Ref sig .tc := ⟨.hbm, 365, rfl⟩
abbrev main_v321 : Ref sig .tc := ⟨.hbm, 366, rfl⟩
abbrev main_v322 : Ref sig .tc := ⟨.hbm, 367, rfl⟩
abbrev main_v323 : Ref sig .tc := ⟨.hbm, 368, rfl⟩
abbrev main_cst_30 : Ref sig .tc := ⟨.hbm, 369, rfl⟩
abbrev main_call3_v0 : Ref sig .tc := ⟨.hbm, 370, rfl⟩
abbrev main_call3_v1 : Ref sig .tc := ⟨.hbm, 371, rfl⟩
abbrev main_v324 : Ref sig .tc := ⟨.hbm, 372, rfl⟩
abbrev main_v325 : Ref sig .tc := ⟨.hbm, 373, rfl⟩
abbrev main_v326 : Ref sig .tc := ⟨.hbm, 374, rfl⟩
abbrev main_v327 : Ref sig .tc := ⟨.hbm, 375, rfl⟩
abbrev main_v328 : Ref sig .tc := ⟨.hbm, 376, rfl⟩
abbrev main_v329 : Ref sig .tc := ⟨.hbm, 377, rfl⟩
abbrev main_v330 : Ref sig .tc := ⟨.hbm, 378, rfl⟩
abbrev main_v331 : Ref sig .tc := ⟨.hbm, 379, rfl⟩
abbrev main_v332 : Ref sig .tc := ⟨.hbm, 380, rfl⟩
abbrev main_v333 : Ref sig .tc := ⟨.hbm, 381, rfl⟩
abbrev main_v334 : Ref sig .tc := ⟨.hbm, 382, rfl⟩
abbrev main_v335 : Ref sig .tc := ⟨.hbm, 383, rfl⟩
abbrev main_v336 : Ref sig .tc := ⟨.hbm, 384, rfl⟩
abbrev main_v337 : Ref sig .tc := ⟨.hbm, 385, rfl⟩
abbrev main_v338 : Ref sig .tc := ⟨.hbm, 386, rfl⟩
abbrev main_v339 : Ref sig .tc := ⟨.hbm, 387, rfl⟩
abbrev main_v340 : Ref sig .tc := ⟨.hbm, 388, rfl⟩
abbrev main_v341 : Ref sig .tc := ⟨.hbm, 389, rfl⟩
abbrev main_v342 : Ref sig .tc := ⟨.hbm, 390, rfl⟩
abbrev main_v343 : Ref sig .tc := ⟨.hbm, 391, rfl⟩
abbrev main_v344 : Ref sig .tc := ⟨.hbm, 392, rfl⟩
abbrev main_v345 : Ref sig .tc := ⟨.hbm, 393, rfl⟩
abbrev main_v346 : Ref sig .tc := ⟨.hbm, 394, rfl⟩
abbrev main_v347 : Ref sig .tc := ⟨.hbm, 395, rfl⟩
abbrev main_v348 : Ref sig .tc := ⟨.hbm, 396, rfl⟩
abbrev main_v349 : Ref sig .tc := ⟨.hbm, 397, rfl⟩
abbrev main_v350 : Ref sig .tc := ⟨.hbm, 398, rfl⟩
abbrev main_v351 : Ref sig .tc := ⟨.hbm, 399, rfl⟩
abbrev main_cst_31 : Ref sig .tc := ⟨.hbm, 400, rfl⟩
abbrev main_call4_v0 : Ref sig .tc := ⟨.hbm, 401, rfl⟩
abbrev main_call4_v1 : Ref sig .tc := ⟨.hbm, 402, rfl⟩
abbrev main_v352 : Ref sig .tc := ⟨.hbm, 403, rfl⟩
abbrev main_v353 : Ref sig .tc := ⟨.hbm, 404, rfl⟩
abbrev main_v354 : Ref sig .tc := ⟨.hbm, 405, rfl⟩
abbrev main_v355 : Ref sig .tc := ⟨.hbm, 406, rfl⟩
abbrev main_v356 : Ref sig .tc := ⟨.hbm, 407, rfl⟩
abbrev main_v357 : Ref sig .tc := ⟨.hbm, 408, rfl⟩
abbrev main_v358 : Ref sig .tc := ⟨.hbm, 409, rfl⟩
abbrev main_v359 : Ref sig .tc := ⟨.hbm, 410, rfl⟩
abbrev main_v360 : Ref sig .tc := ⟨.hbm, 411, rfl⟩
abbrev main_cst_32 : Ref sig .tc := ⟨.hbm, 412, rfl⟩
abbrev main_call5_v0 : Ref sig .tc := ⟨.hbm, 413, rfl⟩
abbrev main_call5_v1 : Ref sig .tc := ⟨.hbm, 414, rfl⟩
abbrev main_v361 : Ref sig .tc := ⟨.hbm, 415, rfl⟩
abbrev main_v362 : Ref sig .tc := ⟨.hbm, 416, rfl⟩
abbrev main_cst_33 : Ref sig .tc := ⟨.hbm, 417, rfl⟩
abbrev main_v363 : Ref sig .tc := ⟨.hbm, 418, rfl⟩
abbrev main_v364 : Ref sig .tc := ⟨.hbm, 419, rfl⟩
abbrev main_v365 : Ref sig .tc := ⟨.hbm, 420, rfl⟩
abbrev main_cst_34 : Ref sig .tc := ⟨.hbm, 421, rfl⟩
abbrev main_v366 : Ref sig .tc := ⟨.hbm, 422, rfl⟩
abbrev main_v367 : Ref sig .tc := ⟨.hbm, 423, rfl⟩
abbrev main_v368 : Ref sig .tc := ⟨.hbm, 424, rfl⟩
abbrev main_v369 : Ref sig .tc := ⟨.hbm, 425, rfl⟩
abbrev main_v370 : Ref sig .tc := ⟨.hbm, 426, rfl⟩
abbrev main_v371 : Ref sig .tc := ⟨.hbm, 427, rfl⟩
abbrev main_v372 : Ref sig .tc := ⟨.hbm, 428, rfl⟩
abbrev main_cst_35 : Ref sig .tc := ⟨.hbm, 429, rfl⟩
abbrev main_v373 : Ref sig .tc := ⟨.hbm, 430, rfl⟩
abbrev main_v374 : Ref sig .tc := ⟨.hbm, 431, rfl⟩
abbrev main_v375 : Ref sig .tc := ⟨.hbm, 432, rfl⟩
abbrev main_cst_36 : Ref sig .tc := ⟨.hbm, 433, rfl⟩
abbrev main_v376 : Ref sig .tc := ⟨.hbm, 434, rfl⟩
abbrev main_v377 : Ref sig .tc := ⟨.hbm, 435, rfl⟩
abbrev main_v378 : Ref sig .tc := ⟨.hbm, 436, rfl⟩
abbrev main_cst_37 : Ref sig .tc := ⟨.hbm, 437, rfl⟩
abbrev main_v379 : Ref sig .tc := ⟨.hbm, 438, rfl⟩
abbrev main_v380 : Ref sig .tc := ⟨.hbm, 439, rfl⟩
abbrev main_cst_38 : Ref sig .tc := ⟨.hbm, 440, rfl⟩
abbrev main_v381 : Ref sig .tc := ⟨.hbm, 441, rfl⟩
abbrev main_v382 : Ref sig .tc := ⟨.hbm, 442, rfl⟩
abbrev main_v383 : Ref sig .tc := ⟨.hbm, 443, rfl⟩
abbrev main_cst_39 : Ref sig .tc := ⟨.hbm, 444, rfl⟩
abbrev main_v384 : Ref sig .tc := ⟨.hbm, 445, rfl⟩
abbrev main_v385 : Ref sig .tc := ⟨.hbm, 446, rfl⟩
abbrev main_v386 : Ref sig .tc := ⟨.hbm, 447, rfl⟩
abbrev main_cst_40 : Ref sig .tc := ⟨.hbm, 448, rfl⟩
abbrev main_v387 : Ref sig .tc := ⟨.hbm, 449, rfl⟩
abbrev main_v388 : Ref sig .tc := ⟨.hbm, 450, rfl⟩
abbrev main_v389 : Ref sig .tc := ⟨.hbm, 451, rfl⟩
abbrev main_v390 : Ref sig .tc := ⟨.hbm, 452, rfl⟩
abbrev main_v391 : Ref sig .tc := ⟨.hbm, 453, rfl⟩
abbrev main_v392 : Ref sig .tc := ⟨.hbm, 454, rfl⟩
abbrev main_v393 : Ref sig .tc := ⟨.hbm, 455, rfl⟩
abbrev main_cst_41 : Ref sig .tc := ⟨.hbm, 456, rfl⟩
abbrev main_v394 : Ref sig .tc := ⟨.hbm, 457, rfl⟩
abbrev main_v395 : Ref sig .tc := ⟨.hbm, 458, rfl⟩
abbrev main_v396 : Ref sig .tc := ⟨.hbm, 459, rfl⟩
abbrev main_cst_42 : Ref sig .tc := ⟨.hbm, 460, rfl⟩
abbrev main_v397 : Ref sig .tc := ⟨.hbm, 461, rfl⟩
abbrev main_v398 : Ref sig .tc := ⟨.hbm, 462, rfl⟩
abbrev main_v399 : Ref sig .tc := ⟨.hbm, 463, rfl⟩
abbrev main_cst_43 : Ref sig .tc := ⟨.hbm, 464, rfl⟩
abbrev main_v400 : Ref sig .tc := ⟨.hbm, 465, rfl⟩
abbrev main_v401 : Ref sig .tc := ⟨.hbm, 466, rfl⟩
abbrev main_cst_44 : Ref sig .tc := ⟨.hbm, 467, rfl⟩
abbrev main_v402 : Ref sig .tc := ⟨.hbm, 468, rfl⟩
abbrev main_v403 : Ref sig .tc := ⟨.hbm, 469, rfl⟩
abbrev main_v404 : Ref sig .tc := ⟨.hbm, 470, rfl⟩
abbrev main_v405 : Ref sig .tc := ⟨.hbm, 471, rfl⟩
abbrev main_v406 : Ref sig .tc := ⟨.hbm, 472, rfl⟩
abbrev main_v407 : Ref sig .tc := ⟨.hbm, 473, rfl⟩
abbrev main_v408 : Ref sig .tc := ⟨.hbm, 474, rfl⟩
abbrev main_v409 : Ref sig .tc := ⟨.hbm, 475, rfl⟩

abbrev nD : Nat := 1
abbrev τ : Topo := Topo.v7x

variable {F : FTy → Type} [FloatOps F]

class Facts₀ : Prop where
  slices_S64x2_S64x1_0_0 : S64x2.Slices ![0, 0] S64x1
  shapeCasts_S64x1_S64 : S64x1.ShapeCasts S64
  slices_S64x2_S64x1_0_1 : S64x2.Slices ![0, 1] S64x1
  bcast_S64_S64x1_0 : S64.BroadcastsInDim S64x1 (![0] : Fin 1 → Fin S64x1.rank)
  concatenates_S64x1_S64x1_S64x1_S64x1_S64x4_d1 : Shape.Concatenates [S64x1, S64x1, S64x1, S64x1] S64x4 1
  slices_S64x500x4_S64x500x1_0_0_0 : S64x500x4.Slices ![0, 0, 0] S64x500x1
  shapeCasts_S64x500x1_S64x500 : S64x500x1.ShapeCasts S64x500
  slices_S64x500x4_S64x500x1_0_0_1 : S64x500x4.Slices ![0, 0, 1] S64x500x1
  slices_S64x500x4_S64x500x1_0_0_2 : S64x500x4.Slices ![0, 0, 2] S64x500x1
  slices_S64x500x4_S64x500x1_0_0_3 : S64x500x4.Slices ![0, 0, 3] S64x500x1
  bcast_S_S64x500 : S_.BroadcastsInDim S64x500 (![] : Fin 0 → Fin S64x500.rank)
  bcast_S64x500_S64x500x1_0_1 : S64x500.BroadcastsInDim S64x500x1 (![0, 1] : Fin 2 → Fin S64x500x1.rank)
  concatenates_S64x500x1_S64x500x1_S64x500x1_S64x500x1_S64x500x4_d2 : Shape.Concatenates [S64x500x1, S64x500x1, S64x500x1, S64x500x1] S64x500x4 2
  bcast_S64x4_S64x1x4_0_2 : S64x4.BroadcastsInDim S64x1x4 (![0, 2] : Fin 2 → Fin S64x1x4.rank)
  bcast_S64x1x4_S64x500x4_0_1_2 : S64x1x4.BroadcastsInDim S64x500x4 (![0, 1, 2] : Fin 3 → Fin S64x500x4.rank)
  slices_S64x500x4_S64x500x2_0_0_0 : S64x500x4.Slices ![0, 0, 0] S64x500x2
  reducesTo_S64x500x151_S64x500_d2 : S64x500x151.ReducesTo [2] S64x500
  h_S_ : 0 < S_.numel
  bcast_S64x500x1_S64x500x151_0_1_2 : S64x500x1.BroadcastsInDim S64x500x151 (![0, 1, 2] : Fin 3 → Fin S64x500x151.rank)
  slices_S64x500x151_S64x500x150_0_0_0 : S64x500x151.Slices ![0, 0, 0] S64x500x150
  reducesTo_S64x500x150_S64x500_d2 : S64x500x150.ReducesTo [2] S64x500
  slices_S64x500x2_S64x500x1_0_0_0 : S64x500x2.Slices ![0, 0, 0] S64x500x1
  bcast_S64x500_S64x1x500_0_2 : S64x500.BroadcastsInDim S64x1x500 (![0, 2] : Fin 2 → Fin S64x1x500.rank)
  bcast_S64x500x1_S64x500x500_0_1_2 : S64x500x1.BroadcastsInDim S64x500x500 (![0, 1, 2] : Fin 3 → Fin S64x500x500.rank)
  bcast_S64x1x500_S64x500x500_0_1_2 : S64x1x500.BroadcastsInDim S64x500x500 (![0, 1, 2] : Fin 3 → Fin S64x500x500.rank)
  slices_S64x500x2_S64x500x1_0_0_1 : S64x500x2.Slices ![0, 0, 1] S64x500x1
  bcast_S_S64x500x500 : S_.BroadcastsInDim S64x500x500 (![] : Fin 0 → Fin S64x500x500.rank)
  bcast_S64x500x2_S64x500x1x2_0_1_3 : S64x500x2.BroadcastsInDim S64x500x1x2 (![0, 1, 3] : Fin 3 → Fin S64x500x1x2.rank)
  bcast_S64x500x2_S64x1x500x2_0_2_3 : S64x500x2.BroadcastsInDim S64x1x500x2 (![0, 2, 3] : Fin 3 → Fin S64x1x500x2.rank)
  bcast_S64x500x1x2_S64x500x500x2_0_1_2_3 : S64x500x1x2.BroadcastsInDim S64x500x500x2 (![0, 1, 2, 3] : Fin 4 → Fin S64x500x500x2.rank)
  bcast_S64x1x500x2_S64x500x500x2_0_1_2_3 : S64x1x500x2.BroadcastsInDim S64x500x500x2 (![0, 1, 2, 3] : Fin 4 → Fin S64x500x500x2.rank)
  slices_S64x500x4_S64x500x2_0_0_2 : S64x500x4.Slices ![0, 0, 2] S64x500x2
  bcast_S_S64x500x500x2 : S_.BroadcastsInDim S64x500x500x2 (![] : Fin 0 → Fin S64x500x500x2.rank)
  slices_S64x500x500x2_S64x500x500x1_0_0_0_0 : S64x500x500x2.Slices ![0, 0, 0, 0] S64x500x500x1
  shapeCasts_S64x500x500x1_S64x500x500 : S64x500x500x1.ShapeCasts S64x500x500
  slices_S64x500x500x2_S64x500x500x1_0_0_0_1 : S64x500x500x2.Slices ![0, 0, 0, 1] S64x500x500x1
  transposes_S64x500x150_S64x150x500_0_2_1 : S64x500x150.Transposes [0, 2, 1] S64x150x500
  transposes_S64x500x500_S64x500x500_0_2_1 : S64x500x500.Transposes [0, 2, 1] S64x500x500
  dot_S64x500x150_S64x150x500_S64x500x500_2_1_1_2_0_0_wf : DotDims.WF S64x500x150 S64x150x500 S64x500x500 [2] [1] [1] [2] [0] [0]

variable [Facts₀]

def dot_S64x500x150_S64x150x500_S64x500x500_2_1_1_2_0_0 : DotDims S64x500x150 S64x150x500 S64x500x500 where
  lhsContracting := [2]
  rhsContracting := [1]
  lhsNonContracting := [1]
  rhsNonContracting := [2]
  lhsBatch := [0]
  rhsBatch := [0]
  wf := dot_S64x500x150_S64x150x500_S64x500x500_2_1_1_2_0_0_wf

class Facts : Prop extends Facts₀ where

variable [Facts]
-- ==== Proof.K.FrameKit.lean ====
/-
  The entry of the one region and the shape of the frame claim, for the program of this directory read at any float
  instance. The program is ten host operations (two column slices of the image sizes, reshapes, four broadcasts, one
  concatenation into [w, h, w, h] per image, one reshape) followed by one region on a grid of 64 points, one image per
  point. None of the ten operations writes an argument array, so the region finds the eight arguments as launched;
  seven of them are arrays of the region's input windows, the eighth (the image sizes) bypasses the region.
  A window's block at a point is its array read through the block's view. The region's invariant is the two scratch
  matrices, each owned whole at some contents, and the generator register.
-/
import proofs.«109971_j31181462569594_2_alg».proof.Proof.Gen.Kernel.Launch
import proofs.«109971_j31181462569594_2_alg».proof.Proof.Gen.Kernel.Skeleton
import proofs.«109971_j31181462569594_2_alg».proof.Proof.Gen.Kernel.Loops
import proofs.«109971_j31181462569594_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core `c`'s buffers when the region is entered: the launch contents after the ten host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is its host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, for any proof data whose array is `V`'s and
    whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, for any proof data whose array is `V`'s and
    whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, for any proof data whose array is `V`'s and
    whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, for any proof data whose array is `V`'s and
    whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, for any proof data whose array is `V`'s and
    whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, for any proof data whose array is `V`'s and
    whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every point, for any proof data whose array is `V`'s and
    whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds its block at every point, for any proof data whose array is `V`'s and
    whose body leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run to the region's post -/

/-- A run that ends with every array of the region at what the proof data say, and every other buffer as the region
    found it, leaves the eight arguments as launched: seven are input arrays of the region, which it never writes
    back; the eighth bypasses it. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).1 4).trans (((dats 0 c).arrAt_in 4 rfl _).trans ((hA c 4).trans (V_main_arg4 m c))),
      ((h c).1 5).trans (((dats 0 c).arrAt_in 5 rfl _).trans ((hA c 5).trans (V_main_arg5 m c))),
      ((h c).1 6).trans (((dats 0 c).arrAt_in 6 rfl _).trans ((hA c 6).trans (V_main_arg6 m c))),
      ((h c).2 main_arg7 (Pipeline.mem_restRefs_of main_arg7 (by decide) (by decide))).trans (V_main_arg7 m c)⟩) h

/-! ## The memrefs the body is called with -/

/-- One staging buffer of each output window, through which its contents are stated. -/
abbrev VO0_8 : View sig .tc .vmem S1x500x500 .f32 := (Memref.whole cc0_stg8_0 : Memref sig .tc .vmem S1x500x500 .f32).view
abbrev VO0_9 : View sig .tc .vmem S1x500x500 .f32 := (Memref.whole cc0_stg9_0 : Memref sig .tc .vmem S1x500x500 .f32).view
/-- Each window's current staging memref at point `t`, and its wholeness. -/
abbrev ms0_0 (t : Fin cfg0.N) : Memref sig .tc .vmem S1x500x4 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x500x151 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x500x151 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x500x151 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x500x4 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x500x4 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x500x4 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x4 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x500x500 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x500x500 .f32 := win0_9.stage (cfg0.slots t 9)
abbrev hs0_9 (t : Fin cfg0.N) : (ms0_9 t).IsWhole := hstage0_9 ((cfg0.slots t 9).cast nbuf0_9)
/-- The two scratch matrices: whole buffers of the kernel's own. -/
abbrev scM0_0 : Memref sig .tc .vmem S500x500 .f32 := Memref.whole cc0_scratch0
abbrev scM0_1 : Memref sig .tc .vmem S500x500 .f32 := Memref.whole cc0_scratch1

/-- The region's invariant: each scratch matrix owned at some contents, and the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Frame

end
-- ==== Proof.K.Run.lean ====
/-
  One run of the kernel body on arbitrary whole staging memrefs. The eight input blocks are held at given contents, the
  two output buffers and the two scratch matrices at anything. The body computes the entity-side vectors and the two
  class-distance matrices, stores those whole into the scratch matrices, then writes the two outputs strip by strip:
  seven strips of 64 rows in a counted loop, then the last 52 rows. The run ends with the inputs as they were, each
  output buffer holding row strips written over whatever it held, and the scratch matrices at some contents. What
  each output buffer ends with, as a function of what it held, is what the run itself finds.
-/
import proofs.«109971_j31181462569594_2_alg».proof.Proof.K.FrameKit

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 0 in
/-- What the body leaves in each output's staging memref, as a function of what the memref held before, with the proof
    that the body runs to its continuation from the inputs' blocks, handing them back unchanged. -/
noncomputable def kernelRun0 (c : Dev nD) (i : grid0.Coords) (arg1 : Memref sig .tc .vmem S1x500x4 .f32) (harg1 : arg1.IsWhole) (arg2 : Memref sig .tc .vmem S1x500x151 .f32) (harg2 : arg2.IsWhole) (arg3 : Memref sig .tc .vmem S1x500x151 .f32) (harg3 : arg3.IsWhole) (arg4 : Memref sig .tc .vmem S1x500x151 .f32) (harg4 : arg4.IsWhole) (arg5 : Memref sig .tc .vmem S1x500x4 .f32) (harg5 : arg5.IsWhole) (arg6 : Memref sig .tc .vmem S1x500x4 .f32) (harg6 : arg6.IsWhole) (arg7 : Memref sig .tc .vmem S1x500x4 .f32) (harg7 : arg7.IsWhole) (arg8 : Memref sig .tc .vmem S1x1x4 .f32) (harg8 : arg8.IsWhole) (arg9 : Memref sig .tc .vmem S1x500x500 .f32) (harg9 : arg9.IsWhole) (arg10 : Memref sig .tc .vmem S1x500x500 .f32) (harg10 : arg10.IsWhole) (arg11 : Memref sig .tc .vmem S500x500 .f32) (harg11 : arg11.IsWhole) (arg12 : Memref sig .tc .vmem S500x500 .f32) (harg12 : arg12.IsWhole)
    (x0 : Vec F S1x500x4 .f32) (x1 : Vec F S1x500x151 .f32) (x2 : Vec F S1x500x151 .f32) (x3 : Vec F S1x500x151 .f32) (x4 : Vec F S1x500x4 .f32) (x5 : Vec F S1x500x4 .f32) (x6 : Vec F S1x500x4 .f32) (x7 : Vec F S1x1x4 .f32) :
    Σ' (G8 : BufTy.Contents (Elt F) arg9.view.ty → BufTy.Contents (Elt F) arg9.view.ty), { G9 : BufTy.Contents (Elt F) arg10.view.ty → BufTy.Contents (Elt F) arg10.view.ty //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} G8 f) ∗ (∃ f, arg10.view.loc (c : Thread nD τ) ↦[arg10.view.set]{fullShare} G9 f) ∗ (∃ d, owns (c : Thread nD τ) arg11 fullShare d) ∗ (∃ d, owns (c : Thread nD τ) arg12 fullShare d)) -∗ K ⟨⟩))
          ⊢ wp frame (wpE (defs₀ (F := F)) Variants.none c none) E (cc0__kernel i arg1 harg1 arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc0__kernel_eq_skeleton]; unfold cc0__kernel_skel
    simp only [k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg7.eq_unread hf6; obtain rfl := harg8.eq_unread hf7
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists f8; iexact H8
    isplitl [H9]; · iexists f9; iexact H9
    isplitl [HS0]
    · iexists _; iexists _; isplitr
      swap; · iexact HS0
      ipureintro; rfl
    iexists _; iexists _; isplitr
    swap; · iexact HS1
    ipureintro; rfl

end Cert.Kernel.Frame

end
-- ==== Proof.K.Shape.lean ====
/-
  The shape of what the body's run leaves in the two outputs' buffers. The run ends with each buffer at the loop's seven
  strips written over what the buffer held, and the 52-row strip written over that: eight strips in all, the last
  written first in the list. The strips' rectangles (rows 0 to 447 in sevens of 64, rows 448 to 499) tile the block, so
  they cover it.
-/
import proofs.«109971_j31181462569594_2_alg».proof.Proof.K.Run

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The strips of the two outputs -/

/-- The loop's strips, seven per output, last first: what its trips store, as the run's invariant lists them. -/
def loopP (c : Dev nD) (i : grid0.Coords) (arg1 : Memref sig .tc .vmem S1x500x4 .f32) (harg1 : arg1.IsWhole) (arg2 : Memref sig .tc .vmem S1x500x151 .f32) (harg2 : arg2.IsWhole) (arg3 : Memref sig .tc .vmem S1x500x151 .f32) (harg3 : arg3.IsWhole) (arg4 : Memref sig .tc .vmem S1x500x151 .f32) (harg4 : arg4.IsWhole) (arg5 : Memref sig .tc .vmem S1x500x4 .f32) (harg5 : arg5.IsWhole) (arg6 : Memref sig .tc .vmem S1x500x4 .f32) (harg6 : arg6.IsWhole) (arg7 : Memref sig .tc .vmem S1x500x4 .f32) (harg7 : arg7.IsWhole) (arg8 : Memref sig .tc .vmem S1x1x4 .f32) (harg8 : arg8.IsWhole) (arg9 : Memref sig .tc .vmem S1x500x500 .f32) (harg9 : arg9.IsWhole) (arg10 : Memref sig .tc .vmem S1x500x500 .f32) (harg10 : arg10.IsWhole) (arg11 : Memref sig .tc .vmem S500x500 .f32) (harg11 : arg11.IsWhole) (arg12 : Memref sig .tc .vmem S500x500 .f32) (harg12 : arg12.IsWhole)
    (x0 : Vec F S1x500x4 .f32) (x1 : Vec F S1x500x151 .f32) (x2 : Vec F S1x500x151 .f32) (x3 : Vec F S1x500x151 .f32) (x4 : Vec F S1x500x4 .f32) (x5 : Vec F S1x500x4 .f32) (x6 : Vec F S1x500x4 .f32) (x7 : Vec F S1x1x4 .f32) :
    List (View.Piece (Elt F) S1x500x500 .f32) × List (View.Piece (Elt F) S1x500x500 .f32) :=
  pb_k0_t1 (F := F) Variants.none c none i arg1 harg1 arg2 harg2 arg3 harg3 arg4 harg4 arg5 harg5 arg6 harg6 arg7 harg7 arg8 harg8 arg9 harg9 arg10 harg10 arg11 harg11 arg12 harg12 (kernelRun0.sl.r_3 c arg8 harg8 x7) (kernelRun0.sl.r_4 c arg8 harg8 x7) (kernelRun0.sl.r_5 c arg1 harg1 arg8 harg8 x0 x7) (kernelRun0.sl.r_6 c arg1 harg1 arg8 harg8 x0 x7) (kernelRun0.sl.r_7 c arg1 harg1 arg8 harg8 x0 x7) (kernelRun0.sl.r_9 c arg1 harg1 arg8 harg8 x0 x7) (kernelRun0.sl.r_10 c arg1 harg1 arg8 harg8 x0 x7) (kernelRun0.sl.r_11 c arg1 harg1 arg8 harg8 x0 x7) (kernelRun0.sl.r_14 c arg2 harg2 x1) (kernelRun0.sl.r_18 c arg2 harg2 arg3 harg3 x1 x2) (harg5.unread x4) (harg6.unread x5) (harg7.unread x6) (arg11.view.writes (Elt F) arg11.view.junk (kernelRun0.sl.HS0_1 c arg2 harg2 arg4 harg4 x1 x3)) (arg12.view.writes (Elt F) arg12.view.junk (kernelRun0.sl.HS1_1 c arg2 harg2 arg3 harg3 x1 x2)) (Scf.trips k0_t1_loop.lb k0_t1_loop.ub k0_t1_loop.st)

/-- The last 52 rows of each output, as the body stores them after the loop. -/
def tail8 (c : Dev nD) (i : grid0.Coords) (arg1 : Memref sig .tc .vmem S1x500x4 .f32) (harg1 : arg1.IsWhole) (arg2 : Memref sig .tc .vmem S1x500x151 .f32) (harg2 : arg2.IsWhole) (arg3 : Memref sig .tc .vmem S1x500x151 .f32) (harg3 : arg3.IsWhole) (arg4 : Memref sig .tc .vmem S1x500x151 .f32) (harg4 : arg4.IsWhole) (arg5 : Memref sig .tc .vmem S1x500x4 .f32) (harg5 : arg5.IsWhole) (arg6 : Memref sig .tc .vmem S1x500x4 .f32) (harg6 : arg6.IsWhole) (arg7 : Memref sig .tc .vmem S1x500x4 .f32) (harg7 : arg7.IsWhole) (arg8 : Memref sig .tc .vmem S1x1x4 .f32) (harg8 : arg8.IsWhole) (arg9 : Memref sig .tc .vmem S1x500x500 .f32) (harg9 : arg9.IsWhole) (arg10 : Memref sig .tc .vmem S1x500x500 .f32) (harg10 : arg10.IsWhole) (arg11 : Memref sig .tc .vmem S500x500 .f32) (harg11 : arg11.IsWhole) (arg12 : Memref sig .tc .vmem S500x500 .f32) (harg12 : arg12.IsWhole)
    (x0 : Vec F S1x500x4 .f32) (x1 : Vec F S1x500x151 .f32) (x2 : Vec F S1x500x151 .f32) (x3 : Vec F S1x500x151 .f32) (x4 : Vec F S1x500x4 .f32) (x5 : Vec F S1x500x4 .f32) (x6 : Vec F S1x500x4 .f32) (x7 : Vec F S1x1x4 .f32) : FVec F S1x52x500 .f32 :=
  k0_pay1 (kernelRun0.sl.v140 c arg2 harg2 arg4 harg4 arg11 x1 x3) (kernelRun0.sl.r_35 c arg1 harg1 arg2 harg2 arg7 harg7 arg8 harg8 x0 x1 x6 x7) (kernelRun0.sl.r_42 c arg1 harg1 arg6 harg6 arg8 harg8 x0 x5 x7)
def tail9 (c : Dev nD) (i : grid0.Coords) (arg1 : Memref sig .tc .vmem S1x500x4 .f32) (harg1 : arg1.IsWhole) (arg2 : Memref sig .tc .vmem S1x500x151 .f32) (harg2 : arg2.IsWhole) (arg3 : Memref sig .tc .vmem S1x500x151 .f32) (harg3 : arg3.IsWhole) (arg4 : Memref sig .tc .vmem S1x500x151 .f32) (harg4 : arg4.IsWhole) (arg5 : Memref sig .tc .vmem S1x500x4 .f32) (harg5 : arg5.IsWhole) (arg6 : Memref sig .tc .vmem S1x500x4 .f32) (harg6 : arg6.IsWhole) (arg7 : Memref sig .tc .vmem S1x500x4 .f32) (harg7 : arg7.IsWhole) (arg8 : Memref sig .tc .vmem S1x1x4 .f32) (harg8 : arg8.IsWhole) (arg9 : Memref sig .tc .vmem S1x500x500 .f32) (harg9 : arg9.IsWhole) (arg10 : Memref sig .tc .vmem S1x500x500 .f32) (harg10 : arg10.IsWhole) (arg11 : Memref sig .tc .vmem S500x500 .f32) (harg11 : arg11.IsWhole) (arg12 : Memref sig .tc .vmem S500x500 .f32) (harg12 : arg12.IsWhole)
    (x0 : Vec F S1x500x4 .f32) (x1 : Vec F S1x500x151 .f32) (x2 : Vec F S1x500x151 .f32) (x3 : Vec F S1x500x151 .f32) (x4 : Vec F S1x500x4 .f32) (x5 : Vec F S1x500x4 .f32) (x6 : Vec F S1x500x4 .f32) (x7 : Vec F S1x1x4 .f32) : FVec F S1x52x500 .f32 :=
  k0_pay2 (kernelRun0.sl.v141 c arg2 harg2 arg3 harg3 arg12 x1 x2) (kernelRun0.sl.r_36 c arg1 harg1 arg2 harg2 arg7 harg7 arg8 harg8 x0 x1 x6 x7) (kernelRun0.sl.r_46 c arg1 harg1 arg5 harg5 arg8 harg8 x0 x4 x7) (kernelRun0.sl.r_47 c arg1 harg1 arg5 harg5 arg8 harg8 x0 x4 x7) (kernelRun0.sl.r_48 c arg1 harg1 arg5 harg5 arg8 harg8 x0 x4 x7)

/-- Each output's strips, last first: the 52-row strip on top of the loop's seven. -/
def L8 (c : Dev nD) (i : grid0.Coords) (arg1 : Memref sig .tc .vmem S1x500x4 .f32) (harg1 : arg1.IsWhole) (arg2 : Memref sig .tc .vmem S1x500x151 .f32) (harg2 : arg2.IsWhole) (arg3 : Memref sig .tc .vmem S1x500x151 .f32) (harg3 : arg3.IsWhole) (arg4 : Memref sig .tc .vmem S1x500x151 .f32) (harg4 : arg4.IsWhole) (arg5 : Memref sig .tc .vmem S1x500x4 .f32) (harg5 : arg5.IsWhole) (arg6 : Memref sig .tc .vmem S1x500x4 .f32) (harg6 : arg6.IsWhole) (arg7 : Memref sig .tc .vmem S1x500x4 .f32) (harg7 : arg7.IsWhole) (arg8 : Memref sig .tc .vmem S1x1x4 .f32) (harg8 : arg8.IsWhole) (arg9 : Memref sig .tc .vmem S1x500x500 .f32) (harg9 : arg9.IsWhole) (arg10 : Memref sig .tc .vmem S1x500x500 .f32) (harg10 : arg10.IsWhole) (arg11 : Memref sig .tc .vmem S500x500 .f32) (harg11 : arg11.IsWhole) (arg12 : Memref sig .tc .vmem S500x500 .f32) (harg12 : arg12.IsWhole)
    (x0 : Vec F S1x500x4 .f32) (x1 : Vec F S1x500x151 .f32) (x2 : Vec F S1x500x151 .f32) (x3 : Vec F S1x500x151 .f32) (x4 : Vec F S1x500x4 .f32) (x5 : Vec F S1x500x4 .f32) (x6 : Vec F S1x500x4 .f32) (x7 : Vec F S1x1x4 .f32) : List (View.Piece (Elt F) S1x500x500 .f32) :=
  ⟨Rect.unit (s := S1x500x500) ![0, 448, 0] S1x52x500.size inb_S1x500x500_S1x52x500_0_448_0, tail8 c i arg1 harg1 arg2 harg2 arg3 harg3 arg4 harg4 arg5 harg5 arg6 harg6 arg7 harg7 arg8 harg8 arg9 harg9 arg10 harg10 arg11 harg11 arg12 harg12 x0 x1 x2 x3 x4 x5 x6 x7⟩ :: (loopP c i arg1 harg1 arg2 harg2 arg3 harg3 arg4 harg4 arg5 harg5 arg6 harg6 arg7 harg7 arg8 harg8 arg9 harg9 arg10 harg10 arg11 harg11 arg12 harg12 x0 x1 x2 x3 x4 x5 x6 x7).1
def L9 (c : Dev nD) (i : grid0.Coords) (arg1 : Memref sig .tc .vmem S1x500x4 .f32) (harg1 : arg1.IsWhole) (arg2 : Memref sig .tc .vmem S1x500x151 .f32) (harg2 : arg2.IsWhole) (arg3 : Memref sig .tc .vmem S1x500x151 .f32) (harg3 : arg3.IsWhole) (arg4 : Memref sig .tc .vmem S1x500x151 .f32) (harg4 : arg4.IsWhole) (arg5 : Memref sig .tc .vmem S1x500x4 .f32) (harg5 : arg5.IsWhole) (arg6 : Memref sig .tc .vmem S1x500x4 .f32) (harg6 : arg6.IsWhole) (arg7 : Memref sig .tc .vmem S1x500x4 .f32) (harg7 : arg7.IsWhole) (arg8 : Memref sig .tc .vmem S1x1x4 .f32) (harg8 : arg8.IsWhole) (arg9 : Memref sig .tc .vmem S1x500x500 .f32) (harg9 : arg9.IsWhole) (arg10 : Memref sig .tc .vmem S1x500x500 .f32) (harg10 : arg10.IsWhole) (arg11 : Memref sig .tc .vmem S500x500 .f32) (harg11 : arg11.IsWhole) (arg12 : Memref sig .tc .vmem S500x500 .f32) (harg12 : arg12.IsWhole)
    (x0 : Vec F S1x500x4 .f32) (x1 : Vec F S1x500x151 .f32) (x2 : Vec F S1x500x151 .f32) (x3 : Vec F S1x500x151 .f32) (x4 : Vec F S1x500x4 .f32) (x5 : Vec F S1x500x4 .f32) (x6 : Vec F S1x500x4 .f32) (x7 : Vec F S1x1x4 .f32) : List (View.Piece (Elt F) S1x500x500 .f32) :=
  ⟨Rect.unit (s := S1x500x500) ![0, 448, 0] S1x52x500.size inb_S1x500x500_S1x52x500_0_448_0, tail9 c i arg1 harg1 arg2 harg2 arg3 harg3 arg4 harg4 arg5 harg5 arg6 harg6 arg7 harg7 arg8 harg8 arg9 harg9 arg10 harg10 arg11 harg11 arg12 harg12 x0 x1 x2 x3 x4 x5 x6 x7⟩ :: (loopP c i arg1 harg1 arg2 harg2 arg3 harg3 arg4 harg4 arg5 harg5 arg6 harg6 arg7 harg7 arg8 harg8 arg9 harg9 arg10 harg10 arg11 harg11 arg12 harg12 x0 x1 x2 x3 x4 x5 x6 x7).2

/-- What the run leaves in an output's buffer is its strips written over what the buffer held. -/
theorem G8_eq (c : Dev nD) (i : grid0.Coords) (arg1 : Memref sig .tc .vmem S1x500x4 .f32) (harg1 : arg1.IsWhole) (arg2 : Memref sig .tc .vmem S1x500x151 .f32) (harg2 : arg2.IsWhole) (arg3 : Memref sig .tc .vmem S1x500x151 .f32) (harg3 : arg3.IsWhole) (arg4 : Memref sig .tc .vmem S1x500x151 .f32) (harg4 : arg4.IsWhole) (arg5 : Memref sig .tc .vmem S1x500x4 .f32) (harg5 : arg5.IsWhole) (arg6 : Memref sig .tc .vmem S1x500x4 .f32) (harg6 : arg6.IsWhole) (arg7 : Memref sig .tc .vmem S1x500x4 .f32) (harg7 : arg7.IsWhole) (arg8 : Memref sig .tc .vmem S1x1x4 .f32) (harg8 : arg8.IsWhole) (arg9 : Memref sig .tc .vmem S1x500x500 .f32) (harg9 : arg9.IsWhole) (arg10 : Memref sig .tc .vmem S1x500x500 .f32) (harg10 : arg10.IsWhole) (arg11 : Memref sig .tc .vmem S500x500 .f32) (harg11 : arg11.IsWhole) (arg12 : Memref sig .tc .vmem S500x500 .f32) (harg12 : arg12.IsWhole)
    (x0 : Vec F S1x500x4 .f32) (x1 : Vec F S1x500x151 .f32) (x2 : Vec F S1x500x151 .f32) (x3 : Vec F S1x500x151 .f32) (x4 : Vec F S1x500x4 .f32) (x5 : Vec F S1x500x4 .f32) (x6 : Vec F S1x500x4 .f32) (x7 : Vec F S1x1x4 .f32) (f : BufTy.Contents (Elt F) arg9.view.ty) :
    (kernelRun0 c i arg1 harg1 arg2 harg2 arg3 harg3 arg4 harg4 arg5 harg5 arg6 harg6 arg7 harg7 arg8 harg8 arg9 harg9 arg10 harg10 arg11 harg11 arg12 harg12 x0 x1 x2 x3 x4 x5 x6 x7).1 f = arg9.view.writes (Elt F) f (L8 c i arg1 harg1 arg2 harg2 arg3 harg3 arg4 harg4 arg5 harg5 arg6 harg6 arg7 harg7 arg8 harg8 arg9 harg9 arg10 harg10 arg11 harg11 arg12 harg12 x0 x1 x2 x3 x4 x5 x6 x7) :=
  (show (kernelRun0 c i arg1 harg1 arg2 harg2 arg3 harg3 arg4 harg4 arg5 harg5 arg6 harg6 arg7 harg7 arg8 harg8 arg9 harg9 arg10 harg10 arg11 harg11 arg12 harg12 x0 x1 x2 x3 x4 x5 x6 x7).1 f = kernelRun0.sl.H8_w1 c i arg1 harg1 arg2 harg2 arg3 harg3 arg4 harg4 arg5 harg5 arg6 harg6 arg7 harg7 arg8 harg8 arg9 harg9 arg10 harg10 arg11 harg11 arg12 harg12 x0 x1 x2 x3 x4 x5 x6 x7 f from rfl).trans
    ((show kernelRun0.sl.H8_w1 c i arg1 harg1 arg2 harg2 arg3 harg3 arg4 harg4 arg5 harg5 arg6 harg6 arg7 harg7 arg8 harg8 arg9 harg9 arg10 harg10 arg11 harg11 arg12 harg12 x0 x1 x2 x3 x4 x5 x6 x7 f
        = View.write (Elt F) (arg9.access (Rect.unit ![0, 448, 0] ![1, 52, 500] inb_S1x500x500_S1x52x500_0_448_0))
            (arg9.view.writes (Elt F) f (loopP c i arg1 harg1 arg2 harg2 arg3 harg3 arg4 harg4 arg5 harg5 arg6 harg6 arg7 harg7 arg8 harg8 arg9 harg9 arg10 harg10 arg11 harg11 arg12 harg12 x0 x1 x2 x3 x4 x5 x6 x7).1) (tail8 c i arg1 harg1 arg2 harg2 arg3 harg3 arg4 harg4 arg5 harg5 arg6 harg6 arg7 harg7 arg8 harg8 arg9 harg9 arg10 harg10 arg11 harg11 arg12 harg12 x0 x1 x2 x3 x4 x5 x6 x7) Finset.univ from rfl).trans
      (show View.write (Elt F) (arg9.access (Rect.unit ![0, 448, 0] ![1, 52, 500] inb_S1x500x500_S1x52x500_0_448_0))
            (arg9.view.writes (Elt F) f (loopP c i arg1 harg1 arg2 harg2 arg3 harg3 arg4 harg4 arg5 harg5 arg6 harg6 arg7 harg7 arg8 harg8 arg9 harg9 arg10 harg10 arg11 harg11 arg12 harg12 x0 x1 x2 x3 x4 x5 x6 x7).1) (tail8 c i arg1 harg1 arg2 harg2 arg3 harg3 arg4 harg4 arg5 harg5 arg6 harg6 arg7 harg7 arg8 harg8 arg9 harg9 arg10 harg10 arg11 harg11 arg12 harg12 x0 x1 x2 x3 x4 x5 x6 x7) Finset.univ
          = arg9.view.writes (Elt F) f (L8 c i arg1 harg1 arg2 harg2 arg3 harg3 arg4 harg4 arg5 harg5 arg6 harg6 arg7 harg7 arg8 harg8 arg9 harg9 arg10 harg10 arg11 harg11 arg12 harg12 x0 x1 x2 x3 x4 x5 x6 x7) from rfl))
theorem G9_eq (c : Dev nD) (i : grid0.Coords) (arg1 : Memref sig .tc .vmem S1x500x4 .f32) (harg1 : arg1.IsWhole) (arg2 : Memref sig .tc .vmem S1x500x151 .f32) (harg2 : arg2.IsWhole) (arg3 : Memref sig .tc .vmem S1x500x151 .f32) (harg3 : arg3.IsWhole) (arg4 : Memref sig .tc .vmem S1x500x151 .f32) (harg4 : arg4.IsWhole) (arg5 : Memref sig .tc .vmem S1x500x4 .f32) (harg5 : arg5.IsWhole) (arg6 : Memref sig .tc .vmem S1x500x4 .f32) (harg6 : arg6.IsWhole) (arg7 : Memref sig .tc .vmem S1x500x4 .f32) (harg7 : arg7.IsWhole) (arg8 : Memref sig .tc .vmem S1x1x4 .f32) (harg8 : arg8.IsWhole) (arg9 : Memref sig .tc .vmem S1x500x500 .f32) (harg9 : arg9.IsWhole) (arg10 : Memref sig .tc .vmem S1x500x500 .f32) (harg10 : arg10.IsWhole) (arg11 : Memref sig .tc .vmem S500x500 .f32) (harg11 : arg11.IsWhole) (arg12 : Memref sig .tc .vmem S500x500 .f32) (harg12 : arg12.IsWhole)
    (x0 : Vec F S1x500x4 .f32) (x1 : Vec F S1x500x151 .f32) (x2 : Vec F S1x500x151 .f32) (x3 : Vec F S1x500x151 .f32) (x4 : Vec F S1x500x4 .f32) (x5 : Vec F S1x500x4 .f32) (x6 : Vec F S1x500x4 .f32) (x7 : Vec F S1x1x4 .f32) (f : BufTy.Contents (Elt F) arg10.view.ty) :
    (kernelRun0 c i arg1 harg1 arg2 harg2 arg3 harg3 arg4 harg4 arg5 harg5 arg6 harg6 arg7 harg7 arg8 harg8 arg9 harg9 arg10 harg10 arg11 harg11 arg12 harg12 x0 x1 x2 x3 x4 x5 x6 x7).2.1 f = arg10.view.writes (Elt F) f (L9 c i arg1 harg1 arg2 harg2 arg3 harg3 arg4 harg4 arg5 harg5 arg6 harg6 arg7 harg7 arg8 harg8 arg9 harg9 arg10 harg10 arg11 harg11 arg12 harg12 x0 x1 x2 x3 x4 x5 x6 x7) :=
  (show (kernelRun0 c i arg1 harg1 arg2 harg2 arg3 harg3 arg4 harg4 arg5 harg5 arg6 harg6 arg7 harg7 arg8 harg8 arg9 harg9 arg10 harg10 arg11 harg11 arg12 harg12 x0 x1 x2 x3 x4 x5 x6 x7).2.1 f = kernelRun0.sl.H9_w2 c i arg1 harg1 arg2 harg2 arg3 harg3 arg4 harg4 arg5 harg5 arg6 harg6 arg7 harg7 arg8 harg8 arg9 harg9 arg10 harg10 arg11 harg11 arg12 harg12 x0 x1 x2 x3 x4 x5 x6 x7 f from rfl).trans
    ((show kernelRun0.sl.H9_w2 c i arg1 harg1 arg2 harg2 arg3 harg3 arg4 harg4 arg5 harg5 arg6 harg6 arg7 harg7 arg8 harg8 arg9 harg9 arg10 harg10 arg11 harg11 arg12 harg12 x0 x1 x2 x3 x4 x5 x6 x7 f
        = View.write (Elt F) (arg10.access (Rect.unit ![0, 448, 0] ![1, 52, 500] inb_S1x500x500_S1x52x500_0_448_0))
            (arg10.view.writes (Elt F) f (loopP c i arg1 harg1 arg2 harg2 arg3 harg3 arg4 harg4 arg5 harg5 arg6 harg6 arg7 harg7 arg8 harg8 arg9 harg9 arg10 harg10 arg11 harg11 arg12 harg12 x0 x1 x2 x3 x4 x5 x6 x7).2) (tail9 c i arg1 harg1 arg2 harg2 arg3 harg3 arg4 harg4 arg5 harg5 arg6 harg6 arg7 harg7 arg8 harg8 arg9 harg9 arg10 harg10 arg11 harg11 arg12 harg12 x0 x1 x2 x3 x4 x5 x6 x7) Finset.univ from rfl).trans
      (show View.write (Elt F) (arg10.access (Rect.unit ![0, 448, 0] ![1, 52, 500] inb_S1x500x500_S1x52x500_0_448_0))
            (arg10.view.writes (Elt F) f (loopP c i arg1 harg1 arg2 harg2 arg3 harg3 arg4 harg4 arg5 harg5 arg6 harg6 arg7 harg7 arg8 harg8 arg9 harg9 arg10 harg10 arg11 harg11 arg12 harg12 x0 x1 x2 x3 x4 x5 x6 x7).2) (tail9 c i arg1 harg1 arg2 harg2 arg3 harg3 arg4 harg4 arg5 harg5 arg6 harg6 arg7 harg7 arg8 harg8 arg9 harg9 arg10 harg10 arg11 harg11 arg12 harg12 x0 x1 x2 x3 x4 x5 x6 x7) Finset.univ
          = arg10.view.writes (Elt F) f (L9 c i arg1 harg1 arg2 harg2 arg3 harg3 arg4 harg4 arg5 harg5 arg6 harg6 arg7 harg7 arg8 harg8 arg9 harg9 arg10 harg10 arg11 harg11 arg12 harg12 x0 x1 x2 x3 x4 x5 x6 x7) from rfl))

/-! ## The strips cover an output's block: they tile it in bands of four rows -/

theorem cover0_8 (c : Dev nD) (i : grid0.Coords) (arg1 : Memref sig .tc .vmem S1x500x4 .f32) (harg1 : arg1.IsWhole) (arg2 : Memref sig .tc .vmem S1x500x151 .f32) (harg2 : arg2.IsWhole) (arg3 : Memref sig .tc .vmem S1x500x151 .f32) (harg3 : arg3.IsWhole) (arg4 : Memref sig .tc .vmem S1x500x151 .f32) (harg4 : arg4.IsWhole) (arg5 : Memref sig .tc .vmem S1x500x4 .f32) (harg5 : arg5.IsWhole) (arg6 : Memref sig .tc .vmem S1x500x4 .f32) (harg6 : arg6.IsWhole) (arg7 : Memref sig .tc .vmem S1x500x4 .f32) (harg7 : arg7.IsWhole) (arg8 : Memref sig .tc .vmem S1x1x4 .f32) (harg8 : arg8.IsWhole) (arg9 : Memref sig .tc .vmem S1x500x500 .f32) (harg9 : arg9.IsWhole) (arg10 : Memref sig .tc .vmem S1x500x500 .f32) (harg10 : arg10.IsWhole) (arg11 : Memref sig .tc .vmem S500x500 .f32) (harg11 : arg11.IsWhole) (arg12 : Memref sig .tc .vmem S500x500 .f32) (harg12 : arg12.IsWhole)
    (x0 : Vec F S1x500x4 .f32) (x1 : Vec F S1x500x151 .f32) (x2 : Vec F S1x500x151 .f32) (x3 : Vec F S1x500x151 .f32) (x4 : Vec F S1x500x4 .f32) (x5 : Vec F S1x500x4 .f32) (x6 : Vec F S1x500x4 .f32) (x7 : Vec F S1x1x4 .f32) (y : S1x500x500.Idx) :
    ∃ pc ∈ L8 c i arg1 harg1 arg2 harg2 arg3 harg3 arg4 harg4 arg5 harg5 arg6 harg6 arg7 harg7 arg8 harg8 arg9 harg9 arg10 harg10 arg11 harg11 arg12 harg12 x0 x1 x2 x3 x4 x5 x6 x7, y ∈ pc.1.set :=
  View.cover_of_tiledBy (L8 c i arg1 harg1 arg2 harg2 arg3 harg3 arg4 harg4 arg5 harg5 arg6 harg6 arg7 harg7 arg8 harg8 arg9 harg9 arg10 harg10 arg11 harg11 arg12 harg12 x0 x1 x2 x3 x4 x5 x6 x7) ![1, 4, 500] (by sl_kernel_rfl) y
theorem cover0_9 (c : Dev nD) (i : grid0.Coords) (arg1 : Memref sig .tc .vmem S1x500x4 .f32) (harg1 : arg1.IsWhole) (arg2 : Memref sig .tc .vmem S1x500x151 .f32) (harg2 : arg2.IsWhole) (arg3 : Memref sig .tc .vmem S1x500x151 .f32) (harg3 : arg3.IsWhole) (arg4 : Memref sig .tc .vmem S1x500x151 .f32) (harg4 : arg4.IsWhole) (arg5 : Memref sig .tc .vmem S1x500x4 .f32) (harg5 : arg5.IsWhole) (arg6 : Memref sig .tc .vmem S1x500x4 .f32) (harg6 : arg6.IsWhole) (arg7 : Memref sig .tc .vmem S1x500x4 .f32) (harg7 : arg7.IsWhole) (arg8 : Memref sig .tc .vmem S1x1x4 .f32) (harg8 : arg8.IsWhole) (arg9 : Memref sig .tc .vmem S1x500x500 .f32) (harg9 : arg9.IsWhole) (arg10 : Memref sig .tc .vmem S1x500x500 .f32) (harg10 : arg10.IsWhole) (arg11 : Memref sig .tc .vmem S500x500 .f32) (harg11 : arg11.IsWhole) (arg12 : Memref sig .tc .vmem S500x500 .f32) (harg12 : arg12.IsWhole)
    (x0 : Vec F S1x500x4 .f32) (x1 : Vec F S1x500x151 .f32) (x2 : Vec F S1x500x151 .f32) (x3 : Vec F S1x500x151 .f32) (x4 : Vec F S1x500x4 .f32) (x5 : Vec F S1x500x4 .f32) (x6 : Vec F S1x500x4 .f32) (x7 : Vec F S1x1x4 .f32) (y : S1x500x500.Idx) :
    ∃ pc ∈ L9 c i arg1 harg1 arg2 harg2 arg3 harg3 arg4 harg4 arg5 harg5 arg6 harg6 arg7 harg7 arg8 harg8 arg9 harg9 arg10 harg10 arg11 harg11 arg12 harg12 x0 x1 x2 x3 x4 x5 x6 x7, y ∈ pc.1.set :=
  View.cover_of_tiledBy (L9 c i arg1 harg1 arg2 harg2 arg3 harg3 arg4 harg4 arg5 harg5 arg6 harg6 arg7 harg7 arg8 harg8 arg9 harg9 arg10 harg10 arg11 harg11 arg12 harg12 x0 x1 x2 x3 x4 x5 x6 x7) ![1, 4, 500] (by sl_kernel_rfl) y

end Cert.Kernel.Frame

end
-- ==== Proof.K.Frame.lean ====
/-
  The frame of the program, from the run of its body. After a point each input's staging buffer still holds its block,
  and each output's buffer holds the run's row strips read back; the strips (seven of 64 rows, one of 52) tile the
  block in bands of four rows, so nothing of what the buffer held before is left. With these contents as proof data,
  the body's run discharges the region's obligation at every point, the region runs on its 64 points, and every
  argument array ends as launched.
-/
import proofs.«109971_j31181462569594_2_alg».proof.Proof.K.Shape

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the run leaves in an output's staging buffer: its strips read back. -/
def out0_8 (c : Dev nD) (i : grid0.Coords) (arg1 : Memref sig .tc .vmem S1x500x4 .f32) (harg1 : arg1.IsWhole) (arg2 : Memref sig .tc .vmem S1x500x151 .f32) (harg2 : arg2.IsWhole) (arg3 : Memref sig .tc .vmem S1x500x151 .f32) (harg3 : arg3.IsWhole) (arg4 : Memref sig .tc .vmem S1x500x151 .f32) (harg4 : arg4.IsWhole) (arg5 : Memref sig .tc .vmem S1x500x4 .f32) (harg5 : arg5.IsWhole) (arg6 : Memref sig .tc .vmem S1x500x4 .f32) (harg6 : arg6.IsWhole) (arg7 : Memref sig .tc .vmem S1x500x4 .f32) (harg7 : arg7.IsWhole) (arg8 : Memref sig .tc .vmem S1x1x4 .f32) (harg8 : arg8.IsWhole) (arg9 : Memref sig .tc .vmem S1x500x500 .f32) (harg9 : arg9.IsWhole) (arg10 : Memref sig .tc .vmem S1x500x500 .f32) (harg10 : arg10.IsWhole) (arg11 : Memref sig .tc .vmem S500x500 .f32) (harg11 : arg11.IsWhole) (arg12 : Memref sig .tc .vmem S500x500 .f32) (harg12 : arg12.IsWhole)
    (x0 : Vec F S1x500x4 .f32) (x1 : Vec F S1x500x151 .f32) (x2 : Vec F S1x500x151 .f32) (x3 : Vec F S1x500x151 .f32) (x4 : Vec F S1x500x4 .f32) (x5 : Vec F S1x500x4 .f32) (x6 : Vec F S1x500x4 .f32) (x7 : Vec F S1x1x4 .f32) : Vec F S1x500x500 .f32 :=
  VO0_8.read (Elt F) (VO0_8.writes (Elt F) VO0_8.junk (L8 c i arg1 harg1 arg2 harg2 arg3 harg3 arg4 harg4 arg5 harg5 arg6 harg6 arg7 harg7 arg8 harg8 arg9 harg9 arg10 harg10 arg11 harg11 arg12 harg12 x0 x1 x2 x3 x4 x5 x6 x7))

def out0_9 (c : Dev nD) (i : grid0.Coords) (arg1 : Memref sig .tc .vmem S1x500x4 .f32) (harg1 : arg1.IsWhole) (arg2 : Memref sig .tc .vmem S1x500x151 .f32) (harg2 : arg2.IsWhole) (arg3 : Memref sig .tc .vmem S1x500x151 .f32) (harg3 : arg3.IsWhole) (arg4 : Memref sig .tc .vmem S1x500x151 .f32) (harg4 : arg4.IsWhole) (arg5 : Memref sig .tc .vmem S1x500x4 .f32) (harg5 : arg5.IsWhole) (arg6 : Memref sig .tc .vmem S1x500x4 .f32) (harg6 : arg6.IsWhole) (arg7 : Memref sig .tc .vmem S1x500x4 .f32) (harg7 : arg7.IsWhole) (arg8 : Memref sig .tc .vmem S1x1x4 .f32) (harg8 : arg8.IsWhole) (arg9 : Memref sig .tc .vmem S1x500x500 .f32) (harg9 : arg9.IsWhole) (arg10 : Memref sig .tc .vmem S1x500x500 .f32) (harg10 : arg10.IsWhole) (arg11 : Memref sig .tc .vmem S500x500 .f32) (harg11 : arg11.IsWhole) (arg12 : Memref sig .tc .vmem S500x500 .f32) (harg12 : arg12.IsWhole)
    (x0 : Vec F S1x500x4 .f32) (x1 : Vec F S1x500x151 .f32) (x2 : Vec F S1x500x151 .f32) (x3 : Vec F S1x500x151 .f32) (x4 : Vec F S1x500x4 .f32) (x5 : Vec F S1x500x4 .f32) (x6 : Vec F S1x500x4 .f32) (x7 : Vec F S1x1x4 .f32) : Vec F S1x500x500 .f32 :=
  VO0_9.read (Elt F) (VO0_9.writes (Elt F) VO0_9.junk (L9 c i arg1 harg1 arg2 harg2 arg3 harg3 arg4 harg4 arg5 harg5 arg6 harg6 arg7 harg7 arg8 harg8 arg9 harg9 arg10 harg10 arg11 harg11 arg12 harg12 x0 x1 x2 x3 x4 x5 x6 x7))

/-! ## What the outputs hold after each point -/

def outAt0_8 (c : Dev nD) (t : Fin cfg0.N) : Vec F S1x500x500 .f32 :=
  out0_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t)

def outAt0_9 (c : Dev nD) (t : Fin cfg0.N) : Vec F S1x500x500 .f32 :=
  out0_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t)

/-! ## The proof data -/

/-- The arrays as the region finds them; after the body each input's buffer at its block, each output's at the run's
    strips; the invariant the scratch matrices and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt0_8 m c t
    | ⟨9, _⟩ => outAt0_9 m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = outAt0_8 m c t := by dsimp only [dats]
theorem after0_9 (c : Dev nD) (t : Fin cfg0.N) : (dats m 0 c).after 9 t = outAt0_9 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 2000000 in
/-- The body at any point: the inputs' memrefs hold their blocks, so the run applies; the invariant lends the two
    scratch matrices and takes them back at whatever they then hold. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  unfold outAt0_8 outAt0_9
  unfold out0_8 out0_9
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun0 c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [HS0]; · iexact HS0
  isplitl [HS1]; · iexact HS1
  iintro ⟨H0, H1, H2, H3, H4, H5, H6, H7, ⟨%e8, H8⟩, ⟨%e9, H9⟩, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; rw [G8_eq]; exact View.read_writes_of_cover _ _ _ _ _ (cover0_8 c _ _ _ _ _ _ _ _ _ _ _ _ _ _ _ _ _ _ _ _ _ _ _ _ _ _ _ _ _ _ _ _ _)
  unfold owns; iexists _; isplitr
  swap; · iexact H9
  ipureintro; rw [G9_eq]; exact View.read_writes_of_cover _ _ _ _ _ (cover0_9 c _ _ _ _ _ _ _ _ _ _ _ _ _ _ _ _ _ _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, with every array of the region at what the proof data
    say and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs and its eight argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.Kernel.Frame

end
-- ==== Proof.KI.FrameKit.lean ====
/-
  The entry of the one region and the shape of the frame claim, for the program of this directory read at any float
  instance. The program is ten host operations (two column slices of the image sizes, reshapes, four broadcasts, one
  concatenation into [w, h, w, h] per image, one reshape) followed by one region on a grid of 64 points, one image per
  point. None of the ten operations writes an argument array, so the region finds the eight arguments as launched;
  seven of them are arrays of the region's input windows, the eighth (the image sizes) bypasses the region.
  A window's block at a point is its array read through the block's view. The region's invariant is the two scratch
  matrices, each owned whole at some contents, and the generator register.
-/
import proofs.«109971_j31181462569594_2_alg».proof.Proof.Gen.KernelIdeal.Launch
import proofs.«109971_j31181462569594_2_alg».proof.Proof.Gen.KernelIdeal.Skeleton
import proofs.«109971_j31181462569594_2_alg».proof.Proof.Gen.KernelIdeal.Loops
import proofs.«109971_j31181462569594_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core `c`'s buffers when the region is entered: the launch contents after the ten host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is its host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, for any proof data whose array is `V`'s and
    whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, for any proof data whose array is `V`'s and
    whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, for any proof data whose array is `V`'s and
    whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, for any proof data whose array is `V`'s and
    whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, for any proof data whose array is `V`'s and
    whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, for any proof data whose array is `V`'s and
    whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every point, for any proof data whose array is `V`'s and
    whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds its block at every point, for any proof data whose array is `V`'s and
    whose body leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run to the region's post -/

/-- A run that ends with every array of the region at what the proof data say, and every other buffer as the region
    found it, leaves the eight arguments as launched: seven are input arrays of the region, which it never writes
    back; the eighth bypasses it. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).1 4).trans (((dats 0 c).arrAt_in 4 rfl _).trans ((hA c 4).trans (V_main_arg4 m c))),
      ((h c).1 5).trans (((dats 0 c).arrAt_in 5 rfl _).trans ((hA c 5).trans (V_main_arg5 m c))),
      ((h c).1 6).trans (((dats 0 c).arrAt_in 6 rfl _).trans ((hA c 6).trans (V_main_arg6 m c))),
      ((h c).2 main_arg7 (Pipeline.mem_restRefs_of main_arg7 (by decide) (by decide))).trans (V_main_arg7 m c)⟩) h

/-! ## The memrefs the body is called with -/

/-- One staging buffer of each output window, through which its contents are stated. -/
abbrev VO0_8 : View sig .tc .vmem S1x500x500 .f32 := (Memref.whole cc0_stg8_0 : Memref sig .tc .vmem S1x500x500 .f32).view
abbrev VO0_9 : View sig .tc .vmem S1x500x500 .f32 := (Memref.whole cc0_stg9_0 : Memref sig .tc .vmem S1x500x500 .f32).view
/-- Each window's current staging memref at point `t`, and its wholeness. -/
abbrev ms0_0 (t : Fin cfg0.N) : Memref sig .tc .vmem S1x500x4 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x500x151 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x500x151 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x500x151 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x500x4 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x500x4 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x500x4 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x4 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x500x500 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x500x500 .f32 := win0_9.stage (cfg0.slots t 9)
abbrev hs0_9 (t : Fin cfg0.N) : (ms0_9 t).IsWhole := hstage0_9 ((cfg0.slots t 9).cast nbuf0_9)
/-- The two scratch matrices: whole buffers of the kernel's own. -/
abbrev scM0_0 : Memref sig .tc .vmem S500x500 .f32 := Memref.whole cc0_scratch0
abbrev scM0_1 : Memref sig .tc .vmem S500x500 .f32 := Memref.whole cc0_scratch1

/-- The region's invariant: each scratch matrix owned at some contents, and the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Frame

end
-- ==== Proof.KI.Run.lean ====
/-
  One run of the kernel body on arbitrary whole staging memrefs. The eight input blocks are held at given contents, the
  two output buffers and the two scratch matrices at anything. The body computes the entity-side vectors and the two
  class-distance matrices, stores those whole into the scratch matrices, then writes the two outputs strip by strip:
  seven strips of 64 rows in a counted loop, then the last 52 rows. The run ends with the inputs as they were, each
  output buffer holding row strips written over whatever it held, and the scratch matrices at some contents. What
  each output buffer ends with, as a function of what it held, is what the run itself finds.
-/
import proofs.«109971_j31181462569594_2_alg».proof.Proof.KI.FrameKit

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 0 in
/-- What the body leaves in each output's staging memref, as a function of what the memref held before, with the proof
    that the body runs to its continuation from the inputs' blocks, handing them back unchanged. -/
noncomputable def kernelRun0 (c : Dev nD) (i : grid0.Coords) (arg1 : Memref sig .tc .vmem S1x500x4 .f32) (harg1 : arg1.IsWhole) (arg2 : Memref sig .tc .vmem S1x500x151 .f32) (harg2 : arg2.IsWhole) (arg3 : Memref sig .tc .vmem S1x500x151 .f32) (harg3 : arg3.IsWhole) (arg4 : Memref sig .tc .vmem S1x500x151 .f32) (harg4 : arg4.IsWhole) (arg5 : Memref sig .tc .vmem S1x500x4 .f32) (harg5 : arg5.IsWhole) (arg6 : Memref sig .tc .vmem S1x500x4 .f32) (harg6 : arg6.IsWhole) (arg7 : Memref sig .tc .vmem S1x500x4 .f32) (harg7 : arg7.IsWhole) (arg8 : Memref sig .tc .vmem S1x1x4 .f32) (harg8 : arg8.IsWhole) (arg9 : Memref sig .tc .vmem S1x500x500 .f32) (harg9 : arg9.IsWhole) (arg10 : Memref sig .tc .vmem S1x500x500 .f32) (harg10 : arg10.IsWhole) (arg11 : Memref sig .tc .vmem S500x500 .f32) (harg11 : arg11.IsWhole) (arg12 : Memref sig .tc .vmem S500x500 .f32) (harg12 : arg12.IsWhole)
    (x0 : Vec F S1x500x4 .f32) (x1 : Vec F S1x500x151 .f32) (x2 : Vec F S1x500x151 .f32) (x3 : Vec F S1x500x151 .f32) (x4 : Vec F S1x500x4 .f32) (x5 : Vec F S1x500x4 .f32) (x6 : Vec F S1x500x4 .f32) (x7 : Vec F S1x1x4 .f32) :
    Σ' (G8 : BufTy.Contents (Elt F) arg9.view.ty → BufTy.Contents (Elt F) arg9.view.ty), { G9 : BufTy.Contents (Elt F) arg10.view.ty → BufTy.Contents (Elt F) arg10.view.ty //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} G8 f) ∗ (∃ f, arg10.view.loc (c : Thread nD τ) ↦[arg10.view.set]{fullShare} G9 f) ∗ (∃ d, owns (c : Thread nD τ) arg11 fullShare d) ∗ (∃ d, owns (c : Thread nD τ) arg12 fullShare d)) -∗ K ⟨⟩))
          ⊢ wp frame (wpE (defs₀ (F := F)) Variants.none c none) E (cc0__kernel i arg1 harg1 arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc0__kernel_eq_skeleton]; unfold cc0__kernel_skel
    simp only [k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg7.eq_unread hf6; obtain rfl := harg8.eq_unread hf7
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists f8; iexact H8
    isplitl [H9]; · iexists f9; iexact H9
    isplitl [HS0]
    · iexists _; iexists _; isplitr
      swap; · iexact HS0
      ipureintro; rfl
    iexists _; iexists _; isplitr
    swap; · iexact HS1
    ipureintro; rfl

end Cert.KernelIdeal.Frame

end
-- ==== Proof.KI.Shape.lean ====
/-
  The shape of what the body's run leaves in the two outputs' buffers. The run ends with each buffer at the loop's seven
  strips written over what the buffer held, and the 52-row strip written over that: eight strips in all, the last
  written first in the list. The strips' rectangles (rows 0 to 447 in sevens of 64, rows 448 to 499) tile the block, so
  they cover it.
-/
import proofs.«109971_j31181462569594_2_alg».proof.Proof.KI.Run

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The strips of the two outputs -/

/-- The loop's strips, seven per output, last first: what its trips store, as the run's invariant lists them. -/
def loopP (c : Dev nD) (i : grid0.Coords) (arg1 : Memref sig .tc .vmem S1x500x4 .f32) (harg1 : arg1.IsWhole) (arg2 : Memref sig .tc .vmem S1x500x151 .f32) (harg2 : arg2.IsWhole) (arg3 : Memref sig .tc .vmem S1x500x151 .f32) (harg3 : arg3.IsWhole) (arg4 : Memref sig .tc .vmem S1x500x151 .f32) (harg4 : arg4.IsWhole) (arg5 : Memref sig .tc .vmem S1x500x4 .f32) (harg5 : arg5.IsWhole) (arg6 : Memref sig .tc .vmem S1x500x4 .f32) (harg6 : arg6.IsWhole) (arg7 : Memref sig .tc .vmem S1x500x4 .f32) (harg7 : arg7.IsWhole) (arg8 : Memref sig .tc .vmem S1x1x4 .f32) (harg8 : arg8.IsWhole) (arg9 : Memref sig .tc .vmem S1x500x500 .f32) (harg9 : arg9.IsWhole) (arg10 : Memref sig .tc .vmem S1x500x500 .f32) (harg10 : arg10.IsWhole) (arg11 : Memref sig .tc .vmem S500x500 .f32) (harg11 : arg11.IsWhole) (arg12 : Memref sig .tc .vmem S500x500 .f32) (harg12 : arg12.IsWhole)
    (x0 : Vec F S1x500x4 .f32) (x1 : Vec F S1x500x151 .f32) (x2 : Vec F S1x500x151 .f32) (x3 : Vec F S1x500x151 .f32) (x4 : Vec F S1x500x4 .f32) (x5 : Vec F S1x500x4 .f32) (x6 : Vec F S1x500x4 .f32) (x7 : Vec F S1x1x4 .f32) :
    List (View.Piece (Elt F) S1x500x500 .f32) × List (View.Piece (Elt F) S1x500x500 .f32) :=
  pb_k0_t1 (F := F) Variants.none c none i arg1 harg1 arg2 harg2 arg3 harg3 arg4 harg4 arg5 harg5 arg6 harg6 arg7 harg7 arg8 harg8 arg9 harg9 arg10 harg10 arg11 harg11 arg12 harg12 (kernelRun0.sl.r_3 c arg8 harg8 x7) (kernelRun0.sl.r_4 c arg8 harg8 x7) (kernelRun0.sl.r_5 c arg1 harg1 arg8 harg8 x0 x7) (kernelRun0.sl.r_6 c arg1 harg1 arg8 harg8 x0 x7) (kernelRun0.sl.r_7 c arg1 harg1 arg8 harg8 x0 x7) (kernelRun0.sl.r_9 c arg1 harg1 arg8 harg8 x0 x7) (kernelRun0.sl.r_10 c arg1 harg1 arg8 harg8 x0 x7) (kernelRun0.sl.r_11 c arg1 harg1 arg8 harg8 x0 x7) (kernelRun0.sl.r_14 c arg2 harg2 x1) (kernelRun0.sl.r_18 c arg2 harg2 arg3 harg3 x1 x2) (harg5.unread x4) (harg6.unread x5) (harg7.unread x6) (arg11.view.writes (Elt F) arg11.view.junk (kernelRun0.sl.HS0_1 c arg2 harg2 arg4 harg4 x1 x3)) (arg12.view.writes (Elt F) arg12.view.junk (kernelRun0.sl.HS1_1 c arg2 harg2 arg3 harg3 x1 x2)) (Scf.trips k0_t1_loop.lb k0_t1_loop.ub k0_t1_loop.st)

/-- The last 52 rows of each output, as the body stores them after the loop. -/
def tail8 (c : Dev nD) (i : grid0.Coords) (arg1 : Memref sig .tc .vmem S1x500x4 .f32) (harg1 : arg1.IsWhole) (arg2 : Memref sig .tc .vmem S1x500x151 .f32) (harg2 : arg2.IsWhole) (arg3 : Memref sig .tc .vmem S1x500x151 .f32) (harg3 : arg3.IsWhole) (arg4 : Memref sig .tc .vmem S1x500x151 .f32) (harg4 : arg4.IsWhole) (arg5 : Memref sig .tc .vmem S1x500x4 .f32) (harg5 : arg5.IsWhole) (arg6 : Memref sig .tc .vmem S1x500x4 .f32) (harg6 : arg6.IsWhole) (arg7 : Memref sig .tc .vmem S1x500x4 .f32) (harg7 : arg7.IsWhole) (arg8 : Memref sig .tc .vmem S1x1x4 .f32) (harg8 : arg8.IsWhole) (arg9 : Memref sig .tc .vmem S1x500x500 .f32) (harg9 : arg9.IsWhole) (arg10 : Memref sig .tc .vmem S1x500x500 .f32) (harg10 : arg10.IsWhole) (arg11 : Memref sig .tc .vmem S500x500 .f32) (harg11 : arg11.IsWhole) (arg12 : Memref sig .tc .vmem S500x500 .f32) (harg12 : arg12.IsWhole)
    (x0 : Vec F S1x500x4 .f32) (x1 : Vec F S1x500x151 .f32) (x2 : Vec F S1x500x151 .f32) (x3 : Vec F S1x500x151 .f32) (x4 : Vec F S1x500x4 .f32) (x5 : Vec F S1x500x4 .f32) (x6 : Vec F S1x500x4 .f32) (x7 : Vec F S1x1x4 .f32) : FVec F S1x52x500 .f32 :=
  k0_pay1 (kernelRun0.sl.v140 c arg2 harg2 arg4 harg4 arg11 x1 x3) (kernelRun0.sl.r_35 c arg1 harg1 arg2 harg2 arg7 harg7 arg8 harg8 x0 x1 x6 x7) (kernelRun0.sl.r_42 c arg1 harg1 arg6 harg6 arg8 harg8 x0 x5 x7)
def tail9 (c : Dev nD) (i : grid0.Coords) (arg1 : Memref sig .tc .vmem S1x500x4 .f32) (harg1 : arg1.IsWhole) (arg2 : Memref sig .tc .vmem S1x500x151 .f32) (harg2 : arg2.IsWhole) (arg3 : Memref sig .tc .vmem S1x500x151 .f32) (harg3 : arg3.IsWhole) (arg4 : Memref sig .tc .vmem S1x500x151 .f32) (harg4 : arg4.IsWhole) (arg5 : Memref sig .tc .vmem S1x500x4 .f32) (harg5 : arg5.IsWhole) (arg6 : Memref sig .tc .vmem S1x500x4 .f32) (harg6 : arg6.IsWhole) (arg7 : Memref sig .tc .vmem S1x500x4 .f32) (harg7 : arg7.IsWhole) (arg8 : Memref sig .tc .vmem S1x1x4 .f32) (harg8 : arg8.IsWhole) (arg9 : Memref sig .tc .vmem S1x500x500 .f32) (harg9 : arg9.IsWhole) (arg10 : Memref sig .tc .vmem S1x500x500 .f32) (harg10 : arg10.IsWhole) (arg11 : Memref sig .tc .vmem S500x500 .f32) (harg11 : arg11.IsWhole) (arg12 : Memref sig .tc .vmem S500x500 .f32) (harg12 : arg12.IsWhole)
    (x0 : Vec F S1x500x4 .f32) (x1 : Vec F S1x500x151 .f32) (x2 : Vec F S1x500x151 .f32) (x3 : Vec F S1x500x151 .f32) (x4 : Vec F S1x500x4 .f32) (x5 : Vec F S1x500x4 .f32) (x6 : Vec F S1x500x4 .f32) (x7 : Vec F S1x1x4 .f32) : FVec F S1x52x500 .f32 :=
  k0_pay2 (kernelRun0.sl.v141 c arg2 harg2 arg3 harg3 arg12 x1 x2) (kernelRun0.sl.r_36 c arg1 harg1 arg2 harg2 arg7 harg7 arg8 harg8 x0 x1 x6 x7) (kernelRun0.sl.r_46 c arg1 harg1 arg5 harg5 arg8 harg8 x0 x4 x7) (kernelRun0.sl.r_47 c arg1 harg1 arg5 harg5 arg8 harg8 x0 x4 x7) (kernelRun0.sl.r_48 c arg1 harg1 arg5 harg5 arg8 harg8 x0 x4 x7)

/-- Each output's strips, last first: the 52-row strip on top of the loop's seven. -/
def L8 (c : Dev nD) (i : grid0.Coords) (arg1 : Memref sig .tc .vmem S1x500x4 .f32) (harg1 : arg1.IsWhole) (arg2 : Memref sig .tc .vmem S1x500x151 .f32) (harg2 : arg2.IsWhole) (arg3 : Memref sig .tc .vmem S1x500x151 .f32) (harg3 : arg3.IsWhole) (arg4 : Memref sig .tc .vmem S1x500x151 .f32) (harg4 : arg4.IsWhole) (arg5 : Memref sig .tc .vmem S1x500x4 .f32) (harg5 : arg5.IsWhole) (arg6 : Memref sig .tc .vmem S1x500x4 .f32) (harg6 : arg6.IsWhole) (arg7 : Memref sig .tc .vmem S1x500x4 .f32) (harg7 : arg7.IsWhole) (arg8 : Memref sig .tc .vmem S1x1x4 .f32) (harg8 : arg8.IsWhole) (arg9 : Memref sig .tc .vmem S1x500x500 .f32) (harg9 : arg9.IsWhole) (arg10 : Memref sig .tc .vmem S1x500x500 .f32) (harg10 : arg10.IsWhole) (arg11 : Memref sig .tc .vmem S500x500 .f32) (harg11 : arg11.IsWhole) (arg12 : Memref sig .tc .vmem S500x500 .f32) (harg12 : arg12.IsWhole)
    (x0 : Vec F S1x500x4 .f32) (x1 : Vec F S1x500x151 .f32) (x2 : Vec F S1x500x151 .f32) (x3 : Vec F S1x500x151 .f32) (x4 : Vec F S1x500x4 .f32) (x5 : Vec F S1x500x4 .f32) (x6 : Vec F S1x500x4 .f32) (x7 : Vec F S1x1x4 .f32) : List (View.Piece (Elt F) S1x500x500 .f32) :=
  ⟨Rect.unit (s := S1x500x500) ![0, 448, 0] S1x52x500.size inb_S1x500x500_S1x52x500_0_448_0, tail8 c i arg1 harg1 arg2 harg2 arg3 harg3 arg4 harg4 arg5 harg5 arg6 harg6 arg7 harg7 arg8 harg8 arg9 harg9 arg10 harg10 arg11 harg11 arg12 harg12 x0 x1 x2 x3 x4 x5 x6 x7⟩ :: (loopP c i arg1 harg1 arg2 harg2 arg3 harg3 arg4 harg4 arg5 harg5 arg6 harg6 arg7 harg7 arg8 harg8 arg9 harg9 arg10 harg10 arg11 harg11 arg12 harg12 x0 x1 x2 x3 x4 x5 x6 x7).1
def L9 (c : Dev nD) (i : grid0.Coords) (arg1 : Memref sig .tc .vmem S1x500x4 .f32) (harg1 : arg1.IsWhole) (arg2 : Memref sig .tc .vmem S1x500x151 .f32) (harg2 : arg2.IsWhole) (arg3 : Memref sig .tc .vmem S1x500x151 .f32) (harg3 : arg3.IsWhole) (arg4 : Memref sig .tc .vmem S1x500x151 .f32) (harg4 : arg4.IsWhole) (arg5 : Memref sig .tc .vmem S1x500x4 .f32) (harg5 : arg5.IsWhole) (arg6 : Memref sig .tc .vmem S1x500x4 .f32) (harg6 : arg6.IsWhole) (arg7 : Memref sig .tc .vmem S1x500x4 .f32) (harg7 : arg7.IsWhole) (arg8 : Memref sig .tc .vmem S1x1x4 .f32) (harg8 : arg8.IsWhole) (arg9 : Memref sig .tc .vmem S1x500x500 .f32) (harg9 : arg9.IsWhole) (arg10 : Memref sig .tc .vmem S1x500x500 .f32) (harg10 : arg10.IsWhole) (arg11 : Memref sig .tc .vmem S500x500 .f32) (harg11 : arg11.IsWhole) (arg12 : Memref sig .tc .vmem S500x500 .f32) (harg12 : arg12.IsWhole)
    (x0 : Vec F S1x500x4 .f32) (x1 : Vec F S1x500x151 .f32) (x2 : Vec F S1x500x151 .f32) (x3 : Vec F S1x500x151 .f32) (x4 : Vec F S1x500x4 .f32) (x5 : Vec F S1x500x4 .f32) (x6 : Vec F S1x500x4 .f32) (x7 : Vec F S1x1x4 .f32) : List (View.Piece (Elt F) S1x500x500 .f32) :=
  ⟨Rect.unit (s := S1x500x500) ![0, 448, 0] S1x52x500.size inb_S1x500x500_S1x52x500_0_448_0, tail9 c i arg1 harg1 arg2 harg2 arg3 harg3 arg4 harg4 arg5 harg5 arg6 harg6 arg7 harg7 arg8 harg8 arg9 harg9 arg10 harg10 arg11 harg11 arg12 harg12 x0 x1 x2 x3 x4 x5 x6 x7⟩ :: (loopP c i arg1 harg1 arg2 harg2 arg3 harg3 arg4 harg4 arg5 harg5 arg6 harg6 arg7 harg7 arg8 harg8 arg9 harg9 arg10 harg10 arg11 harg11 arg12 harg12 x0 x1 x2 x3 x4 x5 x6 x7).2

/-- What the run leaves in an output's buffer is its strips written over what the buffer held. -/
theorem G8_eq (c : Dev nD) (i : grid0.Coords) (arg1 : Memref sig .tc .vmem S1x500x4 .f32) (harg1 : arg1.IsWhole) (arg2 : Memref sig .tc .vmem S1x500x151 .f32) (harg2 : arg2.IsWhole) (arg3 : Memref sig .tc .vmem S1x500x151 .f32) (harg3 : arg3.IsWhole) (arg4 : Memref sig .tc .vmem S1x500x151 .f32) (harg4 : arg4.IsWhole) (arg5 : Memref sig .tc .vmem S1x500x4 .f32) (harg5 : arg5.IsWhole) (arg6 : Memref sig .tc .vmem S1x500x4 .f32) (harg6 : arg6.IsWhole) (arg7 : Memref sig .tc .vmem S1x500x4 .f32) (harg7 : arg7.IsWhole) (arg8 : Memref sig .tc .vmem S1x1x4 .f32) (harg8 : arg8.IsWhole) (arg9 : Memref sig .tc .vmem S1x500x500 .f32) (harg9 : arg9.IsWhole) (arg10 : Memref sig .tc .vmem S1x500x500 .f32) (harg10 : arg10.IsWhole) (arg11 : Memref sig .tc .vmem S500x500 .f32) (harg11 : arg11.IsWhole) (arg12 : Memref sig .tc .vmem S500x500 .f32) (harg12 : arg12.IsWhole)
    (x0 : Vec F S1x500x4 .f32) (x1 : Vec F S1x500x151 .f32) (x2 : Vec F S1x500x151 .f32) (x3 : Vec F S1x500x151 .f32) (x4 : Vec F S1x500x4 .f32) (x5 : Vec F S1x500x4 .f32) (x6 : Vec F S1x500x4 .f32) (x7 : Vec F S1x1x4 .f32) (f : BufTy.Contents (Elt F) arg9.view.ty) :
    (kernelRun0 c i arg1 harg1 arg2 harg2 arg3 harg3 arg4 harg4 arg5 harg5 arg6 harg6 arg7 harg7 arg8 harg8 arg9 harg9 arg10 harg10 arg11 harg11 arg12 harg12 x0 x1 x2 x3 x4 x5 x6 x7).1 f = arg9.view.writes (Elt F) f (L8 c i arg1 harg1 arg2 harg2 arg3 harg3 arg4 harg4 arg5 harg5 arg6 harg6 arg7 harg7 arg8 harg8 arg9 harg9 arg10 harg10 arg11 harg11 arg12 harg12 x0 x1 x2 x3 x4 x5 x6 x7) :=
  (show (kernelRun0 c i arg1 harg1 arg2 harg2 arg3 harg3 arg4 harg4 arg5 harg5 arg6 harg6 arg7 harg7 arg8 harg8 arg9 harg9 arg10 harg10 arg11 harg11 arg12 harg12 x0 x1 x2 x3 x4 x5 x6 x7).1 f = kernelRun0.sl.H8_w1 c i arg1 harg1 arg2 harg2 arg3 harg3 arg4 harg4 arg5 harg5 arg6 harg6 arg7 harg7 arg8 harg8 arg9 harg9 arg10 harg10 arg11 harg11 arg12 harg12 x0 x1 x2 x3 x4 x5 x6 x7 f from rfl).trans
    ((show kernelRun0.sl.H8_w1 c i arg1 harg1 arg2 harg2 arg3 harg3 arg4 harg4 arg5 harg5 arg6 harg6 arg7 harg7 arg8 harg8 arg9 harg9 arg10 harg10 arg11 harg11 arg12 harg12 x0 x1 x2 x3 x4 x5 x6 x7 f
        = View.write (Elt F) (arg9.access (Rect.unit ![0, 448, 0] ![1, 52, 500] inb_S1x500x500_S1x52x500_0_448_0))
            (arg9.view.writes (Elt F) f (loopP c i arg1 harg1 arg2 harg2 arg3 harg3 arg4 harg4 arg5 harg5 arg6 harg6 arg7 harg7 arg8 harg8 arg9 harg9 arg10 harg10 arg11 harg11 arg12 harg12 x0 x1 x2 x3 x4 x5 x6 x7).1) (tail8 c i arg1 harg1 arg2 harg2 arg3 harg3 arg4 harg4 arg5 harg5 arg6 harg6 arg7 harg7 arg8 harg8 arg9 harg9 arg10 harg10 arg11 harg11 arg12 harg12 x0 x1 x2 x3 x4 x5 x6 x7) Finset.univ from rfl).trans
      (show View.write (Elt F) (arg9.access (Rect.unit ![0, 448, 0] ![1, 52, 500] inb_S1x500x500_S1x52x500_0_448_0))
            (arg9.view.writes (Elt F) f (loopP c i arg1 harg1 arg2 harg2 arg3 harg3 arg4 harg4 arg5 harg5 arg6 harg6 arg7 harg7 arg8 harg8 arg9 harg9 arg10 harg10 arg11 harg11 arg12 harg12 x0 x1 x2 x3 x4 x5 x6 x7).1) (tail8 c i arg1 harg1 arg2 harg2 arg3 harg3 arg4 harg4 arg5 harg5 arg6 harg6 arg7 harg7 arg8 harg8 arg9 harg9 arg10 harg10 arg11 harg11 arg12 harg12 x0 x1 x2 x3 x4 x5 x6 x7) Finset.univ
          = arg9.view.writes (Elt F) f (L8 c i arg1 harg1 arg2 harg2 arg3 harg3 arg4 harg4 arg5 harg5 arg6 harg6 arg7 harg7 arg8 harg8 arg9 harg9 arg10 harg10 arg11 harg11 arg12 harg12 x0 x1 x2 x3 x4 x5 x6 x7) from rfl))
theorem G9_eq (c : Dev nD) (i : grid0.Coords) (arg1 : Memref sig .tc .vmem S1x500x4 .f32) (harg1 : arg1.IsWhole) (arg2 : Memref sig .tc .vmem S1x500x151 .f32) (harg2 : arg2.IsWhole) (arg3 : Memref sig .tc .vmem S1x500x151 .f32) (harg3 : arg3.IsWhole) (arg4 : Memref sig .tc .vmem S1x500x151 .f32) (harg4 : arg4.IsWhole) (arg5 : Memref sig .tc .vmem S1x500x4 .f32) (harg5 : arg5.IsWhole) (arg6 : Memref sig .tc .vmem S1x500x4 .f32) (harg6 : arg6.IsWhole) (arg7 : Memref sig .tc .vmem S1x500x4 .f32) (harg7 : arg7.IsWhole) (arg8 : Memref sig .tc .vmem S1x1x4 .f32) (harg8 : arg8.IsWhole) (arg9 : Memref sig .tc .vmem S1x500x500 .f32) (harg9 : arg9.IsWhole) (arg10 : Memref sig .tc .vmem S1x500x500 .f32) (harg10 : arg10.IsWhole) (arg11 : Memref sig .tc .vmem S500x500 .f32) (harg11 : arg11.IsWhole) (arg12 : Memref sig .tc .vmem S500x500 .f32) (harg12 : arg12.IsWhole)
    (x0 : Vec F S1x500x4 .f32) (x1 : Vec F S1x500x151 .f32) (x2 : Vec F S1x500x151 .f32) (x3 : Vec F S1x500x151 .f32) (x4 : Vec F S1x500x4 .f32) (x5 : Vec F S1x500x4 .f32) (x6 : Vec F S1x500x4 .f32) (x7 : Vec F S1x1x4 .f32) (f : BufTy.Contents (Elt F) arg10.view.ty) :
    (kernelRun0 c i arg1 harg1 arg2 harg2 arg3 harg3 arg4 harg4 arg5 harg5 arg6 harg6 arg7 harg7 arg8 harg8 arg9 harg9 arg10 harg10 arg11 harg11 arg12 harg12 x0 x1 x2 x3 x4 x5 x6 x7).2.1 f = arg10.view.writes (Elt F) f (L9 c i arg1 harg1 arg2 harg2 arg3 harg3 arg4 harg4 arg5 harg5 arg6 harg6 arg7 harg7 arg8 harg8 arg9 harg9 arg10 harg10 arg11 harg11 arg12 harg12 x0 x1 x2 x3 x4 x5 x6 x7) :=
  (show (kernelRun0 c i arg1 harg1 arg2 harg2 arg3 harg3 arg4 harg4 arg5 harg5 arg6 harg6 arg7 harg7 arg8 harg8 arg9 harg9 arg10 harg10 arg11 harg11 arg12 harg12 x0 x1 x2 x3 x4 x5 x6 x7).2.1 f = kernelRun0.sl.H9_w2 c i arg1 harg1 arg2 harg2 arg3 harg3 arg4 harg4 arg5 harg5 arg6 harg6 arg7 harg7 arg8 harg8 arg9 harg9 arg10 harg10 arg11 harg11 arg12 harg12 x0 x1 x2 x3 x4 x5 x6 x7 f from rfl).trans
    ((show kernelRun0.sl.H9_w2 c i arg1 harg1 arg2 harg2 arg3 harg3 arg4 harg4 arg5 harg5 arg6 harg6 arg7 harg7 arg8 harg8 arg9 harg9 arg10 harg10 arg11 harg11 arg12 harg12 x0 x1 x2 x3 x4 x5 x6 x7 f
        = View.write (Elt F) (arg10.access (Rect.unit ![0, 448, 0] ![1, 52, 500] inb_S1x500x500_S1x52x500_0_448_0))
            (arg10.view.writes (Elt F) f (loopP c i arg1 harg1 arg2 harg2 arg3 harg3 arg4 harg4 arg5 harg5 arg6 harg6 arg7 harg7 arg8 harg8 arg9 harg9 arg10 harg10 arg11 harg11 arg12 harg12 x0 x1 x2 x3 x4 x5 x6 x7).2) (tail9 c i arg1 harg1 arg2 harg2 arg3 harg3 arg4 harg4 arg5 harg5 arg6 harg6 arg7 harg7 arg8 harg8 arg9 harg9 arg10 harg10 arg11 harg11 arg12 harg12 x0 x1 x2 x3 x4 x5 x6 x7) Finset.univ from rfl).trans
      (show View.write (Elt F) (arg10.access (Rect.unit ![0, 448, 0] ![1, 52, 500] inb_S1x500x500_S1x52x500_0_448_0))
            (arg10.view.writes (Elt F) f (loopP c i arg1 harg1 arg2 harg2 arg3 harg3 arg4 harg4 arg5 harg5 arg6 harg6 arg7 harg7 arg8 harg8 arg9 harg9 arg10 harg10 arg11 harg11 arg12 harg12 x0 x1 x2 x3 x4 x5 x6 x7).2) (tail9 c i arg1 harg1 arg2 harg2 arg3 harg3 arg4 harg4 arg5 harg5 arg6 harg6 arg7 harg7 arg8 harg8 arg9 harg9 arg10 harg10 arg11 harg11 arg12 harg12 x0 x1 x2 x3 x4 x5 x6 x7) Finset.univ
          = arg10.view.writes (Elt F) f (L9 c i arg1 harg1 arg2 harg2 arg3 harg3 arg4 harg4 arg5 harg5 arg6 harg6 arg7 harg7 arg8 harg8 arg9 harg9 arg10 harg10 arg11 harg11 arg12 harg12 x0 x1 x2 x3 x4 x5 x6 x7) from rfl))

/-! ## The strips cover an output's block: they tile it in bands of four rows -/

theorem cover0_8 (c : Dev nD) (i : grid0.Coords) (arg1 : Memref sig .tc .vmem S1x500x4 .f32) (harg1 : arg1.IsWhole) (arg2 : Memref sig .tc .vmem S1x500x151 .f32) (harg2 : arg2.IsWhole) (arg3 : Memref sig .tc .vmem S1x500x151 .f32) (harg3 : arg3.IsWhole) (arg4 : Memref sig .tc .vmem S1x500x151 .f32) (harg4 : arg4.IsWhole) (arg5 : Memref sig .tc .vmem S1x500x4 .f32) (harg5 : arg5.IsWhole) (arg6 : Memref sig .tc .vmem S1x500x4 .f32) (harg6 : arg6.IsWhole) (arg7 : Memref sig .tc .vmem S1x500x4 .f32) (harg7 : arg7.IsWhole) (arg8 : Memref sig .tc .vmem S1x1x4 .f32) (harg8 : arg8.IsWhole) (arg9 : Memref sig .tc .vmem S1x500x500 .f32) (harg9 : arg9.IsWhole) (arg10 : Memref sig .tc .vmem S1x500x500 .f32) (harg10 : arg10.IsWhole) (arg11 : Memref sig .tc .vmem S500x500 .f32) (harg11 : arg11.IsWhole) (arg12 : Memref sig .tc .vmem S500x500 .f32) (harg12 : arg12.IsWhole)
    (x0 : Vec F S1x500x4 .f32) (x1 : Vec F S1x500x151 .f32) (x2 : Vec F S1x500x151 .f32) (x3 : Vec F S1x500x151 .f32) (x4 : Vec F S1x500x4 .f32) (x5 : Vec F S1x500x4 .f32) (x6 : Vec F S1x500x4 .f32) (x7 : Vec F S1x1x4 .f32) (y : S1x500x500.Idx) :
    ∃ pc ∈ L8 c i arg1 harg1 arg2 harg2 arg3 harg3 arg4 harg4 arg5 harg5 arg6 harg6 arg7 harg7 arg8 harg8 arg9 harg9 arg10 harg10 arg11 harg11 arg12 harg12 x0 x1 x2 x3 x4 x5 x6 x7, y ∈ pc.1.set :=
  View.cover_of_tiledBy (L8 c i arg1 harg1 arg2 harg2 arg3 harg3 arg4 harg4 arg5 harg5 arg6 harg6 arg7 harg7 arg8 harg8 arg9 harg9 arg10 harg10 arg11 harg11 arg12 harg12 x0 x1 x2 x3 x4 x5 x6 x7) ![1, 4, 500] (by sl_kernel_rfl) y
theorem cover0_9 (c : Dev nD) (i : grid0.Coords) (arg1 : Memref sig .tc .vmem S1x500x4 .f32) (harg1 : arg1.IsWhole) (arg2 : Memref sig .tc .vmem S1x500x151 .f32) (harg2 : arg2.IsWhole) (arg3 : Memref sig .tc .vmem S1x500x151 .f32) (harg3 : arg3.IsWhole) (arg4 : Memref sig .tc .vmem S1x500x151 .f32) (harg4 : arg4.IsWhole) (arg5 : Memref sig .tc .vmem S1x500x4 .f32) (harg5 : arg5.IsWhole) (arg6 : Memref sig .tc .vmem S1x500x4 .f32) (harg6 : arg6.IsWhole) (arg7 : Memref sig .tc .vmem S1x500x4 .f32) (harg7 : arg7.IsWhole) (arg8 : Memref sig .tc .vmem S1x1x4 .f32) (harg8 : arg8.IsWhole) (arg9 : Memref sig .tc .vmem S1x500x500 .f32) (harg9 : arg9.IsWhole) (arg10 : Memref sig .tc .vmem S1x500x500 .f32) (harg10 : arg10.IsWhole) (arg11 : Memref sig .tc .vmem S500x500 .f32) (harg11 : arg11.IsWhole) (arg12 : Memref sig .tc .vmem S500x500 .f32) (harg12 : arg12.IsWhole)
    (x0 : Vec F S1x500x4 .f32) (x1 : Vec F S1x500x151 .f32) (x2 : Vec F S1x500x151 .f32) (x3 : Vec F S1x500x151 .f32) (x4 : Vec F S1x500x4 .f32) (x5 : Vec F S1x500x4 .f32) (x6 : Vec F S1x500x4 .f32) (x7 : Vec F S1x1x4 .f32) (y : S1x500x500.Idx) :
    ∃ pc ∈ L9 c i arg1 harg1 arg2 harg2 arg3 harg3 arg4 harg4 arg5 harg5 arg6 harg6 arg7 harg7 arg8 harg8 arg9 harg9 arg10 harg10 arg11 harg11 arg12 harg12 x0 x1 x2 x3 x4 x5 x6 x7, y ∈ pc.1.set :=
  View.cover_of_tiledBy (L9 c i arg1 harg1 arg2 harg2 arg3 harg3 arg4 harg4 arg5 harg5 arg6 harg6 arg7 harg7 arg8 harg8 arg9 harg9 arg10 harg10 arg11 harg11 arg12 harg12 x0 x1 x2 x3 x4 x5 x6 x7) ![1, 4, 500] (by sl_kernel_rfl) y

end Cert.KernelIdeal.Frame

end
-- ==== Proof.KI.Frame.lean ====
/-
  The frame of the program, from the run of its body. After a point each input's staging buffer still holds its block,
  and each output's buffer holds the run's row strips read back; the strips (seven of 64 rows, one of 52) tile the
  block in bands of four rows, so nothing of what the buffer held before is left. With these contents as proof data,
  the body's run discharges the region's obligation at every point, the region runs on its 64 points, and every
  argument array ends as launched.
-/
import proofs.«109971_j31181462569594_2_alg».proof.Proof.KI.Shape

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the run leaves in an output's staging buffer: its strips read back. -/
def out0_8 (c : Dev nD) (i : grid0.Coords) (arg1 : Memref sig .tc .vmem S1x500x4 .f32) (harg1 : arg1.IsWhole) (arg2 : Memref sig .tc .vmem S1x500x151 .f32) (harg2 : arg2.IsWhole) (arg3 : Memref sig .tc .vmem S1x500x151 .f32) (harg3 : arg3.IsWhole) (arg4 : Memref sig .tc .vmem S1x500x151 .f32) (harg4 : arg4.IsWhole) (arg5 : Memref sig .tc .vmem S1x500x4 .f32) (harg5 : arg5.IsWhole) (arg6 : Memref sig .tc .vmem S1x500x4 .f32) (harg6 : arg6.IsWhole) (arg7 : Memref sig .tc .vmem S1x500x4 .f32) (harg7 : arg7.IsWhole) (arg8 : Memref sig .tc .vmem S1x1x4 .f32) (harg8 : arg8.IsWhole) (arg9 : Memref sig .tc .vmem S1x500x500 .f32) (harg9 : arg9.IsWhole) (arg10 : Memref sig .tc .vmem S1x500x500 .f32) (harg10 : arg10.IsWhole) (arg11 : Memref sig .tc .vmem S500x500 .f32) (harg11 : arg11.IsWhole) (arg12 : Memref sig .tc .vmem S500x500 .f32) (harg12 : arg12.IsWhole)
    (x0 : Vec F S1x500x4 .f32) (x1 : Vec F S1x500x151 .f32) (x2 : Vec F S1x500x151 .f32) (x3 : Vec F S1x500x151 .f32) (x4 : Vec F S1x500x4 .f32) (x5 : Vec F S1x500x4 .f32) (x6 : Vec F S1x500x4 .f32) (x7 : Vec F S1x1x4 .f32) : Vec F S1x500x500 .f32 :=
  VO0_8.read (Elt F) (VO0_8.writes (Elt F) VO0_8.junk (L8 c i arg1 harg1 arg2 harg2 arg3 harg3 arg4 harg4 arg5 harg5 arg6 harg6 arg7 harg7 arg8 harg8 arg9 harg9 arg10 harg10 arg11 harg11 arg12 harg12 x0 x1 x2 x3 x4 x5 x6 x7))

def out0_9 (c : Dev nD) (i : grid0.Coords) (arg1 : Memref sig .tc .vmem S1x500x4 .f32) (harg1 : arg1.IsWhole) (arg2 : Memref sig .tc .vmem S1x500x151 .f32) (harg2 : arg2.IsWhole) (arg3 : Memref sig .tc .vmem S1x500x151 .f32) (harg3 : arg3.IsWhole) (arg4 : Memref sig .tc .vmem S1x500x151 .f32) (harg4 : arg4.IsWhole) (arg5 : Memref sig .tc .vmem S1x500x4 .f32) (harg5 : arg5.IsWhole) (arg6 : Memref sig .tc .vmem S1x500x4 .f32) (harg6 : arg6.IsWhole) (arg7 : Memref sig .tc .vmem S1x500x4 .f32) (harg7 : arg7.IsWhole) (arg8 : Memref sig .tc .vmem S1x1x4 .f32) (harg8 : arg8.IsWhole) (arg9 : Memref sig .tc .vmem S1x500x500 .f32) (harg9 : arg9.IsWhole) (arg10 : Memref sig .tc .vmem S1x500x500 .f32) (harg10 : arg10.IsWhole) (arg11 : Memref sig .tc .vmem S500x500 .f32) (harg11 : arg11.IsWhole) (arg12 : Memref sig .tc .vmem S500x500 .f32) (harg12 : arg12.IsWhole)
    (x0 : Vec F S1x500x4 .f32) (x1 : Vec F S1x500x151 .f32) (x2 : Vec F S1x500x151 .f32) (x3 : Vec F S1x500x151 .f32) (x4 : Vec F S1x500x4 .f32) (x5 : Vec F S1x500x4 .f32) (x6 : Vec F S1x500x4 .f32) (x7 : Vec F S1x1x4 .f32) : Vec F S1x500x500 .f32 :=
  VO0_9.read (Elt F) (VO0_9.writes (Elt F) VO0_9.junk (L9 c i arg1 harg1 arg2 harg2 arg3 harg3 arg4 harg4 arg5 harg5 arg6 harg6 arg7 harg7 arg8 harg8 arg9 harg9 arg10 harg10 arg11 harg11 arg12 harg12 x0 x1 x2 x3 x4 x5 x6 x7))

/-! ## What the outputs hold after each point -/

def outAt0_8 (c : Dev nD) (t : Fin cfg0.N) : Vec F S1x500x500 .f32 :=
  out0_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t)

def outAt0_9 (c : Dev nD) (t : Fin cfg0.N) : Vec F S1x500x500 .f32 :=
  out0_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t)

/-! ## The proof data -/

/-- The arrays as the region finds them; after the body each input's buffer at its block, each output's at the run's
    strips; the invariant the scratch matrices and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt0_8 m c t
    | ⟨9, _⟩ => outAt0_9 m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = outAt0_8 m c t := by dsimp only [dats]
theorem after0_9 (c : Dev nD) (t : Fin cfg0.N) : (dats m 0 c).after 9 t = outAt0_9 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 2000000 in
/-- The body at any point: the inputs' memrefs hold their blocks, so the run applies; the invariant lends the two
    scratch matrices and takes them back at whatever they then hold. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  unfold outAt0_8 outAt0_9
  unfold out0_8 out0_9
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun0 c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [HS0]; · iexact HS0
  isplitl [HS1]; · iexact HS1
  iintro ⟨H0, H1, H2, H3, H4, H5, H6, H7, ⟨%e8, H8⟩, ⟨%e9, H9⟩, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; rw [G8_eq]; exact View.read_writes_of_cover _ _ _ _ _ (cover0_8 c _ _ _ _ _ _ _ _ _ _ _ _ _ _ _ _ _ _ _ _ _ _ _ _ _ _ _ _ _ _ _ _ _)
  unfold owns; iexists _; isplitr
  swap; · iexact H9
  ipureintro; rw [G9_eq]; exact View.read_writes_of_cover _ _ _ _ _ (cover0_9 c _ _ _ _ _ _ _ _ _ _ _ _ _ _ _ _ _ _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, with every array of the region at what the proof data
    say and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs and its eight argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.KernelIdeal.Frame

end
-- ==== Proof.LibLayout.lean ====
/-
  General index lemmas for layout operations the library's own list does not carry: a vector made a one-column
  matrix and back, a one-column matrix broadcast along its rows, a vector read at its one entry. Each says
  which entry of the operand an entry of the result is. Stated over arbitrary extents and any element type.
-/
import Idealize.ShloMosaic.Lib.ValueIdx
import Idealize.ShloMosaic.Lib.ValueLayout
import Idealize.ShloMosaic.Lib.Pipeline.Value
import Idealize.ShloMosaic.Lib.Pipeline.FrameBody
import Idealize.ShloMosaic.PureOps.Ideal.Laws

namespace Cert.LibLayout

open Idealize.ShloMosaic Idealize.ShloMosaic.ValueIdx

variable {α : Type}

/-- An `[a]` vector cast to an `[a, 1]` column reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to an `[a]` vector reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector cut from `o` reads, at `j`, the source at `o + j`. -/
theorem slice1_eq {n m : Nat} (o : Nat) (X : (⟨1, ![n]⟩ : Shape).Idx → α) (h : (⟨1, ![n]⟩ : Shape).Slices ![o] ⟨1, ![m]⟩) (j : Fin m) :
    extractStridedSlice ⟨1, ![m]⟩ ![o] X h (ix1 j) = X (ix1 ⟨o + j.val, Nat.lt_of_lt_of_le (Nat.add_lt_add_left j.isLt o) (h.2 0)⟩) :=
  extractStridedSlice_apply _ _ _ _ _ (fun ax => by match ax with | ⟨0, _⟩ => rfl)

/-- A vector's entry taken at the literal position `p`. -/
theorem extractAt1_apply {n : Nat} (p : Nat) (x : (⟨1, ![n]⟩ : Shape).Idx → α) (h : ∀ a, (![p] : Fin 1 → Nat) a < (⟨1, ![n]⟩ : Shape).size a) :
    extractAt ![p] x h = x (ix1 ⟨p, h 0⟩) := by
  unfold extractAt
  exact congrArg x (funext fun a => match a with | ⟨0, _⟩ => rfl)

/-- A `[1, 1, a]` array cast to `[a]` reads, at `i`, the operand at `(0, 0, i)`. -/
theorem shapeCast_11a_a_apply {a : ℕ} (x : (⟨3, ![1, 1, a]⟩ : Shape).Idx → α) (h : (⟨3, ![1, 1, a]⟩ : Shape).ShapeCasts ⟨1, ![a]⟩)
    (i : Fin a) : shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp only [Nat.zero_mul, Nat.zero_add])

/-- A matrix's leading columns: cut along its columns from 0, it reads, at `(a, j)`, the source at `(a, j)`. -/
theorem slice2_head_eq {n0 n1 m : Nat} (X : (⟨2, ![n0, n1]⟩ : Shape).Idx → α)
    (h : (⟨2, ![n0, n1]⟩ : Shape).Slices ![0, 0] ⟨2, ![n0, m]⟩) (hm : m ≤ n1) (a : Fin n0) (j : Fin m) :
    extractStridedSlice ⟨2, ![n0, m]⟩ ![0, 0] X h (ix2 a j) = X (ix2 a ⟨j.val, Nat.lt_of_lt_of_le j.isLt hm⟩) :=
  slice2_axis1_apply 0 X h a j ⟨j.val, Nat.lt_of_lt_of_le j.isLt hm⟩ (Nat.zero_add _).symm

/-! ## A matrix reduced along its rows -/

/-- The index of a matrix whose row coordinate is `r`, with the column `k` put back. -/
theorem lift_row {a b : ℕ} (h : (⟨2, ![a, b]⟩ : Shape).Reduces [(1 : Fin 2)] ⟨1, ![a]⟩) (r : Fin a) (k : Fin b) :
    h.lift (ix1 r) k = ix2 r k := by
  funext d
  match d with
  | ⟨0, _⟩ => exact Fin.ext rfl
  | ⟨1, _⟩ => exact Fin.ext rfl

/-- A row sum, at the ideal values: the sum of the row's entries. -/
theorem rowSum_apply {a b : ℕ} (src : FVec Ideal ⟨2, ![a, b]⟩ .f32) (h : (⟨2, ![a, b]⟩ : Shape).Reduces [(1 : Fin 2)] ⟨1, ![a]⟩)
    (hφ : FKind.Formats .f32) (hacc : (0x00000000#32 : BitVec 32) = 0x00000000#32) (r : Fin a) :
    multiReduction .add [(1 : Fin 2)] ⟨1, ![a]⟩ src 0x00000000#32 h hφ hacc (ix1 r) = ∑ k : Fin b, src (ix2 r k) :=
  (Ideal.multiReduction_add_single src 0x00000000#32 h hφ hacc (ix1 r)).trans
    (Finset.sum_congr rfl fun k _ => congrArg src (lift_row h r k))

/-- A row maximum, at the ideal values: the fold of `max` over the row's entries from minus infinity. -/
theorem rowMax_apply {a b : ℕ} (src : FVec Ideal ⟨2, ![a, b]⟩ .f32) (h : (⟨2, ![a, b]⟩ : Shape).Reduces [(1 : Fin 2)] ⟨1, ![a]⟩)
    (hφ : FKind.Formats .f32) (hacc : (0xFF800000#32 : BitVec 32) = 0xFF800000#32) (r : Fin a) :
    multiReduction .maximumf [(1 : Fin 2)] ⟨1, ![a]⟩ src 0xFF800000#32 h hφ hacc (ix1 r)
      = (Finset.univ : Finset (Fin b)).fold max (Ideal.ofBits .f32 0xFF800000#32) (fun k => src (ix2 r k)) :=
  (Ideal.multiReduction_maximumf_single src 0xFF800000#32 h hφ hacc (ix1 r)).trans
    (congrArg (Finset.univ.fold max (Ideal.ofBits .f32 0xFF800000#32)) (funext fun k => congrArg src (lift_row h r k)))

/-! ## Loads through a rectangle of rows -/

/-- Rows `o` to `o + h - 1` of a `[1, n, k]` array, read at `(u, p, j)`: the array at `(0, o + p, j)`. -/
theorem ld_rows3 {Val : EltTy → Type} {e' : EltTy} {n k h : ℕ} (X : (⟨3, ![1, n, k]⟩ : Shape).Idx → Val e') (o : ℕ)
    (inb : ∀ a, (![0, o, 0] : Fin 3 → ℕ) a + (![1, h, k] : Fin 3 → ℕ) a ≤ (⟨3, ![1, n, k]⟩ : Shape).size a)
    (u : Fin 1) (p : Fin h) (j : Fin k) (hp : o + p.val < n) :
    View.ld (Val := Val) X (Rect.unit (s := ⟨3, ![1, n, k]⟩) ![0, o, 0] ![1, h, k] inb) (ix3 u p j) = X (ix3 (0 : Fin 1) ⟨o + p.val, hp⟩ j) := by
  show X _ = X _
  refine congrArg X (funext fun a => Fin.ext ?_)
  match a with
  | ⟨0, _⟩ => show 0 + 1 * u.val = 0; have := u.isLt; omega
  | ⟨1, _⟩ => show o + 1 * p.val = o + p.val; omega
  | ⟨2, _⟩ => show 0 + 1 * j.val = j.val; omega

/-- Rows `o` to `o + h - 1` of an `[n, k]` matrix, read at `(p, j)`: the matrix at `(o + p, j)`. -/
theorem idx_rows2 {n k h : ℕ} (o : ℕ)
    (inb : ∀ a, (![o, 0] : Fin 2 → ℕ) a + (![h, k] : Fin 2 → ℕ) a ≤ (⟨2, ![n, k]⟩ : Shape).size a)
    (p : Fin h) (j : Fin k) (hp : o + p.val < n) :
    (Rect.unit (s := ⟨2, ![n, k]⟩) ![o, 0] ![h, k] inb).toLoadRect.idx (ix2 p j) = ix2 ⟨o + p.val, hp⟩ j := by
  refine funext fun a => Fin.ext ?_
  match a with
  | ⟨0, _⟩ => show o + 1 * p.val = o + p.val; omega
  | ⟨1, _⟩ => show 0 + 1 * j.val = j.val; omega

/-- The place of entry `(u, p, j)` of a strip of rows `o` to `o + h - 1` in a `[1, n, k]` block. -/
theorem emb_rows3 {n k h : ℕ} (o : ℕ)
    (inb : ∀ a, (![0, o, 0] : Fin 3 → ℕ) a + (![1, h, k] : Fin 3 → ℕ) a ≤ (⟨3, ![1, n, k]⟩ : Shape).size a)
    (u : Fin 1) (p : Fin h) (j : Fin k) (hp : o + p.val < n) :
    (Rect.unit (s := ⟨3, ![1, n, k]⟩) ![0, o, 0] ![1, h, k] inb).emb (ix3 u p j) = ix3 (0 : Fin 1) ⟨o + p.val, hp⟩ j := by
  refine funext fun a => Fin.ext ?_
  match a with
  | ⟨0, _⟩ => show 0 + 1 * u.val = 0; have := u.isLt; omega
  | ⟨1, _⟩ => show o + 1 * p.val = o + p.val; omega
  | ⟨2, _⟩ => show 0 + 1 * j.val = j.val; omega

/-! ## Three pointwise operations read at an index -/

section Pointwise
variable {s : Shape} {φ : FTy}

theorem absf_apply (a : FVec Ideal s φ) (i : s.Idx) : absf a i = max (a i) (-(a i)) := rfl
theorem sqrt_apply (a : FVec Ideal s φ) (i : s.Idx) : sqrt a i = Ideal.sqrt (a i) := rfl
theorem exp_apply (a : FVec Ideal s φ) (i : s.Idx) : exp a i = Ideal.exp (a i) := rfl

end Pointwise

end Cert.LibLayout
-- ==== Proof.Spec.lean ====
/-
  The scalar functions both programs compute, on the extended reals. A box is given by its centre and extent on each
  axis; its low and high corners are the centre minus or plus half the extent, scaled by the image's width or height.
  The matching cost of a relation row against an entity column is a product of three factors: the entity's class
  confidence times the inverse of one plus the L1 distance between a relation endpoint and the entity's centre; the
  inverse of one plus the Euclidean distance between two class distributions; and the positive part of the generalized
  intersection over union of two boxes. The float constants are kept as the words both programs print.
-/
import Idealize.ShloMosaic.PureOps.Ideal
import Idealize.ShloMosaic.PureOps.Ideal.Laws
import Idealize.ShloMosaic.Lib.ValueIdx

noncomputable section

namespace Cert.Spec

open Idealize.ShloMosaic

/-- The constants, as their printed words: 1/2, 1, 0, 2, the distance floor, and minus infinity. -/
abbrev cHalf : EReal := Ideal.ofBits .f32 0x3F000000#32
abbrev cOne : EReal := Ideal.ofBits .f32 0x3F800000#32
abbrev cZero : EReal := Ideal.ofBits .f32 0x00000000#32
abbrev cTwo : EReal := Ideal.ofBits .f32 0x40000000#32
abbrev cEps : EReal := Ideal.ofBits .f32 0x2B8CBCCC#32
abbrev cNegInf : EReal := Ideal.ofBits .f32 0xFF800000#32

/-- The low corner of a box on one axis: (centre − extent/2) · scale. -/
def lo (c s g : EReal) : EReal := (c - cHalf * s) * g
/-- The high corner: (centre + extent/2) · scale. -/
def hi (c s g : EReal) : EReal := (c + cHalf * s) * g
/-- The centre recovered from two corners. -/
def mid (l h : EReal) : EReal := (l + h) * cHalf
/-- The unscaled high corner, before the scale is applied. -/
def hiRaw (c s : EReal) : EReal := c + cHalf * s

/-- The absolute value, as both programs take it. -/
def absv (x : EReal) : EReal := max x (-x)
/-- The L1 distance of the point (r0, r1) from the centre (cx, cy). -/
def l1 (r0 r1 cx cy : EReal) : EReal := absv (r0 - cx) + absv (r1 - cy)
/-- A confidence weighted by the inverse of one plus a distance. -/
def weight (score d : EReal) : EReal := score * Ideal.div cOne (d + cOne)
/-- The area of the box with corners (x0, y0) and (x1, y1). -/
def area (x0 y0 x1 y1 : EReal) : EReal := (x1 - x0) * (y1 - y0)
/-- The area of the intersection of boxes a and b (zero when they are apart). -/
def inter (ax0 ay0 ax1 ay1 bx0 by0 bx1 by1 : EReal) : EReal :=
  max (min ax1 bx1 - max ax0 bx0) cZero * max (min ay1 by1 - max ay0 by0) cZero
/-- The area of their union. -/
def union (ax0 ay0 ax1 ay1 bx0 by0 bx1 by1 : EReal) : EReal :=
  (area ax0 ay0 ax1 ay1 + area bx0 by0 bx1 by1) - inter ax0 ay0 ax1 ay1 bx0 by0 bx1 by1
/-- The area of the smallest box holding both. -/
def hull (ax0 ay0 ax1 ay1 bx0 by0 bx1 by1 : EReal) : EReal :=
  max (max ax1 bx1 - min ax0 bx0) cZero * max (max ay1 by1 - min ay0 by0) cZero
/-- The generalized intersection over union of boxes a and b. -/
def giou (ax0 ay0 ax1 ay1 bx0 by0 bx1 by1 : EReal) : EReal :=
  Ideal.div (inter ax0 ay0 ax1 ay1 bx0 by0 bx1 by1) (union ax0 ay0 ax1 ay1 bx0 by0 bx1 by1)
    - Ideal.div (hull ax0 ay0 ax1 ay1 bx0 by0 bx1 by1 - union ax0 ay0 ax1 ay1 bx0 by0 bx1 by1) (hull ax0 ay0 ax1 ay1 bx0 by0 bx1 by1)
/-- The positive part. -/
def pos (x : EReal) : EReal := max x cZero
/-- The inverse of one plus the Euclidean distance of two vectors, from their squared norms and their inner product. -/
def cls (a2 b2 ab : EReal) : EReal := Ideal.div cOne (Ideal.sqrt (max ((a2 + b2) - cTwo * ab) cEps) + cOne)
/-- One entry of the matching cost: confidence-weighted endpoint match, class match, box overlap. -/
def entry (m c g : EReal) : EReal := (m * c) * g

/-! ## A row of class logits -/

/-- The largest entry of a row (minus infinity for the empty row). -/
def rowMax {n : ℕ} (x : Fin n → EReal) : EReal := (Finset.univ : Finset (Fin n)).fold max cNegInf x
/-- The softmax of a row, at one class: the shifted exponential over the sum of the shifted exponentials. -/
def softmax {n : ℕ} (x : Fin n → EReal) (k : Fin n) : EReal :=
  Ideal.div (Ideal.exp (x k - rowMax x)) (∑ j : Fin n, Ideal.exp (x j - rowMax x))
/-- The class distribution of a row of 151 logits, the last (background) class dropped. -/
def prob (x : Fin 151 → EReal) (k : Fin 150) : EReal := softmax x ⟨k.val, Nat.lt_of_lt_of_le k.isLt (by decide)⟩
/-- The confidence: the largest class probability. -/
def score (x : Fin 151 → EReal) : EReal := (Finset.univ : Finset (Fin 150)).fold max cNegInf (prob x)
/-- The squared norm and the inner product of class distributions. -/
def sqNorm (p : Fin 150 → EReal) : EReal := ∑ k : Fin 150, p k * p k
def dotp (p q : Fin 150 → EReal) : EReal := ∑ k : Fin 150, p k * q k
/-- The class match of two rows of logits. -/
def clsOf (x y : Fin 151 → EReal) : EReal := cls (sqNorm (prob x)) (sqNorm (prob y)) (dotp (prob x) (prob y))

/-! ## The matching cost of a batch, entry by entry

`x0` the entity boxes, `x1` the entity class logits, `x2` and `x3` the relation object and subject class logits, `x4` and `x5` the relation
object and subject boxes, `x6` the relation vectors (two endpoints), `x7` the image sizes (height, width). A box is
(centre x, centre y, width, height). `b` is the image, `r` the relation, `e` the entity. -/

section Entry

open Idealize.ShloMosaic.ValueIdx

abbrev Boxes := (⟨3, ![64, 500, 4]⟩ : Shape).Idx → EReal
abbrev Logits := (⟨3, ![64, 500, 151]⟩ : Shape).Idx → EReal
abbrev Sizes := (⟨2, ![64, 2]⟩ : Shape).Idx → EReal

/-- An image's width and height. -/
def imgW (x7 : Sizes) (b : Fin 64) : EReal := x7 (ix2 b (1 : Fin 2))
def imgH (x7 : Sizes) (b : Fin 64) : EReal := x7 (ix2 b (0 : Fin 2))

/-- The four scaled corners of box `i` of image `b`. -/
def boxX0 (bx : Boxes) (x7 : Sizes) (b : Fin 64) (i : Fin 500) : EReal := lo (bx (ix3 b i (0 : Fin 4))) (bx (ix3 b i (2 : Fin 4))) (imgW x7 b)
def boxY0 (bx : Boxes) (x7 : Sizes) (b : Fin 64) (i : Fin 500) : EReal := lo (bx (ix3 b i (1 : Fin 4))) (bx (ix3 b i (3 : Fin 4))) (imgH x7 b)
def boxX1 (bx : Boxes) (x7 : Sizes) (b : Fin 64) (i : Fin 500) : EReal := hi (bx (ix3 b i (0 : Fin 4))) (bx (ix3 b i (2 : Fin 4))) (imgW x7 b)
def boxY1 (bx : Boxes) (x7 : Sizes) (b : Fin 64) (i : Fin 500) : EReal := hi (bx (ix3 b i (1 : Fin 4))) (bx (ix3 b i (3 : Fin 4))) (imgH x7 b)

/-- The positive part of the overlap of relation box `r` (of the boxes `bx`) with entity box `e`. -/
def boxGiou (bx x0 : Boxes) (x7 : Sizes) (b : Fin 64) (r e : Fin 500) : EReal :=
  pos (giou (boxX0 bx x7 b r) (boxY0 bx x7 b r) (boxX1 bx x7 b r) (boxY1 bx x7 b r) (boxX0 x0 x7 b e) (boxY0 x0 x7 b e) (boxX1 x0 x7 b e) (boxY1 x0 x7 b e))

/-- The match of the relation vector's endpoint (components `k0`, `k1`) with the entity's centre, weighted by the entity's confidence. -/
def endMatch (x0 : Boxes) (x1 : Logits) (x6 : Boxes) (x7 : Sizes) (k0 k1 : Fin 4) (b : Fin 64) (r e : Fin 500) : EReal :=
  weight (score (fun j => x1 (ix3 b e j)))
    (l1 (x6 (ix3 b r k0) * imgW x7 b) (x6 (ix3 b r k1) * imgH x7 b)
      (mid (boxX0 x0 x7 b e) (boxX1 x0 x7 b e)) (mid (boxY0 x0 x7 b e) (boxY1 x0 x7 b e)))

/-- The subject cost and the object cost of relation `r` against entity `e` in image `b`. -/
def subEntry (x0 : Boxes) (x1 x3 : Logits) (x5 x6 : Boxes) (x7 : Sizes) (b : Fin 64) (r e : Fin 500) : EReal :=
  entry (endMatch x0 x1 x6 x7 0 1 b r e) (clsOf (fun j => x3 (ix3 b r j)) (fun j => x1 (ix3 b e j))) (boxGiou x5 x0 x7 b r e)
def objEntry (x0 : Boxes) (x1 x2 : Logits) (x4 x6 : Boxes) (x7 : Sizes) (b : Fin 64) (r e : Fin 500) : EReal :=
  entry (endMatch x0 x1 x6 x7 2 3 b r e) (clsOf (fun j => x2 (ix3 b r j)) (fun j => x1 (ix3 b e j))) (boxGiou x4 x0 x7 b r e)

end Entry

/-! ## The same cost on one image's blocks

The kernel sees one image at a time: `[1, 500, ·]` blocks of the arrays above and the image's scale as a `[1, 1, 4]`
block `[w, h, w, h]`. -/

section Block

open Idealize.ShloMosaic.ValueIdx

abbrev Blk4 := (⟨3, ![1, 500, 4]⟩ : Shape).Idx → EReal
abbrev Blk151 := (⟨3, ![1, 500, 151]⟩ : Shape).Idx → EReal
abbrev BlkS := (⟨3, ![1, 1, 4]⟩ : Shape).Idx → EReal

def blkW (s : BlkS) : EReal := s (ix3 (0 : Fin 1) (0 : Fin 1) (0 : Fin 4))
def blkH (s : BlkS) : EReal := s (ix3 (0 : Fin 1) (0 : Fin 1) (1 : Fin 4))

def blkX0 (bx : Blk4) (s : BlkS) (i : Fin 500) : EReal := lo (bx (ix3 (0 : Fin 1) i (0 : Fin 4))) (bx (ix3 (0 : Fin 1) i (2 : Fin 4))) (blkW s)
def blkY0 (bx : Blk4) (s : BlkS) (i : Fin 500) : EReal := lo (bx (ix3 (0 : Fin 1) i (1 : Fin 4))) (bx (ix3 (0 : Fin 1) i (3 : Fin 4))) (blkH s)
def blkX1 (bx : Blk4) (s : BlkS) (i : Fin 500) : EReal := hi (bx (ix3 (0 : Fin 1) i (0 : Fin 4))) (bx (ix3 (0 : Fin 1) i (2 : Fin 4))) (blkW s)
def blkY1 (bx : Blk4) (s : BlkS) (i : Fin 500) : EReal := hi (bx (ix3 (0 : Fin 1) i (1 : Fin 4))) (bx (ix3 (0 : Fin 1) i (3 : Fin 4))) (blkH s)

def blkGiou (bx x0 : Blk4) (s : BlkS) (r e : Fin 500) : EReal :=
  pos (giou (blkX0 bx s r) (blkY0 bx s r) (blkX1 bx s r) (blkY1 bx s r) (blkX0 x0 s e) (blkY0 x0 s e) (blkX1 x0 s e) (blkY1 x0 s e))

def blkMatch (x0 : Blk4) (x1 : Blk151) (x6 : Blk4) (s : BlkS) (k0 k1 : Fin 4) (r e : Fin 500) : EReal :=
  weight (score (fun j => x1 (ix3 (0 : Fin 1) e j)))
    (l1 (x6 (ix3 (0 : Fin 1) r k0) * blkW s) (x6 (ix3 (0 : Fin 1) r k1) * blkH s)
      (mid (blkX0 x0 s e) (blkX1 x0 s e)) (mid (blkY0 x0 s e) (blkY1 x0 s e)))

def blkSub (x0 : Blk4) (x1 x3 : Blk151) (x5 x6 : Blk4) (s : BlkS) (r e : Fin 500) : EReal :=
  entry (blkMatch x0 x1 x6 s 0 1 r e) (clsOf (fun j => x3 (ix3 (0 : Fin 1) r j)) (fun j => x1 (ix3 (0 : Fin 1) e j))) (blkGiou x5 x0 s r e)
def blkObj (x0 : Blk4) (x1 x2 : Blk151) (x4 x6 : Blk4) (s : BlkS) (r e : Fin 500) : EReal :=
  entry (blkMatch x0 x1 x6 s 2 3 r e) (clsOf (fun j => x2 (ix3 (0 : Fin 1) r j)) (fun j => x1 (ix3 (0 : Fin 1) e j))) (blkGiou x4 x0 s r e)

end Block

end Cert.Spec

end
-- ==== Proof.KI.ValStrip.lean ====
/-
  One 64-row strip of the two outputs, read at an index, at the ideal instance. The loop's trip loads 64 rows of the
  relation subject boxes, object boxes and vectors, and the same rows of the two class-distance matrices. From a row it
  forms the scaled corners of the two relation boxes and the two scaled endpoints of the relation vector; against each
  entity column it forms the endpoint match weighted by the entity's confidence, and the positive part of the
  generalized intersection over union, and multiplies them with the class match of that row and column.
-/
import proofs.«109971_j31181462569594_2_alg».proof.Proof.Gen.KernelIdeal.Skeleton
import proofs.«109971_j31181462569594_2_alg».proof.Proof.LibLayout
import proofs.«109971_j31181462569594_2_alg».proof.Proof.Spec

noncomputable section

namespace Cert.KernelIdeal.Val

open Cert.KernelIdeal Cert.KernelIdeal.Gen Idealize.ShloMosaic Idealize.ShloMosaic.ValueIdx Cert.LibLayout Cert.Spec

variable [Cert.KernelIdeal.Facts]

variable (v11 v13 : Ideal .f32)

/-! ## The loaded strips, their leading unit axis dropped -/

theorem pay3_at (v : Vec Ideal S1x64x4 .f32) (p : Fin 64) (k : Fin 4) : k0_pay3 (F := Ideal) v (ix2 p k) = v (ix3 (0 : Fin 1) p k) := by
  unfold k0_pay3; simp only [mulf_apply, subf_apply, addf_apply, divf_apply, maximumf_apply, minimumf_apply, absf_apply, sqrt_apply, exp_apply, broadcast_apply, shapeCast_a1_a_apply, shapeCast_a_a1_apply, shapeCast_a_1a_apply, shapeCast_1a_a_apply, shapeCast_1ab_ab_apply, shapeCast_ab_1ab_apply, shapeCast_11a_a_apply, slice1_eq, slice2_axis1_eq, extractAt1_apply, broadcastTo_a1_ab_apply, broadcastTo_1b_ab_apply, transpose_ix2_apply]
theorem pay4_at (v : Vec Ideal S1x64x4 .f32) (p : Fin 64) (k : Fin 4) : k0_pay4 (F := Ideal) v (ix2 p k) = v (ix3 (0 : Fin 1) p k) := by
  unfold k0_pay4; simp only [mulf_apply, subf_apply, addf_apply, divf_apply, maximumf_apply, minimumf_apply, absf_apply, sqrt_apply, exp_apply, broadcast_apply, shapeCast_a1_a_apply, shapeCast_a_a1_apply, shapeCast_a_1a_apply, shapeCast_1a_a_apply, shapeCast_1ab_ab_apply, shapeCast_ab_1ab_apply, shapeCast_11a_a_apply, slice1_eq, slice2_axis1_eq, extractAt1_apply, broadcastTo_a1_ab_apply, broadcastTo_1b_ab_apply, transpose_ix2_apply]
theorem pay5_at (v : Vec Ideal S1x64x4 .f32) (p : Fin 64) (k : Fin 4) : k0_pay5 (F := Ideal) v (ix2 p k) = v (ix3 (0 : Fin 1) p k) := by
  unfold k0_pay5; simp only [mulf_apply, subf_apply, addf_apply, divf_apply, maximumf_apply, minimumf_apply, absf_apply, sqrt_apply, exp_apply, broadcast_apply, shapeCast_a1_a_apply, shapeCast_a_a1_apply, shapeCast_a_1a_apply, shapeCast_1a_a_apply, shapeCast_1ab_ab_apply, shapeCast_ab_1ab_apply, shapeCast_11a_a_apply, slice1_eq, slice2_axis1_eq, extractAt1_apply, broadcastTo_a1_ab_apply, broadcastTo_1b_ab_apply, transpose_ix2_apply]

/-! ## The subject box's corners, from the strip of subject boxes -/

theorem sx0_at (v410 : Vec Ideal S1x64x4 .f32) (p : Fin 64) :
    k0_pay10 (F := Ideal) v11 v410 (ix1 p) = lo (v410 (ix3 (0 : Fin 1) p (0 : Fin 4))) (v410 (ix3 (0 : Fin 1) p (2 : Fin 4))) v11 := by
  unfold k0_pay10 k0_pay8 k0_pay6 k0_pay3 lo; simp only [mulf_apply, subf_apply, addf_apply, divf_apply, maximumf_apply, minimumf_apply, absf_apply, sqrt_apply, exp_apply, broadcast_apply, shapeCast_a1_a_apply, shapeCast_a_a1_apply, shapeCast_a_1a_apply, shapeCast_1a_a_apply, shapeCast_1ab_ab_apply, shapeCast_ab_1ab_apply, shapeCast_11a_a_apply, slice1_eq, slice2_axis1_eq, extractAt1_apply, broadcastTo_a1_ab_apply, broadcastTo_1b_ab_apply, transpose_ix2_apply]; rfl
theorem sy0_at (v410 : Vec Ideal S1x64x4 .f32) (p : Fin 64) :
    k0_pay11 (F := Ideal) v13 v410 (ix1 p) = lo (v410 (ix3 (0 : Fin 1) p (1 : Fin 4))) (v410 (ix3 (0 : Fin 1) p (3 : Fin 4))) v13 := by
  unfold k0_pay11 k0_pay9 k0_pay7 k0_pay3 lo; simp only [mulf_apply, subf_apply, addf_apply, divf_apply, maximumf_apply, minimumf_apply, absf_apply, sqrt_apply, exp_apply, broadcast_apply, shapeCast_a1_a_apply, shapeCast_a_a1_apply, shapeCast_a_1a_apply, shapeCast_1a_a_apply, shapeCast_1ab_ab_apply, shapeCast_ab_1ab_apply, shapeCast_11a_a_apply, slice1_eq, slice2_axis1_eq, extractAt1_apply, broadcastTo_a1_ab_apply, broadcastTo_1b_ab_apply, transpose_ix2_apply]; rfl
theorem sx1_at (v410 : Vec Ideal S1x64x4 .f32) (p : Fin 64) :
    k0_pay12 (F := Ideal) v11 v410 (ix1 p) = hi (v410 (ix3 (0 : Fin 1) p (0 : Fin 4))) (v410 (ix3 (0 : Fin 1) p (2 : Fin 4))) v11 := by
  unfold k0_pay12 k0_pay8 k0_pay6 k0_pay3 hi; simp only [mulf_apply, subf_apply, addf_apply, divf_apply, maximumf_apply, minimumf_apply, absf_apply, sqrt_apply, exp_apply, broadcast_apply, shapeCast_a1_a_apply, shapeCast_a_a1_apply, shapeCast_a_1a_apply, shapeCast_1a_a_apply, shapeCast_1ab_ab_apply, shapeCast_ab_1ab_apply, shapeCast_11a_a_apply, slice1_eq, slice2_axis1_eq, extractAt1_apply, broadcastTo_a1_ab_apply, broadcastTo_1b_ab_apply, transpose_ix2_apply]; rfl
theorem sy1_at (v410 : Vec Ideal S1x64x4 .f32) (p : Fin 64) :
    k0_pay13 (F := Ideal) v13 v410 (ix1 p) = hi (v410 (ix3 (0 : Fin 1) p (1 : Fin 4))) (v410 (ix3 (0 : Fin 1) p (3 : Fin 4))) v13 := by
  unfold k0_pay13 k0_pay9 k0_pay7 k0_pay3 hi; simp only [mulf_apply, subf_apply, addf_apply, divf_apply, maximumf_apply, minimumf_apply, absf_apply, sqrt_apply, exp_apply, broadcast_apply, shapeCast_a1_a_apply, shapeCast_a_a1_apply, shapeCast_a_1a_apply, shapeCast_1a_a_apply, shapeCast_1ab_ab_apply, shapeCast_ab_1ab_apply, shapeCast_11a_a_apply, slice1_eq, slice2_axis1_eq, extractAt1_apply, broadcastTo_a1_ab_apply, broadcastTo_1b_ab_apply, transpose_ix2_apply]; rfl

/-! ## The object box's corners, from the strip of object boxes -/

theorem ox0_at (v413 : Vec Ideal S1x64x4 .f32) (p : Fin 64) :
    k0_pay19 (F := Ideal) v11 (k0_pay4 v413) (k0_pay14 v413) (ix1 p) = lo (v413 (ix3 (0 : Fin 1) p (0 : Fin 4))) (v413 (ix3 (0 : Fin 1) p (2 : Fin 4))) v11 := by
  unfold k0_pay19 k0_pay17 k0_pay14 k0_pay4 lo; simp only [mulf_apply, subf_apply, addf_apply, divf_apply, maximumf_apply, minimumf_apply, absf_apply, sqrt_apply, exp_apply, broadcast_apply, shapeCast_a1_a_apply, shapeCast_a_a1_apply, shapeCast_a_1a_apply, shapeCast_1a_a_apply, shapeCast_1ab_ab_apply, shapeCast_ab_1ab_apply, shapeCast_11a_a_apply, slice1_eq, slice2_axis1_eq, extractAt1_apply, broadcastTo_a1_ab_apply, broadcastTo_1b_ab_apply, transpose_ix2_apply]; rfl
theorem oy0_at (v413 : Vec Ideal S1x64x4 .f32) (p : Fin 64) :
    k0_pay20 (F := Ideal) v13 (k0_pay4 v413) (k0_pay15 v413) (ix1 p) = lo (v413 (ix3 (0 : Fin 1) p (1 : Fin 4))) (v413 (ix3 (0 : Fin 1) p (3 : Fin 4))) v13 := by
  unfold k0_pay20 k0_pay18 k0_pay16 k0_pay15 k0_pay4 lo; simp only [mulf_apply, subf_apply, addf_apply, divf_apply, maximumf_apply, minimumf_apply, absf_apply, sqrt_apply, exp_apply, broadcast_apply, shapeCast_a1_a_apply, shapeCast_a_a1_apply, shapeCast_a_1a_apply, shapeCast_1a_a_apply, shapeCast_1ab_ab_apply, shapeCast_ab_1ab_apply, shapeCast_11a_a_apply, slice1_eq, slice2_axis1_eq, extractAt1_apply, broadcastTo_a1_ab_apply, broadcastTo_1b_ab_apply, transpose_ix2_apply]; rfl
theorem ox1_at (v413 : Vec Ideal S1x64x4 .f32) (p : Fin 64) :
    k0_pay21 (F := Ideal) v11 (k0_pay4 v413) (k0_pay14 v413) (ix1 p) = hi (v413 (ix3 (0 : Fin 1) p (0 : Fin 4))) (v413 (ix3 (0 : Fin 1) p (2 : Fin 4))) v11 := by
  unfold k0_pay21 k0_pay17 k0_pay14 k0_pay4 hi; simp only [mulf_apply, subf_apply, addf_apply, divf_apply, maximumf_apply, minimumf_apply, absf_apply, sqrt_apply, exp_apply, broadcast_apply, shapeCast_a1_a_apply, shapeCast_a_a1_apply, shapeCast_a_1a_apply, shapeCast_1a_a_apply, shapeCast_1ab_ab_apply, shapeCast_ab_1ab_apply, shapeCast_11a_a_apply, slice1_eq, slice2_axis1_eq, extractAt1_apply, broadcastTo_a1_ab_apply, broadcastTo_1b_ab_apply, transpose_ix2_apply]; rfl
theorem oy1_at (v413 : Vec Ideal S1x64x4 .f32) (p : Fin 64) :
    k0_pay22 (F := Ideal) v13 (k0_pay4 v413) (k0_pay15 v413) (ix1 p) = hi (v413 (ix3 (0 : Fin 1) p (1 : Fin 4))) (v413 (ix3 (0 : Fin 1) p (3 : Fin 4))) v13 := by
  unfold k0_pay22 k0_pay18 k0_pay16 k0_pay15 k0_pay4 hi; simp only [mulf_apply, subf_apply, addf_apply, divf_apply, maximumf_apply, minimumf_apply, absf_apply, sqrt_apply, exp_apply, broadcast_apply, shapeCast_a1_a_apply, shapeCast_a_a1_apply, shapeCast_a_1a_apply, shapeCast_1a_a_apply, shapeCast_1ab_ab_apply, shapeCast_ab_1ab_apply, shapeCast_11a_a_apply, slice1_eq, slice2_axis1_eq, extractAt1_apply, broadcastTo_a1_ab_apply, broadcastTo_1b_ab_apply, transpose_ix2_apply]; rfl

/-! ## The endpoint match, weighted by the entity's confidence -/

/-- The subject side: the relation vector's first endpoint against the entity's centre. -/
theorem matchSub_at (v44 v47 v78 : FVec Ideal S500 .f32) (v416 : Vec Ideal S1x64x4 .f32) (p : Fin 64) (e : Fin 500) :
    k0_pay28 (F := Ideal) v78 (k0_pay24 v11 v13 v44 v47 (k0_pay5 v416)) (ix2 p e)
      = weight (v78 (ix1 e)) (l1 (v416 (ix3 (0 : Fin 1) p (0 : Fin 4)) * v11) (v416 (ix3 (0 : Fin 1) p (1 : Fin 4)) * v13) (v44 (ix1 e)) (v47 (ix1 e))) := by
  unfold k0_pay28 k0_pay27 k0_pay24 k0_pay5 weight l1 absv; simp only [mulf_apply, subf_apply, addf_apply, divf_apply, maximumf_apply, minimumf_apply, absf_apply, sqrt_apply, exp_apply, broadcast_apply, shapeCast_a1_a_apply, shapeCast_a_a1_apply, shapeCast_a_1a_apply, shapeCast_1a_a_apply, shapeCast_1ab_ab_apply, shapeCast_ab_1ab_apply, shapeCast_11a_a_apply, slice1_eq, slice2_axis1_eq, extractAt1_apply, broadcastTo_a1_ab_apply, broadcastTo_1b_ab_apply, transpose_ix2_apply]; rfl

/-- The object side: the second endpoint. -/
theorem matchObj_at (v44 v47 v78 : FVec Ideal S500 .f32) (v416 : Vec Ideal S1x64x4 .f32) (p : Fin 64) (e : Fin 500) :
    k0_pay29 (F := Ideal) v47 v78 (k0_pay23 v13 (k0_pay5 v416)) (k0_pay25 v11 (k0_pay5 v416)) (k0_pay26 v44) (ix2 p e)
      = weight (v78 (ix1 e)) (l1 (v416 (ix3 (0 : Fin 1) p (2 : Fin 4)) * v11) (v416 (ix3 (0 : Fin 1) p (3 : Fin 4)) * v13) (v44 (ix1 e)) (v47 (ix1 e))) := by
  unfold k0_pay29 k0_pay27 k0_pay26 k0_pay25 k0_pay23 k0_pay5 weight l1 absv; simp only [mulf_apply, subf_apply, addf_apply, divf_apply, maximumf_apply, minimumf_apply, absf_apply, sqrt_apply, exp_apply, broadcast_apply, shapeCast_a1_a_apply, shapeCast_a_a1_apply, shapeCast_a_1a_apply, shapeCast_1a_a_apply, shapeCast_1ab_ab_apply, shapeCast_ab_1ab_apply, shapeCast_11a_a_apply, slice1_eq, slice2_axis1_eq, extractAt1_apply, broadcastTo_a1_ab_apply, broadcastTo_1b_ab_apply, transpose_ix2_apply]; rfl

/-! ## The box overlap of a row's box against an entity's box -/

/-- The subject side, its positive part taken. -/
theorem giouSub_at (v26 v31 v36 v41 : FVec Ideal S500 .f32) (a0 a1 a2 a3 : FVec Ideal S64 .f32) (p : Fin 64) (e : Fin 500) :
    k0_pay34 (F := Ideal) v26 v31 v36 v41 a0 a1 a2 a3 (k0_pay30 a0 a1 a2 a3) (k0_pay31 v26 v31 v36 v41) (k0_pay32 v26 v36 a0 a2) (k0_pay33 v31 v41 a1 a3)
        (Scalar.ofBits .f32 0x00000000#32) (ix2 p e)
      = pos (giou (a0 (ix1 p)) (a1 (ix1 p)) (a2 (ix1 p)) (a3 (ix1 p)) (v26 (ix1 e)) (v31 (ix1 e)) (v36 (ix1 e)) (v41 (ix1 e))) := by
  unfold k0_pay34 k0_pay30 k0_pay31 k0_pay32 k0_pay33 pos giou inter union hull area; simp only [mulf_apply, subf_apply, addf_apply, divf_apply, maximumf_apply, minimumf_apply, absf_apply, sqrt_apply, exp_apply, broadcast_apply, shapeCast_a1_a_apply, shapeCast_a_a1_apply, shapeCast_a_1a_apply, shapeCast_1a_a_apply, shapeCast_1ab_ab_apply, shapeCast_ab_1ab_apply, shapeCast_11a_a_apply, slice1_eq, slice2_axis1_eq, extractAt1_apply, broadcastTo_a1_ab_apply, broadcastTo_1b_ab_apply, transpose_ix2_apply]; rfl

/-- The object side, before its positive part is taken. -/
theorem giouObj_at (v26 v31 v36 v41 : FVec Ideal S500 .f32) (b0 b1 b2 b3 : FVec Ideal S64 .f32) (p : Fin 64) (e : Fin 500) :
    k0_pay40 (F := Ideal) v26 v31 v36 v41 b0 b1 b2 b3 (k0_pay35 b0 b1 b2 b3) (k0_pay36 v26 v31 v36 v41) (k0_pay37 v26 b0) (k0_pay38 b1) (k0_pay39 v31) (ix2 p e)
      = giou (b0 (ix1 p)) (b1 (ix1 p)) (b2 (ix1 p)) (b3 (ix1 p)) (v26 (ix1 e)) (v31 (ix1 e)) (v36 (ix1 e)) (v41 (ix1 e)) := by
  unfold k0_pay40 k0_pay35 k0_pay36 k0_pay37 k0_pay38 k0_pay39 giou inter union hull area; simp only [mulf_apply, subf_apply, addf_apply, divf_apply, maximumf_apply, minimumf_apply, absf_apply, sqrt_apply, exp_apply, broadcast_apply, shapeCast_a1_a_apply, shapeCast_a_a1_apply, shapeCast_a_1a_apply, shapeCast_1a_a_apply, shapeCast_1ab_ab_apply, shapeCast_ab_1ab_apply, shapeCast_11a_a_apply, slice1_eq, slice2_axis1_eq, extractAt1_apply, broadcastTo_a1_ab_apply, broadcastTo_1b_ab_apply, transpose_ix2_apply]; rfl

/-! ## The stored strips -/

/-- The subject strip as the trip stores it, from its loads and the entity-side vectors. -/
def subStrip (v26 v31 v36 v41 v44 v47 v78 : FVec Ideal S500 .f32) (v410 v416 : Vec Ideal S1x64x4 .f32) (v419 : Vec Ideal S64x500 .f32) : FVec Ideal S1x64x500 .f32 :=
  k0_pay69 v419 (k0_pay28 v78 (k0_pay24 v11 v13 v44 v47 (k0_pay5 v416)))
    (k0_pay34 v26 v31 v36 v41 (k0_pay10 v11 v410) (k0_pay11 v13 v410) (k0_pay12 v11 v410) (k0_pay13 v13 v410)
      (k0_pay30 (k0_pay10 v11 v410) (k0_pay11 v13 v410) (k0_pay12 v11 v410) (k0_pay13 v13 v410)) (k0_pay31 v26 v31 v36 v41)
      (k0_pay32 v26 v36 (k0_pay10 v11 v410) (k0_pay12 v11 v410)) (k0_pay33 v31 v41 (k0_pay11 v13 v410) (k0_pay13 v13 v410)) (Scalar.ofBits .f32 0x00000000#32))

theorem subStrip_at (v26 v31 v36 v41 v44 v47 v78 : FVec Ideal S500 .f32) (v410 v416 : Vec Ideal S1x64x4 .f32) (v419 : Vec Ideal S64x500 .f32)
    (u : Fin 1) (p : Fin 64) (e : Fin 500) :
    subStrip v11 v13 v26 v31 v36 v41 v44 v47 v78 v410 v416 v419 (ix3 u p e)
      = entry (weight (v78 (ix1 e)) (l1 (v416 (ix3 (0 : Fin 1) p (0 : Fin 4)) * v11) (v416 (ix3 (0 : Fin 1) p (1 : Fin 4)) * v13) (v44 (ix1 e)) (v47 (ix1 e))))
          (v419 (ix2 p e))
          (pos (giou (lo (v410 (ix3 (0 : Fin 1) p (0 : Fin 4))) (v410 (ix3 (0 : Fin 1) p (2 : Fin 4))) v11)
                     (lo (v410 (ix3 (0 : Fin 1) p (1 : Fin 4))) (v410 (ix3 (0 : Fin 1) p (3 : Fin 4))) v13)
                     (hi (v410 (ix3 (0 : Fin 1) p (0 : Fin 4))) (v410 (ix3 (0 : Fin 1) p (2 : Fin 4))) v11)
                     (hi (v410 (ix3 (0 : Fin 1) p (1 : Fin 4))) (v410 (ix3 (0 : Fin 1) p (3 : Fin 4))) v13)
                     (v26 (ix1 e)) (v31 (ix1 e)) (v36 (ix1 e)) (v41 (ix1 e)))) := by
  unfold subStrip k0_pay69 entry
  simp only [shapeCast_ab_1ab_apply, mulf_apply, matchSub_at, giouSub_at, sx0_at, sy0_at, sx1_at, sy1_at]

/-- The object strip as the trip stores it. -/
def objStrip (v26 v31 v36 v41 v44 v47 v78 : FVec Ideal S500 .f32) (v413 v416 : Vec Ideal S1x64x4 .f32) (v421 : Vec Ideal S64x500 .f32) : FVec Ideal S1x64x500 .f32 :=
  k0_pay70 v421 (k0_pay29 v47 v78 (k0_pay23 v13 (k0_pay5 v416)) (k0_pay25 v11 (k0_pay5 v416)) (k0_pay26 v44))
    (k0_pay40 v26 v31 v36 v41 (k0_pay19 v11 (k0_pay4 v413) (k0_pay14 v413)) (k0_pay20 v13 (k0_pay4 v413) (k0_pay15 v413)) (k0_pay21 v11 (k0_pay4 v413) (k0_pay14 v413)) (k0_pay22 v13 (k0_pay4 v413) (k0_pay15 v413))
      (k0_pay35 (k0_pay19 v11 (k0_pay4 v413) (k0_pay14 v413)) (k0_pay20 v13 (k0_pay4 v413) (k0_pay15 v413)) (k0_pay21 v11 (k0_pay4 v413) (k0_pay14 v413)) (k0_pay22 v13 (k0_pay4 v413) (k0_pay15 v413)))
      (k0_pay36 v26 v31 v36 v41) (k0_pay37 v26 (k0_pay19 v11 (k0_pay4 v413) (k0_pay14 v413))) (k0_pay38 (k0_pay20 v13 (k0_pay4 v413) (k0_pay15 v413))) (k0_pay39 v31))
    (Scalar.ofBits .f32 0x00000000#32)

theorem objStrip_at (v26 v31 v36 v41 v44 v47 v78 : FVec Ideal S500 .f32) (v413 v416 : Vec Ideal S1x64x4 .f32) (v421 : Vec Ideal S64x500 .f32)
    (u : Fin 1) (p : Fin 64) (e : Fin 500) :
    objStrip v11 v13 v26 v31 v36 v41 v44 v47 v78 v413 v416 v421 (ix3 u p e)
      = entry (weight (v78 (ix1 e)) (l1 (v416 (ix3 (0 : Fin 1) p (2 : Fin 4)) * v11) (v416 (ix3 (0 : Fin 1) p (3 : Fin 4)) * v13) (v44 (ix1 e)) (v47 (ix1 e))))
          (v421 (ix2 p e))
          (pos (giou (lo (v413 (ix3 (0 : Fin 1) p (0 : Fin 4))) (v413 (ix3 (0 : Fin 1) p (2 : Fin 4))) v11)
                     (lo (v413 (ix3 (0 : Fin 1) p (1 : Fin 4))) (v413 (ix3 (0 : Fin 1) p (3 : Fin 4))) v13)
                     (hi (v413 (ix3 (0 : Fin 1) p (0 : Fin 4))) (v413 (ix3 (0 : Fin 1) p (2 : Fin 4))) v11)
                     (hi (v413 (ix3 (0 : Fin 1) p (1 : Fin 4))) (v413 (ix3 (0 : Fin 1) p (3 : Fin 4))) v13)
                     (v26 (ix1 e)) (v31 (ix1 e)) (v36 (ix1 e)) (v41 (ix1 e)))) := by
  unfold objStrip k0_pay70 entry pos
  simp only [shapeCast_ab_1ab_apply, mulf_apply, maximumf_apply, broadcast_apply, matchObj_at, giouObj_at, ox0_at, oy0_at, ox1_at, oy1_at]
  rfl

end Cert.KernelIdeal.Val

end
-- ==== Proof.KI.Trip.lean ====
/-
  One trip of the strip loop, opened once: the trip loads rows 64k to 64k + 63 of the subject boxes, the object boxes,
  the relation vectors and the two class-match matrices, and stores into each output, at those rows, the strip the
  loads determine.
-/
import proofs.«109971_j31181462569594_2_alg».proof.Proof.Gen.KernelIdeal.Loops
import proofs.«109971_j31181462569594_2_alg».proof.Proof.KI.ValStrip
import Idealize.ShloMosaic.Lib.Tactic

noncomputable section

namespace Cert.KernelIdeal.Val

open Cert.KernelIdeal Cert.KernelIdeal.Gen Idealize.ShloMosaic Idealize.ShloMosaic.TcCoe Idealize.ShloMosaic.Tactic Idealize.ShloMosaic.ValueIdx Cert.LibLayout Cert.Spec

variable [Cert.KernelIdeal.Facts]

/-- The 64 rows of a [1, 500, 4] buffer that trip `k` loads. -/
def ldRows (arg : Memref sig .tc .vmem S1x500x4 .f32) (X : BufTy.Contents (Elt Ideal) arg.view.ty) (k : Fin k0_t1_loop.trips) : Vec Ideal S1x64x4 .f32 :=
  View.readAt (Elt Ideal) arg.view (Rect.unit (s := S1x500x4) (k0_off1 k) S1x64x4.size (k0_off1_inb k)).toLoadRect X
/-- The 64 rows of a [500, 500] buffer that trip `k` loads. -/
def ldMat (arg : Memref sig .tc .vmem S500x500 .f32) (X : BufTy.Contents (Elt Ideal) arg.view.ty) (k : Fin k0_t1_loop.trips) : Vec Ideal S64x500 .f32 :=
  View.readAt (Elt Ideal) arg.view (Rect.unit (s := S500x500) (k0_off2 k) S64x500.size (k0_off2_inb k)).toLoadRect X

/-- The trip's one piece per output. -/
theorem trip_piece8 (𝒱 : Variants) (c : Dev nD) (bd : Option 𝒱.V) (i : grid0.Coords) (arg1 : Memref sig .tc .vmem S1x500x4 .f32) (harg1 : arg1.IsWhole) (arg2 : Memref sig .tc .vmem S1x500x151 .f32) (harg2 : arg2.IsWhole) (arg3 : Memref sig .tc .vmem S1x500x151 .f32) (harg3 : arg3.IsWhole) (arg4 : Memref sig .tc .vmem S1x500x151 .f32) (harg4 : arg4.IsWhole) (arg5 : Memref sig .tc .vmem S1x500x4 .f32) (harg5 : arg5.IsWhole) (arg6 : Memref sig .tc .vmem S1x500x4 .f32) (harg6 : arg6.IsWhole) (arg7 : Memref sig .tc .vmem S1x500x4 .f32) (harg7 : arg7.IsWhole) (arg8 : Memref sig .tc .vmem S1x1x4 .f32) (harg8 : arg8.IsWhole) (arg9 : Memref sig .tc .vmem S1x500x500 .f32) (harg9 : arg9.IsWhole) (arg10 : Memref sig .tc .vmem S1x500x500 .f32) (harg10 : arg10.IsWhole) (arg11 : Memref sig .tc .vmem S500x500 .f32) (harg11 : arg11.IsWhole) (arg12 : Memref sig .tc .vmem S500x500 .f32) (harg12 : arg12.IsWhole)
    (v11 v13 : Ideal .f32) (v26 v31 v36 v41 v44 v47 v78 : FVec Ideal S500 .f32) (v129 : FVec Ideal S500x500 .f32)
    (X5 : BufTy.Contents (Elt Ideal) arg5.view.ty) (X6 : BufTy.Contents (Elt Ideal) arg6.view.ty) (X7 : BufTy.Contents (Elt Ideal) arg7.view.ty)
    (X11 : BufTy.Contents (Elt Ideal) arg11.view.ty) (X12 : BufTy.Contents (Elt Ideal) arg12.view.ty) (k : Fin k0_t1_loop.trips) :
    (trip_k0_t1 (F := Ideal) 𝒱 c bd i arg1 harg1 arg2 harg2 arg3 harg3 arg4 harg4 arg5 harg5 arg6 harg6 arg7 harg7 arg8 harg8 arg9 harg9 arg10 harg10 arg11 harg11 arg12 harg12 v11 v13 v26 v31 v36 v41 v44 v47 v78 v129 X5 X6 X7 X11 X12 k).1
      = [⟨Rect.unit (s := S1x500x500) (k0_off3 k) S1x64x500.size (k0_off3_inb k),
          subStrip v11 v13 v26 v31 v36 v41 v44 v47 v78 (ldRows arg6 X6 k) (ldRows arg7 X7 k) (ldMat arg11 X11 k)⟩] := by
  unfold trip_k0_t1
  sl_unfold_run_names
  rfl

theorem trip_piece9 (𝒱 : Variants) (c : Dev nD) (bd : Option 𝒱.V) (i : grid0.Coords) (arg1 : Memref sig .tc .vmem S1x500x4 .f32) (harg1 : arg1.IsWhole) (arg2 : Memref sig .tc .vmem S1x500x151 .f32) (harg2 : arg2.IsWhole) (arg3 : Memref sig .tc .vmem S1x500x151 .f32) (harg3 : arg3.IsWhole) (arg4 : Memref sig .tc .vmem S1x500x151 .f32) (harg4 : arg4.IsWhole) (arg5 : Memref sig .tc .vmem S1x500x4 .f32) (harg5 : arg5.IsWhole) (arg6 : Memref sig .tc .vmem S1x500x4 .f32) (harg6 : arg6.IsWhole) (arg7 : Memref sig .tc .vmem S1x500x4 .f32) (harg7 : arg7.IsWhole) (arg8 : Memref sig .tc .vmem S1x1x4 .f32) (harg8 : arg8.IsWhole) (arg9 : Memref sig .tc .vmem S1x500x500 .f32) (harg9 : arg9.IsWhole) (arg10 : Memref sig .tc .vmem S1x500x500 .f32) (harg10 : arg10.IsWhole) (arg11 : Memref sig .tc .vmem S500x500 .f32) (harg11 : arg11.IsWhole) (arg12 : Memref sig .tc .vmem S500x500 .f32) (harg12 : arg12.IsWhole)
    (v11 v13 : Ideal .f32) (v26 v31 v36 v41 v44 v47 v78 : FVec Ideal S500 .f32) (v129 : FVec Ideal S500x500 .f32)
    (X5 : BufTy.Contents (Elt Ideal) arg5.view.ty) (X6 : BufTy.Contents (Elt Ideal) arg6.view.ty) (X7 : BufTy.Contents (Elt Ideal) arg7.view.ty)
    (X11 : BufTy.Contents (Elt Ideal) arg11.view.ty) (X12 : BufTy.Contents (Elt Ideal) arg12.view.ty) (k : Fin k0_t1_loop.trips) :
    (trip_k0_t1 (F := Ideal) 𝒱 c bd i arg1 harg1 arg2 harg2 arg3 harg3 arg4 harg4 arg5 harg5 arg6 harg6 arg7 harg7 arg8 harg8 arg9 harg9 arg10 harg10 arg11 harg11 arg12 harg12 v11 v13 v26 v31 v36 v41 v44 v47 v78 v129 X5 X6 X7 X11 X12 k).2.1
      = [⟨Rect.unit (s := S1x500x500) (k0_off3 k) S1x64x500.size (k0_off3_inb k),
          objStrip v11 v13 v26 v31 v36 v41 v44 v47 v78 (ldRows arg5 X5 k) (ldRows arg7 X7 k) (ldMat arg12 X12 k)⟩] := by
  unfold trip_k0_t1
  sl_unfold_run_names
  rfl

end Cert.KernelIdeal.Val

end
-- ==== Proof.KI.LoopPieces.lean ====
/-
  The strips the loop leaves, all of them: if every trip's strip agrees, entry by entry, with one function of the
  output block's index, so does every strip the loop has stored after any number of trips. By induction on the trips:
  the strips after one more trip are that trip's one strip in front of the strips before it.
-/
import proofs.«109971_j31181462569594_2_alg».proof.Proof.KI.Trip

noncomputable section

namespace Cert.KernelIdeal.Val

open Cert.KernelIdeal Cert.KernelIdeal.Gen Idealize.ShloMosaic Idealize.ShloMosaic.TcCoe Idealize.ShloMosaic.ValueIdx Cert.LibLayout Cert.Spec

variable [Cert.KernelIdeal.Facts]

theorem loop_pieces (𝒱 : Variants) (c : Dev nD) (bd : Option 𝒱.V) (i : grid0.Coords) (arg1 : Memref sig .tc .vmem S1x500x4 .f32) (harg1 : arg1.IsWhole) (arg2 : Memref sig .tc .vmem S1x500x151 .f32) (harg2 : arg2.IsWhole) (arg3 : Memref sig .tc .vmem S1x500x151 .f32) (harg3 : arg3.IsWhole) (arg4 : Memref sig .tc .vmem S1x500x151 .f32) (harg4 : arg4.IsWhole) (arg5 : Memref sig .tc .vmem S1x500x4 .f32) (harg5 : arg5.IsWhole) (arg6 : Memref sig .tc .vmem S1x500x4 .f32) (harg6 : arg6.IsWhole) (arg7 : Memref sig .tc .vmem S1x500x4 .f32) (harg7 : arg7.IsWhole) (arg8 : Memref sig .tc .vmem S1x1x4 .f32) (harg8 : arg8.IsWhole) (arg9 : Memref sig .tc .vmem S1x500x500 .f32) (harg9 : arg9.IsWhole) (arg10 : Memref sig .tc .vmem S1x500x500 .f32) (harg10 : arg10.IsWhole) (arg11 : Memref sig .tc .vmem S500x500 .f32) (harg11 : arg11.IsWhole) (arg12 : Memref sig .tc .vmem S500x500 .f32) (harg12 : arg12.IsWhole)
    (v11 v13 : Ideal .f32) (v26 v31 v36 v41 v44 v47 v78 : FVec Ideal S500 .f32) (v129 : FVec Ideal S500x500 .f32)
    (X5 : BufTy.Contents (Elt Ideal) arg5.view.ty) (X6 : BufTy.Contents (Elt Ideal) arg6.view.ty) (X7 : BufTy.Contents (Elt Ideal) arg7.view.ty)
    (X11 : BufTy.Contents (Elt Ideal) arg11.view.ty) (X12 : BufTy.Contents (Elt Ideal) arg12.view.ty)
    (G8 G9 : S1x500x500.Idx → EReal)
    (h8 : ∀ (k : Fin k0_t1_loop.trips) (x : (Rect.unit (s := S1x500x500) (k0_off3 k) S1x64x500.size (k0_off3_inb k)).shape.Idx),
      subStrip v11 v13 v26 v31 v36 v41 v44 v47 v78 (ldRows arg6 X6 k) (ldRows arg7 X7 k) (ldMat arg11 X11 k) x
        = G8 ((Rect.unit (s := S1x500x500) (k0_off3 k) S1x64x500.size (k0_off3_inb k)).emb x))
    (h9 : ∀ (k : Fin k0_t1_loop.trips) (x : (Rect.unit (s := S1x500x500) (k0_off3 k) S1x64x500.size (k0_off3_inb k)).shape.Idx),
      objStrip v11 v13 v26 v31 v36 v41 v44 v47 v78 (ldRows arg5 X5 k) (ldRows arg7 X7 k) (ldMat arg12 X12 k) x
        = G9 ((Rect.unit (s := S1x500x500) (k0_off3 k) S1x64x500.size (k0_off3_inb k)).emb x)) :
    ∀ n : ℕ, (∀ p ∈ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 v11 v13 v26 v31 v36 v41 v44 v47 v78 v129 X5 X6 X7 X11 X12 n).1, ∀ x : p.1.shape.Idx, p.2 x = G8 (p.1.emb x))
      ∧ (∀ p ∈ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 v11 v13 v26 v31 v36 v41 v44 v47 v78 v129 X5 X6 X7 X11 X12 n).2, ∀ x : p.1.shape.Idx, p.2 x = G9 (p.1.emb x)) := by
  intro n
  induction n with
  | zero =>
    refine ⟨fun p hp => ?_, fun p hp => ?_⟩ <;> (rw [pb_k0_t1.eq_1] at hp; exact absurd hp List.not_mem_nil)
  | succ n ih =>
    by_cases hn : n < k0_t1_loop.trips
    · have e := pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 v11 v13 v26 v31 v36 v41 v44 v47 v78 v129 X5 X6 X7 X11 X12 ⟨n, hn⟩
      refine ⟨fun p hp => ?_, fun p hp => ?_⟩
      · rw [show (pb_k0_t1 (F := Ideal) 𝒱 c bd i arg1 harg1 arg2 harg2 arg3 harg3 arg4 harg4 arg5 harg5 arg6 harg6 arg7 harg7 arg8 harg8 arg9 harg9 arg10 harg10 arg11 harg11 arg12 harg12 v11 v13 v26 v31 v36 v41 v44 v47 v78 v129 X5 X6 X7 X11 X12 (n + 1)).1 = _ from congrArg Prod.fst e] at hp
        rcases List.mem_append.mp hp with hp | hp
        · rw [show (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 v11 v13 v26 v31 v36 v41 v44 v47 v78 v129 X5 X6 X7 X11 X12 ⟨n, hn⟩).1 = _ from trip_piece8 𝒱 c bd i arg1 harg1 arg2 harg2 arg3 harg3 arg4 harg4 arg5 harg5 arg6 harg6 arg7 harg7 arg8 harg8 arg9 harg9 arg10 harg10 arg11 harg11 arg12 harg12 v11 v13 v26 v31 v36 v41 v44 v47 v78 v129 X5 X6 X7 X11 X12 ⟨n, hn⟩] at hp
          obtain rfl := List.mem_singleton.mp hp
          exact fun x => h8 ⟨n, hn⟩ x
        · exact ih.1 p hp
      · rw [show (pb_k0_t1 (F := Ideal) 𝒱 c bd i arg1 harg1 arg2 harg2 arg3 harg3 arg4 harg4 arg5 harg5 arg6 harg6 arg7 harg7 arg8 harg8 arg9 harg9 arg10 harg10 arg11 harg11 arg12 harg12 v11 v13 v26 v31 v36 v41 v44 v47 v78 v129 X5 X6 X7 X11 X12 (n + 1)).2 = _ from congrArg Prod.snd e] at hp
        rcases List.mem_append.mp hp with hp | hp
        · rw [show (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 v11 v13 v26 v31 v36 v41 v44 v47 v78 v129 X5 X6 X7 X11 X12 ⟨n, hn⟩).2 = _ from trip_piece9 𝒱 c bd i arg1 harg1 arg2 harg2 arg3 harg3 arg4 harg4 arg5 harg5 arg6 harg6 arg7 harg7 arg8 harg8 arg9 harg9 arg10 harg10 arg11 harg11 arg12 harg12 v11 v13 v26 v31 v36 v41 v44 v47 v78 v129 X5 X6 X7 X11 X12 ⟨n, hn⟩] at hp
          obtain rfl := List.mem_singleton.mp hp
          exact fun x => h9 ⟨n, hn⟩ x
        · exact ih.2 p hp
    · have e : pb_k0_t1 (F := Ideal) 𝒱 c bd i arg1 harg1 arg2 harg2 arg3 harg3 arg4 harg4 arg5 harg5 arg6 harg6 arg7 harg7 arg8 harg8 arg9 harg9 arg10 harg10 arg11 harg11 arg12 harg12 v11 v13 v26 v31 v36 v41 v44 v47 v78 v129 X5 X6 X7 X11 X12 (n + 1) = pb_k0_t1 (F := Ideal) 𝒱 c bd i arg1 harg1 arg2 harg2 arg3 harg3 arg4 harg4 arg5 harg5 arg6 harg6 arg7 harg7 arg8 harg8 arg9 harg9 arg10 harg10 arg11 harg11 arg12 harg12 v11 v13 v26 v31 v36 v41 v44 v47 v78 v129 X5 X6 X7 X11 X12 n := by
        rw [pb_k0_t1.eq_2]; unfold pb_k0_t1Step; exact dif_neg hn
      rw [e]; exact ih

end Cert.KernelIdeal.Val

end
-- ==== Proof.KI.ValTail.lean ====
/-
  The last 52 rows of the two outputs, read at an index, at the ideal instance. After the loop the body loads rows 448
  to 499 of the relation subject boxes, object boxes and vectors and of the two class-distance matrices, and computes
  on them what a trip of the loop computes on its 64 rows: the scaled corners of the two relation boxes, the two scaled
  endpoints of the relation vector, the confidence-weighted endpoint match against each entity, the positive part of
  the generalized intersection over union, and their product with the class match.
-/
import proofs.«109971_j31181462569594_2_alg».proof.Proof.Gen.KernelIdeal.Skeleton
import proofs.«109971_j31181462569594_2_alg».proof.Proof.LibLayout
import proofs.«109971_j31181462569594_2_alg».proof.Proof.Spec

noncomputable section

namespace Cert.KernelIdeal.Val

open Cert.KernelIdeal Cert.KernelIdeal.Gen Idealize.ShloMosaic Idealize.ShloMosaic.ValueIdx Cert.LibLayout Cert.Spec

variable [Cert.KernelIdeal.Facts]

variable (v11 v13 : Ideal .f32)

/-! ## The subject box's corners -/

theorem tsx0_at (v134 : Vec Ideal S1x52x4 .f32) (p : Fin 52) :
    k0_pay78 (F := Ideal) v11 v134 (ix1 p) = lo (v134 (ix3 (0 : Fin 1) p (0 : Fin 4))) (v134 (ix3 (0 : Fin 1) p (2 : Fin 4))) v11 := by
  unfold k0_pay78 k0_pay76 k0_pay74 k0_pay71 lo; simp only [mulf_apply, subf_apply, addf_apply, divf_apply, maximumf_apply, minimumf_apply, absf_apply, sqrt_apply, exp_apply, broadcast_apply, shapeCast_a1_a_apply, shapeCast_a_a1_apply, shapeCast_a_1a_apply, shapeCast_1a_a_apply, shapeCast_1ab_ab_apply, shapeCast_ab_1ab_apply, shapeCast_11a_a_apply, slice1_eq, slice2_axis1_eq, extractAt1_apply, broadcastTo_a1_ab_apply, broadcastTo_1b_ab_apply, transpose_ix2_apply]; rfl
theorem tsy0_at (v134 : Vec Ideal S1x52x4 .f32) (p : Fin 52) :
    k0_pay79 (F := Ideal) v13 v134 (ix1 p) = lo (v134 (ix3 (0 : Fin 1) p (1 : Fin 4))) (v134 (ix3 (0 : Fin 1) p (3 : Fin 4))) v13 := by
  unfold k0_pay79 k0_pay77 k0_pay75 k0_pay71 lo; simp only [mulf_apply, subf_apply, addf_apply, divf_apply, maximumf_apply, minimumf_apply, absf_apply, sqrt_apply, exp_apply, broadcast_apply, shapeCast_a1_a_apply, shapeCast_a_a1_apply, shapeCast_a_1a_apply, shapeCast_1a_a_apply, shapeCast_1ab_ab_apply, shapeCast_ab_1ab_apply, shapeCast_11a_a_apply, slice1_eq, slice2_axis1_eq, extractAt1_apply, broadcastTo_a1_ab_apply, broadcastTo_1b_ab_apply, transpose_ix2_apply]; rfl
theorem tsx1_at (v134 : Vec Ideal S1x52x4 .f32) (p : Fin 52) :
    k0_pay80 (F := Ideal) v11 v134 (ix1 p) = hi (v134 (ix3 (0 : Fin 1) p (0 : Fin 4))) (v134 (ix3 (0 : Fin 1) p (2 : Fin 4))) v11 := by
  unfold k0_pay80 k0_pay76 k0_pay74 k0_pay71 hi; simp only [mulf_apply, subf_apply, addf_apply, divf_apply, maximumf_apply, minimumf_apply, absf_apply, sqrt_apply, exp_apply, broadcast_apply, shapeCast_a1_a_apply, shapeCast_a_a1_apply, shapeCast_a_1a_apply, shapeCast_1a_a_apply, shapeCast_1ab_ab_apply, shapeCast_ab_1ab_apply, shapeCast_11a_a_apply, slice1_eq, slice2_axis1_eq, extractAt1_apply, broadcastTo_a1_ab_apply, broadcastTo_1b_ab_apply, transpose_ix2_apply]; rfl
theorem tsy1_at (v134 : Vec Ideal S1x52x4 .f32) (p : Fin 52) :
    k0_pay83 (F := Ideal) (k0_pay81 v134) (k0_pay82 v13) (ix1 p) = hi (v134 (ix3 (0 : Fin 1) p (1 : Fin 4))) (v134 (ix3 (0 : Fin 1) p (3 : Fin 4))) v13 := by
  unfold k0_pay83 k0_pay82 k0_pay81 k0_pay77 k0_pay75 k0_pay71 hi; simp only [mulf_apply, subf_apply, addf_apply, divf_apply, maximumf_apply, minimumf_apply, absf_apply, sqrt_apply, exp_apply, broadcast_apply, shapeCast_a1_a_apply, shapeCast_a_a1_apply, shapeCast_a_1a_apply, shapeCast_1a_a_apply, shapeCast_1ab_ab_apply, shapeCast_ab_1ab_apply, shapeCast_11a_a_apply, slice1_eq, slice2_axis1_eq, extractAt1_apply, broadcastTo_a1_ab_apply, broadcastTo_1b_ab_apply, transpose_ix2_apply]; rfl

/-! ## The object box's corners -/

theorem tox0_at (v136 : Vec Ideal S1x52x4 .f32) (p : Fin 52) :
    k0_pay88 (F := Ideal) v11 (k0_pay72 v136) (ix1 p) = lo (v136 (ix3 (0 : Fin 1) p (0 : Fin 4))) (v136 (ix3 (0 : Fin 1) p (2 : Fin 4))) v11 := by
  unfold k0_pay88 k0_pay86 k0_pay84 k0_pay72 lo; simp only [mulf_apply, subf_apply, addf_apply, divf_apply, maximumf_apply, minimumf_apply, absf_apply, sqrt_apply, exp_apply, broadcast_apply, shapeCast_a1_a_apply, shapeCast_a_a1_apply, shapeCast_a_1a_apply, shapeCast_1a_a_apply, shapeCast_1ab_ab_apply, shapeCast_ab_1ab_apply, shapeCast_11a_a_apply, slice1_eq, slice2_axis1_eq, extractAt1_apply, broadcastTo_a1_ab_apply, broadcastTo_1b_ab_apply, transpose_ix2_apply]; rfl
theorem toy0_at (v136 : Vec Ideal S1x52x4 .f32) (p : Fin 52) :
    k0_pay89 (F := Ideal) v13 (k0_pay72 v136) (ix1 p) = lo (v136 (ix3 (0 : Fin 1) p (1 : Fin 4))) (v136 (ix3 (0 : Fin 1) p (3 : Fin 4))) v13 := by
  unfold k0_pay89 k0_pay87 k0_pay85 k0_pay72 lo; simp only [mulf_apply, subf_apply, addf_apply, divf_apply, maximumf_apply, minimumf_apply, absf_apply, sqrt_apply, exp_apply, broadcast_apply, shapeCast_a1_a_apply, shapeCast_a_a1_apply, shapeCast_a_1a_apply, shapeCast_1a_a_apply, shapeCast_1ab_ab_apply, shapeCast_ab_1ab_apply, shapeCast_11a_a_apply, slice1_eq, slice2_axis1_eq, extractAt1_apply, broadcastTo_a1_ab_apply, broadcastTo_1b_ab_apply, transpose_ix2_apply]; rfl
theorem tox1_at (v136 : Vec Ideal S1x52x4 .f32) (p : Fin 52) :
    k0_pay90 (F := Ideal) v11 (k0_pay72 v136) (ix1 p) = hi (v136 (ix3 (0 : Fin 1) p (0 : Fin 4))) (v136 (ix3 (0 : Fin 1) p (2 : Fin 4))) v11 := by
  unfold k0_pay90 k0_pay86 k0_pay84 k0_pay72 hi; simp only [mulf_apply, subf_apply, addf_apply, divf_apply, maximumf_apply, minimumf_apply, absf_apply, sqrt_apply, exp_apply, broadcast_apply, shapeCast_a1_a_apply, shapeCast_a_a1_apply, shapeCast_a_1a_apply, shapeCast_1a_a_apply, shapeCast_1ab_ab_apply, shapeCast_ab_1ab_apply, shapeCast_11a_a_apply, slice1_eq, slice2_axis1_eq, extractAt1_apply, broadcastTo_a1_ab_apply, broadcastTo_1b_ab_apply, transpose_ix2_apply]; rfl
theorem toy1_at (v136 : Vec Ideal S1x52x4 .f32) (p : Fin 52) :
    k0_pay91 (F := Ideal) v13 (k0_pay72 v136) (ix1 p) = hi (v136 (ix3 (0 : Fin 1) p (1 : Fin 4))) (v136 (ix3 (0 : Fin 1) p (3 : Fin 4))) v13 := by
  unfold k0_pay91 k0_pay87 k0_pay85 k0_pay72 hi; simp only [mulf_apply, subf_apply, addf_apply, divf_apply, maximumf_apply, minimumf_apply, absf_apply, sqrt_apply, exp_apply, broadcast_apply, shapeCast_a1_a_apply, shapeCast_a_a1_apply, shapeCast_a_1a_apply, shapeCast_1a_a_apply, shapeCast_1ab_ab_apply, shapeCast_ab_1ab_apply, shapeCast_11a_a_apply, slice1_eq, slice2_axis1_eq, extractAt1_apply, broadcastTo_a1_ab_apply, broadcastTo_1b_ab_apply, transpose_ix2_apply]; rfl

/-! ## The endpoint match, weighted by the entity's confidence -/

theorem tmatchSub_at (v44 v47 v78 : FVec Ideal S500 .f32) (v138 : Vec Ideal S1x52x4 .f32) (p : Fin 52) (e : Fin 500) :
    k0_pay97 (F := Ideal) v78 (k0_pay94 v11 v44 (k0_pay73 v138)) (k0_pay95 v13 v47 (k0_pay73 v138)) (ix2 p e)
      = weight (v78 (ix1 e)) (l1 (v138 (ix3 (0 : Fin 1) p (0 : Fin 4)) * v11) (v138 (ix3 (0 : Fin 1) p (1 : Fin 4)) * v13) (v44 (ix1 e)) (v47 (ix1 e))) := by
  unfold k0_pay97 k0_pay96 k0_pay95 k0_pay94 k0_pay73 weight l1 absv; simp only [mulf_apply, subf_apply, addf_apply, divf_apply, maximumf_apply, minimumf_apply, absf_apply, sqrt_apply, exp_apply, broadcast_apply, shapeCast_a1_a_apply, shapeCast_a_a1_apply, shapeCast_a_1a_apply, shapeCast_1a_a_apply, shapeCast_1ab_ab_apply, shapeCast_ab_1ab_apply, shapeCast_11a_a_apply, slice1_eq, slice2_axis1_eq, extractAt1_apply, broadcastTo_a1_ab_apply, broadcastTo_1b_ab_apply, transpose_ix2_apply]; rfl

theorem tmatchObj_at (v44 v47 v78 : FVec Ideal S500 .f32) (v138 : Vec Ideal S1x52x4 .f32) (p : Fin 52) (e : Fin 500) :
    k0_pay98 (F := Ideal) v44 v47 v78 (k0_pay92 v11 (k0_pay73 v138)) (k0_pay93 v13 (k0_pay73 v138)) (ix2 p e)
      = weight (v78 (ix1 e)) (l1 (v138 (ix3 (0 : Fin 1) p (2 : Fin 4)) * v11) (v138 (ix3 (0 : Fin 1) p (3 : Fin 4)) * v13) (v44 (ix1 e)) (v47 (ix1 e))) := by
  unfold k0_pay98 k0_pay96 k0_pay93 k0_pay92 k0_pay73 weight l1 absv; simp only [mulf_apply, subf_apply, addf_apply, divf_apply, maximumf_apply, minimumf_apply, absf_apply, sqrt_apply, exp_apply, broadcast_apply, shapeCast_a1_a_apply, shapeCast_a_a1_apply, shapeCast_a_1a_apply, shapeCast_1a_a_apply, shapeCast_1ab_ab_apply, shapeCast_ab_1ab_apply, shapeCast_11a_a_apply, slice1_eq, slice2_axis1_eq, extractAt1_apply, broadcastTo_a1_ab_apply, broadcastTo_1b_ab_apply, transpose_ix2_apply]; rfl

/-! ## The box overlap -/

/-- The subject side, its positive part taken. -/
theorem tgiouSub_at (v26 v31 v36 v41 : FVec Ideal S500 .f32) (a0 a1 a2 a3 : FVec Ideal S52 .f32) (p : Fin 52) (e : Fin 500) :
    k0_pay104 (F := Ideal) v26 v31 v36 v41 a0 a1 a2 a3 (k0_pay99 a0 a1 a2 a3) (k0_pay100 v26 v31 v36 v41) (k0_pay101 v31 a1) (k0_pay102 v41 a3) (k0_pay103 v26 v36 a0 a2)
        (Scalar.ofBits .f32 0x00000000#32) (ix2 p e)
      = pos (giou (a0 (ix1 p)) (a1 (ix1 p)) (a2 (ix1 p)) (a3 (ix1 p)) (v26 (ix1 e)) (v31 (ix1 e)) (v36 (ix1 e)) (v41 (ix1 e))) := by
  unfold k0_pay104 k0_pay99 k0_pay100 k0_pay101 k0_pay102 k0_pay103 pos giou inter union hull area; simp only [mulf_apply, subf_apply, addf_apply, divf_apply, maximumf_apply, minimumf_apply, absf_apply, sqrt_apply, exp_apply, broadcast_apply, shapeCast_a1_a_apply, shapeCast_a_a1_apply, shapeCast_a_1a_apply, shapeCast_1a_a_apply, shapeCast_1ab_ab_apply, shapeCast_ab_1ab_apply, shapeCast_11a_a_apply, slice1_eq, slice2_axis1_eq, extractAt1_apply, broadcastTo_a1_ab_apply, broadcastTo_1b_ab_apply, transpose_ix2_apply]; rfl

/-- The object side: its intersection, union and hull are three payloads; the last store forms the overlap from them. -/
theorem tinterObj_at (v26 v31 v36 v41 : FVec Ideal S500 .f32) (b0 b1 b2 b3 : FVec Ideal S52 .f32) (p : Fin 52) (e : Fin 500) :
    k0_pay108 (F := Ideal) v31 v36 v41 b1 b2 b3 (k0_pay107 v26 b0) (ix2 p e)
      = inter (b0 (ix1 p)) (b1 (ix1 p)) (b2 (ix1 p)) (b3 (ix1 p)) (v26 (ix1 e)) (v31 (ix1 e)) (v36 (ix1 e)) (v41 (ix1 e)) := by
  unfold k0_pay108 k0_pay107 inter; simp only [mulf_apply, subf_apply, addf_apply, divf_apply, maximumf_apply, minimumf_apply, absf_apply, sqrt_apply, exp_apply, broadcast_apply, shapeCast_a1_a_apply, shapeCast_a_a1_apply, shapeCast_a_1a_apply, shapeCast_1a_a_apply, shapeCast_1ab_ab_apply, shapeCast_ab_1ab_apply, shapeCast_11a_a_apply, slice1_eq, slice2_axis1_eq, extractAt1_apply, broadcastTo_a1_ab_apply, broadcastTo_1b_ab_apply, transpose_ix2_apply]; rfl

theorem tunionObj_at (v26 v31 v36 v41 : FVec Ideal S500 .f32) (b0 b1 b2 b3 : FVec Ideal S52 .f32) (p : Fin 52) (e : Fin 500) :
    k0_pay109 (F := Ideal) v31 v36 v41 b1 b2 b3 (k0_pay105 b0 b1 b2 b3) (k0_pay106 v26 v31 v36 v41) (k0_pay107 v26 b0) (ix2 p e)
      = union (b0 (ix1 p)) (b1 (ix1 p)) (b2 (ix1 p)) (b3 (ix1 p)) (v26 (ix1 e)) (v31 (ix1 e)) (v36 (ix1 e)) (v41 (ix1 e)) := by
  unfold k0_pay109 k0_pay108 k0_pay107 k0_pay106 k0_pay105 union inter area; simp only [mulf_apply, subf_apply, addf_apply, divf_apply, maximumf_apply, minimumf_apply, absf_apply, sqrt_apply, exp_apply, broadcast_apply, shapeCast_a1_a_apply, shapeCast_a_a1_apply, shapeCast_a_1a_apply, shapeCast_1a_a_apply, shapeCast_1ab_ab_apply, shapeCast_ab_1ab_apply, shapeCast_11a_a_apply, slice1_eq, slice2_axis1_eq, extractAt1_apply, broadcastTo_a1_ab_apply, broadcastTo_1b_ab_apply, transpose_ix2_apply]; rfl

theorem thullObj_at (v26 v31 v36 v41 : FVec Ideal S500 .f32) (b0 b1 b2 b3 : FVec Ideal S52 .f32) (p : Fin 52) (e : Fin 500) :
    k0_pay111 (F := Ideal) v26 v31 v36 v41 b0 b1 b2 b3 (ix2 p e)
      = hull (b0 (ix1 p)) (b1 (ix1 p)) (b2 (ix1 p)) (b3 (ix1 p)) (v26 (ix1 e)) (v31 (ix1 e)) (v36 (ix1 e)) (v41 (ix1 e)) := by
  unfold k0_pay111 hull; simp only [mulf_apply, subf_apply, addf_apply, divf_apply, maximumf_apply, minimumf_apply, absf_apply, sqrt_apply, exp_apply, broadcast_apply, shapeCast_a1_a_apply, shapeCast_a_a1_apply, shapeCast_a_1a_apply, shapeCast_1a_a_apply, shapeCast_1ab_ab_apply, shapeCast_ab_1ab_apply, shapeCast_11a_a_apply, slice1_eq, slice2_axis1_eq, extractAt1_apply, broadcastTo_a1_ab_apply, broadcastTo_1b_ab_apply, transpose_ix2_apply]; rfl

/-! ## The stored rows -/

/-- The subject rows as the body stores them. -/
def subTail (v26 v31 v36 v41 v44 v47 v78 : FVec Ideal S500 .f32) (v134 v138 : Vec Ideal S1x52x4 .f32) (v140 : Vec Ideal S52x500 .f32) : FVec Ideal S1x52x500 .f32 :=
  k0_pay1 v140 (k0_pay97 v78 (k0_pay94 v11 v44 (k0_pay73 v138)) (k0_pay95 v13 v47 (k0_pay73 v138)))
    (k0_pay104 v26 v31 v36 v41 (k0_pay78 v11 v134) (k0_pay79 v13 v134) (k0_pay80 v11 v134) (k0_pay83 (k0_pay81 v134) (k0_pay82 v13))
      (k0_pay99 (k0_pay78 v11 v134) (k0_pay79 v13 v134) (k0_pay80 v11 v134) (k0_pay83 (k0_pay81 v134) (k0_pay82 v13))) (k0_pay100 v26 v31 v36 v41)
      (k0_pay101 v31 (k0_pay79 v13 v134)) (k0_pay102 v41 (k0_pay83 (k0_pay81 v134) (k0_pay82 v13))) (k0_pay103 v26 v36 (k0_pay78 v11 v134) (k0_pay80 v11 v134)) (Scalar.ofBits .f32 0x00000000#32))

theorem subTail_at (v26 v31 v36 v41 v44 v47 v78 : FVec Ideal S500 .f32) (v134 v138 : Vec Ideal S1x52x4 .f32) (v140 : Vec Ideal S52x500 .f32)
    (u : Fin 1) (p : Fin 52) (e : Fin 500) :
    subTail v11 v13 v26 v31 v36 v41 v44 v47 v78 v134 v138 v140 (ix3 u p e)
      = entry (weight (v78 (ix1 e)) (l1 (v138 (ix3 (0 : Fin 1) p (0 : Fin 4)) * v11) (v138 (ix3 (0 : Fin 1) p (1 : Fin 4)) * v13) (v44 (ix1 e)) (v47 (ix1 e))))
          (v140 (ix2 p e))
          (pos (giou (lo (v134 (ix3 (0 : Fin 1) p (0 : Fin 4))) (v134 (ix3 (0 : Fin 1) p (2 : Fin 4))) v11) (lo (v134 (ix3 (0 : Fin 1) p (1 : Fin 4))) (v134 (ix3 (0 : Fin 1) p (3 : Fin 4))) v13)
                     (hi (v134 (ix3 (0 : Fin 1) p (0 : Fin 4))) (v134 (ix3 (0 : Fin 1) p (2 : Fin 4))) v11) (hi (v134 (ix3 (0 : Fin 1) p (1 : Fin 4))) (v134 (ix3 (0 : Fin 1) p (3 : Fin 4))) v13)
                     (v26 (ix1 e)) (v31 (ix1 e)) (v36 (ix1 e)) (v41 (ix1 e)))) := by
  unfold subTail k0_pay1 entry
  simp only [shapeCast_ab_1ab_apply, mulf_apply, tmatchSub_at, tgiouSub_at, tsx0_at, tsy0_at, tsx1_at, tsy1_at]

/-- The object rows as the body stores them. -/
def objTail (v26 v31 v36 v41 v44 v47 v78 : FVec Ideal S500 .f32) (v136 v138 : Vec Ideal S1x52x4 .f32) (v141 : Vec Ideal S52x500 .f32) : FVec Ideal S1x52x500 .f32 :=
  k0_pay2 v141 (k0_pay98 v44 v47 v78 (k0_pay92 v11 (k0_pay73 v138)) (k0_pay93 v13 (k0_pay73 v138)))
    (k0_pay109 v31 v36 v41 (k0_pay89 v13 (k0_pay72 v136)) (k0_pay90 v11 (k0_pay72 v136)) (k0_pay91 v13 (k0_pay72 v136))
      (k0_pay105 (k0_pay88 v11 (k0_pay72 v136)) (k0_pay89 v13 (k0_pay72 v136)) (k0_pay90 v11 (k0_pay72 v136)) (k0_pay91 v13 (k0_pay72 v136)))
      (k0_pay106 v26 v31 v36 v41) (k0_pay107 v26 (k0_pay88 v11 (k0_pay72 v136))))
    (k0_pay110 v31 v36 v41 (k0_pay89 v13 (k0_pay72 v136)) (k0_pay90 v11 (k0_pay72 v136)) (k0_pay91 v13 (k0_pay72 v136))
      (k0_pay105 (k0_pay88 v11 (k0_pay72 v136)) (k0_pay89 v13 (k0_pay72 v136)) (k0_pay90 v11 (k0_pay72 v136)) (k0_pay91 v13 (k0_pay72 v136)))
      (k0_pay106 v26 v31 v36 v41) (k0_pay107 v26 (k0_pay88 v11 (k0_pay72 v136))))
    (k0_pay111 v26 v31 v36 v41 (k0_pay88 v11 (k0_pay72 v136)) (k0_pay89 v13 (k0_pay72 v136)) (k0_pay90 v11 (k0_pay72 v136)) (k0_pay91 v13 (k0_pay72 v136)))

theorem objTail_at (v26 v31 v36 v41 v44 v47 v78 : FVec Ideal S500 .f32) (v136 v138 : Vec Ideal S1x52x4 .f32) (v141 : Vec Ideal S52x500 .f32)
    (u : Fin 1) (p : Fin 52) (e : Fin 500) :
    objTail v11 v13 v26 v31 v36 v41 v44 v47 v78 v136 v138 v141 (ix3 u p e)
      = entry (weight (v78 (ix1 e)) (l1 (v138 (ix3 (0 : Fin 1) p (2 : Fin 4)) * v11) (v138 (ix3 (0 : Fin 1) p (3 : Fin 4)) * v13) (v44 (ix1 e)) (v47 (ix1 e))))
          (v141 (ix2 p e))
          (pos (giou (lo (v136 (ix3 (0 : Fin 1) p (0 : Fin 4))) (v136 (ix3 (0 : Fin 1) p (2 : Fin 4))) v11) (lo (v136 (ix3 (0 : Fin 1) p (1 : Fin 4))) (v136 (ix3 (0 : Fin 1) p (3 : Fin 4))) v13)
                     (hi (v136 (ix3 (0 : Fin 1) p (0 : Fin 4))) (v136 (ix3 (0 : Fin 1) p (2 : Fin 4))) v11) (hi (v136 (ix3 (0 : Fin 1) p (1 : Fin 4))) (v136 (ix3 (0 : Fin 1) p (3 : Fin 4))) v13)
                     (v26 (ix1 e)) (v31 (ix1 e)) (v36 (ix1 e)) (v41 (ix1 e)))) := by
  unfold objTail k0_pay2 k0_pay110 entry pos giou
  simp only [shapeCast_ab_1ab_apply, mulf_apply, subf_apply, divf_apply, maximumf_apply, broadcast_apply, tmatchObj_at, tinterObj_at, tunionObj_at, thullObj_at, tox0_at, toy0_at, tox1_at, toy1_at]
  rfl

end Cert.KernelIdeal.Val

end
-- ==== Proof.KI.ValCls.lean ====
/-
  The class side of the kernel body read at an index, at the ideal instance. The body loads one image's three blocks
  of class logits ([1, 500, 151] each: entities, relation objects, relation subjects), takes the softmax of every row
  and drops the background class, takes each entity's largest probability as its confidence, and forms for subjects and
  for objects the 500 × 500 matrix of class matches against the entities: one over one plus the Euclidean distance of
  the two distributions, the squared distance computed from the two squared norms and the inner product (a matrix
  product, whose operands' change of float format is the identity here).
-/
import proofs.«109971_j31181462569594_2_alg».proof.Proof.Gen.KernelIdeal.Skeleton
import proofs.«109971_j31181462569594_2_alg».proof.Proof.LibLayout
import proofs.«109971_j31181462569594_2_alg».proof.Proof.Spec

noncomputable section

namespace Cert.KernelIdeal.Val

open Cert.KernelIdeal Cert.KernelIdeal.Gen Idealize.ShloMosaic Idealize.ShloMosaic.ValueIdx Cert.LibLayout Cert.Spec

variable [Cert.KernelIdeal.Facts]

/-! ## The loaded logits, their leading unit axis dropped -/

theorem pay42_at (v : Vec Ideal S1x500x151 .f32) (r : Fin 500) (j : Fin 151) : k0_pay42 (F := Ideal) v (ix2 r j) = v (ix3 (0 : Fin 1) r j) := by
  unfold k0_pay42; simp only [mulf_apply, subf_apply, addf_apply, divf_apply, maximumf_apply, minimumf_apply, absf_apply, sqrt_apply, exp_apply, broadcast_apply, shapeCast_a1_a_apply, shapeCast_a_a1_apply, shapeCast_a_1a_apply, shapeCast_1a_a_apply, shapeCast_1ab_ab_apply, shapeCast_ab_1ab_apply, shapeCast_11a_a_apply, slice1_eq, slice2_axis1_eq, extractAt1_apply, broadcastTo_a1_ab_apply, broadcastTo_1b_ab_apply, transpose_ix2_apply]
theorem pay43_at (v : Vec Ideal S1x500x151 .f32) (r : Fin 500) (j : Fin 151) : k0_pay43 (F := Ideal) v (ix2 r j) = v (ix3 (0 : Fin 1) r j) := by
  unfold k0_pay43; simp only [mulf_apply, subf_apply, addf_apply, divf_apply, maximumf_apply, minimumf_apply, absf_apply, sqrt_apply, exp_apply, broadcast_apply, shapeCast_a1_a_apply, shapeCast_a_a1_apply, shapeCast_a_1a_apply, shapeCast_1a_a_apply, shapeCast_1ab_ab_apply, shapeCast_ab_1ab_apply, shapeCast_11a_a_apply, slice1_eq, slice2_axis1_eq, extractAt1_apply, broadcastTo_a1_ab_apply, broadcastTo_1b_ab_apply, transpose_ix2_apply]
theorem pay44_at (v : Vec Ideal S1x500x151 .f32) (r : Fin 500) (j : Fin 151) : k0_pay44 (F := Ideal) v (ix2 r j) = v (ix3 (0 : Fin 1) r j) := by
  unfold k0_pay44; simp only [mulf_apply, subf_apply, addf_apply, divf_apply, maximumf_apply, minimumf_apply, absf_apply, sqrt_apply, exp_apply, broadcast_apply, shapeCast_a1_a_apply, shapeCast_a_a1_apply, shapeCast_a_1a_apply, shapeCast_1a_a_apply, shapeCast_1ab_ab_apply, shapeCast_ab_1ab_apply, shapeCast_11a_a_apply, slice1_eq, slice2_axis1_eq, extractAt1_apply, broadcastTo_a1_ab_apply, broadcastTo_1b_ab_apply, transpose_ix2_apply]

/-! ## Row reductions and transposes at this program's shapes

The axis list is a variable with an equation beside it: each lemma holds for any list equal to the stated one. -/

theorem rowMax151_at (axes : List (Fin S500x151.rank)) (src : FVec Ideal S500x151 .f32) (h : S500x151.Reduces axes S500) (hφ : FKind.Formats .f32)
    (hacc : (0xFF800000#32 : BitVec 32) = 0xFF800000#32) (hax : axes = [1]) (r : Fin 500) :
    multiReduction .maximumf axes S500 src 0xFF800000#32 h hφ hacc (ix1 r)
      = (Finset.univ : Finset (Fin 151)).fold max cNegInf (fun k => src (ix2 r k)) := by
  subst hax; exact rowMax_apply src h hφ hacc r
theorem rowSum151_at (axes : List (Fin S500x151.rank)) (src : FVec Ideal S500x151 .f32) (h : S500x151.Reduces axes S500) (hφ : FKind.Formats .f32)
    (hacc : (0x00000000#32 : BitVec 32) = 0x00000000#32) (hax : axes = [1]) (r : Fin 500) :
    multiReduction .add axes S500 src 0x00000000#32 h hφ hacc (ix1 r) = ∑ k : Fin 151, src (ix2 r k) := by
  subst hax; exact rowSum_apply src h hφ hacc r
theorem rowMax150_at (axes : List (Fin S500x150.rank)) (src : FVec Ideal S500x150 .f32) (h : S500x150.Reduces axes S500) (hφ : FKind.Formats .f32)
    (hacc : (0xFF800000#32 : BitVec 32) = 0xFF800000#32) (hax : axes = [1]) (r : Fin 500) :
    multiReduction .maximumf axes S500 src 0xFF800000#32 h hφ hacc (ix1 r)
      = (Finset.univ : Finset (Fin 150)).fold max cNegInf (fun k => src (ix2 r k)) := by
  subst hax; exact rowMax_apply src h hφ hacc r
theorem rowSum150_at (axes : List (Fin S500x150.rank)) (src : FVec Ideal S500x150 .f32) (h : S500x150.Reduces axes S500) (hφ : FKind.Formats .f32)
    (hacc : (0x00000000#32 : BitVec 32) = 0x00000000#32) (hax : axes = [1]) (r : Fin 500) :
    multiReduction .add axes S500 src 0x00000000#32 h hφ hacc (ix1 r) = ∑ k : Fin 150, src (ix2 r k) := by
  subst hax; exact rowSum_apply src h hφ hacc r
theorem trCol_at (perm : List (Fin S500x1.rank)) (x : FVec Ideal S500x1 .f32) (h : S500x1.Transposes perm S1x500) (hp : perm = [1, 0])
    (u : Fin 1) (e : Fin 500) : transpose S1x500 perm x h (ix2 u e) = x (ix2 e u) := by
  subst hp; exact transpose_ix2_apply x h u e
theorem trMat_at (perm : List (Fin S500x150.rank)) (x : FVec Ideal S500x150 .bf16) (h : S500x150.Transposes perm S150x500) (hp : perm = [1, 0])
    (k : Fin 150) (e : Fin 500) : transpose S150x500 perm x h (ix2 k e) = x (ix2 e k) := by
  subst hp; exact transpose_ix2_apply x h k e

/-! ## The class distributions -/

theorem probObj_at (v5 : FVec Ideal S500x151 .f32) (r : Fin 500) (k : Fin 150) :
    k0_pay59 (F := Ideal) v5 (ix2 r k) = prob (fun j => v5 (ix2 r j)) k := by
  unfold k0_pay59 prob softmax rowMax; simp only [mulf_apply, subf_apply, addf_apply, divf_apply, maximumf_apply, minimumf_apply, absf_apply, sqrt_apply, exp_apply, broadcast_apply, shapeCast_a1_a_apply, shapeCast_a_a1_apply, shapeCast_a_1a_apply, shapeCast_1a_a_apply, shapeCast_1ab_ab_apply, shapeCast_ab_1ab_apply, shapeCast_11a_a_apply, slice1_eq, slice2_axis1_eq, extractAt1_apply, broadcastTo_a1_ab_apply, broadcastTo_1b_ab_apply, transpose_ix2_apply, rowMax151_at, rowSum151_at, rowMax150_at, rowSum150_at, trCol_at, trMat_at, slice2_head_eq _ _ (by decide : 150 ≤ 151), shapeCast_self]
theorem probSub_at (v7 : FVec Ideal S500x151 .f32) (r : Fin 500) (k : Fin 150) :
    k0_pay60 (F := Ideal) v7 (ix2 r k) = prob (fun j => v7 (ix2 r j)) k := by
  unfold k0_pay60 prob softmax rowMax; simp only [mulf_apply, subf_apply, addf_apply, divf_apply, maximumf_apply, minimumf_apply, absf_apply, sqrt_apply, exp_apply, broadcast_apply, shapeCast_a1_a_apply, shapeCast_a_a1_apply, shapeCast_a_1a_apply, shapeCast_1a_a_apply, shapeCast_1ab_ab_apply, shapeCast_ab_1ab_apply, shapeCast_11a_a_apply, slice1_eq, slice2_axis1_eq, extractAt1_apply, broadcastTo_a1_ab_apply, broadcastTo_1b_ab_apply, transpose_ix2_apply, rowMax151_at, rowSum151_at, rowMax150_at, rowSum150_at, trCol_at, trMat_at, slice2_head_eq _ _ (by decide : 150 ≤ 151), shapeCast_self]
theorem probEnt_at (v3 : FVec Ideal S500x151 .f32) (r : Fin 500) (k : Fin 150) :
    k0_pay61 (F := Ideal) v3 (ix2 r k) = prob (fun j => v3 (ix2 r j)) k := by
  unfold k0_pay61 prob softmax rowMax; simp only [mulf_apply, subf_apply, addf_apply, divf_apply, maximumf_apply, minimumf_apply, absf_apply, sqrt_apply, exp_apply, broadcast_apply, shapeCast_a1_a_apply, shapeCast_a_a1_apply, shapeCast_a_1a_apply, shapeCast_1a_a_apply, shapeCast_1ab_ab_apply, shapeCast_ab_1ab_apply, shapeCast_11a_a_apply, slice1_eq, slice2_axis1_eq, extractAt1_apply, broadcastTo_a1_ab_apply, broadcastTo_1b_ab_apply, transpose_ix2_apply, rowMax151_at, rowSum151_at, rowMax150_at, rowSum150_at, trCol_at, trMat_at, slice2_head_eq _ _ (by decide : 150 ≤ 151), shapeCast_self]

/-- An entity's confidence. -/
theorem score_at (v3 : FVec Ideal S500x151 .f32) (e : Fin 500) :
    k0_pay62 (F := Ideal) v3 (ix1 e) = score (fun j => v3 (ix2 e j)) := by
  unfold k0_pay62 score; simp only [rowMax150_at, probEnt_at]

/-! ## The inner products: the matrix unit's product of the row distributions -/

theorem lhs_mm_0 (i : S500x500.Idx) (q : dot_S500x150_S150x500_S500x500_1_0_0_1_n_n.contr.Idx) : (dot_S500x150_S150x500_S500x500_1_0_0_1_n_n.lhsIdx i q 0).val = (i 0).val := by
  unfold DotDims.lhsIdx
  rw [dif_neg (show ¬(0 : Fin S500x150.rank) ∈ dot_S500x150_S150x500_S500x500_1_0_0_1_n_n.lhsBatch by decide), dif_pos (show (0 : Fin S500x150.rank) ∈ dot_S500x150_S150x500_S500x500_1_0_0_1_n_n.lhsNonContracting by decide)]
  rfl
theorem lhs_mm_1 (i : S500x500.Idx) (q : dot_S500x150_S150x500_S500x500_1_0_0_1_n_n.contr.Idx) : (dot_S500x150_S150x500_S500x500_1_0_0_1_n_n.lhsIdx i q 1).val = (q ⟨0, by decide⟩).val :=
  dot_S500x150_S150x500_S500x500_1_0_0_1_n_n.lhsIdx_val_of_single rfl i q
theorem rhs_mm_0 (i : S500x500.Idx) (q : dot_S500x150_S150x500_S500x500_1_0_0_1_n_n.contr.Idx) : (dot_S500x150_S150x500_S500x500_1_0_0_1_n_n.rhsIdx i q 0).val = (q ⟨0, by decide⟩).val :=
  dot_S500x150_S150x500_S500x500_1_0_0_1_n_n.rhsIdx_val_of_single rfl i q
theorem rhs_mm_1 (i : S500x500.Idx) (q : dot_S500x150_S150x500_S500x500_1_0_0_1_n_n.contr.Idx) : (dot_S500x150_S150x500_S500x500_1_0_0_1_n_n.rhsIdx i q 1).val = (i 1).val := by
  unfold DotDims.rhsIdx
  rw [dif_neg (show ¬(1 : Fin S150x500.rank) ∈ dot_S500x150_S150x500_S500x500_1_0_0_1_n_n.rhsBatch by decide), dif_pos (show (1 : Fin S150x500.rank) ∈ dot_S500x150_S150x500_S500x500_1_0_0_1_n_n.rhsNonContracting by decide)]
  rfl

/-- The product of a [500, 150] by a [150, 500] matrix into a zero accumulator, at `(r, e)`: the sum over the 150 classes. -/
theorem matmul_at (l : FVec Ideal S500x150 .bf16) (rr : FVec Ideal S150x500 .bf16) (r e : Fin 500) :
    matmul dot_S500x150_S150x500_S500x500_1_0_0_1_n_n none l rr (constant S500x500 .f32 0x00000000#32) (ix2 r e) = ∑ k : Fin 150, l (ix2 r k) * rr (ix2 k e) := by
  simp only [matmul]
  rw [Ideal.matmul_constant_zero_apply, ← Equiv.sum_comp (ValueIdx.contrEquiv1 dot_S500x150_S150x500_S500x500_1_0_0_1_n_n 150 rfl rfl).symm]
  refine Finset.sum_congr rfl fun k _ => ?_
  have hk := ValueIdx.contrEquiv1_symm_val dot_S500x150_S150x500_S500x500_1_0_0_1_n_n 150 rfl rfl k
  have el : dot_S500x150_S150x500_S500x500_1_0_0_1_n_n.lhsIdx (ix2 r e) ((ValueIdx.contrEquiv1 dot_S500x150_S150x500_S500x500_1_0_0_1_n_n 150 rfl rfl).symm k) = ix2 r k := funext fun a => Fin.ext (by
    match a with
    | ⟨0, _⟩ => exact lhs_mm_0 _ _
    | ⟨1, _⟩ => exact (lhs_mm_1 _ _).trans hk)
  have er : dot_S500x150_S150x500_S500x500_1_0_0_1_n_n.rhsIdx (ix2 r e) ((ValueIdx.contrEquiv1 dot_S500x150_S150x500_S500x500_1_0_0_1_n_n 150 rfl rfl).symm k) = ix2 k e := funext fun a => Fin.ext (by
    match a with
    | ⟨0, _⟩ => exact (rhs_mm_0 _ _).trans hk
    | ⟨1, _⟩ => exact rhs_mm_1 _ _)
  rw [el, er]

/-! ## The two matrices of class matches -/

/-- Subjects against entities, as the body stores it into the first scratch matrix. -/
def subCls (v3 v7 : FVec Ideal S500x151 .f32) : FVec Ideal S500x500 .f32 :=
  k0_pay66 (k0_pay63 v3 v7) (k0_pay64 v7) (k0_pay65 v3)

theorem subCls_at (v3 v7 : FVec Ideal S500x151 .f32) (r e : Fin 500) :
    subCls v3 v7 (ix2 r e) = clsOf (fun j => v7 (ix2 r j)) (fun j => v3 (ix2 e j)) := by
  unfold subCls k0_pay66 k0_pay65 k0_pay64 k0_pay63 clsOf cls sqNorm dotp
  simp only [mulf_apply, subf_apply, addf_apply, divf_apply, maximumf_apply, minimumf_apply, absf_apply, sqrt_apply, exp_apply, broadcast_apply, shapeCast_a1_a_apply, shapeCast_a_a1_apply, shapeCast_a_1a_apply, shapeCast_1a_a_apply, shapeCast_1ab_ab_apply, shapeCast_ab_1ab_apply, shapeCast_11a_a_apply, slice1_eq, slice2_axis1_eq, extractAt1_apply, broadcastTo_a1_ab_apply, broadcastTo_1b_ab_apply, transpose_ix2_apply, rowMax151_at, rowSum151_at, rowMax150_at, rowSum150_at, trCol_at, trMat_at, slice2_head_eq _ _ (by decide : 150 ≤ 151), shapeCast_self, truncf_apply, matmul_at, probSub_at, probEnt_at]
  rfl

/-- Objects against entities, as the body stores it into the second scratch matrix. -/
def objCls (v3 v5 : FVec Ideal S500x151 .f32) : FVec Ideal S500x500 .f32 :=
  k0_pay68 (k0_pay67 (k0_pay59 v5) (k0_pay61 v3))

theorem objCls_at (v3 v5 : FVec Ideal S500x151 .f32) (r e : Fin 500) :
    objCls v3 v5 (ix2 r e) = clsOf (fun j => v5 (ix2 r j)) (fun j => v3 (ix2 e j)) := by
  unfold objCls k0_pay68 k0_pay67 clsOf cls sqNorm dotp
  simp only [mulf_apply, subf_apply, addf_apply, divf_apply, maximumf_apply, minimumf_apply, absf_apply, sqrt_apply, exp_apply, broadcast_apply, shapeCast_a1_a_apply, shapeCast_a_a1_apply, shapeCast_a_1a_apply, shapeCast_1a_a_apply, shapeCast_1ab_ab_apply, shapeCast_ab_1ab_apply, shapeCast_11a_a_apply, slice1_eq, slice2_axis1_eq, extractAt1_apply, broadcastTo_a1_ab_apply, broadcastTo_1b_ab_apply, transpose_ix2_apply, rowMax151_at, rowSum151_at, rowMax150_at, rowSum150_at, trCol_at, trMat_at, slice2_head_eq _ _ (by decide : 150 ≤ 151), shapeCast_self, truncf_apply, matmul_at, probObj_at, probEnt_at]
  rfl

end Cert.KernelIdeal.Val

end
-- ==== Proof.KI.ValEnt.lean ====
/-
  The entity-side values of the kernel body read at an index, at the ideal instance. The body loads one image's entity
  boxes as a [1, 500, 4] block and the image's scale as a [1, 1, 4] block [w, h, w, h]. From them it forms, per entity,
  the four corners of the scaled box and the box's centre.
-/
import proofs.«109971_j31181462569594_2_alg».proof.Proof.Gen.KernelIdeal.Skeleton
import proofs.«109971_j31181462569594_2_alg».proof.Proof.LibLayout
import proofs.«109971_j31181462569594_2_alg».proof.Proof.Spec

noncomputable section

namespace Cert.KernelIdeal.Val

open Cert.KernelIdeal Cert.KernelIdeal.Gen Idealize.ShloMosaic Idealize.ShloMosaic.ValueIdx Cert.LibLayout Cert.Spec

variable [Cert.KernelIdeal.Facts]

/-- The width scale is the scale block's first entry, the height scale its second. -/
theorem w_eq (v8 : Vec Ideal S1x1x4 .f32) : k0_pay46 (F := Ideal) v8 = v8 (ix3 (0 : Fin 1) (0 : Fin 1) (0 : Fin 4)) := by
  unfold k0_pay46 k0_pay45
  simp only [mulf_apply, subf_apply, addf_apply, divf_apply, maximumf_apply, minimumf_apply, absf_apply, sqrt_apply, exp_apply, broadcast_apply, shapeCast_a1_a_apply, shapeCast_a_a1_apply, shapeCast_a_1a_apply, shapeCast_1a_a_apply, shapeCast_1ab_ab_apply, shapeCast_ab_1ab_apply, shapeCast_11a_a_apply, slice1_eq, slice2_axis1_eq, extractAt1_apply, broadcastTo_a1_ab_apply, broadcastTo_1b_ab_apply, transpose_ix2_apply]
  rfl

theorem h_eq (v8 : Vec Ideal S1x1x4 .f32) : k0_pay47 (F := Ideal) v8 = v8 (ix3 (0 : Fin 1) (0 : Fin 1) (1 : Fin 4)) := by
  unfold k0_pay47 k0_pay45
  simp only [mulf_apply, subf_apply, addf_apply, divf_apply, maximumf_apply, minimumf_apply, absf_apply, sqrt_apply, exp_apply, broadcast_apply, shapeCast_a1_a_apply, shapeCast_a_a1_apply, shapeCast_a_1a_apply, shapeCast_1a_a_apply, shapeCast_1ab_ab_apply, shapeCast_ab_1ab_apply, shapeCast_11a_a_apply, slice1_eq, slice2_axis1_eq, extractAt1_apply, broadcastTo_a1_ab_apply, broadcastTo_1b_ab_apply, transpose_ix2_apply]
  rfl

/-- The entity box's low x corner. -/
theorem ex0_at (v0 : Vec Ideal S1x500x4 .f32) (v8 : Vec Ideal S1x1x4 .f32) (e : Fin 500) :
    k0_pay52 (F := Ideal) v0 v8 (ix1 e) = lo (v0 (ix3 (0 : Fin 1) e (0 : Fin 4))) (v0 (ix3 (0 : Fin 1) e (2 : Fin 4))) (k0_pay46 (F := Ideal) v8) := by
  unfold k0_pay52 k0_pay50 k0_pay48 k0_pay41 lo
  simp only [mulf_apply, subf_apply, addf_apply, divf_apply, maximumf_apply, minimumf_apply, absf_apply, sqrt_apply, exp_apply, broadcast_apply, shapeCast_a1_a_apply, shapeCast_a_a1_apply, shapeCast_a_1a_apply, shapeCast_1a_a_apply, shapeCast_1ab_ab_apply, shapeCast_ab_1ab_apply, shapeCast_11a_a_apply, slice1_eq, slice2_axis1_eq, extractAt1_apply, broadcastTo_a1_ab_apply, broadcastTo_1b_ab_apply, transpose_ix2_apply]
  rfl

/-- The entity box's low y corner. -/
theorem ey0_at (v0 : Vec Ideal S1x500x4 .f32) (v8 : Vec Ideal S1x1x4 .f32) (e : Fin 500) :
    k0_pay53 (F := Ideal) v0 v8 (ix1 e) = lo (v0 (ix3 (0 : Fin 1) e (1 : Fin 4))) (v0 (ix3 (0 : Fin 1) e (3 : Fin 4))) (k0_pay47 (F := Ideal) v8) := by
  unfold k0_pay53 k0_pay51 k0_pay49 k0_pay41 lo
  simp only [mulf_apply, subf_apply, addf_apply, divf_apply, maximumf_apply, minimumf_apply, absf_apply, sqrt_apply, exp_apply, broadcast_apply, shapeCast_a1_a_apply, shapeCast_a_a1_apply, shapeCast_a_1a_apply, shapeCast_1a_a_apply, shapeCast_1ab_ab_apply, shapeCast_ab_1ab_apply, shapeCast_11a_a_apply, slice1_eq, slice2_axis1_eq, extractAt1_apply, broadcastTo_a1_ab_apply, broadcastTo_1b_ab_apply, transpose_ix2_apply]
  rfl

/-- The entity box's high x corner. -/
theorem ex1_at (v0 : Vec Ideal S1x500x4 .f32) (v8 : Vec Ideal S1x1x4 .f32) (e : Fin 500) :
    k0_pay54 (F := Ideal) v0 v8 (ix1 e) = hi (v0 (ix3 (0 : Fin 1) e (0 : Fin 4))) (v0 (ix3 (0 : Fin 1) e (2 : Fin 4))) (k0_pay46 (F := Ideal) v8) := by
  unfold k0_pay54 k0_pay50 k0_pay48 k0_pay41 hi
  simp only [mulf_apply, subf_apply, addf_apply, divf_apply, maximumf_apply, minimumf_apply, absf_apply, sqrt_apply, exp_apply, broadcast_apply, shapeCast_a1_a_apply, shapeCast_a_a1_apply, shapeCast_a_1a_apply, shapeCast_1a_a_apply, shapeCast_1ab_ab_apply, shapeCast_ab_1ab_apply, shapeCast_11a_a_apply, slice1_eq, slice2_axis1_eq, extractAt1_apply, broadcastTo_a1_ab_apply, broadcastTo_1b_ab_apply, transpose_ix2_apply]
  rfl

/-- The entity box's high y corner, before and after scaling. -/
theorem ey1raw_at (v0 : Vec Ideal S1x500x4 .f32) (e : Fin 500) :
    k0_pay55 (F := Ideal) v0 (ix1 e) = hiRaw (v0 (ix3 (0 : Fin 1) e (1 : Fin 4))) (v0 (ix3 (0 : Fin 1) e (3 : Fin 4))) := by
  unfold k0_pay55 k0_pay51 k0_pay49 k0_pay41 hiRaw
  simp only [mulf_apply, subf_apply, addf_apply, divf_apply, maximumf_apply, minimumf_apply, absf_apply, sqrt_apply, exp_apply, broadcast_apply, shapeCast_a1_a_apply, shapeCast_a_a1_apply, shapeCast_a_1a_apply, shapeCast_1a_a_apply, shapeCast_1ab_ab_apply, shapeCast_ab_1ab_apply, shapeCast_11a_a_apply, slice1_eq, slice2_axis1_eq, extractAt1_apply, broadcastTo_a1_ab_apply, broadcastTo_1b_ab_apply, transpose_ix2_apply]
  rfl

theorem ey1_at (v13 : Ideal .f32) (v39 : FVec Ideal S500 .f32) (e : Fin 500) :
    k0_pay56 (F := Ideal) v13 v39 (ix1 e) = v39 (ix1 e) * v13 := by
  unfold k0_pay56
  simp only [mulf_apply, subf_apply, addf_apply, divf_apply, maximumf_apply, minimumf_apply, absf_apply, sqrt_apply, exp_apply, broadcast_apply, shapeCast_a1_a_apply, shapeCast_a_a1_apply, shapeCast_a_1a_apply, shapeCast_1a_a_apply, shapeCast_1ab_ab_apply, shapeCast_ab_1ab_apply, shapeCast_11a_a_apply, slice1_eq, slice2_axis1_eq, extractAt1_apply, broadcastTo_a1_ab_apply, broadcastTo_1b_ab_apply, transpose_ix2_apply]

/-- The entity box's centre on each axis. -/
theorem cx_at (v26 v36 : FVec Ideal S500 .f32) (e : Fin 500) :
    k0_pay57 (F := Ideal) v26 v36 (ix1 e) = mid (v26 (ix1 e)) (v36 (ix1 e)) := by
  unfold k0_pay57 mid
  simp only [mulf_apply, subf_apply, addf_apply, divf_apply, maximumf_apply, minimumf_apply, absf_apply, sqrt_apply, exp_apply, broadcast_apply, shapeCast_a1_a_apply, shapeCast_a_a1_apply, shapeCast_a_1a_apply, shapeCast_1a_a_apply, shapeCast_1ab_ab_apply, shapeCast_ab_1ab_apply, shapeCast_11a_a_apply, slice1_eq, slice2_axis1_eq, extractAt1_apply, broadcastTo_a1_ab_apply, broadcastTo_1b_ab_apply, transpose_ix2_apply]
  rfl

theorem cy_at (v13 : Ideal .f32) (v31 v39 : FVec Ideal S500 .f32) (e : Fin 500) :
    k0_pay58 (F := Ideal) v13 v31 v39 (ix1 e) = mid (v31 (ix1 e)) (v39 (ix1 e) * v13) := by
  unfold k0_pay58 k0_pay56 mid
  simp only [mulf_apply, subf_apply, addf_apply, divf_apply, maximumf_apply, minimumf_apply, absf_apply, sqrt_apply, exp_apply, broadcast_apply, shapeCast_a1_a_apply, shapeCast_a_a1_apply, shapeCast_a_1a_apply, shapeCast_1a_a_apply, shapeCast_1ab_ab_apply, shapeCast_ab_1ab_apply, shapeCast_11a_a_apply, slice1_eq, slice2_axis1_eq, extractAt1_apply, broadcastTo_a1_ab_apply, broadcastTo_1b_ab_apply, transpose_ix2_apply]
  rfl

end Cert.KernelIdeal.Val

end
-- ==== Proof.KI.Block.lean ====
/-
  What the body's run leaves in the two outputs' buffers, entry by entry, at the ideal instance: row `r`, column `e` of
  the first is the subject cost of relation `r` against entity `e` computed from the image's blocks, of the second the
  object cost. Every strip of the run agrees with that one function of the block's index: the loop's strips by
  induction over the trips, the last 52 rows directly; the loads a strip is computed from are rows of the input blocks
  and of the class-match matrices the body stored whole before.
-/
import proofs.«109971_j31181462569594_2_alg».proof.Proof.KI.Frame
import proofs.«109971_j31181462569594_2_alg».proof.Proof.KI.LoopPieces
import proofs.«109971_j31181462569594_2_alg».proof.Proof.KI.ValTail
import proofs.«109971_j31181462569594_2_alg».proof.Proof.KI.ValCls
import proofs.«109971_j31181462569594_2_alg».proof.Proof.KI.ValEnt
import Idealize.ShloMosaic.PureOps.Ideal
import Idealize.ShloMosaic.Lib.ValueIdx

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.LibLayout Cert.Spec Cert.KernelIdeal.Val

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-! ## The values every strip shares, as payloads of the image's blocks -/

section Shared
variable (x0 : Vec Ideal S1x500x4 .f32) (x1 x2 x3 : Vec Ideal S1x500x151 .f32) (x7 : Vec Ideal S1x1x4 .f32)

abbrev eW : Ideal .f32 := k0_pay46 (F := Ideal) x7
abbrev eH : Ideal .f32 := k0_pay47 (F := Ideal) x7
abbrev eX0 : FVec Ideal S500 .f32 := k0_pay52 x0 x7
abbrev eY0 : FVec Ideal S500 .f32 := k0_pay53 x0 x7
abbrev eX1 : FVec Ideal S500 .f32 := k0_pay54 x0 x7
abbrev eY1 : FVec Ideal S500 .f32 := k0_pay56 (k0_pay47 x7) (k0_pay55 x0)
abbrev eCx : FVec Ideal S500 .f32 := k0_pay57 (k0_pay52 x0 x7) (k0_pay54 x0 x7)
abbrev eCy : FVec Ideal S500 .f32 := k0_pay58 (k0_pay47 x7) (k0_pay53 x0 x7) (k0_pay55 x0)
abbrev eSc : FVec Ideal S500 .f32 := k0_pay62 (k0_pay42 x1)
/-- The two class-match matrices the body stores whole into its scratch buffers. -/
abbrev mSub : FVec Ideal S500x500 .f32 := subCls (k0_pay42 x1) (k0_pay44 x3)
abbrev mObj : FVec Ideal S500x500 .f32 := objCls (k0_pay42 x1) (k0_pay43 x2)

end Shared

/-! ## Rows of a block, and a strip's place in the output block -/

theorem trips7 : k0_t1_loop.trips = 7 := by decide

theorem ldRows_at (arg : Memref sig .tc .vmem S1x500x4 .f32) (harg : arg.IsWhole) (x : Vec Ideal S1x500x4 .f32) (k : Fin k0_t1_loop.trips)
    (u : Fin 1) (p : Fin 64) (j : Fin 4) (hp : 64 * k.val + p.val < 500) :
    ldRows arg (harg.unread x) k (ix3 u p j) = x (ix3 (0 : Fin 1) ⟨64 * k.val + p.val, hp⟩ j) := by
  unfold ldRows
  rw [View.readAt_apply, harg.read_unread]
  refine congrArg x (funext fun a => Fin.ext ?_)
  match a with
  | ⟨0, _⟩ => show (k0_off1 k) 0 + 1 * u.val = 0; rw [k0_off1_eq k]; have := u.isLt; show 0 + 1 * u.val = 0; omega
  | ⟨1, _⟩ => show (k0_off1 k) 1 + 1 * p.val = 64 * k.val + p.val; rw [k0_off1_eq k]; show 64 * k.val + 1 * p.val = _; omega
  | ⟨2, _⟩ => show (k0_off1 k) 2 + 1 * j.val = j.val; rw [k0_off1_eq k]; show 0 + 1 * j.val = _; omega

theorem ldMat_at (arg : Memref sig .tc .vmem S500x500 .f32) (w : FVec Ideal S500x500 .f32) (k : Fin k0_t1_loop.trips)
    (p : Fin 64) (e : Fin 500) (hp : 64 * k.val + p.val < 500) :
    ldMat arg (arg.view.writes (Elt Ideal) arg.view.junk [⟨(Rect.unit (s := S500x500) ![0, 0] S500x500.size inb_S500x500_S500x500_0_0), w⟩]) k (ix2 p e) = w (ix2 ⟨64 * k.val + p.val, hp⟩ e) := by
  unfold ldMat
  rw [View.readAt_apply, View.read_writes_junk_eq_canon, View.canon_unit_zero (S := S500x500) hz2]
  refine congrArg w (funext fun a => Fin.ext ?_)
  match a with
  | ⟨0, _⟩ => show (k0_off2 k) 0 + 1 * p.val = 64 * k.val + p.val; rw [k0_off2_eq k]; show 64 * k.val + 1 * p.val = _; omega
  | ⟨1, _⟩ => show (k0_off2 k) 1 + 1 * e.val = e.val; rw [k0_off2_eq k]; show 0 + 1 * e.val = _; omega

theorem emb_strip (k : Fin k0_t1_loop.trips) (u : Fin 1) (p : Fin 64) (e : Fin 500) (hp : 64 * k.val + p.val < 500) :
    (Rect.unit (s := S1x500x500) (k0_off3 k) S1x64x500.size (k0_off3_inb k)).emb (ix3 u p e) = ix3 (0 : Fin 1) ⟨64 * k.val + p.val, hp⟩ e := by
  refine funext fun a => Fin.ext ?_
  match a with
  | ⟨0, _⟩ => show (k0_off3 k) 0 + 1 * u.val = 0; rw [k0_off3_eq k]; have := u.isLt; show 0 + 1 * u.val = 0; omega
  | ⟨1, _⟩ => show (k0_off3 k) 1 + 1 * p.val = 64 * k.val + p.val; rw [k0_off3_eq k]; show 64 * k.val + 1 * p.val = _; omega
  | ⟨2, _⟩ => show (k0_off3 k) 2 + 1 * e.val = e.val; rw [k0_off3_eq k]; show 0 + 1 * e.val = _; omega

/-- Rows `o` to `o + h - 1` of a `[1, n, k]` block: the place of `(u, p, j)` is `(0, o + p, j)`. -/
theorem idx_rows3 {n k h : ℕ} (o : ℕ)
    (inb : ∀ a, (![0, o, 0] : Fin 3 → ℕ) a + (![1, h, k] : Fin 3 → ℕ) a ≤ (⟨3, ![1, n, k]⟩ : Shape).size a)
    (u : Fin 1) (p : Fin h) (j : Fin k) (hp : o + p.val < n) :
    (Rect.unit (s := ⟨3, ![1, n, k]⟩) ![0, o, 0] ![1, h, k] inb).toLoadRect.idx (ix3 u p j) = ix3 (0 : Fin 1) ⟨o + p.val, hp⟩ j := by
  refine funext fun a => Fin.ext ?_
  match a with
  | ⟨0, _⟩ => show 0 + 1 * u.val = 0; have := u.isLt; omega
  | ⟨1, _⟩ => show o + 1 * p.val = o + p.val; omega
  | ⟨2, _⟩ => show 0 + 1 * j.val = j.val; omega

/-! ## The run's words are those payloads -/

theorem loopP_eq (c : Dev nD) (i : grid0.Coords) (arg1 : Memref sig .tc .vmem S1x500x4 .f32) (harg1 : arg1.IsWhole) (arg2 : Memref sig .tc .vmem S1x500x151 .f32) (harg2 : arg2.IsWhole) (arg3 : Memref sig .tc .vmem S1x500x151 .f32) (harg3 : arg3.IsWhole) (arg4 : Memref sig .tc .vmem S1x500x151 .f32) (harg4 : arg4.IsWhole) (arg5 : Memref sig .tc .vmem S1x500x4 .f32) (harg5 : arg5.IsWhole) (arg6 : Memref sig .tc .vmem S1x500x4 .f32) (harg6 : arg6.IsWhole) (arg7 : Memref sig .tc .vmem S1x500x4 .f32) (harg7 : arg7.IsWhole) (arg8 : Memref sig .tc .vmem S1x1x4 .f32) (harg8 : arg8.IsWhole) (arg9 : Memref sig .tc .vmem S1x500x500 .f32) (harg9 : arg9.IsWhole) (arg10 : Memref sig .tc .vmem S1x500x500 .f32) (harg10 : arg10.IsWhole) (arg11 : Memref sig .tc .vmem S500x500 .f32) (harg11 : arg11.IsWhole) (arg12 : Memref sig .tc .vmem S500x500 .f32) (harg12 : arg12.IsWhole)
    (x0 : Vec Ideal S1x500x4 .f32) (x1 : Vec Ideal S1x500x151 .f32) (x2 : Vec Ideal S1x500x151 .f32) (x3 : Vec Ideal S1x500x151 .f32) (x4 : Vec Ideal S1x500x4 .f32) (x5 : Vec Ideal S1x500x4 .f32) (x6 : Vec Ideal S1x500x4 .f32) (x7 : Vec Ideal S1x1x4 .f32) :
    loopP (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7
      = pb_k0_t1 (F := Ideal) Variants.none c none i arg1 harg1 arg2 harg2 arg3 harg3 arg4 harg4 arg5 harg5 arg6 harg6 arg7 harg7 arg8 harg8 arg9 harg9 arg10 harg10 arg11 harg11 arg12 harg12 (eW x7) (eH x7) (eX0 x0 x7) (eY0 x0 x7) (eX1 x0 x7) (eY1 x0 x7) (eCx x0 x7) (eCy x0 x7) (eSc x1) (k0_pay67 (k0_pay59 (k0_pay43 x2)) (k0_pay61 (k0_pay42 x1)))
          (harg5.unread x4) (harg6.unread x5) (harg7.unread x6) (arg11.view.writes (Elt Ideal) arg11.view.junk [⟨(Rect.unit (s := S500x500) ![0, 0] S500x500.size inb_S500x500_S500x500_0_0), mSub x1 x3⟩]) (arg12.view.writes (Elt Ideal) arg12.view.junk [⟨(Rect.unit (s := S500x500) ![0, 0] S500x500.size inb_S500x500_S500x500_0_0), mObj x1 x2⟩]) (Scf.trips k0_t1_loop.lb k0_t1_loop.ub k0_t1_loop.st) := by
  unfold loopP
  sl_unfold_run_names
  simp only [View.readAt_eq_ld, harg1.read_unread, harg2.read_unread, harg3.read_unread, harg4.read_unread, harg5.read_unread, harg6.read_unread, harg7.read_unread, harg8.read_unread, View.ld_unit_zero (S := S1x500x4) hz3, View.ld_unit_zero (S := S1x500x151) hz3, View.ld_unit_zero (S := S1x1x4) hz3, View.readCov_eq_canon', View.canon_unit_zero (S := S500x500) hz2]
  rfl

theorem tail8_eq (c : Dev nD) (i : grid0.Coords) (arg1 : Memref sig .tc .vmem S1x500x4 .f32) (harg1 : arg1.IsWhole) (arg2 : Memref sig .tc .vmem S1x500x151 .f32) (harg2 : arg2.IsWhole) (arg3 : Memref sig .tc .vmem S1x500x151 .f32) (harg3 : arg3.IsWhole) (arg4 : Memref sig .tc .vmem S1x500x151 .f32) (harg4 : arg4.IsWhole) (arg5 : Memref sig .tc .vmem S1x500x4 .f32) (harg5 : arg5.IsWhole) (arg6 : Memref sig .tc .vmem S1x500x4 .f32) (harg6 : arg6.IsWhole) (arg7 : Memref sig .tc .vmem S1x500x4 .f32) (harg7 : arg7.IsWhole) (arg8 : Memref sig .tc .vmem S1x1x4 .f32) (harg8 : arg8.IsWhole) (arg9 : Memref sig .tc .vmem S1x500x500 .f32) (harg9 : arg9.IsWhole) (arg10 : Memref sig .tc .vmem S1x500x500 .f32) (harg10 : arg10.IsWhole) (arg11 : Memref sig .tc .vmem S500x500 .f32) (harg11 : arg11.IsWhole) (arg12 : Memref sig .tc .vmem S500x500 .f32) (harg12 : arg12.IsWhole)
    (x0 : Vec Ideal S1x500x4 .f32) (x1 : Vec Ideal S1x500x151 .f32) (x2 : Vec Ideal S1x500x151 .f32) (x3 : Vec Ideal S1x500x151 .f32) (x4 : Vec Ideal S1x500x4 .f32) (x5 : Vec Ideal S1x500x4 .f32) (x6 : Vec Ideal S1x500x4 .f32) (x7 : Vec Ideal S1x1x4 .f32) :
    tail8 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7
      = subTail (eW x7) (eH x7) (eX0 x0 x7) (eY0 x0 x7) (eX1 x0 x7) (eY1 x0 x7) (eCx x0 x7) (eCy x0 x7) (eSc x1)
          (fun y => x5 ((Rect.unit (s := S1x500x4) ![0, 448, 0] S1x52x4.size inb_S1x500x4_S1x52x4_0_448_0).toLoadRect.idx y)) (fun y => x6 ((Rect.unit (s := S1x500x4) ![0, 448, 0] S1x52x4.size inb_S1x500x4_S1x52x4_0_448_0).toLoadRect.idx y))
          (fun j => mSub x1 x3 ((Rect.unit (s := S500x500) ![448, 0] S52x500.size inb_S500x500_S52x500_448_0).toLoadRect.idx j)) := by
  unfold tail8
  sl_unfold_run_names
  simp only [View.readAt_eq_ld, harg1.read_unread, harg2.read_unread, harg3.read_unread, harg4.read_unread, harg5.read_unread, harg6.read_unread, harg7.read_unread, harg8.read_unread, View.ld_unit_zero (S := S1x500x4) hz3, View.ld_unit_zero (S := S1x500x151) hz3, View.ld_unit_zero (S := S1x1x4) hz3, View.readCov_eq_canon', View.canon_unit_zero (S := S500x500) hz2]
  rfl

theorem tail9_eq (c : Dev nD) (i : grid0.Coords) (arg1 : Memref sig .tc .vmem S1x500x4 .f32) (harg1 : arg1.IsWhole) (arg2 : Memref sig .tc .vmem S1x500x151 .f32) (harg2 : arg2.IsWhole) (arg3 : Memref sig .tc .vmem S1x500x151 .f32) (harg3 : arg3.IsWhole) (arg4 : Memref sig .tc .vmem S1x500x151 .f32) (harg4 : arg4.IsWhole) (arg5 : Memref sig .tc .vmem S1x500x4 .f32) (harg5 : arg5.IsWhole) (arg6 : Memref sig .tc .vmem S1x500x4 .f32) (harg6 : arg6.IsWhole) (arg7 : Memref sig .tc .vmem S1x500x4 .f32) (harg7 : arg7.IsWhole) (arg8 : Memref sig .tc .vmem S1x1x4 .f32) (harg8 : arg8.IsWhole) (arg9 : Memref sig .tc .vmem S1x500x500 .f32) (harg9 : arg9.IsWhole) (arg10 : Memref sig .tc .vmem S1x500x500 .f32) (harg10 : arg10.IsWhole) (arg11 : Memref sig .tc .vmem S500x500 .f32) (harg11 : arg11.IsWhole) (arg12 : Memref sig .tc .vmem S500x500 .f32) (harg12 : arg12.IsWhole)
    (x0 : Vec Ideal S1x500x4 .f32) (x1 : Vec Ideal S1x500x151 .f32) (x2 : Vec Ideal S1x500x151 .f32) (x3 : Vec Ideal S1x500x151 .f32) (x4 : Vec Ideal S1x500x4 .f32) (x5 : Vec Ideal S1x500x4 .f32) (x6 : Vec Ideal S1x500x4 .f32) (x7 : Vec Ideal S1x1x4 .f32) :
    tail9 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7
      = objTail (eW x7) (eH x7) (eX0 x0 x7) (eY0 x0 x7) (eX1 x0 x7) (eY1 x0 x7) (eCx x0 x7) (eCy x0 x7) (eSc x1)
          (fun y => x4 ((Rect.unit (s := S1x500x4) ![0, 448, 0] S1x52x4.size inb_S1x500x4_S1x52x4_0_448_0).toLoadRect.idx y)) (fun y => x6 ((Rect.unit (s := S1x500x4) ![0, 448, 0] S1x52x4.size inb_S1x500x4_S1x52x4_0_448_0).toLoadRect.idx y))
          (fun j => mObj x1 x2 ((Rect.unit (s := S500x500) ![448, 0] S52x500.size inb_S500x500_S52x500_448_0).toLoadRect.idx j)) := by
  unfold tail9
  sl_unfold_run_names
  simp only [View.readAt_eq_ld, harg1.read_unread, harg2.read_unread, harg3.read_unread, harg4.read_unread, harg5.read_unread, harg6.read_unread, harg7.read_unread, harg8.read_unread, View.ld_unit_zero (S := S1x500x4) hz3, View.ld_unit_zero (S := S1x500x151) hz3, View.ld_unit_zero (S := S1x1x4) hz3, View.readCov_eq_canon', View.canon_unit_zero (S := S500x500) hz2]
  rfl

/-! ## A strip, entry by entry -/

section Entries
variable (x0 : Vec Ideal S1x500x4 .f32) (x1 x2 x3 : Vec Ideal S1x500x151 .f32) (x4 x5 x6 : Vec Ideal S1x500x4 .f32) (x7 : Vec Ideal S1x1x4 .f32)

theorem tailSub_at (u : Fin 1) (p : Fin 52) (e : Fin 500) (hp : 448 + p.val < 500) :
    subTail (eW x7) (eH x7) (eX0 x0 x7) (eY0 x0 x7) (eX1 x0 x7) (eY1 x0 x7) (eCx x0 x7) (eCy x0 x7) (eSc x1)
        (fun y => x5 ((Rect.unit (s := S1x500x4) ![0, 448, 0] S1x52x4.size inb_S1x500x4_S1x52x4_0_448_0).toLoadRect.idx y)) (fun y => x6 ((Rect.unit (s := S1x500x4) ![0, 448, 0] S1x52x4.size inb_S1x500x4_S1x52x4_0_448_0).toLoadRect.idx y))
        (fun j => mSub x1 x3 ((Rect.unit (s := S500x500) ![448, 0] S52x500.size inb_S500x500_S52x500_448_0).toLoadRect.idx j)) (ix3 u p e)
      = blkSub x0 x1 x3 x5 x6 x7 ⟨448 + p.val, hp⟩ e := by
  rw [subTail_at]
  simp only [idx_rows3 448 _ (0 : Fin 1) p _ hp, idx_rows2 448 _ p e hp, w_eq, h_eq, ex0_at, ey0_at, ex1_at, ey1raw_at, ey1_at, cx_at, cy_at, score_at, pay42_at, pay43_at, pay44_at, subCls_at, objCls_at]
  unfold blkSub blkMatch blkGiou blkX0 blkY0 blkX1 blkY1 blkW blkH hi hiRaw
  rfl

theorem tailObj_at (u : Fin 1) (p : Fin 52) (e : Fin 500) (hp : 448 + p.val < 500) :
    objTail (eW x7) (eH x7) (eX0 x0 x7) (eY0 x0 x7) (eX1 x0 x7) (eY1 x0 x7) (eCx x0 x7) (eCy x0 x7) (eSc x1)
        (fun y => x4 ((Rect.unit (s := S1x500x4) ![0, 448, 0] S1x52x4.size inb_S1x500x4_S1x52x4_0_448_0).toLoadRect.idx y)) (fun y => x6 ((Rect.unit (s := S1x500x4) ![0, 448, 0] S1x52x4.size inb_S1x500x4_S1x52x4_0_448_0).toLoadRect.idx y))
        (fun j => mObj x1 x2 ((Rect.unit (s := S500x500) ![448, 0] S52x500.size inb_S500x500_S52x500_448_0).toLoadRect.idx j)) (ix3 u p e)
      = blkObj x0 x1 x2 x4 x6 x7 ⟨448 + p.val, hp⟩ e := by
  rw [objTail_at]
  simp only [idx_rows3 448 _ (0 : Fin 1) p _ hp, idx_rows2 448 _ p e hp, w_eq, h_eq, ex0_at, ey0_at, ex1_at, ey1raw_at, ey1_at, cx_at, cy_at, score_at, pay42_at, pay43_at, pay44_at, subCls_at, objCls_at]
  unfold blkObj blkMatch blkGiou blkX0 blkY0 blkX1 blkY1 blkW blkH hi hiRaw
  rfl

theorem stripSub_at (arg6 : Memref sig .tc .vmem S1x500x4 .f32) (harg6 : arg6.IsWhole) (arg7 : Memref sig .tc .vmem S1x500x4 .f32) (harg7 : arg7.IsWhole)
    (arg11 : Memref sig .tc .vmem S500x500 .f32) (k : Fin k0_t1_loop.trips) (u : Fin 1) (p : Fin 64) (e : Fin 500) (hp : 64 * k.val + p.val < 500) :
    subStrip (eW x7) (eH x7) (eX0 x0 x7) (eY0 x0 x7) (eX1 x0 x7) (eY1 x0 x7) (eCx x0 x7) (eCy x0 x7) (eSc x1)
        (ldRows arg6 (harg6.unread x5) k) (ldRows arg7 (harg7.unread x6) k) (ldMat arg11 (arg11.view.writes (Elt Ideal) arg11.view.junk [⟨(Rect.unit (s := S500x500) ![0, 0] S500x500.size inb_S500x500_S500x500_0_0), mSub x1 x3⟩]) k) (ix3 u p e)
      = blkSub x0 x1 x3 x5 x6 x7 ⟨64 * k.val + p.val, hp⟩ e := by
  rw [subStrip_at]
  simp only [ldRows_at _ _ _ k (0 : Fin 1) p _ hp, ldMat_at _ _ k p e hp, w_eq, h_eq, ex0_at, ey0_at, ex1_at, ey1raw_at, ey1_at, cx_at, cy_at, score_at, pay42_at, pay43_at, pay44_at, subCls_at, objCls_at]
  unfold blkSub blkMatch blkGiou blkX0 blkY0 blkX1 blkY1 blkW blkH hi hiRaw
  rfl

theorem stripObj_at (arg5 : Memref sig .tc .vmem S1x500x4 .f32) (harg5 : arg5.IsWhole) (arg7 : Memref sig .tc .vmem S1x500x4 .f32) (harg7 : arg7.IsWhole)
    (arg12 : Memref sig .tc .vmem S500x500 .f32) (k : Fin k0_t1_loop.trips) (u : Fin 1) (p : Fin 64) (e : Fin 500) (hp : 64 * k.val + p.val < 500) :
    objStrip (eW x7) (eH x7) (eX0 x0 x7) (eY0 x0 x7) (eX1 x0 x7) (eY1 x0 x7) (eCx x0 x7) (eCy x0 x7) (eSc x1)
        (ldRows arg5 (harg5.unread x4) k) (ldRows arg7 (harg7.unread x6) k) (ldMat arg12 (arg12.view.writes (Elt Ideal) arg12.view.junk [⟨(Rect.unit (s := S500x500) ![0, 0] S500x500.size inb_S500x500_S500x500_0_0), mObj x1 x2⟩]) k) (ix3 u p e)
      = blkObj x0 x1 x2 x4 x6 x7 ⟨64 * k.val + p.val, hp⟩ e := by
  rw [objStrip_at]
  simp only [ldRows_at _ _ _ k (0 : Fin 1) p _ hp, ldMat_at _ _ k p e hp, w_eq, h_eq, ex0_at, ey0_at, ex1_at, ey1raw_at, ey1_at, cx_at, cy_at, score_at, pay42_at, pay43_at, pay44_at, subCls_at, objCls_at]
  unfold blkObj blkMatch blkGiou blkX0 blkY0 blkX1 blkY1 blkW blkH hi hiRaw
  rfl

end Entries

/-! ## The two outputs -/

/-- The cost as a function of the output block's index. -/
def G8 (x0 : Vec Ideal S1x500x4 .f32) (x1 x3 : Vec Ideal S1x500x151 .f32) (x5 x6 : Vec Ideal S1x500x4 .f32) (x7 : Vec Ideal S1x1x4 .f32) : S1x500x500.Idx → EReal :=
  fun y => blkSub x0 x1 x3 x5 x6 x7 (y 1) (y 2)
def G9 (x0 : Vec Ideal S1x500x4 .f32) (x1 x2 : Vec Ideal S1x500x151 .f32) (x4 x6 : Vec Ideal S1x500x4 .f32) (x7 : Vec Ideal S1x1x4 .f32) : S1x500x500.Idx → EReal :=
  fun y => blkObj x0 x1 x2 x4 x6 x7 (y 1) (y 2)

theorem pieces8 (c : Dev nD) (i : grid0.Coords) (arg1 : Memref sig .tc .vmem S1x500x4 .f32) (harg1 : arg1.IsWhole) (arg2 : Memref sig .tc .vmem S1x500x151 .f32) (harg2 : arg2.IsWhole) (arg3 : Memref sig .tc .vmem S1x500x151 .f32) (harg3 : arg3.IsWhole) (arg4 : Memref sig .tc .vmem S1x500x151 .f32) (harg4 : arg4.IsWhole) (arg5 : Memref sig .tc .vmem S1x500x4 .f32) (harg5 : arg5.IsWhole) (arg6 : Memref sig .tc .vmem S1x500x4 .f32) (harg6 : arg6.IsWhole) (arg7 : Memref sig .tc .vmem S1x500x4 .f32) (harg7 : arg7.IsWhole) (arg8 : Memref sig .tc .vmem S1x1x4 .f32) (harg8 : arg8.IsWhole) (arg9 : Memref sig .tc .vmem S1x500x500 .f32) (harg9 : arg9.IsWhole) (arg10 : Memref sig .tc .vmem S1x500x500 .f32) (harg10 : arg10.IsWhole) (arg11 : Memref sig .tc .vmem S500x500 .f32) (harg11 : arg11.IsWhole) (arg12 : Memref sig .tc .vmem S500x500 .f32) (harg12 : arg12.IsWhole)
    (x0 : Vec Ideal S1x500x4 .f32) (x1 : Vec Ideal S1x500x151 .f32) (x2 : Vec Ideal S1x500x151 .f32) (x3 : Vec Ideal S1x500x151 .f32) (x4 : Vec Ideal S1x500x4 .f32) (x5 : Vec Ideal S1x500x4 .f32) (x6 : Vec Ideal S1x500x4 .f32) (x7 : Vec Ideal S1x1x4 .f32) :
    (∀ pc ∈ L8 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7, ∀ x : pc.1.shape.Idx, pc.2 x = G8 x0 x1 x3 x5 x6 x7 (pc.1.emb x))
    ∧ (∀ pc ∈ L9 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7, ∀ x : pc.1.shape.Idx, pc.2 x = G9 x0 x1 x2 x4 x6 x7 (pc.1.emb x)) := by
  have hk : ∀ k : Fin k0_t1_loop.trips, ∀ p : Fin 64, 64 * k.val + p.val < 500 := fun k p => by
    have h1 := k.isLt; have h7 := trips7; have h2 := p.isLt; omega
  have hl := loop_pieces Variants.none c none i arg1 harg1 arg2 harg2 arg3 harg3 arg4 harg4 arg5 harg5 arg6 harg6 arg7 harg7 arg8 harg8 arg9 harg9 arg10 harg10 arg11 harg11 arg12 harg12 (eW x7) (eH x7) (eX0 x0 x7) (eY0 x0 x7) (eX1 x0 x7) (eY1 x0 x7) (eCx x0 x7) (eCy x0 x7) (eSc x1) (k0_pay67 (k0_pay59 (k0_pay43 x2)) (k0_pay61 (k0_pay42 x1)))
    (harg5.unread x4) (harg6.unread x5) (harg7.unread x6) (arg11.view.writes (Elt Ideal) arg11.view.junk [⟨(Rect.unit (s := S500x500) ![0, 0] S500x500.size inb_S500x500_S500x500_0_0), mSub x1 x3⟩]) (arg12.view.writes (Elt Ideal) arg12.view.junk [⟨(Rect.unit (s := S500x500) ![0, 0] S500x500.size inb_S500x500_S500x500_0_0), mObj x1 x2⟩]) (G8 x0 x1 x3 x5 x6 x7) (G9 x0 x1 x2 x4 x6 x7)
    (fun k x => by
      obtain ⟨a, b, d, rfl⟩ : ∃ (a : Fin 1) (b : Fin 64) (d : Fin 500), x = ix3 a b d := ⟨x 0, x 1, x 2, ValueIdx.eq_ix3 x⟩
      rw [stripSub_at x0 x1 x3 x5 x6 x7 arg6 harg6 arg7 harg7 arg11 k a b d (hk k b), emb_strip k a b d (hk k b)]
      rfl)
    (fun k x => by
      obtain ⟨a, b, d, rfl⟩ : ∃ (a : Fin 1) (b : Fin 64) (d : Fin 500), x = ix3 a b d := ⟨x 0, x 1, x 2, ValueIdx.eq_ix3 x⟩
      rw [stripObj_at x0 x1 x2 x4 x6 x7 arg5 harg5 arg7 harg7 arg12 k a b d (hk k b), emb_strip k a b d (hk k b)]
      rfl)
    (Scf.trips k0_t1_loop.lb k0_t1_loop.ub k0_t1_loop.st)
  rw [← loopP_eq] at hl
  refine ⟨fun pc hpc x => ?_, fun pc hpc x => ?_⟩
  · unfold L8 at hpc
    rcases List.mem_cons.mp hpc with rfl | hpc
    · obtain ⟨a, b, d, rfl⟩ : ∃ (a : Fin 1) (b : Fin 52) (d : Fin 500), x = ix3 a b d := ⟨x 0, x 1, x 2, ValueIdx.eq_ix3 x⟩
      have hp : 448 + b.val < 500 := by have := b.isLt; omega
      show tail8 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 (ix3 a b d) = G8 x0 x1 x3 x5 x6 x7 ((Rect.unit (s := S1x500x500) ![0, 448, 0] S1x52x500.size inb_S1x500x500_S1x52x500_0_448_0).emb (ix3 a b d))
      rw [tail8_eq, tailSub_at x0 x1 x3 x5 x6 x7 a b d hp, emb_rows3 448 _ a b d hp]
      rfl
    · exact hl.1 pc hpc x
  · unfold L9 at hpc
    rcases List.mem_cons.mp hpc with rfl | hpc
    · obtain ⟨a, b, d, rfl⟩ : ∃ (a : Fin 1) (b : Fin 52) (d : Fin 500), x = ix3 a b d := ⟨x 0, x 1, x 2, ValueIdx.eq_ix3 x⟩
      have hp : 448 + b.val < 500 := by have := b.isLt; omega
      show tail9 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 (ix3 a b d) = G9 x0 x1 x2 x4 x6 x7 ((Rect.unit (s := S1x500x500) ![0, 448, 0] S1x52x500.size inb_S1x500x500_S1x52x500_0_448_0).emb (ix3 a b d))
      rw [tail9_eq, tailObj_at x0 x1 x2 x4 x6 x7 a b d hp, emb_rows3 448 _ a b d hp]
      rfl
    · exact hl.2 pc hpc x

theorem out0_8_at (c : Dev nD) (i : grid0.Coords) (arg1 : Memref sig .tc .vmem S1x500x4 .f32) (harg1 : arg1.IsWhole) (arg2 : Memref sig .tc .vmem S1x500x151 .f32) (harg2 : arg2.IsWhole) (arg3 : Memref sig .tc .vmem S1x500x151 .f32) (harg3 : arg3.IsWhole) (arg4 : Memref sig .tc .vmem S1x500x151 .f32) (harg4 : arg4.IsWhole) (arg5 : Memref sig .tc .vmem S1x500x4 .f32) (harg5 : arg5.IsWhole) (arg6 : Memref sig .tc .vmem S1x500x4 .f32) (harg6 : arg6.IsWhole) (arg7 : Memref sig .tc .vmem S1x500x4 .f32) (harg7 : arg7.IsWhole) (arg8 : Memref sig .tc .vmem S1x1x4 .f32) (harg8 : arg8.IsWhole) (arg9 : Memref sig .tc .vmem S1x500x500 .f32) (harg9 : arg9.IsWhole) (arg10 : Memref sig .tc .vmem S1x500x500 .f32) (harg10 : arg10.IsWhole) (arg11 : Memref sig .tc .vmem S500x500 .f32) (harg11 : arg11.IsWhole) (arg12 : Memref sig .tc .vmem S500x500 .f32) (harg12 : arg12.IsWhole)
    (x0 : Vec Ideal S1x500x4 .f32) (x1 : Vec Ideal S1x500x151 .f32) (x2 : Vec Ideal S1x500x151 .f32) (x3 : Vec Ideal S1x500x151 .f32) (x4 : Vec Ideal S1x500x4 .f32) (x5 : Vec Ideal S1x500x4 .f32) (x6 : Vec Ideal S1x500x4 .f32) (x7 : Vec Ideal S1x1x4 .f32) (u : Fin 1) (r e : Fin 500) :
    out0_8 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 (ix3 u r e) = blkSub x0 x1 x3 x5 x6 x7 r e := by
  unfold out0_8
  exact View.read_writes_apply_of_pieces _ _ (G8 x0 x1 x3 x5 x6 x7) _ (pieces8 c i arg1 harg1 arg2 harg2 arg3 harg3 arg4 harg4 arg5 harg5 arg6 harg6 arg7 harg7 arg8 harg8 arg9 harg9 arg10 harg10 arg11 harg11 arg12 harg12 x0 x1 x2 x3 x4 x5 x6 x7).1 (ix3 u r e) (cover0_8 c i arg1 harg1 arg2 harg2 arg3 harg3 arg4 harg4 arg5 harg5 arg6 harg6 arg7 harg7 arg8 harg8 arg9 harg9 arg10 harg10 arg11 harg11 arg12 harg12 x0 x1 x2 x3 x4 x5 x6 x7 (ix3 u r e))

theorem out0_9_at (c : Dev nD) (i : grid0.Coords) (arg1 : Memref sig .tc .vmem S1x500x4 .f32) (harg1 : arg1.IsWhole) (arg2 : Memref sig .tc .vmem S1x500x151 .f32) (harg2 : arg2.IsWhole) (arg3 : Memref sig .tc .vmem S1x500x151 .f32) (harg3 : arg3.IsWhole) (arg4 : Memref sig .tc .vmem S1x500x151 .f32) (harg4 : arg4.IsWhole) (arg5 : Memref sig .tc .vmem S1x500x4 .f32) (harg5 : arg5.IsWhole) (arg6 : Memref sig .tc .vmem S1x500x4 .f32) (harg6 : arg6.IsWhole) (arg7 : Memref sig .tc .vmem S1x500x4 .f32) (harg7 : arg7.IsWhole) (arg8 : Memref sig .tc .vmem S1x1x4 .f32) (harg8 : arg8.IsWhole) (arg9 : Memref sig .tc .vmem S1x500x500 .f32) (harg9 : arg9.IsWhole) (arg10 : Memref sig .tc .vmem S1x500x500 .f32) (harg10 : arg10.IsWhole) (arg11 : Memref sig .tc .vmem S500x500 .f32) (harg11 : arg11.IsWhole) (arg12 : Memref sig .tc .vmem S500x500 .f32) (harg12 : arg12.IsWhole)
    (x0 : Vec Ideal S1x500x4 .f32) (x1 : Vec Ideal S1x500x151 .f32) (x2 : Vec Ideal S1x500x151 .f32) (x3 : Vec Ideal S1x500x151 .f32) (x4 : Vec Ideal S1x500x4 .f32) (x5 : Vec Ideal S1x500x4 .f32) (x6 : Vec Ideal S1x500x4 .f32) (x7 : Vec Ideal S1x1x4 .f32) (u : Fin 1) (r e : Fin 500) :
    out0_9 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 (ix3 u r e) = blkObj x0 x1 x2 x4 x6 x7 r e := by
  unfold out0_9
  exact View.read_writes_apply_of_pieces _ _ (G9 x0 x1 x2 x4 x6 x7) _ (pieces8 c i arg1 harg1 arg2 harg2 arg3 harg3 arg4 harg4 arg5 harg5 arg6 harg6 arg7 harg7 arg8 harg8 arg9 harg9 arg10 harg10 arg11 harg11 arg12 harg12 x0 x1 x2 x3 x4 x5 x6 x7).2 (ix3 u r e) (cover0_9 c i arg1 harg1 arg2 harg2 arg3 harg3 arg4 harg4 arg5 harg5 arg6 harg6 arg7 harg7 arg8 harg8 arg9 harg9 arg10 harg10 arg11 harg11 arg12 harg12 x0 x1 x2 x3 x4 x5 x6 x7 (ix3 u r e))

end Cert.KernelIdeal.Frame

end
-- ==== Proof.LibHost.lean ====
/-
  General index lemmas for the layout operations of a host program, at ranks two to four: a broadcast that adds or
  stretches unit axes reads the operand at the index with those axes dropped or set to zero; a cut along the last axis
  reads the operand shifted by the offset; a reshape that drops a trailing unit axis reads the operand at the same
  coordinates; a concatenation of four unit-width pieces along the last axis reads the piece its last coordinate names;
  a reduction along the last axis of a rank-three array is the fold or the sum over that axis. Stated over arbitrary
  extents. A broadcast's axis map is a variable with an equation beside it: the lemma holds for any map equal to the
  stated one.
-/
import Idealize.ShloMosaic.Lib.ValueIdx
import Idealize.ShloMosaic.Lib.ValueLayout
import Idealize.ShloMosaic.Lib.Pipeline.Value
import Idealize.ShloMosaic.PureOps.Ideal.Laws

namespace Cert.LibHost

open Idealize.ShloMosaic Idealize.ShloMosaic.ValueIdx

variable {α : Type}

/-- One coordinate of a broadcast's operand index: the result's coordinate, or zero when the operand's axis has extent one. -/
local macro "bc_ax" p:term:max n:term:max : tactic =>
  `(tactic| (show ($p).val = if $n = 1 then 0 else ($p).val; split <;> first | rfl | (have := ($p).isLt; omega)))

/-! ## Broadcasts -/

/-- A scalar broadcast to any shape. -/
theorem bcast_scalar {t : Shape} (dims : Fin 0 → Fin t.rank) (h : (⟨0, ![]⟩ : Shape).BroadcastsInDim t dims) (x : (⟨0, ![]⟩ : Shape).Idx → α) (j : t.Idx) :
    broadcastInDim t dims h x j = x ix0 :=
  broadcastInDim_apply dims h x j ix0 (fun a => a.elim0)

/-- `[a]` to `[a, 1]`. -/
theorem bcast_a_a1 {a : ℕ} (dims : Fin 1 → Fin 2) (h : (⟨1, ![a]⟩ : Shape).BroadcastsInDim ⟨2, ![a, 1]⟩ dims) (hd : dims = ![0])
    (x : (⟨1, ![a]⟩ : Shape).Idx → α) (i : Fin a) (u : Fin 1) : broadcastInDim ⟨2, ![a, 1]⟩ dims h x (ix2 i u) = x (ix1 i) := by
  subst hd
  exact broadcastInDim_apply _ h x _ _ (fun ax => by match ax with | ⟨0, _⟩ => bc_ax i a)

/-- `[a, b]` to `[a, b, 1]`. -/
theorem bcast_ab_ab1 {a b : ℕ} (dims : Fin 2 → Fin 3) (h : (⟨2, ![a, b]⟩ : Shape).BroadcastsInDim ⟨3, ![a, b, 1]⟩ dims) (hd : dims = ![0, 1])
    (x : (⟨2, ![a, b]⟩ : Shape).Idx → α) (i : Fin a) (j : Fin b) (u : Fin 1) :
    broadcastInDim ⟨3, ![a, b, 1]⟩ dims h x (ix3 i j u) = x (ix2 i j) := by
  subst hd
  exact broadcastInDim_apply _ h x _ _ (fun ax => by match ax with | ⟨0, _⟩ => bc_ax i a | ⟨1, _⟩ => bc_ax j b)

/-- `[a, c]` to `[a, 1, c]`. -/
theorem bcast_ac_a1c {a c : ℕ} (dims : Fin 2 → Fin 3) (h : (⟨2, ![a, c]⟩ : Shape).BroadcastsInDim ⟨3, ![a, 1, c]⟩ dims) (hd : dims = ![0, 2])
    (x : (⟨2, ![a, c]⟩ : Shape).Idx → α) (i : Fin a) (u : Fin 1) (k : Fin c) :
    broadcastInDim ⟨3, ![a, 1, c]⟩ dims h x (ix3 i u k) = x (ix2 i k) := by
  subst hd
  exact broadcastInDim_apply _ h x _ _ (fun ax => by match ax with | ⟨0, _⟩ => bc_ax i a | ⟨1, _⟩ => bc_ax k c)

/-- `[a, 1, c]` to `[a, b, c]`. -/
theorem bcast_a1c_abc {a b c : ℕ} (dims : Fin 3 → Fin 3) (h : (⟨3, ![a, 1, c]⟩ : Shape).BroadcastsInDim ⟨3, ![a, b, c]⟩ dims) (hd : dims = ![0, 1, 2])
    (x : (⟨3, ![a, 1, c]⟩ : Shape).Idx → α) (i : Fin a) (j : Fin b) (k : Fin c) :
    broadcastInDim ⟨3, ![a, b, c]⟩ dims h x (ix3 i j k) = x (ix3 i (0 : Fin 1) k) := by
  subst hd
  exact broadcastInDim_apply _ h x _ _ (fun ax => by match ax with | ⟨0, _⟩ => bc_ax i a | ⟨1, _⟩ => rfl | ⟨2, _⟩ => bc_ax k c)

/-- `[a, b, 1]` to `[a, b, c]`. -/
theorem bcast_ab1_abc {a b c : ℕ} (dims : Fin 3 → Fin 3) (h : (⟨3, ![a, b, 1]⟩ : Shape).BroadcastsInDim ⟨3, ![a, b, c]⟩ dims) (hd : dims = ![0, 1, 2])
    (x : (⟨3, ![a, b, 1]⟩ : Shape).Idx → α) (i : Fin a) (j : Fin b) (k : Fin c) :
    broadcastInDim ⟨3, ![a, b, c]⟩ dims h x (ix3 i j k) = x (ix3 i j (0 : Fin 1)) := by
  subst hd
  exact broadcastInDim_apply _ h x _ _ (fun ax => by match ax with | ⟨0, _⟩ => bc_ax i a | ⟨1, _⟩ => bc_ax j b | ⟨2, _⟩ => rfl)

/-- `[a, b, d]` to `[a, b, 1, d]`. -/
theorem bcast_abd_ab1d {a b d : ℕ} (dims : Fin 3 → Fin 4) (h : (⟨3, ![a, b, d]⟩ : Shape).BroadcastsInDim ⟨4, ![a, b, 1, d]⟩ dims) (hd : dims = ![0, 1, 3])
    (x : (⟨3, ![a, b, d]⟩ : Shape).Idx → α) (i : Fin a) (j : Fin b) (u : Fin 1) (l : Fin d) :
    broadcastInDim ⟨4, ![a, b, 1, d]⟩ dims h x (ix4 i j u l) = x (ix3 i j l) := by
  subst hd
  exact broadcastInDim_apply _ h x _ _ (fun ax => by match ax with | ⟨0, _⟩ => bc_ax i a | ⟨1, _⟩ => bc_ax j b | ⟨2, _⟩ => bc_ax l d)

/-- `[a, c, d]` to `[a, 1, c, d]`. -/
theorem bcast_acd_a1cd {a c d : ℕ} (dims : Fin 3 → Fin 4) (h : (⟨3, ![a, c, d]⟩ : Shape).BroadcastsInDim ⟨4, ![a, 1, c, d]⟩ dims) (hd : dims = ![0, 2, 3])
    (x : (⟨3, ![a, c, d]⟩ : Shape).Idx → α) (i : Fin a) (u : Fin 1) (k : Fin c) (l : Fin d) :
    broadcastInDim ⟨4, ![a, 1, c, d]⟩ dims h x (ix4 i u k l) = x (ix3 i k l) := by
  subst hd
  exact broadcastInDim_apply _ h x _ _ (fun ax => by match ax with | ⟨0, _⟩ => bc_ax i a | ⟨1, _⟩ => bc_ax k c | ⟨2, _⟩ => bc_ax l d)

/-- `[a, b, 1, d]` to `[a, b, c, d]`. -/
theorem bcast_ab1d_abcd {a b c d : ℕ} (dims : Fin 4 → Fin 4) (h : (⟨4, ![a, b, 1, d]⟩ : Shape).BroadcastsInDim ⟨4, ![a, b, c, d]⟩ dims) (hd : dims = ![0, 1, 2, 3])
    (x : (⟨4, ![a, b, 1, d]⟩ : Shape).Idx → α) (i : Fin a) (j : Fin b) (k : Fin c) (l : Fin d) :
    broadcastInDim ⟨4, ![a, b, c, d]⟩ dims h x (ix4 i j k l) = x (ix4 i j (0 : Fin 1) l) := by
  subst hd
  exact broadcastInDim_apply _ h x _ _ (fun ax => by match ax with | ⟨0, _⟩ => bc_ax i a | ⟨1, _⟩ => bc_ax j b | ⟨2, _⟩ => rfl | ⟨3, _⟩ => bc_ax l d)

/-- `[a, 1, c, d]` to `[a, b, c, d]`. -/
theorem bcast_a1cd_abcd {a b c d : ℕ} (dims : Fin 4 → Fin 4) (h : (⟨4, ![a, 1, c, d]⟩ : Shape).BroadcastsInDim ⟨4, ![a, b, c, d]⟩ dims) (hd : dims = ![0, 1, 2, 3])
    (x : (⟨4, ![a, 1, c, d]⟩ : Shape).Idx → α) (i : Fin a) (j : Fin b) (k : Fin c) (l : Fin d) :
    broadcastInDim ⟨4, ![a, b, c, d]⟩ dims h x (ix4 i j k l) = x (ix4 i (0 : Fin 1) k l) := by
  subst hd
  exact broadcastInDim_apply _ h x _ _ (fun ax => by match ax with | ⟨0, _⟩ => bc_ax i a | ⟨1, _⟩ => rfl | ⟨2, _⟩ => bc_ax k c | ⟨3, _⟩ => bc_ax l d)

/-! ## Cuts along the last axis -/

/-- A rank-3 array cut along its last axis from `o`. -/
theorem slice3_axis2_eq {n0 n1 n2 m : Nat} (o : Nat) (X : (⟨3, ![n0, n1, n2]⟩ : Shape).Idx → α)
    (h : (⟨3, ![n0, n1, n2]⟩ : Shape).Slices ![0, 0, o] ⟨3, ![n0, n1, m]⟩) (a : Fin n0) (b : Fin n1) (j : Fin m) :
    extractStridedSlice ⟨3, ![n0, n1, m]⟩ ![0, 0, o] X h (ix3 a b j)
      = X (ix3 a b ⟨o + j.val, Nat.lt_of_lt_of_le (Nat.add_lt_add_left j.isLt o) (h.2 2)⟩) :=
  extractStridedSlice_apply _ _ _ _ _ (fun ax => by
    match ax with
    | ⟨0, _⟩ => exact (Nat.zero_add _).symm
    | ⟨1, _⟩ => exact (Nat.zero_add _).symm
    | ⟨2, _⟩ => rfl)

/-- The leading part of a rank-3 array's last axis. -/
theorem slice3_head_eq {n0 n1 n2 m : Nat} (X : (⟨3, ![n0, n1, n2]⟩ : Shape).Idx → α)
    (h : (⟨3, ![n0, n1, n2]⟩ : Shape).Slices ![0, 0, 0] ⟨3, ![n0, n1, m]⟩) (hm : m ≤ n2) (a : Fin n0) (b : Fin n1) (j : Fin m) :
    extractStridedSlice ⟨3, ![n0, n1, m]⟩ ![0, 0, 0] X h (ix3 a b j) = X (ix3 a b ⟨j.val, Nat.lt_of_lt_of_le j.isLt hm⟩) :=
  extractStridedSlice_apply _ _ _ _ _ (fun ax => by
    match ax with
    | ⟨0, _⟩ => exact (Nat.zero_add _).symm
    | ⟨1, _⟩ => exact (Nat.zero_add _).symm
    | ⟨2, _⟩ => exact (Nat.zero_add _).symm)

/-- A rank-4 array cut along its last axis from `o`. -/
theorem slice4_axis3_eq {n0 n1 n2 n3 m : Nat} (o : Nat) (X : (⟨4, ![n0, n1, n2, n3]⟩ : Shape).Idx → α)
    (h : (⟨4, ![n0, n1, n2, n3]⟩ : Shape).Slices ![0, 0, 0, o] ⟨4, ![n0, n1, n2, m]⟩) (a : Fin n0) (b : Fin n1) (c : Fin n2) (j : Fin m) :
    extractStridedSlice ⟨4, ![n0, n1, n2, m]⟩ ![0, 0, 0, o] X h (ix4 a b c j)
      = X (ix4 a b c ⟨o + j.val, Nat.lt_of_lt_of_le (Nat.add_lt_add_left j.isLt o) (h.2 3)⟩) :=
  extractStridedSlice_apply _ _ _ _ _ (fun ax => by
    match ax with
    | ⟨0, _⟩ => exact (Nat.zero_add _).symm
    | ⟨1, _⟩ => exact (Nat.zero_add _).symm
    | ⟨2, _⟩ => exact (Nat.zero_add _).symm
    | ⟨3, _⟩ => rfl)

/-! ## Reshapes that drop a trailing unit axis -/

/-- `[a, b, 1]` to `[a, b]`. -/
theorem shapeCast_ab1_ab_apply {a b : ℕ} (x : (⟨3, ![a, b, 1]⟩ : Shape).Idx → α) (h : (⟨3, ![a, b, 1]⟩ : Shape).ShapeCasts ⟨2, ![a, b]⟩)
    (i : Fin a) (j : Fin b) : shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

/-- `[a, b, c, 1]` to `[a, b, c]`. -/
theorem shapeCast_abc1_abc_apply {a b c : ℕ} (x : (⟨4, ![a, b, c, 1]⟩ : Shape).Idx → α) (h : (⟨4, ![a, b, c, 1]⟩ : Shape).ShapeCasts ⟨3, ![a, b, c]⟩)
    (i : Fin a) (j : Fin b) (k : Fin c) : shapeCast ⟨3, ![a, b, c]⟩ x h (ix3 i j k) = x (ix4 i j k (0 : Fin 1)) :=
  shapeCast_apply x h _ _ (by
    rw [Shape.rowMajor_val_four, Shape.rowMajor_val_three]
    show ((i.val * b + j.val) * c + k.val) * 1 + 0 = (i.val * b + j.val) * c + k.val
    rw [Nat.mul_one, Nat.add_zero])

/-- `[a, b]` to `[a, 1, b]`. -/
theorem shapeCast_ab_a1b_apply {a b : ℕ} (x : (⟨2, ![a, b]⟩ : Shape).Idx → α) (h : (⟨2, ![a, b]⟩ : Shape).ShapeCasts ⟨3, ![a, 1, b]⟩)
    (i : Fin a) (u : Fin 1) (j : Fin b) : shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-! ## A concatenation of four unit-width pieces along the last axis -/

section Concat
variable {n m : ℕ}

/-- Rank two: the piece the column names, at the same row. -/
theorem concat4_cols2 (ax : Fin 2) (x0 x1 x2 x3 : (⟨2, ![n, 1]⟩ : Shape).Idx → α)
    (h : Shape.Concatenates (([⟨⟨2, ![n, 1]⟩, x0⟩, ⟨⟨2, ![n, 1]⟩, x1⟩, ⟨⟨2, ![n, 1]⟩, x2⟩, ⟨⟨2, ![n, 1]⟩, x3⟩] : List ((s : Shape) × (s.Idx → α))).map (·.1)) ⟨2, ![n, 4]⟩ ax)
    (hax : ax = 1) (b : Fin n) :
    concatenate ⟨2, ![n, 4]⟩ ax [⟨⟨2, ![n, 1]⟩, x0⟩, ⟨⟨2, ![n, 1]⟩, x1⟩, ⟨⟨2, ![n, 1]⟩, x2⟩, ⟨⟨2, ![n, 1]⟩, x3⟩] h (ix2 b (0 : Fin 4)) = x0 (ix2 b (0 : Fin 1))
    ∧ concatenate ⟨2, ![n, 4]⟩ ax [⟨⟨2, ![n, 1]⟩, x0⟩, ⟨⟨2, ![n, 1]⟩, x1⟩, ⟨⟨2, ![n, 1]⟩, x2⟩, ⟨⟨2, ![n, 1]⟩, x3⟩] h (ix2 b (1 : Fin 4)) = x1 (ix2 b (0 : Fin 1))
    ∧ concatenate ⟨2, ![n, 4]⟩ ax [⟨⟨2, ![n, 1]⟩, x0⟩, ⟨⟨2, ![n, 1]⟩, x1⟩, ⟨⟨2, ![n, 1]⟩, x2⟩, ⟨⟨2, ![n, 1]⟩, x3⟩] h (ix2 b (2 : Fin 4)) = x2 (ix2 b (0 : Fin 1))
    ∧ concatenate ⟨2, ![n, 4]⟩ ax [⟨⟨2, ![n, 1]⟩, x0⟩, ⟨⟨2, ![n, 1]⟩, x1⟩, ⟨⟨2, ![n, 1]⟩, x2⟩, ⟨⟨2, ![n, 1]⟩, x3⟩] h (ix2 b (3 : Fin 4)) = x3 (ix2 b (0 : Fin 1)) := by
  subst hax
  have hi : ∀ (k : Fin 4) (bb : Fin (⟨2, ![n, 1]⟩ : Shape).rank), bb.cast (rfl : (⟨2, ![n, 1]⟩ : Shape).rank = (⟨2, ![n, 4]⟩ : Shape).rank) ≠ (1 : Fin 2) →
      ((ix2 b (0 : Fin 1) : (⟨2, ![n, 1]⟩ : Shape).Idx) bb).val = ((ix2 b k : (⟨2, ![n, 4]⟩ : Shape).Idx) (bb.cast rfl)).val := by
    intro k bb hne
    match bb with
    | ⟨0, _⟩ => rfl
    | ⟨1, _⟩ => exact absurd rfl hne
  exact ⟨concatenate_apply_piece 1 _ h _ 0 (by simp) _ x0 rfl rfl 0 rfl _ (hi 0) rfl,
    concatenate_apply_piece 1 _ h _ 1 (by simp) _ x1 rfl rfl 1 rfl _ (hi 1) rfl,
    concatenate_apply_piece 1 _ h _ 2 (by simp) _ x2 rfl rfl 2 rfl _ (hi 2) rfl,
    concatenate_apply_piece 1 _ h _ 3 (by simp) _ x3 rfl rfl 3 rfl _ (hi 3) rfl⟩

/-- Rank three: the piece the last coordinate names, at the same leading coordinates. -/
theorem concat4_cols3 (ax : Fin 3) (x0 x1 x2 x3 : (⟨3, ![n, m, 1]⟩ : Shape).Idx → α)
    (h : Shape.Concatenates (([⟨⟨3, ![n, m, 1]⟩, x0⟩, ⟨⟨3, ![n, m, 1]⟩, x1⟩, ⟨⟨3, ![n, m, 1]⟩, x2⟩, ⟨⟨3, ![n, m, 1]⟩, x3⟩] : List ((s : Shape) × (s.Idx → α))).map (·.1)) ⟨3, ![n, m, 4]⟩ ax)
    (hax : ax = 2) (b : Fin n) (e : Fin m) :
    concatenate ⟨3, ![n, m, 4]⟩ ax [⟨⟨3, ![n, m, 1]⟩, x0⟩, ⟨⟨3, ![n, m, 1]⟩, x1⟩, ⟨⟨3, ![n, m, 1]⟩, x2⟩, ⟨⟨3, ![n, m, 1]⟩, x3⟩] h (ix3 b e (0 : Fin 4)) = x0 (ix3 b e (0 : Fin 1))
    ∧ concatenate ⟨3, ![n, m, 4]⟩ ax [⟨⟨3, ![n, m, 1]⟩, x0⟩, ⟨⟨3, ![n, m, 1]⟩, x1⟩, ⟨⟨3, ![n, m, 1]⟩, x2⟩, ⟨⟨3, ![n, m, 1]⟩, x3⟩] h (ix3 b e (1 : Fin 4)) = x1 (ix3 b e (0 : Fin 1))
    ∧ concatenate ⟨3, ![n, m, 4]⟩ ax [⟨⟨3, ![n, m, 1]⟩, x0⟩, ⟨⟨3, ![n, m, 1]⟩, x1⟩, ⟨⟨3, ![n, m, 1]⟩, x2⟩, ⟨⟨3, ![n, m, 1]⟩, x3⟩] h (ix3 b e (2 : Fin 4)) = x2 (ix3 b e (0 : Fin 1))
    ∧ concatenate ⟨3, ![n, m, 4]⟩ ax [⟨⟨3, ![n, m, 1]⟩, x0⟩, ⟨⟨3, ![n, m, 1]⟩, x1⟩, ⟨⟨3, ![n, m, 1]⟩, x2⟩, ⟨⟨3, ![n, m, 1]⟩, x3⟩] h (ix3 b e (3 : Fin 4)) = x3 (ix3 b e (0 : Fin 1)) := by
  subst hax
  have hi : ∀ (k : Fin 4) (bb : Fin (⟨3, ![n, m, 1]⟩ : Shape).rank), bb.cast (rfl : (⟨3, ![n, m, 1]⟩ : Shape).rank = (⟨3, ![n, m, 4]⟩ : Shape).rank) ≠ (2 : Fin 3) →
      ((ix3 b e (0 : Fin 1) : (⟨3, ![n, m, 1]⟩ : Shape).Idx) bb).val = ((ix3 b e k : (⟨3, ![n, m, 4]⟩ : Shape).Idx) (bb.cast rfl)).val := by
    intro k bb hne
    match bb with
    | ⟨0, _⟩ => rfl
    | ⟨1, _⟩ => rfl
    | ⟨2, _⟩ => exact absurd rfl hne
  exact ⟨concatenate_apply_piece 2 _ h _ 0 (by simp) _ x0 rfl rfl 0 rfl _ (hi 0) rfl,
    concatenate_apply_piece 2 _ h _ 1 (by simp) _ x1 rfl rfl 1 rfl _ (hi 1) rfl,
    concatenate_apply_piece 2 _ h _ 2 (by simp) _ x2 rfl rfl 2 rfl _ (hi 2) rfl,
    concatenate_apply_piece 2 _ h _ 3 (by simp) _ x3 rfl rfl 3 rfl _ (hi 3) rfl⟩

end Concat

/-! ## Reductions along the last axis of a rank-three array, at the ideal values -/

section Reduce
variable {a b n : ℕ}

/-- The index of a rank-three array with leading coordinates `(i, j)`, the last coordinate `k` put back. -/
theorem lift_last3 (h : (⟨3, ![a, b, n]⟩ : Shape).Reduces [(2 : Fin 3)] ⟨2, ![a, b]⟩) (i : Fin a) (j : Fin b) (k : Fin n) :
    h.lift (ix2 i j) k = ix3 i j k := by
  funext d
  match d with
  | ⟨0, _⟩ => exact Fin.ext rfl
  | ⟨1, _⟩ => exact Fin.ext rfl
  | ⟨2, _⟩ => exact Fin.ext rfl

/-- A host maximum over the last axis: the fold of `max` from the initial value. -/
theorem hostMax_last3 (axes : List (Fin 3)) (x : (⟨3, ![a, b, n]⟩ : Shape).Idx → EReal) (init : (⟨0, ![]⟩ : Shape).Idx → EReal)
    (h' : (⟨3, ![a, b, n]⟩ : Shape).ReducesTo axes ⟨2, ![a, b]⟩) (hu : 0 < (⟨0, ![]⟩ : Shape).numel) (hax : axes = [2])
    (h : (⟨3, ![a, b, n]⟩ : Shape).Reduces [(2 : Fin 3)] ⟨2, ![a, b]⟩) (i : Fin a) (j : Fin b) :
    Host.reduce (FloatOps.maximumf (F := Ideal) (φ := .f32)) x init h' hu (ix2 i j)
      = (Finset.univ : Finset (Fin n)).fold max (init ix0) (fun k => x (ix3 i j k)) := by
  subst hax
  rw [Host.reduce_eq_fold_single (FloatOps.maximumf (F := Ideal) (φ := .f32)) x init h' h hu (ix2 i j)]
  exact congrArg₂ (Finset.univ.fold max) (congrArg init (funext fun d => d.elim0)) (funext fun k => congrArg x (lift_last3 h i j k))

/-- A host sum over the last axis: the initial value plus the sum. -/
theorem hostSum_last3 (axes : List (Fin 3)) (x : FVec Ideal ⟨3, ![a, b, n]⟩ .f32) (init : (⟨0, ![]⟩ : Shape).Idx → EReal)
    (h' : (⟨3, ![a, b, n]⟩ : Shape).ReducesTo axes ⟨2, ![a, b]⟩) (hu : 0 < (⟨0, ![]⟩ : Shape).numel) (hax : axes = [2])
    (h : (⟨3, ![a, b, n]⟩ : Shape).Reduces [(2 : Fin 3)] ⟨2, ![a, b]⟩) (i : Fin a) (j : Fin b) :
    Host.reduceAdd (F := Ideal) x init h' hu (ix2 i j) = init ix0 + ∑ k : Fin n, x (ix3 i j k) := by
  subst hax
  simp only [Host.reduceAdd, Ideal.hostReduceAdd_def]
  rw [Ideal.hostReduceAdd_single h' h]
  exact congrArg₂ (· + ·) (congrArg init (funext fun d => d.elim0)) (Finset.sum_congr rfl fun k _ => congrArg x (lift_last3 h i j k))

end Reduce

end Cert.LibHost
-- ==== Proof.KI.Final.lean ====
/-
  The two result arrays after the whole program, at the ideal instance. Point `b` of the grid works on image `b`: its
  input blocks are the arguments' rows of that image and its scale block is `[w, h, w, h]` of that image, which the host
  operations before the region form from the image sizes. Every point writes its two output blocks back, the 64 blocks
  tile each result array, so each result array holds, at `(b, r, e)`, the cost of relation `r` against entity `e` in
  image `b`.
-/
import proofs.«109971_j31181462569594_2_alg».proof.Proof.KI.Block
import proofs.«109971_j31181462569594_2_alg».proof.Proof.LibHost
import proofs.«109971_j31181462569594_2_alg».proof.Proof.LibLayout
import proofs.«109971_j31181462569594_2_alg».proof.Proof.Spec

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.LibLayout Cert.LibHost Cert.Spec

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Each input block is an image's rows of its argument -/

/-- The image a grid point works on. -/
def img (t : Fin cfg0.N) : Fin 64 := ⟨t.val, lt_of_lt_of_eq t.isLt N_0⟩

/-- Every window's index map sends point `t` to block `(t, 0, 0)`. -/
theorem idx0_0 : ∀ t : Fin grid0.N, win0_0.index t 0 = t.val ∧ win0_0.index t 1 = 0 ∧ win0_0.index t 2 = 0 := by decide +kernel
theorem idx0_1 : ∀ t : Fin grid0.N, win0_1.index t 0 = t.val ∧ win0_1.index t 1 = 0 ∧ win0_1.index t 2 = 0 := by decide +kernel
theorem idx0_2 : ∀ t : Fin grid0.N, win0_2.index t 0 = t.val ∧ win0_2.index t 1 = 0 ∧ win0_2.index t 2 = 0 := by decide +kernel
theorem idx0_3 : ∀ t : Fin grid0.N, win0_3.index t 0 = t.val ∧ win0_3.index t 1 = 0 ∧ win0_3.index t 2 = 0 := by decide +kernel
theorem idx0_4 : ∀ t : Fin grid0.N, win0_4.index t 0 = t.val ∧ win0_4.index t 1 = 0 ∧ win0_4.index t 2 = 0 := by decide +kernel
theorem idx0_5 : ∀ t : Fin grid0.N, win0_5.index t 0 = t.val ∧ win0_5.index t 1 = 0 ∧ win0_5.index t 2 = 0 := by decide +kernel
theorem idx0_6 : ∀ t : Fin grid0.N, win0_6.index t 0 = t.val ∧ win0_6.index t 1 = 0 ∧ win0_6.index t 2 = 0 := by decide +kernel
theorem idx0_7 : ∀ t : Fin grid0.N, win0_7.index t 0 = t.val ∧ win0_7.index t 1 = 0 ∧ win0_7.index t 2 = 0 := by decide +kernel
theorem idx0_8 : ∀ t : Fin grid0.N, win0_8.index t 0 = t.val ∧ win0_8.index t 1 = 0 ∧ win0_8.index t 2 = 0 := by decide +kernel
theorem idx0_9 : ∀ t : Fin grid0.N, win0_9.index t 0 = t.val ∧ win0_9.index t 1 = 0 ∧ win0_9.index t 2 = 0 := by decide +kernel

/-- Input window 0's block at point `t` is image `t`'s rows of `main_arg0`. -/
theorem iblk0_apply (c : Dev nD) (t : Fin cfg0.N) (u : Fin 1) (r : Fin 500) (k : Fin 4) :
    (iblk m c 0 t : Vec F S1x500x4 .f32) (ix3 u r k)
      = (m ((c : Thread nD τ).loc main_arg0) : S64x500x4.Idx → Elt F .f32) (ix3 (img t) r k) := by
  obtain ⟨h0, h1, h2⟩ := idx0_0 t
  unfold iblk
  rw [View.read_apply]
  show V m c main_arg0 _ = m (c.tc.loc main_arg0) _
  rw [V_main_arg0]
  congr 1
  funext a
  apply Fin.ext
  match a with
  | ⟨0, _⟩ => show win0_0.index t 0 * 1 + 1 * u.val = t.val; rw [h0]; omega
  | ⟨1, _⟩ => show win0_0.index t 1 * 500 + 1 * r.val = r.val; rw [h1]; omega
  | ⟨2, _⟩ => show win0_0.index t 2 * 4 + 1 * k.val = k.val; rw [h2]; omega

/-- Input window 1's block at point `t` is image `t`'s rows of `main_arg1`. -/
theorem iblk1_apply (c : Dev nD) (t : Fin cfg0.N) (u : Fin 1) (r : Fin 500) (k : Fin 151) :
    (iblk m c 1 t : Vec F S1x500x151 .f32) (ix3 u r k)
      = (m ((c : Thread nD τ).loc main_arg1) : S64x500x151.Idx → Elt F .f32) (ix3 (img t) r k) := by
  obtain ⟨h0, h1, h2⟩ := idx0_1 t
  unfold iblk
  rw [View.read_apply]
  show V m c main_arg1 _ = m (c.tc.loc main_arg1) _
  rw [V_main_arg1]
  congr 1
  funext a
  apply Fin.ext
  match a with
  | ⟨0, _⟩ => show win0_1.index t 0 * 1 + 1 * u.val = t.val; rw [h0]; omega
  | ⟨1, _⟩ => show win0_1.index t 1 * 500 + 1 * r.val = r.val; rw [h1]; omega
  | ⟨2, _⟩ => show win0_1.index t 2 * 151 + 1 * k.val = k.val; rw [h2]; omega

/-- Input window 2's block at point `t` is image `t`'s rows of `main_arg2`. -/
theorem iblk2_apply (c : Dev nD) (t : Fin cfg0.N) (u : Fin 1) (r : Fin 500) (k : Fin 151) :
    (iblk m c 2 t : Vec F S1x500x151 .f32) (ix3 u r k)
      = (m ((c : Thread nD τ).loc main_arg2) : S64x500x151.Idx → Elt F .f32) (ix3 (img t) r k) := by
  obtain ⟨h0, h1, h2⟩ := idx0_2 t
  unfold iblk
  rw [View.read_apply]
  show V m c main_arg2 _ = m (c.tc.loc main_arg2) _
  rw [V_main_arg2]
  congr 1
  funext a
  apply Fin.ext
  match a with
  | ⟨0, _⟩ => show win0_2.index t 0 * 1 + 1 * u.val = t.val; rw [h0]; omega
  | ⟨1, _⟩ => show win0_2.index t 1 * 500 + 1 * r.val = r.val; rw [h1]; omega
  | ⟨2, _⟩ => show win0_2.index t 2 * 151 + 1 * k.val = k.val; rw [h2]; omega

/-- Input window 3's block at point `t` is image `t`'s rows of `main_arg3`. -/
theorem iblk3_apply (c : Dev nD) (t : Fin cfg0.N) (u : Fin 1) (r : Fin 500) (k : Fin 151) :
    (iblk m c 3 t : Vec F S1x500x151 .f32) (ix3 u r k)
      = (m ((c : Thread nD τ).loc main_arg3) : S64x500x151.Idx → Elt F .f32) (ix3 (img t) r k) := by
  obtain ⟨h0, h1, h2⟩ := idx0_3 t
  unfold iblk
  rw [View.read_apply]
  show V m c main_arg3 _ = m (c.tc.loc main_arg3) _
  rw [V_main_arg3]
  congr 1
  funext a
  apply Fin.ext
  match a with
  | ⟨0, _⟩ => show win0_3.index t 0 * 1 + 1 * u.val = t.val; rw [h0]; omega
  | ⟨1, _⟩ => show win0_3.index t 1 * 500 + 1 * r.val = r.val; rw [h1]; omega
  | ⟨2, _⟩ => show win0_3.index t 2 * 151 + 1 * k.val = k.val; rw [h2]; omega

/-- Input window 4's block at point `t` is image `t`'s rows of `main_arg4`. -/
theorem iblk4_apply (c : Dev nD) (t : Fin cfg0.N) (u : Fin 1) (r : Fin 500) (k : Fin 4) :
    (iblk m c 4 t : Vec F S1x500x4 .f32) (ix3 u r k)
      = (m ((c : Thread nD τ).loc main_arg4) : S64x500x4.Idx → Elt F .f32) (ix3 (img t) r k) := by
  obtain ⟨h0, h1, h2⟩ := idx0_4 t
  unfold iblk
  rw [View.read_apply]
  show V m c main_arg4 _ = m (c.tc.loc main_arg4) _
  rw [V_main_arg4]
  congr 1
  funext a
  apply Fin.ext
  match a with
  | ⟨0, _⟩ => show win0_4.index t 0 * 1 + 1 * u.val = t.val; rw [h0]; omega
  | ⟨1, _⟩ => show win0_4.index t 1 * 500 + 1 * r.val = r.val; rw [h1]; omega
  | ⟨2, _⟩ => show win0_4.index t 2 * 4 + 1 * k.val = k.val; rw [h2]; omega

/-- Input window 5's block at point `t` is image `t`'s rows of `main_arg5`. -/
theorem iblk5_apply (c : Dev nD) (t : Fin cfg0.N) (u : Fin 1) (r : Fin 500) (k : Fin 4) :
    (iblk m c 5 t : Vec F S1x500x4 .f32) (ix3 u r k)
      = (m ((c : Thread nD τ).loc main_arg5) : S64x500x4.Idx → Elt F .f32) (ix3 (img t) r k) := by
  obtain ⟨h0, h1, h2⟩ := idx0_5 t
  unfold iblk
  rw [View.read_apply]
  show V m c main_arg5 _ = m (c.tc.loc main_arg5) _
  rw [V_main_arg5]
  congr 1
  funext a
  apply Fin.ext
  match a with
  | ⟨0, _⟩ => show win0_5.index t 0 * 1 + 1 * u.val = t.val; rw [h0]; omega
  | ⟨1, _⟩ => show win0_5.index t 1 * 500 + 1 * r.val = r.val; rw [h1]; omega
  | ⟨2, _⟩ => show win0_5.index t 2 * 4 + 1 * k.val = k.val; rw [h2]; omega

/-- Input window 6's block at point `t` is image `t`'s rows of `main_arg6`. -/
theorem iblk6_apply (c : Dev nD) (t : Fin cfg0.N) (u : Fin 1) (r : Fin 500) (k : Fin 4) :
    (iblk m c 6 t : Vec F S1x500x4 .f32) (ix3 u r k)
      = (m ((c : Thread nD τ).loc main_arg6) : S64x500x4.Idx → Elt F .f32) (ix3 (img t) r k) := by
  obtain ⟨h0, h1, h2⟩ := idx0_6 t
  unfold iblk
  rw [View.read_apply]
  show V m c main_arg6 _ = m (c.tc.loc main_arg6) _
  rw [V_main_arg6]
  congr 1
  funext a
  apply Fin.ext
  match a with
  | ⟨0, _⟩ => show win0_6.index t 0 * 1 + 1 * u.val = t.val; rw [h0]; omega
  | ⟨1, _⟩ => show win0_6.index t 1 * 500 + 1 * r.val = r.val; rw [h1]; omega
  | ⟨2, _⟩ => show win0_6.index t 2 * 4 + 1 * k.val = k.val; rw [h2]; omega

/-! ## The scale block

The ten host operations cut the heights (column 0) and the widths (column 1) out of the image sizes, flatten each,
make each a column again, and set four columns side by side: width, height, width, height. Reshaped to one row per
image, that is the array of window 7; its block at point `t` is image `t`'s row. -/

/-- The heights (column 0) and the widths (column 1) of the image sizes, each cut out, flattened and made a column again. -/
def hCol (A : S64x2.Idx → Elt F .f32) : S64x1.Idx → Elt F .f32 :=
  broadcastInDim S64x1 ![0] bcast_S64_S64x1_0 (shapeCast S64 (extractStridedSlice S64x1 ![0, 0] A slices_S64x2_S64x1_0_0) shapeCasts_S64x1_S64)
def wCol (A : S64x2.Idx → Elt F .f32) : S64x1.Idx → Elt F .f32 :=
  broadcastInDim S64x1 ![0] bcast_S64_S64x1_0 (shapeCast S64 (extractStridedSlice S64x1 ![0, 1] A slices_S64x2_S64x1_0_1) shapeCasts_S64x1_S64)

/-- Row `b` of the heights' column is entry `(b, 0)` of the sizes. -/
theorem hCol_apply (A : S64x2.Idx → Elt F .f32) (b : Fin 64) (u : Fin 1) : hCol A (ix2 b u) = A (ix2 b (0 : Fin 2)) := by
  unfold hCol
  refine (bcast_a_a1 _ _ rfl _ b u).trans ?_
  refine (shapeCast_a1_a_apply _ _ b).trans ?_
  exact slice2_axis1_eq 0 A _ b (0 : Fin 1)

/-- Row `b` of the widths' column is entry `(b, 1)` of the sizes. -/
theorem wCol_apply (A : S64x2.Idx → Elt F .f32) (b : Fin 64) (u : Fin 1) : wCol A (ix2 b u) = A (ix2 b (1 : Fin 2)) := by
  unfold wCol
  refine (bcast_a_a1 _ _ rfl _ b u).trans ?_
  refine (shapeCast_a1_a_apply _ _ b).trans ?_
  exact slice2_axis1_eq 1 A _ b (0 : Fin 1)

/-- The scale array the region finds: per image the row (width, height, width, height). -/
theorem V_main_v9 (c : Dev nD) : (V m c main_v9 : S64x1x4.Idx → Elt F .f32)
    = shapeCast S64x1x4 (concatenate S64x4 1 [⟨S64x1, wCol (m ((c : Thread nD τ).loc main_arg7))⟩, ⟨S64x1, hCol (m ((c : Thread nD τ).loc main_arg7))⟩,
        ⟨S64x1, wCol (m ((c : Thread nD τ).loc main_arg7))⟩, ⟨S64x1, hCol (m ((c : Thread nD τ).loc main_arg7))⟩] concatenates_S64x1_S64x1_S64x1_S64x1_S64x4_d1) shapeCasts_S64x4_S64x1x4 := by
  dsimp only [V, hostOps0]
  after_results
  rfl

/-- Its entry 0 of image `b` is the image's width, -/
theorem V9_w (c : Dev nD) (b : Fin 64) (u : Fin 1) :
    (V m c main_v9 : S64x1x4.Idx → Elt F .f32) (ix3 b u (0 : Fin 4)) = (m ((c : Thread nD τ).loc main_arg7) : S64x2.Idx → Elt F .f32) (ix2 b (1 : Fin 2)) := by
  rw [V_main_v9]
  refine (shapeCast_ab_a1b_apply _ _ b u (0 : Fin 4)).trans ?_
  refine (concat4_cols2 1 _ _ _ _ _ rfl b).1.trans ?_
  exact wCol_apply _ b 0

/-- its entry 1 the image's height. -/
theorem V9_h (c : Dev nD) (b : Fin 64) (u : Fin 1) :
    (V m c main_v9 : S64x1x4.Idx → Elt F .f32) (ix3 b u (1 : Fin 4)) = (m ((c : Thread nD τ).loc main_arg7) : S64x2.Idx → Elt F .f32) (ix2 b (0 : Fin 2)) := by
  rw [V_main_v9]
  refine (shapeCast_ab_a1b_apply _ _ b u (1 : Fin 4)).trans ?_
  refine (concat4_cols2 1 _ _ _ _ _ rfl b).2.1.trans ?_
  exact hCol_apply _ b 0

/-- Window 7's block at point `t` is image `t`'s row of the scale array. -/
theorem iblk7_apply (c : Dev nD) (t : Fin cfg0.N) (u v : Fin 1) (k : Fin 4) :
    (iblk m c 7 t : Vec F S1x1x4 .f32) (ix3 u v k) = (V m c main_v9 : S64x1x4.Idx → Elt F .f32) (ix3 (img t) v k) := by
  obtain ⟨h0, h1, h2⟩ := idx0_7 t
  unfold iblk
  rw [View.read_apply]
  show V m c main_v9 _ = V m c main_v9 _
  congr 1
  funext a
  apply Fin.ext
  match a with
  | ⟨0, _⟩ => show win0_7.index t 0 * 1 + 1 * u.val = t.val; rw [h0]; omega
  | ⟨1, _⟩ => show win0_7.index t 1 * 1 + 1 * v.val = v.val; rw [h1]; omega
  | ⟨2, _⟩ => show win0_7.index t 2 * 4 + 1 * k.val = k.val; rw [h2]; omega

/-! ## The cost on an image's blocks is the cost on the batch at that image

The two are one formula; the block-level one reads the blocks and the scale block, the batch-level one the arrays
at the image and the sizes array. Where the blocks are the image's rows and the scale block holds the image's width
and height, every read agrees. -/

theorem blkSub_eq (x0 : Blk4) (x1 x3 : Blk151) (x5 x6 : Blk4) (s : BlkS) (X0 : Boxes) (X1 X3 : Logits) (X5 X6 : Boxes) (X7 : Sizes) (b : Fin 64)
    (h0 : ∀ i k, x0 (ix3 (0 : Fin 1) i k) = X0 (ix3 b i k)) (h1 : ∀ i k, x1 (ix3 (0 : Fin 1) i k) = X1 (ix3 b i k))
    (h3 : ∀ i k, x3 (ix3 (0 : Fin 1) i k) = X3 (ix3 b i k)) (h5 : ∀ i k, x5 (ix3 (0 : Fin 1) i k) = X5 (ix3 b i k))
    (h6 : ∀ i k, x6 (ix3 (0 : Fin 1) i k) = X6 (ix3 b i k)) (hw : blkW s = imgW X7 b) (hh : blkH s = imgH X7 b) (r e : Fin 500) :
    blkSub x0 x1 x3 x5 x6 s r e = subEntry X0 X1 X3 X5 X6 X7 b r e := by
  unfold blkSub subEntry blkMatch endMatch blkGiou boxGiou blkX0 blkX1 blkY0 blkY1 boxX0 boxX1 boxY0 boxY1
  simp only [h0, h1, h3, h5, h6, hw, hh]

theorem blkObj_eq (x0 : Blk4) (x1 x2 : Blk151) (x4 x6 : Blk4) (s : BlkS) (X0 : Boxes) (X1 X2 : Logits) (X4 X6 : Boxes) (X7 : Sizes) (b : Fin 64)
    (h0 : ∀ i k, x0 (ix3 (0 : Fin 1) i k) = X0 (ix3 b i k)) (h1 : ∀ i k, x1 (ix3 (0 : Fin 1) i k) = X1 (ix3 b i k))
    (h2 : ∀ i k, x2 (ix3 (0 : Fin 1) i k) = X2 (ix3 b i k)) (h4 : ∀ i k, x4 (ix3 (0 : Fin 1) i k) = X4 (ix3 b i k))
    (h6 : ∀ i k, x6 (ix3 (0 : Fin 1) i k) = X6 (ix3 b i k)) (hw : blkW s = imgW X7 b) (hh : blkH s = imgH X7 b) (r e : Fin 500) :
    blkObj x0 x1 x2 x4 x6 s r e = objEntry X0 X1 X2 X4 X6 X7 b r e := by
  unfold blkObj objEntry blkMatch endMatch blkGiou boxGiou blkX0 blkX1 blkY0 blkY1 boxX0 boxX1 boxY0 boxY1
  simp only [h0, h1, h2, h4, h6, hw, hh]

/-- A rank-three array is its entries. -/
theorem vec3_ext {n0 n1 n2 : ℕ} {α : Type} (G H : (⟨3, ![n0, n1, n2]⟩ : Shape).Idx → α) (h : ∀ u r e, G (ix3 u r e) = H (ix3 u r e)) : G = H :=
  funext fun x => by rw [eq_ix3 x]; exact h _ _ _

/-! ## What a point leaves in the outputs, at the ideal instance -/

/-- The scale block at point `t` holds image `t`'s width and height. -/
theorem scale_w (m : (ℓ : Loc nD τ sig) → Buf (Elt Ideal) ℓ) (c : Dev nD) (t : Fin cfg0.N) :
    blkW (iblk m c 7 t) = imgW (m ((c.tc : Thread nD τ).loc main_arg7)) (img t) :=
  (iblk7_apply m c t 0 0 0).trans (V9_w m c (img t) 0)
theorem scale_h (m : (ℓ : Loc nD τ sig) → Buf (Elt Ideal) ℓ) (c : Dev nD) (t : Fin cfg0.N) :
    blkH (iblk m c 7 t) = imgH (m ((c.tc : Thread nD τ).loc main_arg7)) (img t) :=
  (iblk7_apply m c t 0 0 1).trans (V9_h m c (img t) 0)

/-- Point `t` leaves in the first output, at row `r` and column `e`, the subject cost of relation `r` against entity `e` in image `t`. -/
theorem outAt0_8_apply (m : (ℓ : Loc nD τ sig) → Buf (Elt Ideal) ℓ) (c : Dev nD) (t : Fin cfg0.N) (u : Fin 1) (r e : Fin 500) :
    (outAt0_8 m c t : Vec Ideal S1x500x500 .f32) (ix3 u r e)
      = subEntry (m ((c.tc : Thread nD τ).loc main_arg0)) (m ((c.tc : Thread nD τ).loc main_arg1)) (m ((c.tc : Thread nD τ).loc main_arg3)) (m ((c.tc : Thread nD τ).loc main_arg5)) (m ((c.tc : Thread nD τ).loc main_arg6)) (m ((c.tc : Thread nD τ).loc main_arg7)) (img t) r e := by
  unfold outAt0_8
  refine (out0_8_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) u r e).trans ?_
  exact blkSub_eq (iblk m c 0 t) (iblk m c 1 t) (iblk m c 3 t) (iblk m c 5 t) (iblk m c 6 t) (iblk m c 7 t)
    (m ((c.tc : Thread nD τ).loc main_arg0)) (m ((c.tc : Thread nD τ).loc main_arg1)) (m ((c.tc : Thread nD τ).loc main_arg3)) (m ((c.tc : Thread nD τ).loc main_arg5)) (m ((c.tc : Thread nD τ).loc main_arg6)) (m ((c.tc : Thread nD τ).loc main_arg7)) (img t)
    (fun i k => iblk0_apply m c t 0 i k) (fun i k => iblk1_apply m c t 0 i k) (fun i k => iblk3_apply m c t 0 i k)
    (fun i k => iblk5_apply m c t 0 i k) (fun i k => iblk6_apply m c t 0 i k) (scale_w m c t) (scale_h m c t) r e

/-- and in the second the object cost. -/
theorem outAt0_9_apply (m : (ℓ : Loc nD τ sig) → Buf (Elt Ideal) ℓ) (c : Dev nD) (t : Fin cfg0.N) (u : Fin 1) (r e : Fin 500) :
    (outAt0_9 m c t : Vec Ideal S1x500x500 .f32) (ix3 u r e)
      = objEntry (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg6)) (m ((c.tc : Thread nD τ).loc main_arg7)) (img t) r e := by
  unfold outAt0_9
  refine (out0_9_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) u r e).trans ?_
  exact blkObj_eq (iblk m c 0 t) (iblk m c 1 t) (iblk m c 2 t) (iblk m c 4 t) (iblk m c 6 t) (iblk m c 7 t)
    (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg6)) (m ((c.tc : Thread nD τ).loc main_arg7)) (img t)
    (fun i k => iblk0_apply m c t 0 i k) (fun i k => iblk1_apply m c t 0 i k) (fun i k => iblk2_apply m c t 0 i k)
    (fun i k => iblk4_apply m c t 0 i k) (fun i k => iblk6_apply m c t 0 i k) (scale_w m c t) (scale_h m c t) r e
/-- The subject and object cost arrays of the launch contents `m` on core `c`. -/
def subArr (m : (ℓ : Loc nD τ sig) → Buf (Elt Ideal) ℓ) (c : Dev nD) : Buf (Elt Ideal) ((c.tc : Thread nD τ).loc main_v10_0) :=
  fun y => subEntry (m ((c.tc : Thread nD τ).loc main_arg0)) (m ((c.tc : Thread nD τ).loc main_arg1)) (m ((c.tc : Thread nD τ).loc main_arg3))
    (m ((c.tc : Thread nD τ).loc main_arg5)) (m ((c.tc : Thread nD τ).loc main_arg6)) (m ((c.tc : Thread nD τ).loc main_arg7)) (y 0) (y 1) (y 2)
def objArr (m : (ℓ : Loc nD τ sig) → Buf (Elt Ideal) ℓ) (c : Dev nD) : Buf (Elt Ideal) ((c.tc : Thread nD τ).loc main_v10_1) :=
  fun y => objEntry (m ((c.tc : Thread nD τ).loc main_arg0)) (m ((c.tc : Thread nD τ).loc main_arg1)) (m ((c.tc : Thread nD τ).loc main_arg2))
    (m ((c.tc : Thread nD τ).loc main_arg4)) (m ((c.tc : Thread nD τ).loc main_arg6)) (m ((c.tc : Thread nD τ).loc main_arg7)) (y 0) (y 1) (y 2)

/-! ## The result arrays after the region -/

/-- `subArr` at the index with coordinates `(b, r, e)`. -/
theorem subArr_at (m : (ℓ : Loc nD τ sig) → Buf (Elt Ideal) ℓ) (c : Dev nD) (y : S64x500x500.Idx) (b : Fin 64) (r e : Fin 500) (e0 : y 0 = b) (e1 : y 1 = r) (e2 : y 2 = e) :
    subArr m c y = subEntry (m ((c.tc : Thread nD τ).loc main_arg0)) (m ((c.tc : Thread nD τ).loc main_arg1)) (m ((c.tc : Thread nD τ).loc main_arg3)) (m ((c.tc : Thread nD τ).loc main_arg5)) (m ((c.tc : Thread nD τ).loc main_arg6)) (m ((c.tc : Thread nD τ).loc main_arg7)) b r e := by
  subst e0 e1 e2; rfl

/-- What point `t` writes back of window 8 is block `t` of `subArr`: the block is image `t`'s plane. -/
theorem flushed8_eq (m : (ℓ : Loc nD τ sig) → Buf (Elt Ideal) ℓ) (c : Dev nD) (t : Fin cfg0.N) (hf : (cfg0.win 8).flush t = true) :
    (dats m 0 c).flushed 8 t = ((cfg0.win 8).blk t).view.read (Elt Ideal) (subArr m c) := by
  obtain ⟨h0, h1, h2⟩ := idx0_8 t
  show (cfg0.win 8).cut (grid0.coords t) ((dats m 0 c).after 8 t) = _
  rw [after0_8]
  refine vec3_ext (n0 := 1) (n1 := 500) (n2 := 500) _ _ fun u r e => ?_
  refine (outAt0_8_apply m c t u r e).trans ?_
  rw [View.read_apply]
  show _ = subArr m c (((cfg0.win 8).blk t).view.emb (ix3 u r e))
  refine (subArr_at m c _ (img t) r e (Fin.ext ?_) (Fin.ext ?_) (Fin.ext ?_)).symm
  · show win0_8.index t 0 * 1 + 1 * u.val = t.val; rw [h0]; omega
  · show win0_8.index t 1 * 500 + 1 * r.val = r.val; rw [h1]; omega
  · show win0_8.index t 2 * 500 + 1 * e.val = e.val; rw [h2]; omega

/-- The 64 planes cover the array, so it ends holding `subArr`. -/
theorem final8 (m : (ℓ : Loc nD τ sig) → Buf (Elt Ideal) ℓ) (c : Dev nD) : (dats m 0 c).arrAt 8 cfg0.N = subArr m c :=
  (dats m 0 c).arrAt_eq_of_cover 8 (subArr m c) (flushed8_eq m c) fun i => by
    have hi0 : (i 0 : Nat) < 64 := (i 0).isLt
    have hi1 : (i 1 : Nat) < 500 := (i 1).isLt
    have hi2 : (i 2 : Nat) < 500 := (i 2).isLt
    obtain ⟨t, ht⟩ : ∃ t : Fin cfg0.N, t.val = (i 0).val := ⟨⟨(i 0).val, lt_of_lt_of_eq hi0 N_0.symm⟩, rfl⟩
    obtain ⟨h0, h1, h2⟩ := idx0_8 t
    refine ⟨t, flush0_8 t, ?_⟩
    show i ∈ ((View.whole main_v10_0).slice (win0_8.rect t)).set
    rw [View.set_slice_whole, Rect.mem_set_unit]
    intro a
    match a with
    | ⟨0, _⟩ => show win0_8.index t 0 * 1 ≤ (i 0 : Nat) ∧ (i 0 : Nat) < win0_8.index t 0 * 1 + 1; rw [h0]; omega
    | ⟨1, _⟩ => show win0_8.index t 1 * 500 ≤ (i 1 : Nat) ∧ (i 1 : Nat) < win0_8.index t 1 * 500 + 500; rw [h1]; omega
    | ⟨2, _⟩ => show win0_8.index t 2 * 500 ≤ (i 2 : Nat) ∧ (i 2 : Nat) < win0_8.index t 2 * 500 + 500; rw [h2]; omega

/-- `objArr` at the index with coordinates `(b, r, e)`. -/
theorem objArr_at (m : (ℓ : Loc nD τ sig) → Buf (Elt Ideal) ℓ) (c : Dev nD) (y : S64x500x500.Idx) (b : Fin 64) (r e : Fin 500) (e0 : y 0 = b) (e1 : y 1 = r) (e2 : y 2 = e) :
    objArr m c y = objEntry (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg6)) (m ((c.tc : Thread nD τ).loc main_arg7)) b r e := by
  subst e0 e1 e2; rfl

/-- What point `t` writes back of window 9 is block `t` of `objArr`: the block is image `t`'s plane. -/
theorem flushed9_eq (m : (ℓ : Loc nD τ sig) → Buf (Elt Ideal) ℓ) (c : Dev nD) (t : Fin cfg0.N) (hf : (cfg0.win 9).flush t = true) :
    (dats m 0 c).flushed 9 t = ((cfg0.win 9).blk t).view.read (Elt Ideal) (objArr m c) := by
  obtain ⟨h0, h1, h2⟩ := idx0_9 t
  show (cfg0.win 9).cut (grid0.coords t) ((dats m 0 c).after 9 t) = _
  rw [after0_9]
  refine vec3_ext (n0 := 1) (n1 := 500) (n2 := 500) _ _ fun u r e => ?_
  refine (outAt0_9_apply m c t u r e).trans ?_
  rw [View.read_apply]
  show _ = objArr m c (((cfg0.win 9).blk t).view.emb (ix3 u r e))
  refine (objArr_at m c _ (img t) r e (Fin.ext ?_) (Fin.ext ?_) (Fin.ext ?_)).symm
  · show win0_9.index t 0 * 1 + 1 * u.val = t.val; rw [h0]; omega
  · show win0_9.index t 1 * 500 + 1 * r.val = r.val; rw [h1]; omega
  · show win0_9.index t 2 * 500 + 1 * e.val = e.val; rw [h2]; omega

/-- The 64 planes cover the array, so it ends holding `objArr`. -/
theorem final9 (m : (ℓ : Loc nD τ sig) → Buf (Elt Ideal) ℓ) (c : Dev nD) : (dats m 0 c).arrAt 9 cfg0.N = objArr m c :=
  (dats m 0 c).arrAt_eq_of_cover 9 (objArr m c) (flushed9_eq m c) fun i => by
    have hi0 : (i 0 : Nat) < 64 := (i 0).isLt
    have hi1 : (i 1 : Nat) < 500 := (i 1).isLt
    have hi2 : (i 2 : Nat) < 500 := (i 2).isLt
    obtain ⟨t, ht⟩ : ∃ t : Fin cfg0.N, t.val = (i 0).val := ⟨⟨(i 0).val, lt_of_lt_of_eq hi0 N_0.symm⟩, rfl⟩
    obtain ⟨h0, h1, h2⟩ := idx0_9 t
    refine ⟨t, flush0_9 t, ?_⟩
    show i ∈ ((View.whole main_v10_1).slice (win0_9.rect t)).set
    rw [View.set_slice_whole, Rect.mem_set_unit]
    intro a
    match a with
    | ⟨0, _⟩ => show win0_9.index t 0 * 1 ≤ (i 0 : Nat) ∧ (i 0 : Nat) < win0_9.index t 0 * 1 + 1; rw [h0]; omega
    | ⟨1, _⟩ => show win0_9.index t 1 * 500 ≤ (i 1 : Nat) ∧ (i 1 : Nat) < win0_9.index t 1 * 500 + 500; rw [h1]; omega
    | ⟨2, _⟩ => show win0_9.index t 2 * 500 ≤ (i 2 : Nat) ∧ (i 2 : Nat) < win0_9.index t 2 * 500 + 500; rw [h2]; omega

/-- The program, run at the ideal instance from any memory: it terminates, its two results are the cost arrays, its
    arguments are unchanged. -/
theorem value_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
        r.2.mem ((c.tc : Thread nD τ).loc main_v10_0) = subArr m c
        ∧ r.2.mem ((c.tc : Thread nD τ).loc main_v10_1) = objArr m c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)) := by
  exact (θ_run defs _ _).mono (fun _ h c => ⟨((h c).1 8).trans (final8 m c), ((h c).1 9).trans (final9 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).2 main_arg7 (Pipeline.mem_restRefs_of main_arg7 (by decide) (by decide))).trans (V_main_arg7 m c)⟩) (run_main m ρ)

end Cert.KernelIdeal.Frame

end
-- ==== Proof.Ref.Ops.lean ====
/-
  The reference program's @main as eight lists of host operations, one per printed part (a called function's operations
  stand in its call's place): each part is the sequence of its list, every operation touches only TensorCore buffers and
  determines its results; so the program terminates with every buffer at the fold of the operations' results over its
  launch contents.
-/
import proofs.«109971_j31181462569594_2_alg».proof.Proof.Gen.ReferenceIdeal
import Idealize.ShloMosaic.Lib.StableHlo.Run
import Idealize.ShloMosaic.Lib.Pipeline.Frame

noncomputable section

namespace Cert.ReferenceIdeal.RunP

open Cert.ReferenceIdeal Cert.ReferenceIdeal.Gen Idealize.ShloMosaic Idealize.ShloMosaic.TcCoe Idealize.SL.Sem Idealize.ShloMosaic.StableHlo

variable {F : FTy → Type} [FloatOps F]

abbrev ops_part0 : List (HloOp τ sig (Elt F)) :=
  [ unary main_arg7 main_v0 ((extractStridedSlice S64x1 ![0, 0] · slices_S64x2_S64x1_0_0) : (⟨S64x2, .f32⟩ : BufTy).Contents (Elt F) → (⟨S64x1, .f32⟩ : BufTy).Contents (Elt F)),
    reshape main_v0 main_v1 rfl shapeCasts_S64x1_S64,
    unary main_arg7 main_v2 ((extractStridedSlice S64x1 ![0, 1] · slices_S64x2_S64x1_0_1) : (⟨S64x2, .f32⟩ : BufTy).Contents (Elt F) → (⟨S64x1, .f32⟩ : BufTy).Contents (Elt F)),
    reshape main_v2 main_v3 rfl shapeCasts_S64x1_S64,
    unary main_v3 main_v4 (broadcastInDim S64x1 ![0] bcast_S64_S64x1_0 : (⟨S64, .f32⟩ : BufTy).Contents (Elt F) → (⟨S64x1, .f32⟩ : BufTy).Contents (Elt F)),
    unary main_v1 main_v5 (broadcastInDim S64x1 ![0] bcast_S64_S64x1_0 : (⟨S64, .f32⟩ : BufTy).Contents (Elt F) → (⟨S64x1, .f32⟩ : BufTy).Contents (Elt F)),
    unary main_v3 main_v6 (broadcastInDim S64x1 ![0] bcast_S64_S64x1_0 : (⟨S64, .f32⟩ : BufTy).Contents (Elt F) → (⟨S64x1, .f32⟩ : BufTy).Contents (Elt F)),
    unary main_v1 main_v7 (broadcastInDim S64x1 ![0] bcast_S64_S64x1_0 : (⟨S64, .f32⟩ : BufTy).Contents (Elt F) → (⟨S64x1, .f32⟩ : BufTy).Contents (Elt F)),
    nary ![main_v4, main_v5, main_v6, main_v7] main_v8 (fun u => concatenate S64x4 1 [⟨S64x1, u 0⟩, ⟨S64x1, u 1⟩, ⟨S64x1, u 2⟩, ⟨S64x1, u 3⟩] concatenates_S64x1_S64x1_S64x1_S64x1_S64x4_d1),
    unary main_arg0 main_v9 ((extractStridedSlice S64x500x1 ![0, 0, 0] · slices_S64x500x4_S64x500x1_0_0_0) : (⟨S64x500x4, .f32⟩ : BufTy).Contents (Elt F) → (⟨S64x500x1, .f32⟩ : BufTy).Contents (Elt F)),
    reshape main_v9 main_v10 rfl shapeCasts_S64x500x1_S64x500,
    unary main_arg0 main_v11 ((extractStridedSlice S64x500x1 ![0, 0, 1] · slices_S64x500x4_S64x500x1_0_0_1) : (⟨S64x500x4, .f32⟩ : BufTy).Contents (Elt F) → (⟨S64x500x1, .f32⟩ : BufTy).Contents (Elt F)),
    reshape main_v11 main_v12 rfl shapeCasts_S64x500x1_S64x500,
    unary main_arg0 main_v13 ((extractStridedSlice S64x500x1 ![0, 0, 2] · slices_S64x500x4_S64x500x1_0_0_2) : (⟨S64x500x4, .f32⟩ : BufTy).Contents (Elt F) → (⟨S64x500x1, .f32⟩ : BufTy).Contents (Elt F)),
    reshape main_v13 main_v14 rfl shapeCasts_S64x500x1_S64x500,
    unary main_arg0 main_v15 ((extractStridedSlice S64x500x1 ![0, 0, 3] · slices_S64x500x4_S64x500x1_0_0_3) : (⟨S64x500x4, .f32⟩ : BufTy).Contents (Elt F) → (⟨S64x500x1, .f32⟩ : BufTy).Contents (Elt F)),
    reshape main_v15 main_v16 rfl shapeCasts_S64x500x1_S64x500,
    nullary main_cst (constant S_ .f32 0x3F000000#32),
    unary main_cst main_v17 (broadcastInDim S64x500 ![] bcast_S_S64x500 : (⟨S_, .f32⟩ : BufTy).Contents (Elt F) → (⟨S64x500, .f32⟩ : BufTy).Contents (Elt F)),
    binary main_v17 main_v14 main_v18 (mulf : (⟨S64x500, .f32⟩ : BufTy).Contents (Elt F) → (⟨S64x500, .f32⟩ : BufTy).Contents (Elt F) → (⟨S64x500, .f32⟩ : BufTy).Contents (Elt F)),
    binary main_v10 main_v18 main_v19 (subf : (⟨S64x500, .f32⟩ : BufTy).Contents (Elt F) → (⟨S64x500, .f32⟩ : BufTy).Contents (Elt F) → (⟨S64x500, .f32⟩ : BufTy).Contents (Elt F)),
    nullary main_cst_0 (constant S_ .f32 0x3F000000#32),
    unary main_cst_0 main_v20 (broadcastInDim S64x500 ![] bcast_S_S64x500 : (⟨S_, .f32⟩ : BufTy).Contents (Elt F) → (⟨S64x500, .f32⟩ : BufTy).Contents (Elt F)),
    binary main_v20 main_v16 main_v21 (mulf : (⟨S64x500, .f32⟩ : BufTy).Contents (Elt F) → (⟨S64x500, .f32⟩ : BufTy).Contents (Elt F) → (⟨S64x500, .f32⟩ : BufTy).Contents (Elt F)),
    binary main_v12 main_v21 main_v22 (subf : (⟨S64x500, .f32⟩ : BufTy).Contents (Elt F) → (⟨S64x500, .f32⟩ : BufTy).Contents (Elt F) → (⟨S64x500, .f32⟩ : BufTy).Contents (Elt F)),
    nullary main_cst_1 (constant S_ .f32 0x3F000000#32),
    unary main_cst_1 main_v23 (broadcastInDim S64x500 ![] bcast_S_S64x500 : (⟨S_, .f32⟩ : BufTy).Contents (Elt F) → (⟨S64x500, .f32⟩ : BufTy).Contents (Elt F)),
    binary main_v23 main_v14 main_v24 (mulf : (⟨S64x500, .f32⟩ : BufTy).Contents (Elt F) → (⟨S64x500, .f32⟩ : BufTy).Contents (Elt F) → (⟨S64x500, .f32⟩ : BufTy).Contents (Elt F)),
    binary main_v10 main_v24 main_v25 (addf : (⟨S64x500, .f32⟩ : BufTy).Contents (Elt F) → (⟨S64x500, .f32⟩ : BufTy).Contents (Elt F) → (⟨S64x500, .f32⟩ : BufTy).Contents (Elt F)),
    nullary main_cst_2 (constant S_ .f32 0x3F000000#32),
    unary main_cst_2 main_v26 (broadcastInDim S64x500 ![] bcast_S_S64x500 : (⟨S_, .f32⟩ : BufTy).Contents (Elt F) → (⟨S64x500, .f32⟩ : BufTy).Contents (Elt F)),
    binary main_v26 main_v16 main_v27 (mulf : (⟨S64x500, .f32⟩ : BufTy).Contents (Elt F) → (⟨S64x500, .f32⟩ : BufTy).Contents (Elt F) → (⟨S64x500, .f32⟩ : BufTy).Contents (Elt F)),
    binary main_v12 main_v27 main_v28 (addf : (⟨S64x500, .f32⟩ : BufTy).Contents (Elt F) → (⟨S64x500, .f32⟩ : BufTy).Contents (Elt F) → (⟨S64x500, .f32⟩ : BufTy).Contents (Elt F)),
    unary main_v19 main_v29 (broadcastInDim S64x500x1 ![0, 1] bcast_S64x500_S64x500x1_0_1 : (⟨S64x500, .f32⟩ : BufTy).Contents (Elt F) → (⟨S64x500x1, .f32⟩ : BufTy).Contents (Elt F)),
    unary main_v22 main_v30 (broadcastInDim S64x500x1 ![0, 1] bcast_S64x500_S64x500x1_0_1 : (⟨S64x500, .f32⟩ : BufTy).Contents (Elt F) → (⟨S64x500x1, .f32⟩ : BufTy).Contents (Elt F)),
    unary main_v25 main_v31 (broadcastInDim S64x500x1 ![0, 1] bcast_S64x500_S64x500x1_0_1 : (⟨S64x500, .f32⟩ : BufTy).Contents (Elt F) → (⟨S64x500x1, .f32⟩ : BufTy).Contents (Elt F)),
    unary main_v28 main_v32 (broadcastInDim S64x500x1 ![0, 1] bcast_S64x500_S64x500x1_0_1 : (⟨S64x500, .f32⟩ : BufTy).Contents (Elt F) → (⟨S64x500x1, .f32⟩ : BufTy).Contents (Elt F)),
    nary ![main_v29, main_v30, main_v31, main_v32] main_v33 (fun u => concatenate S64x500x4 2 [⟨S64x500x1, u 0⟩, ⟨S64x500x1, u 1⟩, ⟨S64x500x1, u 2⟩, ⟨S64x500x1, u 3⟩] concatenates_S64x500x1_S64x500x1_S64x500x1_S64x500x1_S64x500x4_d2),
    unary main_v8 main_v34 (broadcastInDim S64x1x4 ![0, 2] bcast_S64x4_S64x1x4_0_2 : (⟨S64x4, .f32⟩ : BufTy).Contents (Elt F) → (⟨S64x1x4, .f32⟩ : BufTy).Contents (Elt F)),
    unary main_v34 main_v35 (broadcastInDim S64x500x4 ![0, 1, 2] bcast_S64x1x4_S64x500x4_0_1_2 : (⟨S64x1x4, .f32⟩ : BufTy).Contents (Elt F) → (⟨S64x500x4, .f32⟩ : BufTy).Contents (Elt F)),
    binary main_v33 main_v35 main_v36 (mulf : (⟨S64x500x4, .f32⟩ : BufTy).Contents (Elt F) → (⟨S64x500x4, .f32⟩ : BufTy).Contents (Elt F) → (⟨S64x500x4, .f32⟩ : BufTy).Contents (Elt F)),
    unary main_v36 main_v37 ((extractStridedSlice S64x500x1 ![0, 0, 0] · slices_S64x500x4_S64x500x1_0_0_0) : (⟨S64x500x4, .f32⟩ : BufTy).Contents (Elt F) → (⟨S64x500x1, .f32⟩ : BufTy).Contents (Elt F)),
    reshape main_v37 main_v38 rfl shapeCasts_S64x500x1_S64x500,
    unary main_v36 main_v39 ((extractStridedSlice S64x500x1 ![0, 0, 1] · slices_S64x500x4_S64x500x1_0_0_1) : (⟨S64x500x4, .f32⟩ : BufTy).Contents (Elt F) → (⟨S64x500x1, .f32⟩ : BufTy).Contents (Elt F)),
    reshape main_v39 main_v40 rfl shapeCasts_S64x500x1_S64x500,
    unary main_v36 main_v41 ((extractStridedSlice S64x500x1 ![0, 0, 2] · slices_S64x500x4_S64x500x1_0_0_2) : (⟨S64x500x4, .f32⟩ : BufTy).Contents (Elt F) → (⟨S64x500x1, .f32⟩ : BufTy).Contents (Elt F)),
    reshape main_v41 main_v42 rfl shapeCasts_S64x500x1_S64x500,
    unary main_v36 main_v43 ((extractStridedSlice S64x500x1 ![0, 0, 3] · slices_S64x500x4_S64x500x1_0_0_3) : (⟨S64x500x4, .f32⟩ : BufTy).Contents (Elt F) → (⟨S64x500x1, .f32⟩ : BufTy).Contents (Elt F)),
    reshape main_v43 main_v44 rfl shapeCasts_S64x500x1_S64x500,
    binary main_v38 main_v42 main_v45 (addf : (⟨S64x500, .f32⟩ : BufTy).Contents (Elt F) → (⟨S64x500, .f32⟩ : BufTy).Contents (Elt F) → (⟨S64x500, .f32⟩ : BufTy).Contents (Elt F)),
    nullary main_cst_3 (constant S_ .f32 0x3F000000#32),
    unary main_cst_3 main_v46 (broadcastInDim S64x500 ![] bcast_S_S64x500 : (⟨S_, .f32⟩ : BufTy).Contents (Elt F) → (⟨S64x500, .f32⟩ : BufTy).Contents (Elt F)),
    binary main_v45 main_v46 main_v47 (mulf : (⟨S64x500, .f32⟩ : BufTy).Contents (Elt F) → (⟨S64x500, .f32⟩ : BufTy).Contents (Elt F) → (⟨S64x500, .f32⟩ : BufTy).Contents (Elt F)),
    binary main_v40 main_v44 main_v48 (addf : (⟨S64x500, .f32⟩ : BufTy).Contents (Elt F) → (⟨S64x500, .f32⟩ : BufTy).Contents (Elt F) → (⟨S64x500, .f32⟩ : BufTy).Contents (Elt F)),
    nullary main_cst_4 (constant S_ .f32 0x3F000000#32),
    unary main_cst_4 main_v49 (broadcastInDim S64x500 ![] bcast_S_S64x500 : (⟨S_, .f32⟩ : BufTy).Contents (Elt F) → (⟨S64x500, .f32⟩ : BufTy).Contents (Elt F)),
    binary main_v48 main_v49 main_v50 (mulf : (⟨S64x500, .f32⟩ : BufTy).Contents (Elt F) → (⟨S64x500, .f32⟩ : BufTy).Contents (Elt F) → (⟨S64x500, .f32⟩ : BufTy).Contents (Elt F)),
    binary main_v42 main_v38 main_v51 (subf : (⟨S64x500, .f32⟩ : BufTy).Contents (Elt F) → (⟨S64x500, .f32⟩ : BufTy).Contents (Elt F) → (⟨S64x500, .f32⟩ : BufTy).Contents (Elt F)),
    binary main_v44 main_v40 main_v52 (subf : (⟨S64x500, .f32⟩ : BufTy).Contents (Elt F) → (⟨S64x500, .f32⟩ : BufTy).Contents (Elt F) → (⟨S64x500, .f32⟩ : BufTy).Contents (Elt F)),
    unary main_v47 main_v53 (broadcastInDim S64x500x1 ![0, 1] bcast_S64x500_S64x500x1_0_1 : (⟨S64x500, .f32⟩ : BufTy).Contents (Elt F) → (⟨S64x500x1, .f32⟩ : BufTy).Contents (Elt F)) ]

set_option maxRecDepth 8192 in
theorem main_part0_eq (c : Dev nD) : main_part0 (F := F) c = seq ops_part0 := rfl

theorem ops_part0_sub : (ops_part0 : List (HloOp τ sig (Elt F))).Forall fun op => op.bufs ⊆ tcRefs τ sig :=
  ⟨unary_bufs_sub .., reshape_bufs_sub .., unary_bufs_sub .., reshape_bufs_sub .., unary_bufs_sub .., unary_bufs_sub .., unary_bufs_sub .., unary_bufs_sub .., nary_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., unary_bufs_sub .., unary_bufs_sub .., unary_bufs_sub .., unary_bufs_sub .., nary_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., binary_bufs_sub .., nullary_bufs_sub .., unary_bufs_sub .., binary_bufs_sub .., binary_bufs_sub .., nullary_bufs_sub .., unary_bufs_sub .., binary_bufs_sub .., binary_bufs_sub .., binary_bufs_sub .., unary_bufs_sub ..⟩

theorem ops_part0_fresh : ∀ op ∈ (ops_part0 : List (HloOp τ sig (Elt F))), op.fresh = ∅ := by
  intro _ h; (repeat (cases h with | head => rfl | tail _ h => ?_)); exact nomatch h

abbrev ops_part1 : List (HloOp τ sig (Elt F)) :=
  [ unary main_v50 main_v54 (broadcastInDim S64x500x1 ![0, 1] bcast_S64x500_S64x500x1_0_1 : (⟨S64x500, .f32⟩ : BufTy).Contents (Elt F) → (⟨S64x500x1, .f32⟩ : BufTy).Contents (Elt F)),
    unary main_v51 main_v55 (broadcastInDim S64x500x1 ![0, 1] bcast_S64x500_S64x500x1_0_1 : (⟨S64x500, .f32⟩ : BufTy).Contents (Elt F) → (⟨S64x500x1, .f32⟩ : BufTy).Contents (Elt F)),
    unary main_v52 main_v56 (broadcastInDim S64x500x1 ![0, 1] bcast_S64x500_S64x500x1_0_1 : (⟨S64x500, .f32⟩ : BufTy).Contents (Elt F) → (⟨S64x500x1, .f32⟩ : BufTy).Contents (Elt F)),
    nary ![main_v53, main_v54, main_v55, main_v56] main_v57 (fun u => concatenate S64x500x4 2 [⟨S64x500x1, u 0⟩, ⟨S64x500x1, u 1⟩, ⟨S64x500x1, u 2⟩, ⟨S64x500x1, u 3⟩] concatenates_S64x500x1_S64x500x1_S64x500x1_S64x500x1_S64x500x4_d2),
    unary main_v57 main_v58 ((extractStridedSlice S64x500x2 ![0, 0, 0] · slices_S64x500x4_S64x500x2_0_0_0) : (⟨S64x500x4, .f32⟩ : BufTy).Contents (Elt F) → (⟨S64x500x2, .f32⟩ : BufTy).Contents (Elt F)),
    unary main_arg0 main_v59 ((extractStridedSlice S64x500x2 ![0, 0, 0] · slices_S64x500x4_S64x500x2_0_0_0) : (⟨S64x500x4, .f32⟩ : BufTy).Contents (Elt F) → (⟨S64x500x2, .f32⟩ : BufTy).Contents (Elt F)),
    nullary main_cst_5 (constant S_ .f32 0xFF800000#32),
    binary main_arg2 main_cst_5 main_v60 ((fun x v => Host.reduce FloatOps.maximumf x v reducesTo_S64x500x151_S64x500_d2 h_S_) : (⟨S64x500x151, .f32⟩ : BufTy).Contents (Elt F) → (⟨S_, .f32⟩ : BufTy).Contents (Elt F) → (⟨S64x500, .f32⟩ : BufTy).Contents (Elt F)),
    nullary main_cst_6 (constant S_ .f32 0xFF800000#32),
    unary main_cst_6 main_v61 (broadcastInDim S64x500 ![] bcast_S_S64x500 : (⟨S_, .f32⟩ : BufTy).Contents (Elt F) → (⟨S64x500, .f32⟩ : BufTy).Contents (Elt F)),
    binary main_v61 main_v60 main_v62 (maximumf : (⟨S64x500, .f32⟩ : BufTy).Contents (Elt F) → (⟨S64x500, .f32⟩ : BufTy).Contents (Elt F) → (⟨S64x500, .f32⟩ : BufTy).Contents (Elt F)),
    unary main_v62 main_v63 (broadcastInDim S64x500x1 ![0, 1] bcast_S64x500_S64x500x1_0_1 : (⟨S64x500, .f32⟩ : BufTy).Contents (Elt F) → (⟨S64x500x1, .f32⟩ : BufTy).Contents (Elt F)),
    unary main_v63 main_v64 (broadcastInDim S64x500x151 ![0, 1, 2] bcast_S64x500x1_S64x500x151_0_1_2 : (⟨S64x500x1, .f32⟩ : BufTy).Contents (Elt F) → (⟨S64x500x151, .f32⟩ : BufTy).Contents (Elt F)),
    binary main_arg2 main_v64 main_v65 (subf : (⟨S64x500x151, .f32⟩ : BufTy).Contents (Elt F) → (⟨S64x500x151, .f32⟩ : BufTy).Contents (Elt F) → (⟨S64x500x151, .f32⟩ : BufTy).Contents (Elt F)),
    unary main_v65 main_v66 (Host.exp : (⟨S64x500x151, .f32⟩ : BufTy).Contents (Elt F) → (⟨S64x500x151, .f32⟩ : BufTy).Contents (Elt F)),
    nullary main_cst_7 (constant S_ .f32 0x00000000#32),
    binary main_v66 main_cst_7 main_v67 ((fun x v => Host.reduceAdd x v reducesTo_S64x500x151_S64x500_d2 h_S_) : (⟨S64x500x151, .f32⟩ : BufTy).Contents (Elt F) → (⟨S_, .f32⟩ : BufTy).Contents (Elt F) → (⟨S64x500, .f32⟩ : BufTy).Contents (Elt F)),
    unary main_v67 main_v68 (broadcastInDim S64x500x1 ![0, 1] bcast_S64x500_S64x500x1_0_1 : (⟨S64x500, .f32⟩ : BufTy).Contents (Elt F) → (⟨S64x500x1, .f32⟩ : BufTy).Contents (Elt F)),
    unary main_v68 main_v69 (broadcastInDim S64x500x151 ![0, 1, 2] bcast_S64x500x1_S64x500x151_0_1_2 : (⟨S64x500x1, .f32⟩ : BufTy).Contents (Elt F) → (⟨S64x500x151, .f32⟩ : BufTy).Contents (Elt F)),
    binary main_v66 main_v69 main_v70 (Host.divf : (⟨S64x500x151, .f32⟩ : BufTy).Contents (Elt F) → (⟨S64x500x151, .f32⟩ : BufTy).Contents (Elt F) → (⟨S64x500x151, .f32⟩ : BufTy).Contents (Elt F)),
    unary main_v70 main_v71 ((extractStridedSlice S64x500x150 ![0, 0, 0] · slices_S64x500x151_S64x500x150_0_0_0) : (⟨S64x500x151, .f32⟩ : BufTy).Contents (Elt F) → (⟨S64x500x150, .f32⟩ : BufTy).Contents (Elt F)),
    nullary main_cst_8 (constant S_ .f32 0xFF800000#32),
    binary main_arg3 main_cst_8 main_v72 ((fun x v => Host.reduce FloatOps.maximumf x v reducesTo_S64x500x151_S64x500_d2 h_S_) : (⟨S64x500x151, .f32⟩ : BufTy).Contents (Elt F) → (⟨S_, .f32⟩ : BufTy).Contents (Elt F) → (⟨S64x500, .f32⟩ : BufTy).Contents (Elt F)),
    nullary main_cst_9 (constant S_ .f32 0xFF800000#32),
    unary main_cst_9 main_v73 (broadcastInDim S64x500 ![] bcast_S_S64x500 : (⟨S_, .f32⟩ : BufTy).Contents (Elt F) → (⟨S64x500, .f32⟩ : BufTy).Contents (Elt F)),
    binary main_v73 main_v72 main_v74 (maximumf : (⟨S64x500, .f32⟩ : BufTy).Contents (Elt F) → (⟨S64x500, .f32⟩ : BufTy).Contents (Elt F) → (⟨S64x500, .f32⟩ : BufTy).Contents (Elt F)),
    unary main_v74 main_v75 (broadcastInDim S64x500x1 ![0, 1] bcast_S64x500_S64x500x1_0_1 : (⟨S64x500, .f32⟩ : BufTy).Contents (Elt F) → (⟨S64x500x1, .f32⟩ : BufTy).Contents (Elt F)),
    unary main_v75 main_v76 (broadcastInDim S64x500x151 ![0, 1, 2] bcast_S64x500x1_S64x500x151_0_1_2 : (⟨S64x500x1, .f32⟩ : BufTy).Contents (Elt F) → (⟨S64x500x151, .f32⟩ : BufTy).Contents (Elt F)),
    binary main_arg3 main_v76 main_v77 (subf : (⟨S64x500x151, .f32⟩ : BufTy).Contents (Elt F) → (⟨S64x500x151, .f32⟩ : BufTy).Contents (Elt F) → (⟨S64x500x151, .f32⟩ : BufTy).Contents (Elt F)),
    unary main_v77 main_v78 (Host.exp : (⟨S64x500x151, .f32⟩ : BufTy).Contents (Elt F) → (⟨S64x500x151, .f32⟩ : BufTy).Contents (Elt F)),
    nullary main_cst_10 (constant S_ .f32 0x00000000#32),
    binary main_v78 main_cst_10 main_v79 ((fun x v => Host.reduceAdd x v reducesTo_S64x500x151_S64x500_d2 h_S_) : (⟨S64x500x151, .f32⟩ : BufTy).Contents (Elt F) → (⟨S_, .f32⟩ : BufTy).Contents (Elt F) → (⟨S64x500, .f32⟩ : BufTy).Contents (Elt F)),
    unary main_v79 main_v80 (broadcastInDim S64x500x1 ![0, 1] bcast_S64x500_S64x500x1_0_1 : (⟨S64x500, .f32⟩ : BufTy).Contents (Elt F) → (⟨S64x500x1, .f32⟩ : BufTy).Contents (Elt F)),
    unary main_v80 main_v81 (broadcastInDim S64x500x151 ![0, 1, 2] bcast_S64x500x1_S64x500x151_0_1_2 : (⟨S64x500x1, .f32⟩ : BufTy).Contents (Elt F) → (⟨S64x500x151, .f32⟩ : BufTy).Contents (Elt F)),
    binary main_v78 main_v81 main_v82 (Host.divf : (⟨S64x500x151, .f32⟩ : BufTy).Contents (Elt F) → (⟨S64x500x151, .f32⟩ : BufTy).Contents (Elt F) → (⟨S64x500x151, .f32⟩ : BufTy).Contents (Elt F)),
    unary main_v82 main_v83 ((extractStridedSlice S64x500x150 ![0, 0, 0] · slices_S64x500x151_S64x500x150_0_0_0) : (⟨S64x500x151, .f32⟩ : BufTy).Contents (Elt F) → (⟨S64x500x150, .f32⟩ : BufTy).Contents (Elt F)),
    nullary main_cst_11 (constant S_ .f32 0xFF800000#32),
    binary main_arg1 main_cst_11 main_v84 ((fun x v => Host.reduce FloatOps.maximumf x v reducesTo_S64x500x151_S64x500_d2 h_S_) : (⟨S64x500x151, .f32⟩ : BufTy).Contents (Elt F) → (⟨S_, .f32⟩ : BufTy).Contents (Elt F) → (⟨S64x500, .f32⟩ : BufTy).Contents (Elt F)),
    nullary main_cst_12 (constant S_ .f32 0xFF800000#32),
    unary main_cst_12 main_v85 (broadcastInDim S64x500 ![] bcast_S_S64x500 : (⟨S_, .f32⟩ : BufTy).Contents (Elt F) → (⟨S64x500, .f32⟩ : BufTy).Contents (Elt F)),
    binary main_v85 main_v84 main_v86 (maximumf : (⟨S64x500, .f32⟩ : BufTy).Contents (Elt F) → (⟨S64x500, .f32⟩ : BufTy).Contents (Elt F) → (⟨S64x500, .f32⟩ : BufTy).Contents (Elt F)),
    unary main_v86 main_v87 (broadcastInDim S64x500x1 ![0, 1] bcast_S64x500_S64x500x1_0_1 : (⟨S64x500, .f32⟩ : BufTy).Contents (Elt F) → (⟨S64x500x1, .f32⟩ : BufTy).Contents (Elt F)),
    unary main_v87 main_v88 (broadcastInDim S64x500x151 ![0, 1, 2] bcast_S64x500x1_S64x500x151_0_1_2 : (⟨S64x500x1, .f32⟩ : BufTy).Contents (Elt F) → (⟨S64x500x151, .f32⟩ : BufTy).Contents (Elt F)),
    binary main_arg1 main_v88 main_v89 (subf : (⟨S64x500x151, .f32⟩ : BufTy).Contents (Elt F) → (⟨S64x500x151, .f32⟩ : BufTy).Contents (Elt F) → (⟨S64x500x151, .f32⟩ : BufTy).Contents (Elt F)),
    unary main_v89 main_v90 (Host.exp : (⟨S64x500x151, .f32⟩ : BufTy).Contents (Elt F) → (⟨S64x500x151, .f32⟩ : BufTy).Contents (Elt F)),
    nullary main_cst_13 (constant S_ .f32 0x00000000#32),
    binary main_v90 main_cst_13 main_v91 ((fun x v => Host.reduceAdd x v reducesTo_S64x500x151_S64x500_d2 h_S_) : (⟨S64x500x151, .f32⟩ : BufTy).Contents (Elt F) → (⟨S_, .f32⟩ : BufTy).Contents (Elt F) → (⟨S64x500, .f32⟩ : BufTy).Contents (Elt F)),
    unary main_v91 main_v92 (broadcastInDim S64x500x1 ![0, 1] bcast_S64x500_S64x500x1_0_1 : (⟨S64x500, .f32⟩ : BufTy).Contents (Elt F) → (⟨S64x500x1, .f32⟩ : BufTy).Contents (Elt F)),
    unary main_v92 main_v93 (broadcastInDim S64x500x151 ![0, 1, 2] bcast_S64x500x1_S64x500x151_0_1_2 : (⟨S64x500x1, .f32⟩ : BufTy).Contents (Elt F) → (⟨S64x500x151, .f32⟩ : BufTy).Contents (Elt F)),
    binary main_v90 main_v93 main_v94 (Host.divf : (⟨S64x500x151, .f32⟩ : BufTy).Contents (Elt F) → (⟨S64x500x151, .f32⟩ : BufTy).Contents (Elt F) → (⟨S64x500x151, .f32⟩ : BufTy).Contents (Elt F)),
    unary main_v94 main_v95 ((extractStridedSlice S64x500x150 ![0, 0, 0] · slices_S64x500x151_S64x500x150_0_0_0) : (⟨S64x500x151, .f32⟩ : BufTy).Contents (Elt F) → (⟨S64x500x150, .f32⟩ : BufTy).Contents (Elt F)),
    nullary main_cst_14 (constant S_ .f32 0xFF800000#32),
    binary main_v95 main_cst_14 main_v96 ((fun x v => Host.reduce FloatOps.maximumf x v reducesTo_S64x500x150_S64x500_d2 h_S_) : (⟨S64x500x150, .f32⟩ : BufTy).Contents (Elt F) → (⟨S_, .f32⟩ : BufTy).Contents (Elt F) → (⟨S64x500, .f32⟩ : BufTy).Contents (Elt F)),
    unary main_arg4 main_v97 ((extractStridedSlice S64x500x1 ![0, 0, 0] · slices_S64x500x4_S64x500x1_0_0_0) : (⟨S64x500x4, .f32⟩ : BufTy).Contents (Elt F) → (⟨S64x500x1, .f32⟩ : BufTy).Contents (Elt F)),
    reshape main_v97 main_v98 rfl shapeCasts_S64x500x1_S64x500,
    unary main_arg4 main_v99 ((extractStridedSlice S64x500x1 ![0, 0, 1] · slices_S64x500x4_S64x500x1_0_0_1) : (⟨S64x500x4, .f32⟩ : BufTy).Contents (Elt F) → (⟨S64x500x1, .f32⟩ : BufTy).Contents (Elt F)),
    reshape main_v99 main_v100 rfl shapeCasts_S64x500x1_S64x500,
    unary main_arg4 main_v101 ((extractStridedSlice S64x500x1 ![0, 0, 2] · slices_S64x500x4_S64x500x1_0_0_2) : (⟨S64x500x4, .f32⟩ : BufTy).Contents (Elt F) → (⟨S64x500x1, .f32⟩ : BufTy).Contents (Elt F)),
    reshape main_v101 main_v102 rfl shapeCasts_S64x500x1_S64x500,
    unary main_arg4 main_v103 ((extractStridedSlice S64x500x1 ![0, 0, 3] · slices_S64x500x4_S64x500x1_0_0_3) : (⟨S64x500x4, .f32⟩ : BufTy).Contents (Elt F) → (⟨S64x500x1, .f32⟩ : BufTy).Contents (Elt F)) ]

set_option maxRecDepth 8192 in
theorem main_part1_eq (c : Dev nD) : main_part1 (F := F) c = seq ops_part1 := rfl

theorem ops_part1_sub : (ops_part1 : List (HloOp τ sig (Elt F))).Forall fun op => op.bufs ⊆ tcRefs τ sig :=
  ⟨unary_bufs_sub .., unary_bufs_sub .., unary_bufs_sub .., nary_bufs_sub .., unary_bufs_sub .., unary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., nullary_bufs_sub .., binary_bufs_sub .., unary_bufs_sub .., reshape_bufs_sub .., unary_bufs_sub .., reshape_bufs_sub .., unary_bufs_sub .., reshape_bufs_sub .., unary_bufs_sub ..⟩

theorem ops_part1_fresh : ∀ op ∈ (ops_part1 : List (HloOp τ sig (Elt F))), op.fresh = ∅ := by
  intro _ h; (repeat (cases h with | head => rfl | tail _ h => ?_)); exact nomatch h

abbrev ops_part2 : List (HloOp τ sig (Elt F)) :=
  [ reshape main_v103 main_v104 rfl shapeCasts_S64x500x1_S64x500,
    nullary main_cst_15 (constant S_ .f32 0x3F000000#32),
    unary main_cst_15 main_v105 (broadcastInDim S64x500 ![] bcast_S_S64x500 : (⟨S_, .f32⟩ : BufTy).Contents (Elt F) → (⟨S64x500, .f32⟩ : BufTy).Contents (Elt F)),
    binary main_v105 main_v102 main_v106 (mulf : (⟨S64x500, .f32⟩ : BufTy).Contents (Elt F) → (⟨S64x500, .f32⟩ : BufTy).Contents (Elt F) → (⟨S64x500, .f32⟩ : BufTy).Contents (Elt F)),
    binary main_v98 main_v106 main_v107 (subf : (⟨S64x500, .f32⟩ : BufTy).Contents (Elt F) → (⟨S64x500, .f32⟩ : BufTy).Contents (Elt F) → (⟨S64x500, .f32⟩ : BufTy).Contents (Elt F)),
    nullary main_cst_16 (constant S_ .f32 0x3F000000#32),
    unary main_cst_16 main_v108 (broadcastInDim S64x500 ![] bcast_S_S64x500 : (⟨S_, .f32⟩ : BufTy).Contents (Elt F) → (⟨S64x500, .f32⟩ : BufTy).Contents (Elt F)),
    binary main_v108 main_v104 main_v109 (mulf : (⟨S64x500, .f32⟩ : BufTy).Contents (Elt F) → (⟨S64x500, .f32⟩ : BufTy).Contents (Elt F) → (⟨S64x500, .f32⟩ : BufTy).Contents (Elt F)),
    binary main_v100 main_v109 main_v110 (subf : (⟨S64x500, .f32⟩ : BufTy).Contents (Elt F) → (⟨S64x500, .f32⟩ : BufTy).Contents (Elt F) → (⟨S64x500, .f32⟩ : BufTy).Contents (Elt F)),
    nullary main_cst_17 (constant S_ .f32 0x3F000000#32),
    unary main_cst_17 main_v111 (broadcastInDim S64x500 ![] bcast_S_S64x500 : (⟨S_, .f32⟩ : BufTy).Contents (Elt F) → (⟨S64x500, .f32⟩ : BufTy).Contents (Elt F)),
    binary main_v111 main_v102 main_v112 (mulf : (⟨S64x500, .f32⟩ : BufTy).Contents (Elt F) → (⟨S64x500, .f32⟩ : BufTy).Contents (Elt F) → (⟨S64x500, .f32⟩ : BufTy).Contents (Elt F)),
    binary main_v98 main_v112 main_v113 (addf : (⟨S64x500, .f32⟩ : BufTy).Contents (Elt F) → (⟨S64x500, .f32⟩ : BufTy).Contents (Elt F) → (⟨S64x500, .f32⟩ : BufTy).Contents (Elt F)),
    nullary main_cst_18 (constant S_ .f32 0x3F000000#32),
    unary main_cst_18 main_v114 (broadcastInDim S64x500 ![] bcast_S_S64x500 : (⟨S_, .f32⟩ : BufTy).Contents (Elt F) → (⟨S64x500, .f32⟩ : BufTy).Contents (Elt F)),
    binary main_v114 main_v104 main_v115 (mulf : (⟨S64x500, .f32⟩ : BufTy).Contents (Elt F) → (⟨S64x500, .f32⟩ : BufTy).Contents (Elt F) → (⟨S64x500, .f32⟩ : BufTy).Contents (Elt F)),
    binary main_v100 main_v115 main_v116 (addf : (⟨S64x500, .f32⟩ : BufTy).Contents (Elt F) → (⟨S64x500, .f32⟩ : BufTy).Contents (Elt F) → (⟨S64x500, .f32⟩ : BufTy).Contents (Elt F)),
    unary main_v107 main_v117 (broadcastInDim S64x500x1 ![0, 1] bcast_S64x500_S64x500x1_0_1 : (⟨S64x500, .f32⟩ : BufTy).Contents (Elt F) → (⟨S64x500x1, .f32⟩ : BufTy).Contents (Elt F)),
    unary main_v110 main_v118 (broadcastInDim S64x500x1 ![0, 1] bcast_S64x500_S64x500x1_0_1 : (⟨S64x500, .f32⟩ : BufTy).Contents (Elt F) → (⟨S64x500x1, .f32⟩ : BufTy).Contents (Elt F)),
    unary main_v113 main_v119 (broadcastInDim S64x500x1 ![0, 1] bcast_S64x500_S64x500x1_0_1 : (⟨S64x500, .f32⟩ : BufTy).Contents (Elt F) → (⟨S64x500x1, .f32⟩ : BufTy).Contents (Elt F)),
    unary main_v116 main_v120 (broadcastInDim S64x500x1 ![0, 1] bcast_S64x500_S64x500x1_0_1 : (⟨S64x500, .f32⟩ : BufTy).Contents (Elt F) → (⟨S64x500x1, .f32⟩ : BufTy).Contents (Elt F)),
    nary ![main_v117, main_v118, main_v119, main_v120] main_v121 (fun u => concatenate S64x500x4 2 [⟨S64x500x1, u 0⟩, ⟨S64x500x1, u 1⟩, ⟨S64x500x1, u 2⟩, ⟨S64x500x1, u 3⟩] concatenates_S64x500x1_S64x500x1_S64x500x1_S64x500x1_S64x500x4_d2),
    unary main_v8 main_v122 (broadcastInDim S64x1x4 ![0, 2] bcast_S64x4_S64x1x4_0_2 : (⟨S64x4, .f32⟩ : BufTy).Contents (Elt F) → (⟨S64x1x4, .f32⟩ : BufTy).Contents (Elt F)),
    unary main_v122 main_v123 (broadcastInDim S64x500x4 ![0, 1, 2] bcast_S64x1x4_S64x500x4_0_1_2 : (⟨S64x1x4, .f32⟩ : BufTy).Contents (Elt F) → (⟨S64x500x4, .f32⟩ : BufTy).Contents (Elt F)),
    binary main_v121 main_v123 main_v124 (mulf : (⟨S64x500x4, .f32⟩ : BufTy).Contents (Elt F) → (⟨S64x500x4, .f32⟩ : BufTy).Contents (Elt F) → (⟨S64x500x4, .f32⟩ : BufTy).Contents (Elt F)),
    unary main_arg5 main_v125 ((extractStridedSlice S64x500x1 ![0, 0, 0] · slices_S64x500x4_S64x500x1_0_0_0) : (⟨S64x500x4, .f32⟩ : BufTy).Contents (Elt F) → (⟨S64x500x1, .f32⟩ : BufTy).Contents (Elt F)),
    reshape main_v125 main_v126 rfl shapeCasts_S64x500x1_S64x500,
    unary main_arg5 main_v127 ((extractStridedSlice S64x500x1 ![0, 0, 1] · slices_S64x500x4_S64x500x1_0_0_1) : (⟨S64x500x4, .f32⟩ : BufTy).Contents (Elt F) → (⟨S64x500x1, .f32⟩ : BufTy).Contents (Elt F)),
    reshape main_v127 main_v128 rfl shapeCasts_S64x500x1_S64x500,
    unary main_arg5 main_v129 ((extractStridedSlice S64x500x1 ![0, 0, 2] · slices_S64x500x4_S64x500x1_0_0_2) : (⟨S64x500x4, .f32⟩ : BufTy).Contents (Elt F) → (⟨S64x500x1, .f32⟩ : BufTy).Contents (Elt F)),
    reshape main_v129 main_v130 rfl shapeCasts_S64x500x1_S64x500,
    unary main_arg5 main_v131 ((extractStridedSlice S64x500x1 ![0, 0, 3] · slices_S64x500x4_S64x500x1_0_0_3) : (⟨S64x500x4, .f32⟩ : BufTy).Contents (Elt F) → (⟨S64x500x1, .f32⟩ : BufTy).Contents (Elt F)),
    reshape main_v131 main_v132 rfl shapeCasts_S64x500x1_S64x500,
    nullary main_cst_19 (constant S_ .f32 0x3F000000#32),
    unary main_cst_19 main_v133 (broadcastInDim S64x500 ![] bcast_S_S64x500 : (⟨S_, .f32⟩ : BufTy).Contents (Elt F) → (⟨S64x500, .f32⟩ : BufTy).Contents (Elt F)),
    binary main_v133 main_v130 main_v134 (mulf : (⟨S64x500, .f32⟩ : BufTy).Contents (Elt F) → (⟨S64x500, .f32⟩ : BufTy).Contents (Elt F) → (⟨S64x500, .f32⟩ : BufTy).Contents (Elt F)),
    binary main_v126 main_v134 main_v135 (subf : (⟨S64x500, .f32⟩ : BufTy).Contents (Elt F) → (⟨S64x500, .f32⟩ : BufTy).Contents (Elt F) → (⟨S64x500, .f32⟩ : BufTy).Contents (Elt F)),
    nullary main_cst_20 (constant S_ .f32 0x3F000000#32),
    unary main_cst_20 main_v136 (broadcastInDim S64x500 ![] bcast_S_S64x500 : (⟨S_, .f32⟩ : BufTy).Contents (Elt F) → (⟨S64x500, .f32⟩ : BufTy).Contents (Elt F)),
    binary main_v136 main_v132 main_v137 (mulf : (⟨S64x500, .f32⟩ : BufTy).Contents (Elt F) → (⟨S64x500, .f32⟩ : BufTy).Contents (Elt F) → (⟨S64x500, .f32⟩ : BufTy).Contents (Elt F)),
    binary main_v128 main_v137 main_v138 (subf : (⟨S64x500, .f32⟩ : BufTy).Contents (Elt F) → (⟨S64x500, .f32⟩ : BufTy).Contents (Elt F) → (⟨S64x500, .f32⟩ : BufTy).Contents (Elt F)),
    nullary main_cst_21 (constant S_ .f32 0x3F000000#32),
    unary main_cst_21 main_v139 (broadcastInDim S64x500 ![] bcast_S_S64x500 : (⟨S_, .f32⟩ : BufTy).Contents (Elt F) → (⟨S64x500, .f32⟩ : BufTy).Contents (Elt F)),
    binary main_v139 main_v130 main_v140 (mulf : (⟨S64x500, .f32⟩ : BufTy).Contents (Elt F) → (⟨S64x500, .f32⟩ : BufTy).Contents (Elt F) → (⟨S64x500, .f32⟩ : BufTy).Contents (Elt F)),
    binary main_v126 main_v140 main_v141 (addf : (⟨S64x500, .f32⟩ : BufTy).Contents (Elt F) → (⟨S64x500, .f32⟩ : BufTy).Contents (Elt F) → (⟨S64x500, .f32⟩ : BufTy).Contents (Elt F)),
    nullary main_cst_22 (constant S_ .f32 0x3F000000#32),
    unary main_cst_22 main_v142 (broadcastInDim S64x500 ![] bcast_S_S64x500 : (⟨S_, .f32⟩ : BufTy).Contents (Elt F) → (⟨S64x500, .f32⟩ : BufTy).Contents (Elt F)),
    binary main_v142 main_v132 main_v143 (mulf : (⟨S64x500, .f32⟩ : BufTy).Contents (Elt F) → (⟨S64x500, .f32⟩ : BufTy).Contents (Elt F) → (⟨S64x500, .f32⟩ : BufTy).Contents (Elt F)),
    binary main_v128 main_v143 main_v144 (addf : (⟨S64x500, .f32⟩ : BufTy).Contents (Elt F) → (⟨S64x500, .f32⟩ : BufTy).Contents (Elt F) → (⟨S64x500, .f32⟩ : BufTy).Contents (Elt F)),
    unary main_v135 main_v145 (broadcastInDim S64x500x1 ![0, 1] bcast_S64x500_S64x500x1_0_1 : (⟨S64x500, .f32⟩ : BufTy).Contents (Elt F) → (⟨S64x500x1, .f32⟩ : BufTy).Contents (Elt F)),
    unary main_v138 main_v146 (broadcastInDim S64x500x1 ![0, 1] bcast_S64x500_S64x500x1_0_1 : (⟨S64x500, .f32⟩ : BufTy).Contents (Elt F) → (⟨S64x500x1, .f32⟩ : BufTy).Contents (Elt F)),
    unary main_v141 main_v147 (broadcastInDim S64x500x1 ![0, 1] bcast_S64x500_S64x500x1_0_1 : (⟨S64x500, .f32⟩ : BufTy).Contents (Elt F) → (⟨S64x500x1, .f32⟩ : BufTy).Contents (Elt F)),
    unary main_v144 main_v148 (broadcastInDim S64x500x1 ![0, 1] bcast_S64x500_S64x500x1_0_1 : (⟨S64x500, .f32⟩ : BufTy).Contents (Elt F) → (⟨S64x500x1, .f32⟩ : BufTy).Contents (Elt F)),
    nary ![main_v145, main_v146, main_v147, main_v148] main_v149 (fun u => concatenate S64x500x4 2 [⟨S64x500x1, u 0⟩, ⟨S64x500x1, u 1⟩, ⟨S64x500x1, u 2⟩, ⟨S64x500x1, u 3⟩] concatenates_S64x500x1_S64x500x1_S64x500x1_S64x500x1_S64x500x4_d2),
    unary main_v8 main_v150 (broadcastInDim S64x1x4 ![0, 2] bcast_S64x4_S64x1x4_0_2 : (⟨S64x4, .f32⟩ : BufTy).Contents (Elt F) → (⟨S64x1x4, .f32⟩ : BufTy).Contents (Elt F)),
    unary main_v150 main_v151 (broadcastInDim S64x500x4 ![0, 1, 2] bcast_S64x1x4_S64x500x4_0_1_2 : (⟨S64x1x4, .f32⟩ : BufTy).Contents (Elt F) → (⟨S64x500x4, .f32⟩ : BufTy).Contents (Elt F)),
    binary main_v149 main_v151 main_v152 (mulf : (⟨S64x500x4, .f32⟩ : BufTy).Contents (Elt F) → (⟨S64x500x4, .f32⟩ : BufTy).Contents (Elt F) → (⟨S64x500x4, .f32⟩ : BufTy).Contents (Elt F)),
    unary main_v8 main_v153 (broadcastInDim S64x1x4 ![0, 2] bcast_S64x4_S64x1x4_0_2 : (⟨S64x4, .f32⟩ : BufTy).Contents (Elt F) → (⟨S64x1x4, .f32⟩ : BufTy).Contents (Elt F)),
    unary main_v153 main_v154 (broadcastInDim S64x500x4 ![0, 1, 2] bcast_S64x1x4_S64x500x4_0_1_2 : (⟨S64x1x4, .f32⟩ : BufTy).Contents (Elt F) → (⟨S64x500x4, .f32⟩ : BufTy).Contents (Elt F)),
    binary main_arg6 main_v154 main_v155 (mulf : (⟨S64x500x4, .f32⟩ : BufTy).Contents (Elt F) → (⟨S64x500x4, .f32⟩ : BufTy).Contents (Elt F) → (⟨S64x500x4, .f32⟩ : BufTy).Contents (Elt F)) ]

set_option maxRecDepth 8192 in
theorem main_part2_eq (c : Dev nD) : main_part2 (F := F) c = seq ops_part2 := rfl

theorem ops_part2_sub : (ops_part2 : List (HloOp τ sig (Elt F))).Forall fun op => op.bufs ⊆ tcRefs τ sig :=
  ⟨reshape_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., unary_bufs_sub .., unary_bufs_sub .., unary_bufs_sub .., unary_bufs_sub .., nary_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., unary_bufs_sub .., unary_bufs_sub .., unary_bufs_sub .., unary_bufs_sub .., nary_bufs_sub .., unary_bufs_sub .., unary_bufs_sub .., binary_bufs_sub .., unary_bufs_sub .., unary_bufs_sub .., binary_bufs_sub ..⟩

theorem ops_part2_fresh : ∀ op ∈ (ops_part2 : List (HloOp τ sig (Elt F))), op.fresh = ∅ := by
  intro _ h; (repeat (cases h with | head => rfl | tail _ h => ?_)); exact nomatch h

abbrev ops_part3 : List (HloOp τ sig (Elt F)) :=
  [ unary main_v155 main_v156 ((extractStridedSlice S64x500x1 ![0, 0, 0] · slices_S64x500x4_S64x500x1_0_0_0) : (⟨S64x500x4, .f32⟩ : BufTy).Contents (Elt F) → (⟨S64x500x1, .f32⟩ : BufTy).Contents (Elt F)),
    reshape main_v156 main_v157 rfl shapeCasts_S64x500x1_S64x500,
    unary main_v157 main_v158 (broadcastInDim S64x500x1 ![0, 1] bcast_S64x500_S64x500x1_0_1 : (⟨S64x500, .f32⟩ : BufTy).Contents (Elt F) → (⟨S64x500x1, .f32⟩ : BufTy).Contents (Elt F)),
    unary main_v58 main_v159 ((extractStridedSlice S64x500x1 ![0, 0, 0] · slices_S64x500x2_S64x500x1_0_0_0) : (⟨S64x500x2, .f32⟩ : BufTy).Contents (Elt F) → (⟨S64x500x1, .f32⟩ : BufTy).Contents (Elt F)),
    reshape main_v159 main_v160 rfl shapeCasts_S64x500x1_S64x500,
    unary main_v160 main_v161 (broadcastInDim S64x1x500 ![0, 2] bcast_S64x500_S64x1x500_0_2 : (⟨S64x500, .f32⟩ : BufTy).Contents (Elt F) → (⟨S64x1x500, .f32⟩ : BufTy).Contents (Elt F)),
    unary main_v158 main_v162 (broadcastInDim S64x500x500 ![0, 1, 2] bcast_S64x500x1_S64x500x500_0_1_2 : (⟨S64x500x1, .f32⟩ : BufTy).Contents (Elt F) → (⟨S64x500x500, .f32⟩ : BufTy).Contents (Elt F)),
    unary main_v161 main_v163 (broadcastInDim S64x500x500 ![0, 1, 2] bcast_S64x1x500_S64x500x500_0_1_2 : (⟨S64x1x500, .f32⟩ : BufTy).Contents (Elt F) → (⟨S64x500x500, .f32⟩ : BufTy).Contents (Elt F)),
    binary main_v162 main_v163 main_v164 (subf : (⟨S64x500x500, .f32⟩ : BufTy).Contents (Elt F) → (⟨S64x500x500, .f32⟩ : BufTy).Contents (Elt F) → (⟨S64x500x500, .f32⟩ : BufTy).Contents (Elt F)),
    unary main_v164 main_v165 (Host.absf : (⟨S64x500x500, .f32⟩ : BufTy).Contents (Elt F) → (⟨S64x500x500, .f32⟩ : BufTy).Contents (Elt F)),
    unary main_v155 main_v166 ((extractStridedSlice S64x500x1 ![0, 0, 1] · slices_S64x500x4_S64x500x1_0_0_1) : (⟨S64x500x4, .f32⟩ : BufTy).Contents (Elt F) → (⟨S64x500x1, .f32⟩ : BufTy).Contents (Elt F)),
    reshape main_v166 main_v167 rfl shapeCasts_S64x500x1_S64x500,
    unary main_v167 main_v168 (broadcastInDim S64x500x1 ![0, 1] bcast_S64x500_S64x500x1_0_1 : (⟨S64x500, .f32⟩ : BufTy).Contents (Elt F) → (⟨S64x500x1, .f32⟩ : BufTy).Contents (Elt F)),
    unary main_v58 main_v169 ((extractStridedSlice S64x500x1 ![0, 0, 1] · slices_S64x500x2_S64x500x1_0_0_1) : (⟨S64x500x2, .f32⟩ : BufTy).Contents (Elt F) → (⟨S64x500x1, .f32⟩ : BufTy).Contents (Elt F)),
    reshape main_v169 main_v170 rfl shapeCasts_S64x500x1_S64x500,
    unary main_v170 main_v171 (broadcastInDim S64x1x500 ![0, 2] bcast_S64x500_S64x1x500_0_2 : (⟨S64x500, .f32⟩ : BufTy).Contents (Elt F) → (⟨S64x1x500, .f32⟩ : BufTy).Contents (Elt F)),
    unary main_v168 main_v172 (broadcastInDim S64x500x500 ![0, 1, 2] bcast_S64x500x1_S64x500x500_0_1_2 : (⟨S64x500x1, .f32⟩ : BufTy).Contents (Elt F) → (⟨S64x500x500, .f32⟩ : BufTy).Contents (Elt F)),
    unary main_v171 main_v173 (broadcastInDim S64x500x500 ![0, 1, 2] bcast_S64x1x500_S64x500x500_0_1_2 : (⟨S64x1x500, .f32⟩ : BufTy).Contents (Elt F) → (⟨S64x500x500, .f32⟩ : BufTy).Contents (Elt F)),
    binary main_v172 main_v173 main_v174 (subf : (⟨S64x500x500, .f32⟩ : BufTy).Contents (Elt F) → (⟨S64x500x500, .f32⟩ : BufTy).Contents (Elt F) → (⟨S64x500x500, .f32⟩ : BufTy).Contents (Elt F)),
    unary main_v174 main_v175 (Host.absf : (⟨S64x500x500, .f32⟩ : BufTy).Contents (Elt F) → (⟨S64x500x500, .f32⟩ : BufTy).Contents (Elt F)),
    binary main_v165 main_v175 main_v176 (addf : (⟨S64x500x500, .f32⟩ : BufTy).Contents (Elt F) → (⟨S64x500x500, .f32⟩ : BufTy).Contents (Elt F) → (⟨S64x500x500, .f32⟩ : BufTy).Contents (Elt F)),
    unary main_v155 main_v177 ((extractStridedSlice S64x500x1 ![0, 0, 2] · slices_S64x500x4_S64x500x1_0_0_2) : (⟨S64x500x4, .f32⟩ : BufTy).Contents (Elt F) → (⟨S64x500x1, .f32⟩ : BufTy).Contents (Elt F)),
    reshape main_v177 main_v178 rfl shapeCasts_S64x500x1_S64x500,
    unary main_v178 main_v179 (broadcastInDim S64x500x1 ![0, 1] bcast_S64x500_S64x500x1_0_1 : (⟨S64x500, .f32⟩ : BufTy).Contents (Elt F) → (⟨S64x500x1, .f32⟩ : BufTy).Contents (Elt F)),
    unary main_v58 main_v180 ((extractStridedSlice S64x500x1 ![0, 0, 0] · slices_S64x500x2_S64x500x1_0_0_0) : (⟨S64x500x2, .f32⟩ : BufTy).Contents (Elt F) → (⟨S64x500x1, .f32⟩ : BufTy).Contents (Elt F)),
    reshape main_v180 main_v181 rfl shapeCasts_S64x500x1_S64x500,
    unary main_v181 main_v182 (broadcastInDim S64x1x500 ![0, 2] bcast_S64x500_S64x1x500_0_2 : (⟨S64x500, .f32⟩ : BufTy).Contents (Elt F) → (⟨S64x1x500, .f32⟩ : BufTy).Contents (Elt F)),
    unary main_v179 main_v183 (broadcastInDim S64x500x500 ![0, 1, 2] bcast_S64x500x1_S64x500x500_0_1_2 : (⟨S64x500x1, .f32⟩ : BufTy).Contents (Elt F) → (⟨S64x500x500, .f32⟩ : BufTy).Contents (Elt F)),
    unary main_v182 main_v184 (broadcastInDim S64x500x500 ![0, 1, 2] bcast_S64x1x500_S64x500x500_0_1_2 : (⟨S64x1x500, .f32⟩ : BufTy).Contents (Elt F) → (⟨S64x500x500, .f32⟩ : BufTy).Contents (Elt F)),
    binary main_v183 main_v184 main_v185 (subf : (⟨S64x500x500, .f32⟩ : BufTy).Contents (Elt F) → (⟨S64x500x500, .f32⟩ : BufTy).Contents (Elt F) → (⟨S64x500x500, .f32⟩ : BufTy).Contents (Elt F)),
    unary main_v185 main_v186 (Host.absf : (⟨S64x500x500, .f32⟩ : BufTy).Contents (Elt F) → (⟨S64x500x500, .f32⟩ : BufTy).Contents (Elt F)),
    unary main_v155 main_v187 ((extractStridedSlice S64x500x1 ![0, 0, 3] · slices_S64x500x4_S64x500x1_0_0_3) : (⟨S64x500x4, .f32⟩ : BufTy).Contents (Elt F) → (⟨S64x500x1, .f32⟩ : BufTy).Contents (Elt F)),
    reshape main_v187 main_v188 rfl shapeCasts_S64x500x1_S64x500,
    unary main_v188 main_v189 (broadcastInDim S64x500x1 ![0, 1] bcast_S64x500_S64x500x1_0_1 : (⟨S64x500, .f32⟩ : BufTy).Contents (Elt F) → (⟨S64x500x1, .f32⟩ : BufTy).Contents (Elt F)),
    unary main_v58 main_v190 ((extractStridedSlice S64x500x1 ![0, 0, 1] · slices_S64x500x2_S64x500x1_0_0_1) : (⟨S64x500x2, .f32⟩ : BufTy).Contents (Elt F) → (⟨S64x500x1, .f32⟩ : BufTy).Contents (Elt F)),
    reshape main_v190 main_v191 rfl shapeCasts_S64x500x1_S64x500,
    unary main_v191 main_v192 (broadcastInDim S64x1x500 ![0, 2] bcast_S64x500_S64x1x500_0_2 : (⟨S64x500, .f32⟩ : BufTy).Contents (Elt F) → (⟨S64x1x500, .f32⟩ : BufTy).Contents (Elt F)),
    unary main_v189 main_v193 (broadcastInDim S64x500x500 ![0, 1, 2] bcast_S64x500x1_S64x500x500_0_1_2 : (⟨S64x500x1, .f32⟩ : BufTy).Contents (Elt F) → (⟨S64x500x500, .f32⟩ : BufTy).Contents (Elt F)),
    unary main_v192 main_v194 (broadcastInDim S64x500x500 ![0, 1, 2] bcast_S64x1x500_S64x500x500_0_1_2 : (⟨S64x1x500, .f32⟩ : BufTy).Contents (Elt F) → (⟨S64x500x500, .f32⟩ : BufTy).Contents (Elt F)),
    binary main_v193 main_v194 main_v195 (subf : (⟨S64x500x500, .f32⟩ : BufTy).Contents (Elt F) → (⟨S64x500x500, .f32⟩ : BufTy).Contents (Elt F) → (⟨S64x500x500, .f32⟩ : BufTy).Contents (Elt F)),
    unary main_v195 main_v196 (Host.absf : (⟨S64x500x500, .f32⟩ : BufTy).Contents (Elt F) → (⟨S64x500x500, .f32⟩ : BufTy).Contents (Elt F)),
    binary main_v186 main_v196 main_v197 (addf : (⟨S64x500x500, .f32⟩ : BufTy).Contents (Elt F) → (⟨S64x500x500, .f32⟩ : BufTy).Contents (Elt F) → (⟨S64x500x500, .f32⟩ : BufTy).Contents (Elt F)),
    nullary main_cst_23 (constant S_ .f32 0x3F800000#32),
    unary main_cst_23 main_v198 (broadcastInDim S64x500x500 ![] bcast_S_S64x500x500 : (⟨S_, .f32⟩ : BufTy).Contents (Elt F) → (⟨S64x500x500, .f32⟩ : BufTy).Contents (Elt F)),
    binary main_v176 main_v198 main_v199 (addf : (⟨S64x500x500, .f32⟩ : BufTy).Contents (Elt F) → (⟨S64x500x500, .f32⟩ : BufTy).Contents (Elt F) → (⟨S64x500x500, .f32⟩ : BufTy).Contents (Elt F)),
    nullary main_cst_24 (constant S_ .f32 0x3F800000#32),
    unary main_cst_24 main_v200 (broadcastInDim S64x500x500 ![] bcast_S_S64x500x500 : (⟨S_, .f32⟩ : BufTy).Contents (Elt F) → (⟨S64x500x500, .f32⟩ : BufTy).Contents (Elt F)),
    binary main_v200 main_v199 main_v201 (Host.divf : (⟨S64x500x500, .f32⟩ : BufTy).Contents (Elt F) → (⟨S64x500x500, .f32⟩ : BufTy).Contents (Elt F) → (⟨S64x500x500, .f32⟩ : BufTy).Contents (Elt F)),
    nullary main_cst_25 (constant S_ .f32 0x3F800000#32),
    unary main_cst_25 main_v202 (broadcastInDim S64x500x500 ![] bcast_S_S64x500x500 : (⟨S_, .f32⟩ : BufTy).Contents (Elt F) → (⟨S64x500x500, .f32⟩ : BufTy).Contents (Elt F)),
    binary main_v197 main_v202 main_v203 (addf : (⟨S64x500x500, .f32⟩ : BufTy).Contents (Elt F) → (⟨S64x500x500, .f32⟩ : BufTy).Contents (Elt F) → (⟨S64x500x500, .f32⟩ : BufTy).Contents (Elt F)),
    nullary main_cst_26 (constant S_ .f32 0x3F800000#32),
    unary main_cst_26 main_v204 (broadcastInDim S64x500x500 ![] bcast_S_S64x500x500 : (⟨S_, .f32⟩ : BufTy).Contents (Elt F) → (⟨S64x500x500, .f32⟩ : BufTy).Contents (Elt F)),
    binary main_v204 main_v203 main_v205 (Host.divf : (⟨S64x500x500, .f32⟩ : BufTy).Contents (Elt F) → (⟨S64x500x500, .f32⟩ : BufTy).Contents (Elt F) → (⟨S64x500x500, .f32⟩ : BufTy).Contents (Elt F)),
    unary main_v96 main_v206 (broadcastInDim S64x1x500 ![0, 2] bcast_S64x500_S64x1x500_0_2 : (⟨S64x500, .f32⟩ : BufTy).Contents (Elt F) → (⟨S64x1x500, .f32⟩ : BufTy).Contents (Elt F)),
    unary main_v206 main_v207 (broadcastInDim S64x500x500 ![0, 1, 2] bcast_S64x1x500_S64x500x500_0_1_2 : (⟨S64x1x500, .f32⟩ : BufTy).Contents (Elt F) → (⟨S64x500x500, .f32⟩ : BufTy).Contents (Elt F)),
    binary main_v207 main_v201 main_v208 (mulf : (⟨S64x500x500, .f32⟩ : BufTy).Contents (Elt F) → (⟨S64x500x500, .f32⟩ : BufTy).Contents (Elt F) → (⟨S64x500x500, .f32⟩ : BufTy).Contents (Elt F)),
    unary main_v96 main_v209 (broadcastInDim S64x1x500 ![0, 2] bcast_S64x500_S64x1x500_0_2 : (⟨S64x500, .f32⟩ : BufTy).Contents (Elt F) → (⟨S64x1x500, .f32⟩ : BufTy).Contents (Elt F)),
    unary main_v209 main_v210 (broadcastInDim S64x500x500 ![0, 1, 2] bcast_S64x1x500_S64x500x500_0_1_2 : (⟨S64x1x500, .f32⟩ : BufTy).Contents (Elt F) → (⟨S64x500x500, .f32⟩ : BufTy).Contents (Elt F)),
    binary main_v210 main_v205 main_v211 (mulf : (⟨S64x500x500, .f32⟩ : BufTy).Contents (Elt F) → (⟨S64x500x500, .f32⟩ : BufTy).Contents (Elt F) → (⟨S64x500x500, .f32⟩ : BufTy).Contents (Elt F)) ]

set_option maxRecDepth 8192 in
theorem main_part3_eq (c : Dev nD) : main_part3 (F := F) c = seq ops_part3 := rfl

theorem ops_part3_sub : (ops_part3 : List (HloOp τ sig (Elt F))).Forall fun op => op.bufs ⊆ tcRefs τ sig :=
  ⟨unary_bufs_sub .., reshape_bufs_sub .., unary_bufs_sub .., unary_bufs_sub .., reshape_bufs_sub .., unary_bufs_sub .., unary_bufs_sub .., unary_bufs_sub .., binary_bufs_sub .., unary_bufs_sub .., unary_bufs_sub .., reshape_bufs_sub .., unary_bufs_sub .., unary_bufs_sub .., reshape_bufs_sub .., unary_bufs_sub .., unary_bufs_sub .., unary_bufs_sub .., binary_bufs_sub .., unary_bufs_sub .., binary_bufs_sub .., unary_bufs_sub .., reshape_bufs_sub .., unary_bufs_sub .., unary_bufs_sub .., reshape_bufs_sub .., unary_bufs_sub .., unary_bufs_sub .., unary_bufs_sub .., binary_bufs_sub .., unary_bufs_sub .., unary_bufs_sub .., reshape_bufs_sub .., unary_bufs_sub .., unary_bufs_sub .., reshape_bufs_sub .., unary_bufs_sub .., unary_bufs_sub .., unary_bufs_sub .., binary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub ..⟩

theorem ops_part3_fresh : ∀ op ∈ (ops_part3 : List (HloOp τ sig (Elt F))), op.fresh = ∅ := by
  intro _ h; (repeat (cases h with | head => rfl | tail _ h => ?_)); exact nomatch h

abbrev ops_part4 : List (HloOp τ sig (Elt F)) :=
  [ unary main_v36 main_v212 ((extractStridedSlice S64x500x1 ![0, 0, 2] · slices_S64x500x4_S64x500x1_0_0_2) : (⟨S64x500x4, .f32⟩ : BufTy).Contents (Elt F) → (⟨S64x500x1, .f32⟩ : BufTy).Contents (Elt F)),
    reshape main_v212 main_v213 rfl shapeCasts_S64x500x1_S64x500,
    unary main_v36 main_v214 ((extractStridedSlice S64x500x1 ![0, 0, 0] · slices_S64x500x4_S64x500x1_0_0_0) : (⟨S64x500x4, .f32⟩ : BufTy).Contents (Elt F) → (⟨S64x500x1, .f32⟩ : BufTy).Contents (Elt F)),
    reshape main_v214 main_v215 rfl shapeCasts_S64x500x1_S64x500,
    binary main_v213 main_v215 main_v216 (subf : (⟨S64x500, .f32⟩ : BufTy).Contents (Elt F) → (⟨S64x500, .f32⟩ : BufTy).Contents (Elt F) → (⟨S64x500, .f32⟩ : BufTy).Contents (Elt F)),
    unary main_v36 main_v217 ((extractStridedSlice S64x500x1 ![0, 0, 3] · slices_S64x500x4_S64x500x1_0_0_3) : (⟨S64x500x4, .f32⟩ : BufTy).Contents (Elt F) → (⟨S64x500x1, .f32⟩ : BufTy).Contents (Elt F)),
    reshape main_v217 main_v218 rfl shapeCasts_S64x500x1_S64x500,
    unary main_v36 main_v219 ((extractStridedSlice S64x500x1 ![0, 0, 1] · slices_S64x500x4_S64x500x1_0_0_1) : (⟨S64x500x4, .f32⟩ : BufTy).Contents (Elt F) → (⟨S64x500x1, .f32⟩ : BufTy).Contents (Elt F)),
    reshape main_v219 main_v220 rfl shapeCasts_S64x500x1_S64x500,
    binary main_v218 main_v220 main_v221 (subf : (⟨S64x500, .f32⟩ : BufTy).Contents (Elt F) → (⟨S64x500, .f32⟩ : BufTy).Contents (Elt F) → (⟨S64x500, .f32⟩ : BufTy).Contents (Elt F)),
    binary main_v216 main_v221 main_v222 (mulf : (⟨S64x500, .f32⟩ : BufTy).Contents (Elt F) → (⟨S64x500, .f32⟩ : BufTy).Contents (Elt F) → (⟨S64x500, .f32⟩ : BufTy).Contents (Elt F)),
    unary main_v152 main_v223 ((extractStridedSlice S64x500x1 ![0, 0, 2] · slices_S64x500x4_S64x500x1_0_0_2) : (⟨S64x500x4, .f32⟩ : BufTy).Contents (Elt F) → (⟨S64x500x1, .f32⟩ : BufTy).Contents (Elt F)),
    reshape main_v223 main_v224 rfl shapeCasts_S64x500x1_S64x500,
    unary main_v152 main_v225 ((extractStridedSlice S64x500x1 ![0, 0, 0] · slices_S64x500x4_S64x500x1_0_0_0) : (⟨S64x500x4, .f32⟩ : BufTy).Contents (Elt F) → (⟨S64x500x1, .f32⟩ : BufTy).Contents (Elt F)),
    reshape main_v225 main_v226 rfl shapeCasts_S64x500x1_S64x500,
    binary main_v224 main_v226 main_v227 (subf : (⟨S64x500, .f32⟩ : BufTy).Contents (Elt F) → (⟨S64x500, .f32⟩ : BufTy).Contents (Elt F) → (⟨S64x500, .f32⟩ : BufTy).Contents (Elt F)),
    unary main_v152 main_v228 ((extractStridedSlice S64x500x1 ![0, 0, 3] · slices_S64x500x4_S64x500x1_0_0_3) : (⟨S64x500x4, .f32⟩ : BufTy).Contents (Elt F) → (⟨S64x500x1, .f32⟩ : BufTy).Contents (Elt F)),
    reshape main_v228 main_v229 rfl shapeCasts_S64x500x1_S64x500,
    unary main_v152 main_v230 ((extractStridedSlice S64x500x1 ![0, 0, 1] · slices_S64x500x4_S64x500x1_0_0_1) : (⟨S64x500x4, .f32⟩ : BufTy).Contents (Elt F) → (⟨S64x500x1, .f32⟩ : BufTy).Contents (Elt F)),
    reshape main_v230 main_v231 rfl shapeCasts_S64x500x1_S64x500,
    binary main_v229 main_v231 main_v232 (subf : (⟨S64x500, .f32⟩ : BufTy).Contents (Elt F) → (⟨S64x500, .f32⟩ : BufTy).Contents (Elt F) → (⟨S64x500, .f32⟩ : BufTy).Contents (Elt F)),
    binary main_v227 main_v232 main_v233 (mulf : (⟨S64x500, .f32⟩ : BufTy).Contents (Elt F) → (⟨S64x500, .f32⟩ : BufTy).Contents (Elt F) → (⟨S64x500, .f32⟩ : BufTy).Contents (Elt F)),
    unary main_v36 main_v234 ((extractStridedSlice S64x500x2 ![0, 0, 0] · slices_S64x500x4_S64x500x2_0_0_0) : (⟨S64x500x4, .f32⟩ : BufTy).Contents (Elt F) → (⟨S64x500x2, .f32⟩ : BufTy).Contents (Elt F)),
    unary main_v234 main_v235 (broadcastInDim S64x500x1x2 ![0, 1, 3] bcast_S64x500x2_S64x500x1x2_0_1_3 : (⟨S64x500x2, .f32⟩ : BufTy).Contents (Elt F) → (⟨S64x500x1x2, .f32⟩ : BufTy).Contents (Elt F)),
    unary main_v152 main_v236 ((extractStridedSlice S64x500x2 ![0, 0, 0] · slices_S64x500x4_S64x500x2_0_0_0) : (⟨S64x500x4, .f32⟩ : BufTy).Contents (Elt F) → (⟨S64x500x2, .f32⟩ : BufTy).Contents (Elt F)),
    unary main_v236 main_v237 (broadcastInDim S64x1x500x2 ![0, 2, 3] bcast_S64x500x2_S64x1x500x2_0_2_3 : (⟨S64x500x2, .f32⟩ : BufTy).Contents (Elt F) → (⟨S64x1x500x2, .f32⟩ : BufTy).Contents (Elt F)),
    unary main_v235 main_v238 (broadcastInDim S64x500x500x2 ![0, 1, 2, 3] bcast_S64x500x1x2_S64x500x500x2_0_1_2_3 : (⟨S64x500x1x2, .f32⟩ : BufTy).Contents (Elt F) → (⟨S64x500x500x2, .f32⟩ : BufTy).Contents (Elt F)),
    unary main_v237 main_v239 (broadcastInDim S64x500x500x2 ![0, 1, 2, 3] bcast_S64x1x500x2_S64x500x500x2_0_1_2_3 : (⟨S64x1x500x2, .f32⟩ : BufTy).Contents (Elt F) → (⟨S64x500x500x2, .f32⟩ : BufTy).Contents (Elt F)),
    binary main_v238 main_v239 main_v240 (maximumf : (⟨S64x500x500x2, .f32⟩ : BufTy).Contents (Elt F) → (⟨S64x500x500x2, .f32⟩ : BufTy).Contents (Elt F) → (⟨S64x500x500x2, .f32⟩ : BufTy).Contents (Elt F)),
    unary main_v36 main_v241 ((extractStridedSlice S64x500x2 ![0, 0, 2] · slices_S64x500x4_S64x500x2_0_0_2) : (⟨S64x500x4, .f32⟩ : BufTy).Contents (Elt F) → (⟨S64x500x2, .f32⟩ : BufTy).Contents (Elt F)),
    unary main_v241 main_v242 (broadcastInDim S64x500x1x2 ![0, 1, 3] bcast_S64x500x2_S64x500x1x2_0_1_3 : (⟨S64x500x2, .f32⟩ : BufTy).Contents (Elt F) → (⟨S64x500x1x2, .f32⟩ : BufTy).Contents (Elt F)),
    unary main_v152 main_v243 ((extractStridedSlice S64x500x2 ![0, 0, 2] · slices_S64x500x4_S64x500x2_0_0_2) : (⟨S64x500x4, .f32⟩ : BufTy).Contents (Elt F) → (⟨S64x500x2, .f32⟩ : BufTy).Contents (Elt F)),
    unary main_v243 main_v244 (broadcastInDim S64x1x500x2 ![0, 2, 3] bcast_S64x500x2_S64x1x500x2_0_2_3 : (⟨S64x500x2, .f32⟩ : BufTy).Contents (Elt F) → (⟨S64x1x500x2, .f32⟩ : BufTy).Contents (Elt F)),
    unary main_v242 main_v245 (broadcastInDim S64x500x500x2 ![0, 1, 2, 3] bcast_S64x500x1x2_S64x500x500x2_0_1_2_3 : (⟨S64x500x1x2, .f32⟩ : BufTy).Contents (Elt F) → (⟨S64x500x500x2, .f32⟩ : BufTy).Contents (Elt F)),
    unary main_v244 main_v246 (broadcastInDim S64x500x500x2 ![0, 1, 2, 3] bcast_S64x1x500x2_S64x500x500x2_0_1_2_3 : (⟨S64x1x500x2, .f32⟩ : BufTy).Contents (Elt F) → (⟨S64x500x500x2, .f32⟩ : BufTy).Contents (Elt F)),
    binary main_v245 main_v246 main_v247 (minimumf : (⟨S64x500x500x2, .f32⟩ : BufTy).Contents (Elt F) → (⟨S64x500x500x2, .f32⟩ : BufTy).Contents (Elt F) → (⟨S64x500x500x2, .f32⟩ : BufTy).Contents (Elt F)),
    binary main_v247 main_v240 main_v248 (subf : (⟨S64x500x500x2, .f32⟩ : BufTy).Contents (Elt F) → (⟨S64x500x500x2, .f32⟩ : BufTy).Contents (Elt F) → (⟨S64x500x500x2, .f32⟩ : BufTy).Contents (Elt F)),
    nullary main_cst_27 (constant S_ .f32 0x00000000#32),
    TRef.unary (TRef.of (T := ⟨S_, .f32⟩) main_cst_27) (TRef.of (T := ⟨S_, .f32⟩) main_call0_v0) id,
    TRef.unary (TRef.of (T := ⟨S_, .f32⟩) main_call0_v0) (TRef.of (T := ⟨S64x500x500x2, .f32⟩) main_call0_v1) (broadcastInDim S64x500x500x2 ![] bcast_S_S64x500x500x2),
    TRef.binary (TRef.of (T := ⟨S64x500x500x2, .f32⟩) main_call0_v1) (TRef.of (T := ⟨S64x500x500x2, .f32⟩) main_v248) (TRef.of (T := ⟨S64x500x500x2, .f32⟩) main_v249) maximumf,
    unary main_v249 main_v250 ((extractStridedSlice S64x500x500x1 ![0, 0, 0, 0] · slices_S64x500x500x2_S64x500x500x1_0_0_0_0) : (⟨S64x500x500x2, .f32⟩ : BufTy).Contents (Elt F) → (⟨S64x500x500x1, .f32⟩ : BufTy).Contents (Elt F)),
    reshape main_v250 main_v251 rfl shapeCasts_S64x500x500x1_S64x500x500,
    unary main_v249 main_v252 ((extractStridedSlice S64x500x500x1 ![0, 0, 0, 1] · slices_S64x500x500x2_S64x500x500x1_0_0_0_1) : (⟨S64x500x500x2, .f32⟩ : BufTy).Contents (Elt F) → (⟨S64x500x500x1, .f32⟩ : BufTy).Contents (Elt F)),
    reshape main_v252 main_v253 rfl shapeCasts_S64x500x500x1_S64x500x500,
    binary main_v251 main_v253 main_v254 (mulf : (⟨S64x500x500, .f32⟩ : BufTy).Contents (Elt F) → (⟨S64x500x500, .f32⟩ : BufTy).Contents (Elt F) → (⟨S64x500x500, .f32⟩ : BufTy).Contents (Elt F)),
    unary main_v222 main_v255 (broadcastInDim S64x500x1 ![0, 1] bcast_S64x500_S64x500x1_0_1 : (⟨S64x500, .f32⟩ : BufTy).Contents (Elt F) → (⟨S64x500x1, .f32⟩ : BufTy).Contents (Elt F)),
    unary main_v233 main_v256 (broadcastInDim S64x1x500 ![0, 2] bcast_S64x500_S64x1x500_0_2 : (⟨S64x500, .f32⟩ : BufTy).Contents (Elt F) → (⟨S64x1x500, .f32⟩ : BufTy).Contents (Elt F)),
    unary main_v255 main_v257 (broadcastInDim S64x500x500 ![0, 1, 2] bcast_S64x500x1_S64x500x500_0_1_2 : (⟨S64x500x1, .f32⟩ : BufTy).Contents (Elt F) → (⟨S64x500x500, .f32⟩ : BufTy).Contents (Elt F)),
    unary main_v256 main_v258 (broadcastInDim S64x500x500 ![0, 1, 2] bcast_S64x1x500_S64x500x500_0_1_2 : (⟨S64x1x500, .f32⟩ : BufTy).Contents (Elt F) → (⟨S64x500x500, .f32⟩ : BufTy).Contents (Elt F)),
    binary main_v257 main_v258 main_v259 (addf : (⟨S64x500x500, .f32⟩ : BufTy).Contents (Elt F) → (⟨S64x500x500, .f32⟩ : BufTy).Contents (Elt F) → (⟨S64x500x500, .f32⟩ : BufTy).Contents (Elt F)),
    binary main_v259 main_v254 main_v260 (subf : (⟨S64x500x500, .f32⟩ : BufTy).Contents (Elt F) → (⟨S64x500x500, .f32⟩ : BufTy).Contents (Elt F) → (⟨S64x500x500, .f32⟩ : BufTy).Contents (Elt F)),
    binary main_v254 main_v260 main_v261 (Host.divf : (⟨S64x500x500, .f32⟩ : BufTy).Contents (Elt F) → (⟨S64x500x500, .f32⟩ : BufTy).Contents (Elt F) → (⟨S64x500x500, .f32⟩ : BufTy).Contents (Elt F)),
    unary main_v36 main_v262 ((extractStridedSlice S64x500x2 ![0, 0, 0] · slices_S64x500x4_S64x500x2_0_0_0) : (⟨S64x500x4, .f32⟩ : BufTy).Contents (Elt F) → (⟨S64x500x2, .f32⟩ : BufTy).Contents (Elt F)),
    unary main_v262 main_v263 (broadcastInDim S64x500x1x2 ![0, 1, 3] bcast_S64x500x2_S64x500x1x2_0_1_3 : (⟨S64x500x2, .f32⟩ : BufTy).Contents (Elt F) → (⟨S64x500x1x2, .f32⟩ : BufTy).Contents (Elt F)),
    unary main_v152 main_v264 ((extractStridedSlice S64x500x2 ![0, 0, 0] · slices_S64x500x4_S64x500x2_0_0_0) : (⟨S64x500x4, .f32⟩ : BufTy).Contents (Elt F) → (⟨S64x500x2, .f32⟩ : BufTy).Contents (Elt F)),
    unary main_v264 main_v265 (broadcastInDim S64x1x500x2 ![0, 2, 3] bcast_S64x500x2_S64x1x500x2_0_2_3 : (⟨S64x500x2, .f32⟩ : BufTy).Contents (Elt F) → (⟨S64x1x500x2, .f32⟩ : BufTy).Contents (Elt F)),
    unary main_v263 main_v266 (broadcastInDim S64x500x500x2 ![0, 1, 2, 3] bcast_S64x500x1x2_S64x500x500x2_0_1_2_3 : (⟨S64x500x1x2, .f32⟩ : BufTy).Contents (Elt F) → (⟨S64x500x500x2, .f32⟩ : BufTy).Contents (Elt F)),
    unary main_v265 main_v267 (broadcastInDim S64x500x500x2 ![0, 1, 2, 3] bcast_S64x1x500x2_S64x500x500x2_0_1_2_3 : (⟨S64x1x500x2, .f32⟩ : BufTy).Contents (Elt F) → (⟨S64x500x500x2, .f32⟩ : BufTy).Contents (Elt F)),
    binary main_v266 main_v267 main_v268 (minimumf : (⟨S64x500x500x2, .f32⟩ : BufTy).Contents (Elt F) → (⟨S64x500x500x2, .f32⟩ : BufTy).Contents (Elt F) → (⟨S64x500x500x2, .f32⟩ : BufTy).Contents (Elt F)),
    unary main_v36 main_v269 ((extractStridedSlice S64x500x2 ![0, 0, 2] · slices_S64x500x4_S64x500x2_0_0_2) : (⟨S64x500x4, .f32⟩ : BufTy).Contents (Elt F) → (⟨S64x500x2, .f32⟩ : BufTy).Contents (Elt F)),
    unary main_v269 main_v270 (broadcastInDim S64x500x1x2 ![0, 1, 3] bcast_S64x500x2_S64x500x1x2_0_1_3 : (⟨S64x500x2, .f32⟩ : BufTy).Contents (Elt F) → (⟨S64x500x1x2, .f32⟩ : BufTy).Contents (Elt F)) ]

set_option maxRecDepth 8192 in
theorem main_part4_eq (c : Dev nD) : main_part4 (F := F) c = seq ops_part4 := rfl

theorem ops_part4_sub : (ops_part4 : List (HloOp τ sig (Elt F))).Forall fun op => op.bufs ⊆ tcRefs τ sig :=
  ⟨unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., unary_bufs_sub .., unary_bufs_sub .., unary_bufs_sub .., unary_bufs_sub .., unary_bufs_sub .., unary_bufs_sub .., binary_bufs_sub .., unary_bufs_sub .., unary_bufs_sub .., unary_bufs_sub .., unary_bufs_sub .., unary_bufs_sub .., unary_bufs_sub .., binary_bufs_sub .., binary_bufs_sub .., nullary_bufs_sub .., unary_bufs_sub .., unary_bufs_sub .., binary_bufs_sub .., unary_bufs_sub .., reshape_bufs_sub .., unary_bufs_sub .., reshape_bufs_sub .., binary_bufs_sub .., unary_bufs_sub .., unary_bufs_sub .., unary_bufs_sub .., unary_bufs_sub .., binary_bufs_sub .., binary_bufs_sub .., binary_bufs_sub .., unary_bufs_sub .., unary_bufs_sub .., unary_bufs_sub .., unary_bufs_sub .., unary_bufs_sub .., unary_bufs_sub .., binary_bufs_sub .., unary_bufs_sub .., unary_bufs_sub ..⟩

theorem ops_part4_fresh : ∀ op ∈ (ops_part4 : List (HloOp τ sig (Elt F))), op.fresh = ∅ := by
  intro _ h; (repeat (cases h with | head => rfl | tail _ h => ?_)); exact nomatch h

abbrev ops_part5 : List (HloOp τ sig (Elt F)) :=
  [ unary main_v152 main_v271 ((extractStridedSlice S64x500x2 ![0, 0, 2] · slices_S64x500x4_S64x500x2_0_0_2) : (⟨S64x500x4, .f32⟩ : BufTy).Contents (Elt F) → (⟨S64x500x2, .f32⟩ : BufTy).Contents (Elt F)),
    unary main_v271 main_v272 (broadcastInDim S64x1x500x2 ![0, 2, 3] bcast_S64x500x2_S64x1x500x2_0_2_3 : (⟨S64x500x2, .f32⟩ : BufTy).Contents (Elt F) → (⟨S64x1x500x2, .f32⟩ : BufTy).Contents (Elt F)),
    unary main_v270 main_v273 (broadcastInDim S64x500x500x2 ![0, 1, 2, 3] bcast_S64x500x1x2_S64x500x500x2_0_1_2_3 : (⟨S64x500x1x2, .f32⟩ : BufTy).Contents (Elt F) → (⟨S64x500x500x2, .f32⟩ : BufTy).Contents (Elt F)),
    unary main_v272 main_v274 (broadcastInDim S64x500x500x2 ![0, 1, 2, 3] bcast_S64x1x500x2_S64x500x500x2_0_1_2_3 : (⟨S64x1x500x2, .f32⟩ : BufTy).Contents (Elt F) → (⟨S64x500x500x2, .f32⟩ : BufTy).Contents (Elt F)),
    binary main_v273 main_v274 main_v275 (maximumf : (⟨S64x500x500x2, .f32⟩ : BufTy).Contents (Elt F) → (⟨S64x500x500x2, .f32⟩ : BufTy).Contents (Elt F) → (⟨S64x500x500x2, .f32⟩ : BufTy).Contents (Elt F)),
    binary main_v275 main_v268 main_v276 (subf : (⟨S64x500x500x2, .f32⟩ : BufTy).Contents (Elt F) → (⟨S64x500x500x2, .f32⟩ : BufTy).Contents (Elt F) → (⟨S64x500x500x2, .f32⟩ : BufTy).Contents (Elt F)),
    nullary main_cst_28 (constant S_ .f32 0x00000000#32),
    TRef.unary (TRef.of (T := ⟨S_, .f32⟩) main_cst_28) (TRef.of (T := ⟨S_, .f32⟩) main_call1_v0) id,
    TRef.unary (TRef.of (T := ⟨S_, .f32⟩) main_call1_v0) (TRef.of (T := ⟨S64x500x500x2, .f32⟩) main_call1_v1) (broadcastInDim S64x500x500x2 ![] bcast_S_S64x500x500x2),
    TRef.binary (TRef.of (T := ⟨S64x500x500x2, .f32⟩) main_call1_v1) (TRef.of (T := ⟨S64x500x500x2, .f32⟩) main_v276) (TRef.of (T := ⟨S64x500x500x2, .f32⟩) main_v277) maximumf,
    unary main_v277 main_v278 ((extractStridedSlice S64x500x500x1 ![0, 0, 0, 0] · slices_S64x500x500x2_S64x500x500x1_0_0_0_0) : (⟨S64x500x500x2, .f32⟩ : BufTy).Contents (Elt F) → (⟨S64x500x500x1, .f32⟩ : BufTy).Contents (Elt F)),
    reshape main_v278 main_v279 rfl shapeCasts_S64x500x500x1_S64x500x500,
    unary main_v277 main_v280 ((extractStridedSlice S64x500x500x1 ![0, 0, 0, 1] · slices_S64x500x500x2_S64x500x500x1_0_0_0_1) : (⟨S64x500x500x2, .f32⟩ : BufTy).Contents (Elt F) → (⟨S64x500x500x1, .f32⟩ : BufTy).Contents (Elt F)),
    reshape main_v280 main_v281 rfl shapeCasts_S64x500x500x1_S64x500x500,
    binary main_v279 main_v281 main_v282 (mulf : (⟨S64x500x500, .f32⟩ : BufTy).Contents (Elt F) → (⟨S64x500x500, .f32⟩ : BufTy).Contents (Elt F) → (⟨S64x500x500, .f32⟩ : BufTy).Contents (Elt F)),
    binary main_v282 main_v260 main_v283 (subf : (⟨S64x500x500, .f32⟩ : BufTy).Contents (Elt F) → (⟨S64x500x500, .f32⟩ : BufTy).Contents (Elt F) → (⟨S64x500x500, .f32⟩ : BufTy).Contents (Elt F)),
    binary main_v283 main_v282 main_v284 (Host.divf : (⟨S64x500x500, .f32⟩ : BufTy).Contents (Elt F) → (⟨S64x500x500, .f32⟩ : BufTy).Contents (Elt F) → (⟨S64x500x500, .f32⟩ : BufTy).Contents (Elt F)),
    binary main_v261 main_v284 main_v285 (subf : (⟨S64x500x500, .f32⟩ : BufTy).Contents (Elt F) → (⟨S64x500x500, .f32⟩ : BufTy).Contents (Elt F) → (⟨S64x500x500, .f32⟩ : BufTy).Contents (Elt F)),
    nullary main_cst_29 (constant S_ .f32 0x00000000#32),
    TRef.unary (TRef.of (T := ⟨S_, .f32⟩) main_cst_29) (TRef.of (T := ⟨S_, .f32⟩) main_call2_v0) id,
    TRef.unary (TRef.of (T := ⟨S_, .f32⟩) main_call2_v0) (TRef.of (T := ⟨S64x500x500, .f32⟩) main_call2_v1) (broadcastInDim S64x500x500 ![] bcast_S_S64x500x500),
    TRef.binary (TRef.of (T := ⟨S64x500x500, .f32⟩) main_call2_v1) (TRef.of (T := ⟨S64x500x500, .f32⟩) main_v285) (TRef.of (T := ⟨S64x500x500, .f32⟩) main_v286) maximumf,
    unary main_v36 main_v287 ((extractStridedSlice S64x500x1 ![0, 0, 2] · slices_S64x500x4_S64x500x1_0_0_2) : (⟨S64x500x4, .f32⟩ : BufTy).Contents (Elt F) → (⟨S64x500x1, .f32⟩ : BufTy).Contents (Elt F)),
    reshape main_v287 main_v288 rfl shapeCasts_S64x500x1_S64x500,
    unary main_v36 main_v289 ((extractStridedSlice S64x500x1 ![0, 0, 0] · slices_S64x500x4_S64x500x1_0_0_0) : (⟨S64x500x4, .f32⟩ : BufTy).Contents (Elt F) → (⟨S64x500x1, .f32⟩ : BufTy).Contents (Elt F)),
    reshape main_v289 main_v290 rfl shapeCasts_S64x500x1_S64x500,
    binary main_v288 main_v290 main_v291 (subf : (⟨S64x500, .f32⟩ : BufTy).Contents (Elt F) → (⟨S64x500, .f32⟩ : BufTy).Contents (Elt F) → (⟨S64x500, .f32⟩ : BufTy).Contents (Elt F)),
    unary main_v36 main_v292 ((extractStridedSlice S64x500x1 ![0, 0, 3] · slices_S64x500x4_S64x500x1_0_0_3) : (⟨S64x500x4, .f32⟩ : BufTy).Contents (Elt F) → (⟨S64x500x1, .f32⟩ : BufTy).Contents (Elt F)),
    reshape main_v292 main_v293 rfl shapeCasts_S64x500x1_S64x500,
    unary main_v36 main_v294 ((extractStridedSlice S64x500x1 ![0, 0, 1] · slices_S64x500x4_S64x500x1_0_0_1) : (⟨S64x500x4, .f32⟩ : BufTy).Contents (Elt F) → (⟨S64x500x1, .f32⟩ : BufTy).Contents (Elt F)),
    reshape main_v294 main_v295 rfl shapeCasts_S64x500x1_S64x500,
    binary main_v293 main_v295 main_v296 (subf : (⟨S64x500, .f32⟩ : BufTy).Contents (Elt F) → (⟨S64x500, .f32⟩ : BufTy).Contents (Elt F) → (⟨S64x500, .f32⟩ : BufTy).Contents (Elt F)),
    binary main_v291 main_v296 main_v297 (mulf : (⟨S64x500, .f32⟩ : BufTy).Contents (Elt F) → (⟨S64x500, .f32⟩ : BufTy).Contents (Elt F) → (⟨S64x500, .f32⟩ : BufTy).Contents (Elt F)),
    unary main_v124 main_v298 ((extractStridedSlice S64x500x1 ![0, 0, 2] · slices_S64x500x4_S64x500x1_0_0_2) : (⟨S64x500x4, .f32⟩ : BufTy).Contents (Elt F) → (⟨S64x500x1, .f32⟩ : BufTy).Contents (Elt F)),
    reshape main_v298 main_v299 rfl shapeCasts_S64x500x1_S64x500,
    unary main_v124 main_v300 ((extractStridedSlice S64x500x1 ![0, 0, 0] · slices_S64x500x4_S64x500x1_0_0_0) : (⟨S64x500x4, .f32⟩ : BufTy).Contents (Elt F) → (⟨S64x500x1, .f32⟩ : BufTy).Contents (Elt F)),
    reshape main_v300 main_v301 rfl shapeCasts_S64x500x1_S64x500,
    binary main_v299 main_v301 main_v302 (subf : (⟨S64x500, .f32⟩ : BufTy).Contents (Elt F) → (⟨S64x500, .f32⟩ : BufTy).Contents (Elt F) → (⟨S64x500, .f32⟩ : BufTy).Contents (Elt F)),
    unary main_v124 main_v303 ((extractStridedSlice S64x500x1 ![0, 0, 3] · slices_S64x500x4_S64x500x1_0_0_3) : (⟨S64x500x4, .f32⟩ : BufTy).Contents (Elt F) → (⟨S64x500x1, .f32⟩ : BufTy).Contents (Elt F)),
    reshape main_v303 main_v304 rfl shapeCasts_S64x500x1_S64x500,
    unary main_v124 main_v305 ((extractStridedSlice S64x500x1 ![0, 0, 1] · slices_S64x500x4_S64x500x1_0_0_1) : (⟨S64x500x4, .f32⟩ : BufTy).Contents (Elt F) → (⟨S64x500x1, .f32⟩ : BufTy).Contents (Elt F)),
    reshape main_v305 main_v306 rfl shapeCasts_S64x500x1_S64x500,
    binary main_v304 main_v306 main_v307 (subf : (⟨S64x500, .f32⟩ : BufTy).Contents (Elt F) → (⟨S64x500, .f32⟩ : BufTy).Contents (Elt F) → (⟨S64x500, .f32⟩ : BufTy).Contents (Elt F)),
    binary main_v302 main_v307 main_v308 (mulf : (⟨S64x500, .f32⟩ : BufTy).Contents (Elt F) → (⟨S64x500, .f32⟩ : BufTy).Contents (Elt F) → (⟨S64x500, .f32⟩ : BufTy).Contents (Elt F)),
    unary main_v36 main_v309 ((extractStridedSlice S64x500x2 ![0, 0, 0] · slices_S64x500x4_S64x500x2_0_0_0) : (⟨S64x500x4, .f32⟩ : BufTy).Contents (Elt F) → (⟨S64x500x2, .f32⟩ : BufTy).Contents (Elt F)),
    unary main_v309 main_v310 (broadcastInDim S64x500x1x2 ![0, 1, 3] bcast_S64x500x2_S64x500x1x2_0_1_3 : (⟨S64x500x2, .f32⟩ : BufTy).Contents (Elt F) → (⟨S64x500x1x2, .f32⟩ : BufTy).Contents (Elt F)),
    unary main_v124 main_v311 ((extractStridedSlice S64x500x2 ![0, 0, 0] · slices_S64x500x4_S64x500x2_0_0_0) : (⟨S64x500x4, .f32⟩ : BufTy).Contents (Elt F) → (⟨S64x500x2, .f32⟩ : BufTy).Contents (Elt F)),
    unary main_v311 main_v312 (broadcastInDim S64x1x500x2 ![0, 2, 3] bcast_S64x500x2_S64x1x500x2_0_2_3 : (⟨S64x500x2, .f32⟩ : BufTy).Contents (Elt F) → (⟨S64x1x500x2, .f32⟩ : BufTy).Contents (Elt F)),
    unary main_v310 main_v313 (broadcastInDim S64x500x500x2 ![0, 1, 2, 3] bcast_S64x500x1x2_S64x500x500x2_0_1_2_3 : (⟨S64x500x1x2, .f32⟩ : BufTy).Contents (Elt F) → (⟨S64x500x500x2, .f32⟩ : BufTy).Contents (Elt F)),
    unary main_v312 main_v314 (broadcastInDim S64x500x500x2 ![0, 1, 2, 3] bcast_S64x1x500x2_S64x500x500x2_0_1_2_3 : (⟨S64x1x500x2, .f32⟩ : BufTy).Contents (Elt F) → (⟨S64x500x500x2, .f32⟩ : BufTy).Contents (Elt F)),
    binary main_v313 main_v314 main_v315 (maximumf : (⟨S64x500x500x2, .f32⟩ : BufTy).Contents (Elt F) → (⟨S64x500x500x2, .f32⟩ : BufTy).Contents (Elt F) → (⟨S64x500x500x2, .f32⟩ : BufTy).Contents (Elt F)),
    unary main_v36 main_v316 ((extractStridedSlice S64x500x2 ![0, 0, 2] · slices_S64x500x4_S64x500x2_0_0_2) : (⟨S64x500x4, .f32⟩ : BufTy).Contents (Elt F) → (⟨S64x500x2, .f32⟩ : BufTy).Contents (Elt F)),
    unary main_v316 main_v317 (broadcastInDim S64x500x1x2 ![0, 1, 3] bcast_S64x500x2_S64x500x1x2_0_1_3 : (⟨S64x500x2, .f32⟩ : BufTy).Contents (Elt F) → (⟨S64x500x1x2, .f32⟩ : BufTy).Contents (Elt F)),
    unary main_v124 main_v318 ((extractStridedSlice S64x500x2 ![0, 0, 2] · slices_S64x500x4_S64x500x2_0_0_2) : (⟨S64x500x4, .f32⟩ : BufTy).Contents (Elt F) → (⟨S64x500x2, .f32⟩ : BufTy).Contents (Elt F)),
    unary main_v318 main_v319 (broadcastInDim S64x1x500x2 ![0, 2, 3] bcast_S64x500x2_S64x1x500x2_0_2_3 : (⟨S64x500x2, .f32⟩ : BufTy).Contents (Elt F) → (⟨S64x1x500x2, .f32⟩ : BufTy).Contents (Elt F)),
    unary main_v317 main_v320 (broadcastInDim S64x500x500x2 ![0, 1, 2, 3] bcast_S64x500x1x2_S64x500x500x2_0_1_2_3 : (⟨S64x500x1x2, .f32⟩ : BufTy).Contents (Elt F) → (⟨S64x500x500x2, .f32⟩ : BufTy).Contents (Elt F)),
    unary main_v319 main_v321 (broadcastInDim S64x500x500x2 ![0, 1, 2, 3] bcast_S64x1x500x2_S64x500x500x2_0_1_2_3 : (⟨S64x1x500x2, .f32⟩ : BufTy).Contents (Elt F) → (⟨S64x500x500x2, .f32⟩ : BufTy).Contents (Elt F)),
    binary main_v320 main_v321 main_v322 (minimumf : (⟨S64x500x500x2, .f32⟩ : BufTy).Contents (Elt F) → (⟨S64x500x500x2, .f32⟩ : BufTy).Contents (Elt F) → (⟨S64x500x500x2, .f32⟩ : BufTy).Contents (Elt F)),
    binary main_v322 main_v315 main_v323 (subf : (⟨S64x500x500x2, .f32⟩ : BufTy).Contents (Elt F) → (⟨S64x500x500x2, .f32⟩ : BufTy).Contents (Elt F) → (⟨S64x500x500x2, .f32⟩ : BufTy).Contents (Elt F)),
    nullary main_cst_30 (constant S_ .f32 0x00000000#32),
    TRef.unary (TRef.of (T := ⟨S_, .f32⟩) main_cst_30) (TRef.of (T := ⟨S_, .f32⟩) main_call3_v0) id,
    TRef.unary (TRef.of (T := ⟨S_, .f32⟩) main_call3_v0) (TRef.of (T := ⟨S64x500x500x2, .f32⟩) main_call3_v1) (broadcastInDim S64x500x500x2 ![] bcast_S_S64x500x500x2),
    TRef.binary (TRef.of (T := ⟨S64x500x500x2, .f32⟩) main_call3_v1) (TRef.of (T := ⟨S64x500x500x2, .f32⟩) main_v323) (TRef.of (T := ⟨S64x500x500x2, .f32⟩) main_v324) maximumf,
    unary main_v324 main_v325 ((extractStridedSlice S64x500x500x1 ![0, 0, 0, 0] · slices_S64x500x500x2_S64x500x500x1_0_0_0_0) : (⟨S64x500x500x2, .f32⟩ : BufTy).Contents (Elt F) → (⟨S64x500x500x1, .f32⟩ : BufTy).Contents (Elt F)),
    reshape main_v325 main_v326 rfl shapeCasts_S64x500x500x1_S64x500x500,
    unary main_v324 main_v327 ((extractStridedSlice S64x500x500x1 ![0, 0, 0, 1] · slices_S64x500x500x2_S64x500x500x1_0_0_0_1) : (⟨S64x500x500x2, .f32⟩ : BufTy).Contents (Elt F) → (⟨S64x500x500x1, .f32⟩ : BufTy).Contents (Elt F)) ]

set_option maxRecDepth 8192 in
theorem main_part5_eq (c : Dev nD) : main_part5 (F := F) c = seq ops_part5 := rfl

theorem ops_part5_sub : (ops_part5 : List (HloOp τ sig (Elt F))).Forall fun op => op.bufs ⊆ tcRefs τ sig :=
  ⟨unary_bufs_sub .., unary_bufs_sub .., unary_bufs_sub .., unary_bufs_sub .., binary_bufs_sub .., binary_bufs_sub .., nullary_bufs_sub .., unary_bufs_sub .., unary_bufs_sub .., binary_bufs_sub .., unary_bufs_sub .., reshape_bufs_sub .., unary_bufs_sub .., reshape_bufs_sub .., binary_bufs_sub .., binary_bufs_sub .., binary_bufs_sub .., binary_bufs_sub .., nullary_bufs_sub .., unary_bufs_sub .., unary_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., unary_bufs_sub .., unary_bufs_sub .., unary_bufs_sub .., unary_bufs_sub .., unary_bufs_sub .., unary_bufs_sub .., binary_bufs_sub .., unary_bufs_sub .., unary_bufs_sub .., unary_bufs_sub .., unary_bufs_sub .., unary_bufs_sub .., unary_bufs_sub .., binary_bufs_sub .., binary_bufs_sub .., nullary_bufs_sub .., unary_bufs_sub .., unary_bufs_sub .., binary_bufs_sub .., unary_bufs_sub .., reshape_bufs_sub .., unary_bufs_sub ..⟩

theorem ops_part5_fresh : ∀ op ∈ (ops_part5 : List (HloOp τ sig (Elt F))), op.fresh = ∅ := by
  intro _ h; (repeat (cases h with | head => rfl | tail _ h => ?_)); exact nomatch h

abbrev ops_part6 : List (HloOp τ sig (Elt F)) :=
  [ reshape main_v327 main_v328 rfl shapeCasts_S64x500x500x1_S64x500x500,
    binary main_v326 main_v328 main_v329 (mulf : (⟨S64x500x500, .f32⟩ : BufTy).Contents (Elt F) → (⟨S64x500x500, .f32⟩ : BufTy).Contents (Elt F) → (⟨S64x500x500, .f32⟩ : BufTy).Contents (Elt F)),
    unary main_v297 main_v330 (broadcastInDim S64x500x1 ![0, 1] bcast_S64x500_S64x500x1_0_1 : (⟨S64x500, .f32⟩ : BufTy).Contents (Elt F) → (⟨S64x500x1, .f32⟩ : BufTy).Contents (Elt F)),
    unary main_v308 main_v331 (broadcastInDim S64x1x500 ![0, 2] bcast_S64x500_S64x1x500_0_2 : (⟨S64x500, .f32⟩ : BufTy).Contents (Elt F) → (⟨S64x1x500, .f32⟩ : BufTy).Contents (Elt F)),
    unary main_v330 main_v332 (broadcastInDim S64x500x500 ![0, 1, 2] bcast_S64x500x1_S64x500x500_0_1_2 : (⟨S64x500x1, .f32⟩ : BufTy).Contents (Elt F) → (⟨S64x500x500, .f32⟩ : BufTy).Contents (Elt F)),
    unary main_v331 main_v333 (broadcastInDim S64x500x500 ![0, 1, 2] bcast_S64x1x500_S64x500x500_0_1_2 : (⟨S64x1x500, .f32⟩ : BufTy).Contents (Elt F) → (⟨S64x500x500, .f32⟩ : BufTy).Contents (Elt F)),
    binary main_v332 main_v333 main_v334 (addf : (⟨S64x500x500, .f32⟩ : BufTy).Contents (Elt F) → (⟨S64x500x500, .f32⟩ : BufTy).Contents (Elt F) → (⟨S64x500x500, .f32⟩ : BufTy).Contents (Elt F)),
    binary main_v334 main_v329 main_v335 (subf : (⟨S64x500x500, .f32⟩ : BufTy).Contents (Elt F) → (⟨S64x500x500, .f32⟩ : BufTy).Contents (Elt F) → (⟨S64x500x500, .f32⟩ : BufTy).Contents (Elt F)),
    binary main_v329 main_v335 main_v336 (Host.divf : (⟨S64x500x500, .f32⟩ : BufTy).Contents (Elt F) → (⟨S64x500x500, .f32⟩ : BufTy).Contents (Elt F) → (⟨S64x500x500, .f32⟩ : BufTy).Contents (Elt F)),
    unary main_v36 main_v337 ((extractStridedSlice S64x500x2 ![0, 0, 0] · slices_S64x500x4_S64x500x2_0_0_0) : (⟨S64x500x4, .f32⟩ : BufTy).Contents (Elt F) → (⟨S64x500x2, .f32⟩ : BufTy).Contents (Elt F)),
    unary main_v337 main_v338 (broadcastInDim S64x500x1x2 ![0, 1, 3] bcast_S64x500x2_S64x500x1x2_0_1_3 : (⟨S64x500x2, .f32⟩ : BufTy).Contents (Elt F) → (⟨S64x500x1x2, .f32⟩ : BufTy).Contents (Elt F)),
    unary main_v124 main_v339 ((extractStridedSlice S64x500x2 ![0, 0, 0] · slices_S64x500x4_S64x500x2_0_0_0) : (⟨S64x500x4, .f32⟩ : BufTy).Contents (Elt F) → (⟨S64x500x2, .f32⟩ : BufTy).Contents (Elt F)),
    unary main_v339 main_v340 (broadcastInDim S64x1x500x2 ![0, 2, 3] bcast_S64x500x2_S64x1x500x2_0_2_3 : (⟨S64x500x2, .f32⟩ : BufTy).Contents (Elt F) → (⟨S64x1x500x2, .f32⟩ : BufTy).Contents (Elt F)),
    unary main_v338 main_v341 (broadcastInDim S64x500x500x2 ![0, 1, 2, 3] bcast_S64x500x1x2_S64x500x500x2_0_1_2_3 : (⟨S64x500x1x2, .f32⟩ : BufTy).Contents (Elt F) → (⟨S64x500x500x2, .f32⟩ : BufTy).Contents (Elt F)),
    unary main_v340 main_v342 (broadcastInDim S64x500x500x2 ![0, 1, 2, 3] bcast_S64x1x500x2_S64x500x500x2_0_1_2_3 : (⟨S64x1x500x2, .f32⟩ : BufTy).Contents (Elt F) → (⟨S64x500x500x2, .f32⟩ : BufTy).Contents (Elt F)),
    binary main_v341 main_v342 main_v343 (minimumf : (⟨S64x500x500x2, .f32⟩ : BufTy).Contents (Elt F) → (⟨S64x500x500x2, .f32⟩ : BufTy).Contents (Elt F) → (⟨S64x500x500x2, .f32⟩ : BufTy).Contents (Elt F)),
    unary main_v36 main_v344 ((extractStridedSlice S64x500x2 ![0, 0, 2] · slices_S64x500x4_S64x500x2_0_0_2) : (⟨S64x500x4, .f32⟩ : BufTy).Contents (Elt F) → (⟨S64x500x2, .f32⟩ : BufTy).Contents (Elt F)),
    unary main_v344 main_v345 (broadcastInDim S64x500x1x2 ![0, 1, 3] bcast_S64x500x2_S64x500x1x2_0_1_3 : (⟨S64x500x2, .f32⟩ : BufTy).Contents (Elt F) → (⟨S64x500x1x2, .f32⟩ : BufTy).Contents (Elt F)),
    unary main_v124 main_v346 ((extractStridedSlice S64x500x2 ![0, 0, 2] · slices_S64x500x4_S64x500x2_0_0_2) : (⟨S64x500x4, .f32⟩ : BufTy).Contents (Elt F) → (⟨S64x500x2, .f32⟩ : BufTy).Contents (Elt F)),
    unary main_v346 main_v347 (broadcastInDim S64x1x500x2 ![0, 2, 3] bcast_S64x500x2_S64x1x500x2_0_2_3 : (⟨S64x500x2, .f32⟩ : BufTy).Contents (Elt F) → (⟨S64x1x500x2, .f32⟩ : BufTy).Contents (Elt F)),
    unary main_v345 main_v348 (broadcastInDim S64x500x500x2 ![0, 1, 2, 3] bcast_S64x500x1x2_S64x500x500x2_0_1_2_3 : (⟨S64x500x1x2, .f32⟩ : BufTy).Contents (Elt F) → (⟨S64x500x500x2, .f32⟩ : BufTy).Contents (Elt F)),
    unary main_v347 main_v349 (broadcastInDim S64x500x500x2 ![0, 1, 2, 3] bcast_S64x1x500x2_S64x500x500x2_0_1_2_3 : (⟨S64x1x500x2, .f32⟩ : BufTy).Contents (Elt F) → (⟨S64x500x500x2, .f32⟩ : BufTy).Contents (Elt F)),
    binary main_v348 main_v349 main_v350 (maximumf : (⟨S64x500x500x2, .f32⟩ : BufTy).Contents (Elt F) → (⟨S64x500x500x2, .f32⟩ : BufTy).Contents (Elt F) → (⟨S64x500x500x2, .f32⟩ : BufTy).Contents (Elt F)),
    binary main_v350 main_v343 main_v351 (subf : (⟨S64x500x500x2, .f32⟩ : BufTy).Contents (Elt F) → (⟨S64x500x500x2, .f32⟩ : BufTy).Contents (Elt F) → (⟨S64x500x500x2, .f32⟩ : BufTy).Contents (Elt F)),
    nullary main_cst_31 (constant S_ .f32 0x00000000#32),
    TRef.unary (TRef.of (T := ⟨S_, .f32⟩) main_cst_31) (TRef.of (T := ⟨S_, .f32⟩) main_call4_v0) id,
    TRef.unary (TRef.of (T := ⟨S_, .f32⟩) main_call4_v0) (TRef.of (T := ⟨S64x500x500x2, .f32⟩) main_call4_v1) (broadcastInDim S64x500x500x2 ![] bcast_S_S64x500x500x2),
    TRef.binary (TRef.of (T := ⟨S64x500x500x2, .f32⟩) main_call4_v1) (TRef.of (T := ⟨S64x500x500x2, .f32⟩) main_v351) (TRef.of (T := ⟨S64x500x500x2, .f32⟩) main_v352) maximumf,
    unary main_v352 main_v353 ((extractStridedSlice S64x500x500x1 ![0, 0, 0, 0] · slices_S64x500x500x2_S64x500x500x1_0_0_0_0) : (⟨S64x500x500x2, .f32⟩ : BufTy).Contents (Elt F) → (⟨S64x500x500x1, .f32⟩ : BufTy).Contents (Elt F)),
    reshape main_v353 main_v354 rfl shapeCasts_S64x500x500x1_S64x500x500,
    unary main_v352 main_v355 ((extractStridedSlice S64x500x500x1 ![0, 0, 0, 1] · slices_S64x500x500x2_S64x500x500x1_0_0_0_1) : (⟨S64x500x500x2, .f32⟩ : BufTy).Contents (Elt F) → (⟨S64x500x500x1, .f32⟩ : BufTy).Contents (Elt F)),
    reshape main_v355 main_v356 rfl shapeCasts_S64x500x500x1_S64x500x500,
    binary main_v354 main_v356 main_v357 (mulf : (⟨S64x500x500, .f32⟩ : BufTy).Contents (Elt F) → (⟨S64x500x500, .f32⟩ : BufTy).Contents (Elt F) → (⟨S64x500x500, .f32⟩ : BufTy).Contents (Elt F)),
    binary main_v357 main_v335 main_v358 (subf : (⟨S64x500x500, .f32⟩ : BufTy).Contents (Elt F) → (⟨S64x500x500, .f32⟩ : BufTy).Contents (Elt F) → (⟨S64x500x500, .f32⟩ : BufTy).Contents (Elt F)),
    binary main_v358 main_v357 main_v359 (Host.divf : (⟨S64x500x500, .f32⟩ : BufTy).Contents (Elt F) → (⟨S64x500x500, .f32⟩ : BufTy).Contents (Elt F) → (⟨S64x500x500, .f32⟩ : BufTy).Contents (Elt F)),
    binary main_v336 main_v359 main_v360 (subf : (⟨S64x500x500, .f32⟩ : BufTy).Contents (Elt F) → (⟨S64x500x500, .f32⟩ : BufTy).Contents (Elt F) → (⟨S64x500x500, .f32⟩ : BufTy).Contents (Elt F)),
    nullary main_cst_32 (constant S_ .f32 0x00000000#32),
    TRef.unary (TRef.of (T := ⟨S_, .f32⟩) main_cst_32) (TRef.of (T := ⟨S_, .f32⟩) main_call5_v0) id,
    TRef.unary (TRef.of (T := ⟨S_, .f32⟩) main_call5_v0) (TRef.of (T := ⟨S64x500x500, .f32⟩) main_call5_v1) (broadcastInDim S64x500x500 ![] bcast_S_S64x500x500),
    TRef.binary (TRef.of (T := ⟨S64x500x500, .f32⟩) main_call5_v1) (TRef.of (T := ⟨S64x500x500, .f32⟩) main_v360) (TRef.of (T := ⟨S64x500x500, .f32⟩) main_v361) maximumf,
    binary main_v83 main_v83 main_v362 (mulf : (⟨S64x500x150, .f32⟩ : BufTy).Contents (Elt F) → (⟨S64x500x150, .f32⟩ : BufTy).Contents (Elt F) → (⟨S64x500x150, .f32⟩ : BufTy).Contents (Elt F)),
    nullary main_cst_33 (constant S_ .f32 0x00000000#32),
    binary main_v362 main_cst_33 main_v363 ((fun x v => Host.reduceAdd x v reducesTo_S64x500x150_S64x500_d2 h_S_) : (⟨S64x500x150, .f32⟩ : BufTy).Contents (Elt F) → (⟨S_, .f32⟩ : BufTy).Contents (Elt F) → (⟨S64x500, .f32⟩ : BufTy).Contents (Elt F)),
    unary main_v363 main_v364 (broadcastInDim S64x500x1 ![0, 1] bcast_S64x500_S64x500x1_0_1 : (⟨S64x500, .f32⟩ : BufTy).Contents (Elt F) → (⟨S64x500x1, .f32⟩ : BufTy).Contents (Elt F)),
    binary main_v95 main_v95 main_v365 (mulf : (⟨S64x500x150, .f32⟩ : BufTy).Contents (Elt F) → (⟨S64x500x150, .f32⟩ : BufTy).Contents (Elt F) → (⟨S64x500x150, .f32⟩ : BufTy).Contents (Elt F)),
    nullary main_cst_34 (constant S_ .f32 0x00000000#32),
    binary main_v365 main_cst_34 main_v366 ((fun x v => Host.reduceAdd x v reducesTo_S64x500x150_S64x500_d2 h_S_) : (⟨S64x500x150, .f32⟩ : BufTy).Contents (Elt F) → (⟨S_, .f32⟩ : BufTy).Contents (Elt F) → (⟨S64x500, .f32⟩ : BufTy).Contents (Elt F)),
    unary main_v366 main_v367 (broadcastInDim S64x1x500 ![0, 2] bcast_S64x500_S64x1x500_0_2 : (⟨S64x500, .f32⟩ : BufTy).Contents (Elt F) → (⟨S64x1x500, .f32⟩ : BufTy).Contents (Elt F)),
    unary main_v364 main_v368 (broadcastInDim S64x500x500 ![0, 1, 2] bcast_S64x500x1_S64x500x500_0_1_2 : (⟨S64x500x1, .f32⟩ : BufTy).Contents (Elt F) → (⟨S64x500x500, .f32⟩ : BufTy).Contents (Elt F)),
    unary main_v367 main_v369 (broadcastInDim S64x500x500 ![0, 1, 2] bcast_S64x1x500_S64x500x500_0_1_2 : (⟨S64x1x500, .f32⟩ : BufTy).Contents (Elt F) → (⟨S64x500x500, .f32⟩ : BufTy).Contents (Elt F)),
    binary main_v368 main_v369 main_v370 (addf : (⟨S64x500x500, .f32⟩ : BufTy).Contents (Elt F) → (⟨S64x500x500, .f32⟩ : BufTy).Contents (Elt F) → (⟨S64x500x500, .f32⟩ : BufTy).Contents (Elt F)),
    unary main_v95 main_v371 ((transpose S64x150x500 [0, 2, 1] · transposes_S64x500x150_S64x150x500_0_2_1) : (⟨S64x500x150, .f32⟩ : BufTy).Contents (Elt F) → (⟨S64x150x500, .f32⟩ : BufTy).Contents (Elt F)),
    binary main_v83 main_v371 main_v372 ((fun l r => Host.dotGeneral dot_S64x500x150_S64x150x500_S64x500x500_2_1_1_2_0_0 none l r) : (⟨S64x500x150, .f32⟩ : BufTy).Contents (Elt F) → (⟨S64x150x500, .f32⟩ : BufTy).Contents (Elt F) → (⟨S64x500x500, .f32⟩ : BufTy).Contents (Elt F)),
    nullary main_cst_35 (constant S_ .f32 0x40000000#32),
    unary main_cst_35 main_v373 (broadcastInDim S64x500x500 ![] bcast_S_S64x500x500 : (⟨S_, .f32⟩ : BufTy).Contents (Elt F) → (⟨S64x500x500, .f32⟩ : BufTy).Contents (Elt F)),
    binary main_v373 main_v372 main_v374 (mulf : (⟨S64x500x500, .f32⟩ : BufTy).Contents (Elt F) → (⟨S64x500x500, .f32⟩ : BufTy).Contents (Elt F) → (⟨S64x500x500, .f32⟩ : BufTy).Contents (Elt F)),
    binary main_v370 main_v374 main_v375 (subf : (⟨S64x500x500, .f32⟩ : BufTy).Contents (Elt F) → (⟨S64x500x500, .f32⟩ : BufTy).Contents (Elt F) → (⟨S64x500x500, .f32⟩ : BufTy).Contents (Elt F)),
    nullary main_cst_36 (constant S_ .f32 0x2B8CBCCC#32),
    unary main_cst_36 main_v376 (broadcastInDim S64x500x500 ![] bcast_S_S64x500x500 : (⟨S_, .f32⟩ : BufTy).Contents (Elt F) → (⟨S64x500x500, .f32⟩ : BufTy).Contents (Elt F)),
    binary main_v375 main_v376 main_v377 (maximumf : (⟨S64x500x500, .f32⟩ : BufTy).Contents (Elt F) → (⟨S64x500x500, .f32⟩ : BufTy).Contents (Elt F) → (⟨S64x500x500, .f32⟩ : BufTy).Contents (Elt F)),
    unary main_v377 main_v378 (Host.sqrt : (⟨S64x500x500, .f32⟩ : BufTy).Contents (Elt F) → (⟨S64x500x500, .f32⟩ : BufTy).Contents (Elt F)),
    nullary main_cst_37 (constant S_ .f32 0x3F800000#32),
    unary main_cst_37 main_v379 (broadcastInDim S64x500x500 ![] bcast_S_S64x500x500 : (⟨S_, .f32⟩ : BufTy).Contents (Elt F) → (⟨S64x500x500, .f32⟩ : BufTy).Contents (Elt F)),
    binary main_v378 main_v379 main_v380 (addf : (⟨S64x500x500, .f32⟩ : BufTy).Contents (Elt F) → (⟨S64x500x500, .f32⟩ : BufTy).Contents (Elt F) → (⟨S64x500x500, .f32⟩ : BufTy).Contents (Elt F)) ]

set_option maxRecDepth 8192 in
theorem main_part6_eq (c : Dev nD) : main_part6 (F := F) c = seq ops_part6 := rfl

theorem ops_part6_sub : (ops_part6 : List (HloOp τ sig (Elt F))).Forall fun op => op.bufs ⊆ tcRefs τ sig :=
  ⟨reshape_bufs_sub .., binary_bufs_sub .., unary_bufs_sub .., unary_bufs_sub .., unary_bufs_sub .., unary_bufs_sub .., binary_bufs_sub .., binary_bufs_sub .., binary_bufs_sub .., unary_bufs_sub .., unary_bufs_sub .., unary_bufs_sub .., unary_bufs_sub .., unary_bufs_sub .., unary_bufs_sub .., binary_bufs_sub .., unary_bufs_sub .., unary_bufs_sub .., unary_bufs_sub .., unary_bufs_sub .., unary_bufs_sub .., unary_bufs_sub .., binary_bufs_sub .., binary_bufs_sub .., nullary_bufs_sub .., unary_bufs_sub .., unary_bufs_sub .., binary_bufs_sub .., unary_bufs_sub .., reshape_bufs_sub .., unary_bufs_sub .., reshape_bufs_sub .., binary_bufs_sub .., binary_bufs_sub .., binary_bufs_sub .., binary_bufs_sub .., nullary_bufs_sub .., unary_bufs_sub .., unary_bufs_sub .., binary_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., unary_bufs_sub .., nullary_bufs_sub .., unary_bufs_sub .., binary_bufs_sub ..⟩

theorem ops_part6_fresh : ∀ op ∈ (ops_part6 : List (HloOp τ sig (Elt F))), op.fresh = ∅ := by
  intro _ h; (repeat (cases h with | head => rfl | tail _ h => ?_)); exact nomatch h

abbrev ops_part7 : List (HloOp τ sig (Elt F)) :=
  [ nullary main_cst_38 (constant S_ .f32 0x3F800000#32),
    unary main_cst_38 main_v381 (broadcastInDim S64x500x500 ![] bcast_S_S64x500x500 : (⟨S_, .f32⟩ : BufTy).Contents (Elt F) → (⟨S64x500x500, .f32⟩ : BufTy).Contents (Elt F)),
    binary main_v381 main_v380 main_v382 (Host.divf : (⟨S64x500x500, .f32⟩ : BufTy).Contents (Elt F) → (⟨S64x500x500, .f32⟩ : BufTy).Contents (Elt F) → (⟨S64x500x500, .f32⟩ : BufTy).Contents (Elt F)),
    binary main_v71 main_v71 main_v383 (mulf : (⟨S64x500x150, .f32⟩ : BufTy).Contents (Elt F) → (⟨S64x500x150, .f32⟩ : BufTy).Contents (Elt F) → (⟨S64x500x150, .f32⟩ : BufTy).Contents (Elt F)),
    nullary main_cst_39 (constant S_ .f32 0x00000000#32),
    binary main_v383 main_cst_39 main_v384 ((fun x v => Host.reduceAdd x v reducesTo_S64x500x150_S64x500_d2 h_S_) : (⟨S64x500x150, .f32⟩ : BufTy).Contents (Elt F) → (⟨S_, .f32⟩ : BufTy).Contents (Elt F) → (⟨S64x500, .f32⟩ : BufTy).Contents (Elt F)),
    unary main_v384 main_v385 (broadcastInDim S64x500x1 ![0, 1] bcast_S64x500_S64x500x1_0_1 : (⟨S64x500, .f32⟩ : BufTy).Contents (Elt F) → (⟨S64x500x1, .f32⟩ : BufTy).Contents (Elt F)),
    binary main_v95 main_v95 main_v386 (mulf : (⟨S64x500x150, .f32⟩ : BufTy).Contents (Elt F) → (⟨S64x500x150, .f32⟩ : BufTy).Contents (Elt F) → (⟨S64x500x150, .f32⟩ : BufTy).Contents (Elt F)),
    nullary main_cst_40 (constant S_ .f32 0x00000000#32),
    binary main_v386 main_cst_40 main_v387 ((fun x v => Host.reduceAdd x v reducesTo_S64x500x150_S64x500_d2 h_S_) : (⟨S64x500x150, .f32⟩ : BufTy).Contents (Elt F) → (⟨S_, .f32⟩ : BufTy).Contents (Elt F) → (⟨S64x500, .f32⟩ : BufTy).Contents (Elt F)),
    unary main_v387 main_v388 (broadcastInDim S64x1x500 ![0, 2] bcast_S64x500_S64x1x500_0_2 : (⟨S64x500, .f32⟩ : BufTy).Contents (Elt F) → (⟨S64x1x500, .f32⟩ : BufTy).Contents (Elt F)),
    unary main_v385 main_v389 (broadcastInDim S64x500x500 ![0, 1, 2] bcast_S64x500x1_S64x500x500_0_1_2 : (⟨S64x500x1, .f32⟩ : BufTy).Contents (Elt F) → (⟨S64x500x500, .f32⟩ : BufTy).Contents (Elt F)),
    unary main_v388 main_v390 (broadcastInDim S64x500x500 ![0, 1, 2] bcast_S64x1x500_S64x500x500_0_1_2 : (⟨S64x1x500, .f32⟩ : BufTy).Contents (Elt F) → (⟨S64x500x500, .f32⟩ : BufTy).Contents (Elt F)),
    binary main_v389 main_v390 main_v391 (addf : (⟨S64x500x500, .f32⟩ : BufTy).Contents (Elt F) → (⟨S64x500x500, .f32⟩ : BufTy).Contents (Elt F) → (⟨S64x500x500, .f32⟩ : BufTy).Contents (Elt F)),
    unary main_v95 main_v392 ((transpose S64x150x500 [0, 2, 1] · transposes_S64x500x150_S64x150x500_0_2_1) : (⟨S64x500x150, .f32⟩ : BufTy).Contents (Elt F) → (⟨S64x150x500, .f32⟩ : BufTy).Contents (Elt F)),
    binary main_v71 main_v392 main_v393 ((fun l r => Host.dotGeneral dot_S64x500x150_S64x150x500_S64x500x500_2_1_1_2_0_0 none l r) : (⟨S64x500x150, .f32⟩ : BufTy).Contents (Elt F) → (⟨S64x150x500, .f32⟩ : BufTy).Contents (Elt F) → (⟨S64x500x500, .f32⟩ : BufTy).Contents (Elt F)),
    nullary main_cst_41 (constant S_ .f32 0x40000000#32),
    unary main_cst_41 main_v394 (broadcastInDim S64x500x500 ![] bcast_S_S64x500x500 : (⟨S_, .f32⟩ : BufTy).Contents (Elt F) → (⟨S64x500x500, .f32⟩ : BufTy).Contents (Elt F)),
    binary main_v394 main_v393 main_v395 (mulf : (⟨S64x500x500, .f32⟩ : BufTy).Contents (Elt F) → (⟨S64x500x500, .f32⟩ : BufTy).Contents (Elt F) → (⟨S64x500x500, .f32⟩ : BufTy).Contents (Elt F)),
    binary main_v391 main_v395 main_v396 (subf : (⟨S64x500x500, .f32⟩ : BufTy).Contents (Elt F) → (⟨S64x500x500, .f32⟩ : BufTy).Contents (Elt F) → (⟨S64x500x500, .f32⟩ : BufTy).Contents (Elt F)),
    nullary main_cst_42 (constant S_ .f32 0x2B8CBCCC#32),
    unary main_cst_42 main_v397 (broadcastInDim S64x500x500 ![] bcast_S_S64x500x500 : (⟨S_, .f32⟩ : BufTy).Contents (Elt F) → (⟨S64x500x500, .f32⟩ : BufTy).Contents (Elt F)),
    binary main_v396 main_v397 main_v398 (maximumf : (⟨S64x500x500, .f32⟩ : BufTy).Contents (Elt F) → (⟨S64x500x500, .f32⟩ : BufTy).Contents (Elt F) → (⟨S64x500x500, .f32⟩ : BufTy).Contents (Elt F)),
    unary main_v398 main_v399 (Host.sqrt : (⟨S64x500x500, .f32⟩ : BufTy).Contents (Elt F) → (⟨S64x500x500, .f32⟩ : BufTy).Contents (Elt F)),
    nullary main_cst_43 (constant S_ .f32 0x3F800000#32),
    unary main_cst_43 main_v400 (broadcastInDim S64x500x500 ![] bcast_S_S64x500x500 : (⟨S_, .f32⟩ : BufTy).Contents (Elt F) → (⟨S64x500x500, .f32⟩ : BufTy).Contents (Elt F)),
    binary main_v399 main_v400 main_v401 (addf : (⟨S64x500x500, .f32⟩ : BufTy).Contents (Elt F) → (⟨S64x500x500, .f32⟩ : BufTy).Contents (Elt F) → (⟨S64x500x500, .f32⟩ : BufTy).Contents (Elt F)),
    nullary main_cst_44 (constant S_ .f32 0x3F800000#32),
    unary main_cst_44 main_v402 (broadcastInDim S64x500x500 ![] bcast_S_S64x500x500 : (⟨S_, .f32⟩ : BufTy).Contents (Elt F) → (⟨S64x500x500, .f32⟩ : BufTy).Contents (Elt F)),
    binary main_v402 main_v401 main_v403 (Host.divf : (⟨S64x500x500, .f32⟩ : BufTy).Contents (Elt F) → (⟨S64x500x500, .f32⟩ : BufTy).Contents (Elt F) → (⟨S64x500x500, .f32⟩ : BufTy).Contents (Elt F)),
    binary main_v208 main_v382 main_v404 (mulf : (⟨S64x500x500, .f32⟩ : BufTy).Contents (Elt F) → (⟨S64x500x500, .f32⟩ : BufTy).Contents (Elt F) → (⟨S64x500x500, .f32⟩ : BufTy).Contents (Elt F)),
    unary main_v286 main_v405 ((transpose S64x500x500 [0, 2, 1] · transposes_S64x500x500_S64x500x500_0_2_1) : (⟨S64x500x500, .f32⟩ : BufTy).Contents (Elt F) → (⟨S64x500x500, .f32⟩ : BufTy).Contents (Elt F)),
    binary main_v404 main_v405 main_v406 (mulf : (⟨S64x500x500, .f32⟩ : BufTy).Contents (Elt F) → (⟨S64x500x500, .f32⟩ : BufTy).Contents (Elt F) → (⟨S64x500x500, .f32⟩ : BufTy).Contents (Elt F)),
    binary main_v211 main_v403 main_v407 (mulf : (⟨S64x500x500, .f32⟩ : BufTy).Contents (Elt F) → (⟨S64x500x500, .f32⟩ : BufTy).Contents (Elt F) → (⟨S64x500x500, .f32⟩ : BufTy).Contents (Elt F)),
    unary main_v361 main_v408 ((transpose S64x500x500 [0, 2, 1] · transposes_S64x500x500_S64x500x500_0_2_1) : (⟨S64x500x500, .f32⟩ : BufTy).Contents (Elt F) → (⟨S64x500x500, .f32⟩ : BufTy).Contents (Elt F)),
    binary main_v407 main_v408 main_v409 (mulf : (⟨S64x500x500, .f32⟩ : BufTy).Contents (Elt F) → (⟨S64x500x500, .f32⟩ : BufTy).Contents (Elt F) → (⟨S64x500x500, .f32⟩ : BufTy).Contents (Elt F)) ]

set_option maxRecDepth 8192 in
theorem main_part7_eq (c : Dev nD) : main_part7 (F := F) c = seq ops_part7 := rfl

theorem ops_part7_sub : (ops_part7 : List (HloOp τ sig (Elt F))).Forall fun op => op.bufs ⊆ tcRefs τ sig :=
  ⟨nullary_bufs_sub .., unary_bufs_sub .., binary_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., binary_bufs_sub .., unary_bufs_sub .., binary_bufs_sub .., binary_bufs_sub .., unary_bufs_sub .., binary_bufs_sub ..⟩

theorem ops_part7_fresh : ∀ op ∈ (ops_part7 : List (HloOp τ sig (Elt F))), op.fresh = ∅ := by
  intro _ h; (repeat (cases h with | head => rfl | tail _ h => ?_)); exact nomatch h

/-- @main's operations, in order. -/
abbrev ops : List (HloOp τ sig (Elt F)) := ops_part0 ++ (ops_part1 ++ (ops_part2 ++ (ops_part3 ++ (ops_part4 ++ (ops_part5 ++ (ops_part6 ++ (ops_part7)))))))

theorem main_eq (c : Dev nD) : main (F := F) c = seq ops := by
  simp only [ops, seq_append, ← main_part0_eq c, ← main_part1_eq c, ← main_part2_eq c, ← main_part3_eq c, ← main_part4_eq c, ← main_part5_eq c, ← main_part6_eq c, ← main_part7_eq c]
  rfl

theorem mem_ops {op : HloOp τ sig (Elt F)} (h : op ∈ (ops : List (HloOp τ sig (Elt F)))) :
    op ∈ (ops_part0 : List (HloOp τ sig (Elt F))) ∨ op ∈ (ops_part1 : List (HloOp τ sig (Elt F))) ∨ op ∈ (ops_part2 : List (HloOp τ sig (Elt F))) ∨ op ∈ (ops_part3 : List (HloOp τ sig (Elt F))) ∨ op ∈ (ops_part4 : List (HloOp τ sig (Elt F))) ∨ op ∈ (ops_part5 : List (HloOp τ sig (Elt F))) ∨ op ∈ (ops_part6 : List (HloOp τ sig (Elt F))) ∨ op ∈ (ops_part7 : List (HloOp τ sig (Elt F))) := by
  simpa only [ops, List.mem_append] using h

theorem ops_sub : (ops : List (HloOp τ sig (Elt F))).Forall fun op => op.bufs ⊆ tcRefs τ sig :=
  List.forall_iff_forall_mem.mpr fun op h => by
    rcases mem_ops h with h | h | h | h | h | h | h | h
    · exact List.forall_iff_forall_mem.mp ops_part0_sub op h
    · exact List.forall_iff_forall_mem.mp ops_part1_sub op h
    · exact List.forall_iff_forall_mem.mp ops_part2_sub op h
    · exact List.forall_iff_forall_mem.mp ops_part3_sub op h
    · exact List.forall_iff_forall_mem.mp ops_part4_sub op h
    · exact List.forall_iff_forall_mem.mp ops_part5_sub op h
    · exact List.forall_iff_forall_mem.mp ops_part6_sub op h
    · exact List.forall_iff_forall_mem.mp ops_part7_sub op h

theorem ops_fresh : ∀ op ∈ (ops : List (HloOp τ sig (Elt F))), op.fresh = ∅ := fun op h => by
  rcases mem_ops h with h | h | h | h | h | h | h | h
  · exact ops_part0_fresh op h
  · exact ops_part1_fresh op h
  · exact ops_part2_fresh op h
  · exact ops_part3_fresh op h
  · exact ops_part4_fresh op h
  · exact ops_part5_fresh op h
  · exact ops_part6_fresh op h
  · exact ops_part7_fresh op h

theorem scopedRefs_eq : (Finset.univ.filter fun b : Ref sig .tc => b.isScoped) = ∅ := by decide
theorem scopedSems_eq : (Finset.univ.filter fun sm : SemLoc sig => sm.isScoped .tc) = ∅ := by decide

/-- On every device, from any memory with zero counters: every weakly fair execution of @main terminates with each
    TensorCore buffer at the fold of the operations' results over its launch contents. -/
theorem run0 (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ (fun _ => ops_fresh)

end Cert.ReferenceIdeal.RunP

end
-- ==== Proof.Ref.Inv.lean ====
/-
  What holds of the buffers at each boundary between two parts of the reference's @main, from launch contents V: every
  argument is as launched, and every computed buffer still to be read (or returned) holds its stage value, the stage
  functions applied to the arguments.
-/
import proofs.«109971_j31181462569594_2_alg».proof.Proof.Ref.Ops
import proofs.«109971_j31181462569594_2_alg».proof.Proof.Ref.ReadP

noncomputable section

namespace Cert.ReferenceIdeal.RunP

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- Before the first part. -/
def InvStart (V W : Valuation τ sig (Elt F)) : Prop :=
  W (Proc.devRef .tc main_arg0) = V (Proc.devRef .tc main_arg0)
  ∧ W (Proc.devRef .tc main_arg1) = V (Proc.devRef .tc main_arg1)
  ∧ W (Proc.devRef .tc main_arg2) = V (Proc.devRef .tc main_arg2)
  ∧ W (Proc.devRef .tc main_arg3) = V (Proc.devRef .tc main_arg3)
  ∧ W (Proc.devRef .tc main_arg4) = V (Proc.devRef .tc main_arg4)
  ∧ W (Proc.devRef .tc main_arg5) = V (Proc.devRef .tc main_arg5)
  ∧ W (Proc.devRef .tc main_arg6) = V (Proc.devRef .tc main_arg6)
  ∧ W (Proc.devRef .tc main_arg7) = V (Proc.devRef .tc main_arg7)

/-- After part 0. -/
def Inv0 (V W : Valuation τ sig (Elt F)) : Prop :=
  W (Proc.devRef .tc main_arg0) = V (Proc.devRef .tc main_arg0)
  ∧ W (Proc.devRef .tc main_arg1) = V (Proc.devRef .tc main_arg1)
  ∧ W (Proc.devRef .tc main_arg2) = V (Proc.devRef .tc main_arg2)
  ∧ W (Proc.devRef .tc main_arg3) = V (Proc.devRef .tc main_arg3)
  ∧ W (Proc.devRef .tc main_arg4) = V (Proc.devRef .tc main_arg4)
  ∧ W (Proc.devRef .tc main_arg5) = V (Proc.devRef .tc main_arg5)
  ∧ W (Proc.devRef .tc main_arg6) = V (Proc.devRef .tc main_arg6)
  ∧ W (Proc.devRef .tc main_arg7) = V (Proc.devRef .tc main_arg7)
  ∧ W (Proc.devRef .tc main_v8) = val_main_v8 (F := F) (V (Proc.devRef .tc main_arg7))
  ∧ W (Proc.devRef .tc main_v36) = val_main_v36 (F := F) (V (Proc.devRef .tc main_arg0)) (V (Proc.devRef .tc main_arg7))
  ∧ W (Proc.devRef .tc main_v50) = val_main_v50 (F := F) (V (Proc.devRef .tc main_arg0)) (V (Proc.devRef .tc main_arg7))
  ∧ W (Proc.devRef .tc main_v51) = val_main_v51 (F := F) (V (Proc.devRef .tc main_arg0)) (V (Proc.devRef .tc main_arg7))
  ∧ W (Proc.devRef .tc main_v52) = val_main_v52 (F := F) (V (Proc.devRef .tc main_arg0)) (V (Proc.devRef .tc main_arg7))
  ∧ W (Proc.devRef .tc main_v53) = val_main_v53 (F := F) (V (Proc.devRef .tc main_arg0)) (V (Proc.devRef .tc main_arg7))

/-- After part 1. -/
def Inv1 (V W : Valuation τ sig (Elt F)) : Prop :=
  W (Proc.devRef .tc main_arg0) = V (Proc.devRef .tc main_arg0)
  ∧ W (Proc.devRef .tc main_arg1) = V (Proc.devRef .tc main_arg1)
  ∧ W (Proc.devRef .tc main_arg2) = V (Proc.devRef .tc main_arg2)
  ∧ W (Proc.devRef .tc main_arg3) = V (Proc.devRef .tc main_arg3)
  ∧ W (Proc.devRef .tc main_arg4) = V (Proc.devRef .tc main_arg4)
  ∧ W (Proc.devRef .tc main_arg5) = V (Proc.devRef .tc main_arg5)
  ∧ W (Proc.devRef .tc main_arg6) = V (Proc.devRef .tc main_arg6)
  ∧ W (Proc.devRef .tc main_arg7) = V (Proc.devRef .tc main_arg7)
  ∧ W (Proc.devRef .tc main_v8) = val_main_v8 (F := F) (V (Proc.devRef .tc main_arg7))
  ∧ W (Proc.devRef .tc main_v36) = val_main_v36 (F := F) (V (Proc.devRef .tc main_arg0)) (V (Proc.devRef .tc main_arg7))
  ∧ W (Proc.devRef .tc main_v58) = val_main_v58 (F := F) (V (Proc.devRef .tc main_arg0)) (V (Proc.devRef .tc main_arg7))
  ∧ W (Proc.devRef .tc main_v71) = val_main_v71 (F := F) (V (Proc.devRef .tc main_arg2))
  ∧ W (Proc.devRef .tc main_v83) = val_main_v83 (F := F) (V (Proc.devRef .tc main_arg3))
  ∧ W (Proc.devRef .tc main_v95) = val_main_v95 (F := F) (V (Proc.devRef .tc main_arg1))
  ∧ W (Proc.devRef .tc main_v96) = val_main_v96 (F := F) (V (Proc.devRef .tc main_arg1))
  ∧ W (Proc.devRef .tc main_v98) = val_main_v98 (F := F) (V (Proc.devRef .tc main_arg4))
  ∧ W (Proc.devRef .tc main_v100) = val_main_v100 (F := F) (V (Proc.devRef .tc main_arg4))
  ∧ W (Proc.devRef .tc main_v102) = val_main_v102 (F := F) (V (Proc.devRef .tc main_arg4))
  ∧ W (Proc.devRef .tc main_v103) = val_main_v103 (F := F) (V (Proc.devRef .tc main_arg4))

/-- After part 2. -/
def Inv2 (V W : Valuation τ sig (Elt F)) : Prop :=
  W (Proc.devRef .tc main_arg0) = V (Proc.devRef .tc main_arg0)
  ∧ W (Proc.devRef .tc main_arg1) = V (Proc.devRef .tc main_arg1)
  ∧ W (Proc.devRef .tc main_arg2) = V (Proc.devRef .tc main_arg2)
  ∧ W (Proc.devRef .tc main_arg3) = V (Proc.devRef .tc main_arg3)
  ∧ W (Proc.devRef .tc main_arg4) = V (Proc.devRef .tc main_arg4)
  ∧ W (Proc.devRef .tc main_arg5) = V (Proc.devRef .tc main_arg5)
  ∧ W (Proc.devRef .tc main_arg6) = V (Proc.devRef .tc main_arg6)
  ∧ W (Proc.devRef .tc main_arg7) = V (Proc.devRef .tc main_arg7)
  ∧ W (Proc.devRef .tc main_v36) = val_main_v36 (F := F) (V (Proc.devRef .tc main_arg0)) (V (Proc.devRef .tc main_arg7))
  ∧ W (Proc.devRef .tc main_v58) = val_main_v58 (F := F) (V (Proc.devRef .tc main_arg0)) (V (Proc.devRef .tc main_arg7))
  ∧ W (Proc.devRef .tc main_v71) = val_main_v71 (F := F) (V (Proc.devRef .tc main_arg2))
  ∧ W (Proc.devRef .tc main_v83) = val_main_v83 (F := F) (V (Proc.devRef .tc main_arg3))
  ∧ W (Proc.devRef .tc main_v95) = val_main_v95 (F := F) (V (Proc.devRef .tc main_arg1))
  ∧ W (Proc.devRef .tc main_v96) = val_main_v96 (F := F) (V (Proc.devRef .tc main_arg1))
  ∧ W (Proc.devRef .tc main_v124) = val_main_v124 (F := F) (V (Proc.devRef .tc main_arg4)) (V (Proc.devRef .tc main_arg7))
  ∧ W (Proc.devRef .tc main_v152) = val_main_v152 (F := F) (V (Proc.devRef .tc main_arg5)) (V (Proc.devRef .tc main_arg7))
  ∧ W (Proc.devRef .tc main_v155) = val_main_v155 (F := F) (V (Proc.devRef .tc main_arg6)) (V (Proc.devRef .tc main_arg7))

/-- After part 3. -/
def Inv3 (V W : Valuation τ sig (Elt F)) : Prop :=
  W (Proc.devRef .tc main_arg0) = V (Proc.devRef .tc main_arg0)
  ∧ W (Proc.devRef .tc main_arg1) = V (Proc.devRef .tc main_arg1)
  ∧ W (Proc.devRef .tc main_arg2) = V (Proc.devRef .tc main_arg2)
  ∧ W (Proc.devRef .tc main_arg3) = V (Proc.devRef .tc main_arg3)
  ∧ W (Proc.devRef .tc main_arg4) = V (Proc.devRef .tc main_arg4)
  ∧ W (Proc.devRef .tc main_arg5) = V (Proc.devRef .tc main_arg5)
  ∧ W (Proc.devRef .tc main_arg6) = V (Proc.devRef .tc main_arg6)
  ∧ W (Proc.devRef .tc main_arg7) = V (Proc.devRef .tc main_arg7)
  ∧ W (Proc.devRef .tc main_v36) = val_main_v36 (F := F) (V (Proc.devRef .tc main_arg0)) (V (Proc.devRef .tc main_arg7))
  ∧ W (Proc.devRef .tc main_v71) = val_main_v71 (F := F) (V (Proc.devRef .tc main_arg2))
  ∧ W (Proc.devRef .tc main_v83) = val_main_v83 (F := F) (V (Proc.devRef .tc main_arg3))
  ∧ W (Proc.devRef .tc main_v95) = val_main_v95 (F := F) (V (Proc.devRef .tc main_arg1))
  ∧ W (Proc.devRef .tc main_v124) = val_main_v124 (F := F) (V (Proc.devRef .tc main_arg4)) (V (Proc.devRef .tc main_arg7))
  ∧ W (Proc.devRef .tc main_v152) = val_main_v152 (F := F) (V (Proc.devRef .tc main_arg5)) (V (Proc.devRef .tc main_arg7))
  ∧ W (Proc.devRef .tc main_v208) = val_main_v208 (F := F) (V (Proc.devRef .tc main_arg0)) (V (Proc.devRef .tc main_arg1)) (V (Proc.devRef .tc main_arg6)) (V (Proc.devRef .tc main_arg7))
  ∧ W (Proc.devRef .tc main_v211) = val_main_v211 (F := F) (V (Proc.devRef .tc main_arg0)) (V (Proc.devRef .tc main_arg1)) (V (Proc.devRef .tc main_arg6)) (V (Proc.devRef .tc main_arg7))

/-- After part 4. -/
def Inv4 (V W : Valuation τ sig (Elt F)) : Prop :=
  W (Proc.devRef .tc main_arg0) = V (Proc.devRef .tc main_arg0)
  ∧ W (Proc.devRef .tc main_arg1) = V (Proc.devRef .tc main_arg1)
  ∧ W (Proc.devRef .tc main_arg2) = V (Proc.devRef .tc main_arg2)
  ∧ W (Proc.devRef .tc main_arg3) = V (Proc.devRef .tc main_arg3)
  ∧ W (Proc.devRef .tc main_arg4) = V (Proc.devRef .tc main_arg4)
  ∧ W (Proc.devRef .tc main_arg5) = V (Proc.devRef .tc main_arg5)
  ∧ W (Proc.devRef .tc main_arg6) = V (Proc.devRef .tc main_arg6)
  ∧ W (Proc.devRef .tc main_arg7) = V (Proc.devRef .tc main_arg7)
  ∧ W (Proc.devRef .tc main_v36) = val_main_v36 (F := F) (V (Proc.devRef .tc main_arg0)) (V (Proc.devRef .tc main_arg7))
  ∧ W (Proc.devRef .tc main_v71) = val_main_v71 (F := F) (V (Proc.devRef .tc main_arg2))
  ∧ W (Proc.devRef .tc main_v83) = val_main_v83 (F := F) (V (Proc.devRef .tc main_arg3))
  ∧ W (Proc.devRef .tc main_v95) = val_main_v95 (F := F) (V (Proc.devRef .tc main_arg1))
  ∧ W (Proc.devRef .tc main_v124) = val_main_v124 (F := F) (V (Proc.devRef .tc main_arg4)) (V (Proc.devRef .tc main_arg7))
  ∧ W (Proc.devRef .tc main_v152) = val_main_v152 (F := F) (V (Proc.devRef .tc main_arg5)) (V (Proc.devRef .tc main_arg7))
  ∧ W (Proc.devRef .tc main_v208) = val_main_v208 (F := F) (V (Proc.devRef .tc main_arg0)) (V (Proc.devRef .tc main_arg1)) (V (Proc.devRef .tc main_arg6)) (V (Proc.devRef .tc main_arg7))
  ∧ W (Proc.devRef .tc main_v211) = val_main_v211 (F := F) (V (Proc.devRef .tc main_arg0)) (V (Proc.devRef .tc main_arg1)) (V (Proc.devRef .tc main_arg6)) (V (Proc.devRef .tc main_arg7))
  ∧ W (Proc.devRef .tc main_v260) = val_main_v260 (F := F) (V (Proc.devRef .tc main_arg0)) (V (Proc.devRef .tc main_arg5)) (V (Proc.devRef .tc main_arg7))
  ∧ W (Proc.devRef .tc main_v261) = val_main_v261 (F := F) (V (Proc.devRef .tc main_arg0)) (V (Proc.devRef .tc main_arg5)) (V (Proc.devRef .tc main_arg7))
  ∧ W (Proc.devRef .tc main_v268) = val_main_v268 (F := F) (V (Proc.devRef .tc main_arg0)) (V (Proc.devRef .tc main_arg5)) (V (Proc.devRef .tc main_arg7))
  ∧ W (Proc.devRef .tc main_v270) = val_main_v270 (F := F) (V (Proc.devRef .tc main_arg0)) (V (Proc.devRef .tc main_arg7))

/-- After part 5. -/
def Inv5 (V W : Valuation τ sig (Elt F)) : Prop :=
  W (Proc.devRef .tc main_arg0) = V (Proc.devRef .tc main_arg0)
  ∧ W (Proc.devRef .tc main_arg1) = V (Proc.devRef .tc main_arg1)
  ∧ W (Proc.devRef .tc main_arg2) = V (Proc.devRef .tc main_arg2)
  ∧ W (Proc.devRef .tc main_arg3) = V (Proc.devRef .tc main_arg3)
  ∧ W (Proc.devRef .tc main_arg4) = V (Proc.devRef .tc main_arg4)
  ∧ W (Proc.devRef .tc main_arg5) = V (Proc.devRef .tc main_arg5)
  ∧ W (Proc.devRef .tc main_arg6) = V (Proc.devRef .tc main_arg6)
  ∧ W (Proc.devRef .tc main_arg7) = V (Proc.devRef .tc main_arg7)
  ∧ W (Proc.devRef .tc main_v36) = val_main_v36 (F := F) (V (Proc.devRef .tc main_arg0)) (V (Proc.devRef .tc main_arg7))
  ∧ W (Proc.devRef .tc main_v71) = val_main_v71 (F := F) (V (Proc.devRef .tc main_arg2))
  ∧ W (Proc.devRef .tc main_v83) = val_main_v83 (F := F) (V (Proc.devRef .tc main_arg3))
  ∧ W (Proc.devRef .tc main_v95) = val_main_v95 (F := F) (V (Proc.devRef .tc main_arg1))
  ∧ W (Proc.devRef .tc main_v124) = val_main_v124 (F := F) (V (Proc.devRef .tc main_arg4)) (V (Proc.devRef .tc main_arg7))
  ∧ W (Proc.devRef .tc main_v208) = val_main_v208 (F := F) (V (Proc.devRef .tc main_arg0)) (V (Proc.devRef .tc main_arg1)) (V (Proc.devRef .tc main_arg6)) (V (Proc.devRef .tc main_arg7))
  ∧ W (Proc.devRef .tc main_v211) = val_main_v211 (F := F) (V (Proc.devRef .tc main_arg0)) (V (Proc.devRef .tc main_arg1)) (V (Proc.devRef .tc main_arg6)) (V (Proc.devRef .tc main_arg7))
  ∧ W (Proc.devRef .tc main_v286) = val_main_v286 (F := F) (V (Proc.devRef .tc main_arg0)) (V (Proc.devRef .tc main_arg5)) (V (Proc.devRef .tc main_arg7))
  ∧ W (Proc.devRef .tc main_v297) = val_main_v297 (F := F) (V (Proc.devRef .tc main_arg0)) (V (Proc.devRef .tc main_arg7))
  ∧ W (Proc.devRef .tc main_v308) = val_main_v308 (F := F) (V (Proc.devRef .tc main_arg4)) (V (Proc.devRef .tc main_arg7))
  ∧ W (Proc.devRef .tc main_v326) = val_main_v326 (F := F) (V (Proc.devRef .tc main_arg0)) (V (Proc.devRef .tc main_arg4)) (V (Proc.devRef .tc main_arg7))
  ∧ W (Proc.devRef .tc main_v327) = val_main_v327 (F := F) (V (Proc.devRef .tc main_arg0)) (V (Proc.devRef .tc main_arg4)) (V (Proc.devRef .tc main_arg7))

/-- After part 6. -/
def Inv6 (V W : Valuation τ sig (Elt F)) : Prop :=
  W (Proc.devRef .tc main_arg0) = V (Proc.devRef .tc main_arg0)
  ∧ W (Proc.devRef .tc main_arg1) = V (Proc.devRef .tc main_arg1)
  ∧ W (Proc.devRef .tc main_arg2) = V (Proc.devRef .tc main_arg2)
  ∧ W (Proc.devRef .tc main_arg3) = V (Proc.devRef .tc main_arg3)
  ∧ W (Proc.devRef .tc main_arg4) = V (Proc.devRef .tc main_arg4)
  ∧ W (Proc.devRef .tc main_arg5) = V (Proc.devRef .tc main_arg5)
  ∧ W (Proc.devRef .tc main_arg6) = V (Proc.devRef .tc main_arg6)
  ∧ W (Proc.devRef .tc main_arg7) = V (Proc.devRef .tc main_arg7)
  ∧ W (Proc.devRef .tc main_v71) = val_main_v71 (F := F) (V (Proc.devRef .tc main_arg2))
  ∧ W (Proc.devRef .tc main_v95) = val_main_v95 (F := F) (V (Proc.devRef .tc main_arg1))
  ∧ W (Proc.devRef .tc main_v208) = val_main_v208 (F := F) (V (Proc.devRef .tc main_arg0)) (V (Proc.devRef .tc main_arg1)) (V (Proc.devRef .tc main_arg6)) (V (Proc.devRef .tc main_arg7))
  ∧ W (Proc.devRef .tc main_v211) = val_main_v211 (F := F) (V (Proc.devRef .tc main_arg0)) (V (Proc.devRef .tc main_arg1)) (V (Proc.devRef .tc main_arg6)) (V (Proc.devRef .tc main_arg7))
  ∧ W (Proc.devRef .tc main_v286) = val_main_v286 (F := F) (V (Proc.devRef .tc main_arg0)) (V (Proc.devRef .tc main_arg5)) (V (Proc.devRef .tc main_arg7))
  ∧ W (Proc.devRef .tc main_v361) = val_main_v361 (F := F) (V (Proc.devRef .tc main_arg0)) (V (Proc.devRef .tc main_arg4)) (V (Proc.devRef .tc main_arg7))
  ∧ W (Proc.devRef .tc main_v380) = val_main_v380 (F := F) (V (Proc.devRef .tc main_arg1)) (V (Proc.devRef .tc main_arg3))

/-- After part 7. -/
def Inv7 (V W : Valuation τ sig (Elt F)) : Prop :=
  W (Proc.devRef .tc main_arg0) = V (Proc.devRef .tc main_arg0)
  ∧ W (Proc.devRef .tc main_arg1) = V (Proc.devRef .tc main_arg1)
  ∧ W (Proc.devRef .tc main_arg2) = V (Proc.devRef .tc main_arg2)
  ∧ W (Proc.devRef .tc main_arg3) = V (Proc.devRef .tc main_arg3)
  ∧ W (Proc.devRef .tc main_arg4) = V (Proc.devRef .tc main_arg4)
  ∧ W (Proc.devRef .tc main_arg5) = V (Proc.devRef .tc main_arg5)
  ∧ W (Proc.devRef .tc main_arg6) = V (Proc.devRef .tc main_arg6)
  ∧ W (Proc.devRef .tc main_arg7) = V (Proc.devRef .tc main_arg7)
  ∧ W (Proc.devRef .tc main_v406) = val_main_v406 (F := F) (V (Proc.devRef .tc main_arg0)) (V (Proc.devRef .tc main_arg1)) (V (Proc.devRef .tc main_arg3)) (V (Proc.devRef .tc main_arg5)) (V (Proc.devRef .tc main_arg6)) (V (Proc.devRef .tc main_arg7))
  ∧ W (Proc.devRef .tc main_v409) = val_main_v409 (F := F) (V (Proc.devRef .tc main_arg0)) (V (Proc.devRef .tc main_arg1)) (V (Proc.devRef .tc main_arg2)) (V (Proc.devRef .tc main_arg4)) (V (Proc.devRef .tc main_arg6)) (V (Proc.devRef .tc main_arg7))

theorem invStart (V : Valuation τ sig (Elt F)) : InvStart V V := ⟨rfl, rfl, rfl, rfl, rfl, rfl, rfl, rfl⟩

/-- An operation's result at a literal reference is its function of the operands' contents, at any other literal reference what was there: applied as often as either holds. -/
macro "more_results" : tactic =>
  `(tactic| (repeat (first
    | rw [nullary_result] | rw [unary_result] | rw [binary_result] | rw [reshape_result] | rw [nary4_result] | rw [nary_result]
    | (rw [nullary_result_ne]; rotate_left; decide) | (rw [unary_result_ne]; rotate_left; decide) | (rw [binary_result_ne]; rotate_left; decide)
    | (rw [reshape_result_ne]; rotate_left; decide) | (rw [nary_result_ne]; rotate_left; decide))))

/-- The entries of a four-entry vector. -/
theorem vec4_0 {α : Type} (a b c d : α) : (![a, b, c, d] : Fin 4 → α) 0 = a := rfl
theorem vec4_1 {α : Type} (a b c d : α) : (![a, b, c, d] : Fin 4 → α) 1 = b := rfl
theorem vec4_2 {α : Type} (a b c d : α) : (![a, b, c, d] : Fin 4 → α) 2 = c := rfl
theorem vec4_3 {α : Type} (a b c d : α) : (![a, b, c, d] : Fin 4 → α) 3 = d := rfl

end Cert.ReferenceIdeal.RunP

end
-- ==== Proof.Ref.Stage0a.lean ====
/-
  Part 0 of the reference's @main: two of the buffers it hands on, each its operations applied to the arguments.
-/
import proofs.«109971_j31181462569594_2_alg».proof.Proof.Ref.Inv

noncomputable section

namespace Cert.ReferenceIdeal.RunP

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

set_option maxRecDepth 16384 in
set_option maxHeartbeats 8000000 in
theorem step0_v8 (V W : Valuation τ sig (Elt F)) (h : InvStart V W) :
    after ops_part0 W (Proc.devRef .tc main_v8) = val_main_v8 (F := F) (V (Proc.devRef .tc main_arg7)) := by
  obtain ⟨h_arg0, h_arg1, h_arg2, h_arg3, h_arg4, h_arg5, h_arg6, h_arg7⟩ := h
  after_results
  try (dsimp only [vec4_0, vec4_1, vec4_2, vec4_3])
  more_results
  try (dsimp only [vec4_0, vec4_1, vec4_2, vec4_3])
  more_results
  try (dsimp only [vec4_0, vec4_1, vec4_2, vec4_3])
  more_results
  try simp only [TRef.ofBuf, TRef.toBuf, cast_eq]
  try simp only [h_arg0, h_arg1, h_arg2, h_arg3, h_arg4, h_arg5, h_arg6, h_arg7]
  repeat (first | rw [h_arg0] | rw [h_arg1] | rw [h_arg2] | rw [h_arg3] | rw [h_arg4] | rw [h_arg5] | rw [h_arg6] | rw [h_arg7])
  try rfl

set_option maxRecDepth 16384 in
set_option maxHeartbeats 8000000 in
theorem step0_v36 (V W : Valuation τ sig (Elt F)) (h : InvStart V W) :
    after ops_part0 W (Proc.devRef .tc main_v36) = val_main_v36 (F := F) (V (Proc.devRef .tc main_arg0)) (V (Proc.devRef .tc main_arg7)) := by
  obtain ⟨h_arg0, h_arg1, h_arg2, h_arg3, h_arg4, h_arg5, h_arg6, h_arg7⟩ := h
  after_results
  try (dsimp only [vec4_0, vec4_1, vec4_2, vec4_3])
  more_results
  try (dsimp only [vec4_0, vec4_1, vec4_2, vec4_3])
  more_results
  try (dsimp only [vec4_0, vec4_1, vec4_2, vec4_3])
  more_results
  try simp only [TRef.ofBuf, TRef.toBuf, cast_eq]
  try simp only [h_arg0, h_arg1, h_arg2, h_arg3, h_arg4, h_arg5, h_arg6, h_arg7]
  repeat (first | rw [h_arg0] | rw [h_arg1] | rw [h_arg2] | rw [h_arg3] | rw [h_arg4] | rw [h_arg5] | rw [h_arg6] | rw [h_arg7])
  try rfl

end Cert.ReferenceIdeal.RunP

end
-- ==== Proof.Ref.Stage0b.lean ====
/-
  Part 0 of the reference's @main: two of the buffers it hands on, each its operations applied to the arguments.
-/
import proofs.«109971_j31181462569594_2_alg».proof.Proof.Ref.Inv

noncomputable section

namespace Cert.ReferenceIdeal.RunP

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

set_option maxRecDepth 16384 in
set_option maxHeartbeats 8000000 in
theorem step0_v50 (V W : Valuation τ sig (Elt F)) (h : InvStart V W) :
    after ops_part0 W (Proc.devRef .tc main_v50) = val_main_v50 (F := F) (V (Proc.devRef .tc main_arg0)) (V (Proc.devRef .tc main_arg7)) := by
  obtain ⟨h_arg0, h_arg1, h_arg2, h_arg3, h_arg4, h_arg5, h_arg6, h_arg7⟩ := h
  after_results
  try (dsimp only [vec4_0, vec4_1, vec4_2, vec4_3])
  more_results
  try (dsimp only [vec4_0, vec4_1, vec4_2, vec4_3])
  more_results
  try (dsimp only [vec4_0, vec4_1, vec4_2, vec4_3])
  more_results
  try simp only [TRef.ofBuf, TRef.toBuf, cast_eq]
  try simp only [h_arg0, h_arg1, h_arg2, h_arg3, h_arg4, h_arg5, h_arg6, h_arg7]
  repeat (first | rw [h_arg0] | rw [h_arg1] | rw [h_arg2] | rw [h_arg3] | rw [h_arg4] | rw [h_arg5] | rw [h_arg6] | rw [h_arg7])
  try rfl

set_option maxRecDepth 16384 in
set_option maxHeartbeats 8000000 in
theorem step0_v51 (V W : Valuation τ sig (Elt F)) (h : InvStart V W) :
    after ops_part0 W (Proc.devRef .tc main_v51) = val_main_v51 (F := F) (V (Proc.devRef .tc main_arg0)) (V (Proc.devRef .tc main_arg7)) := by
  obtain ⟨h_arg0, h_arg1, h_arg2, h_arg3, h_arg4, h_arg5, h_arg6, h_arg7⟩ := h
  after_results
  try (dsimp only [vec4_0, vec4_1, vec4_2, vec4_3])
  more_results
  try (dsimp only [vec4_0, vec4_1, vec4_2, vec4_3])
  more_results
  try (dsimp only [vec4_0, vec4_1, vec4_2, vec4_3])
  more_results
  try simp only [TRef.ofBuf, TRef.toBuf, cast_eq]
  try simp only [h_arg0, h_arg1, h_arg2, h_arg3, h_arg4, h_arg5, h_arg6, h_arg7]
  repeat (first | rw [h_arg0] | rw [h_arg1] | rw [h_arg2] | rw [h_arg3] | rw [h_arg4] | rw [h_arg5] | rw [h_arg6] | rw [h_arg7])
  try rfl

end Cert.ReferenceIdeal.RunP

end
-- ==== Proof.Ref.Stage0c.lean ====
/-
  Part 0 of the reference's @main: two of the buffers it hands on, each its operations applied to the arguments.
-/
import proofs.«109971_j31181462569594_2_alg».proof.Proof.Ref.Inv

noncomputable section

namespace Cert.ReferenceIdeal.RunP

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

set_option maxRecDepth 16384 in
set_option maxHeartbeats 8000000 in
theorem step0_v52 (V W : Valuation τ sig (Elt F)) (h : InvStart V W) :
    after ops_part0 W (Proc.devRef .tc main_v52) = val_main_v52 (F := F) (V (Proc.devRef .tc main_arg0)) (V (Proc.devRef .tc main_arg7)) := by
  obtain ⟨h_arg0, h_arg1, h_arg2, h_arg3, h_arg4, h_arg5, h_arg6, h_arg7⟩ := h
  after_results
  try (dsimp only [vec4_0, vec4_1, vec4_2, vec4_3])
  more_results
  try (dsimp only [vec4_0, vec4_1, vec4_2, vec4_3])
  more_results
  try (dsimp only [vec4_0, vec4_1, vec4_2, vec4_3])
  more_results
  try simp only [TRef.ofBuf, TRef.toBuf, cast_eq]
  try simp only [h_arg0, h_arg1, h_arg2, h_arg3, h_arg4, h_arg5, h_arg6, h_arg7]
  repeat (first | rw [h_arg0] | rw [h_arg1] | rw [h_arg2] | rw [h_arg3] | rw [h_arg4] | rw [h_arg5] | rw [h_arg6] | rw [h_arg7])
  try rfl

set_option maxRecDepth 16384 in
set_option maxHeartbeats 8000000 in
theorem step0_v53 (V W : Valuation τ sig (Elt F)) (h : InvStart V W) :
    after ops_part0 W (Proc.devRef .tc main_v53) = val_main_v53 (F := F) (V (Proc.devRef .tc main_arg0)) (V (Proc.devRef .tc main_arg7)) := by
  obtain ⟨h_arg0, h_arg1, h_arg2, h_arg3, h_arg4, h_arg5, h_arg6, h_arg7⟩ := h
  after_results
  try (dsimp only [vec4_0, vec4_1, vec4_2, vec4_3])
  more_results
  try (dsimp only [vec4_0, vec4_1, vec4_2, vec4_3])
  more_results
  try (dsimp only [vec4_0, vec4_1, vec4_2, vec4_3])
  more_results
  try simp only [TRef.ofBuf, TRef.toBuf, cast_eq]
  try simp only [h_arg0, h_arg1, h_arg2, h_arg3, h_arg4, h_arg5, h_arg6, h_arg7]
  repeat (first | rw [h_arg0] | rw [h_arg1] | rw [h_arg2] | rw [h_arg3] | rw [h_arg4] | rw [h_arg5] | rw [h_arg6] | rw [h_arg7])
  try rfl

end Cert.ReferenceIdeal.RunP

end
-- ==== Proof.Ref.Stage0.lean ====
/-
  Part 0 of the reference's @main takes the launch contents to the boundary facts after it: each buffer the part
  computes is its operations applied to the arguments; every argument is untouched.
-/
import proofs.«109971_j31181462569594_2_alg».proof.Proof.Ref.Stage0a
import proofs.«109971_j31181462569594_2_alg».proof.Proof.Ref.Stage0b
import proofs.«109971_j31181462569594_2_alg».proof.Proof.Ref.Stage0c

noncomputable section

namespace Cert.ReferenceIdeal.RunP

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

set_option maxRecDepth 16384 in
set_option maxHeartbeats 4000000 in
theorem step0 (V W : Valuation τ sig (Elt F)) (h : InvStart V W) : Inv0 V (after ops_part0 W) := by
  have hh := h
  obtain ⟨h_arg0, h_arg1, h_arg2, h_arg3, h_arg4, h_arg5, h_arg6, h_arg7⟩ := h
  refine ⟨?_, ?_, ?_, ?_, ?_, ?_, ?_, ?_, step0_v8 V W hh, step0_v36 V W hh, step0_v50 V W hh, step0_v51 V W hh, step0_v52 V W hh, step0_v53 V W hh⟩
  · after_results_simp
    try simp only [TRef.ofBuf, TRef.toBuf, cast_eq]
    try simp only [h_arg0, h_arg1, h_arg2, h_arg3, h_arg4, h_arg5, h_arg6, h_arg7]
    repeat (first | rw [h_arg0] | rw [h_arg1] | rw [h_arg2] | rw [h_arg3] | rw [h_arg4] | rw [h_arg5] | rw [h_arg6] | rw [h_arg7])
    try rfl
  · after_results_simp
    try simp only [TRef.ofBuf, TRef.toBuf, cast_eq]
    try simp only [h_arg0, h_arg1, h_arg2, h_arg3, h_arg4, h_arg5, h_arg6, h_arg7]
    repeat (first | rw [h_arg0] | rw [h_arg1] | rw [h_arg2] | rw [h_arg3] | rw [h_arg4] | rw [h_arg5] | rw [h_arg6] | rw [h_arg7])
    try rfl
  · after_results_simp
    try simp only [TRef.ofBuf, TRef.toBuf, cast_eq]
    try simp only [h_arg0, h_arg1, h_arg2, h_arg3, h_arg4, h_arg5, h_arg6, h_arg7]
    repeat (first | rw [h_arg0] | rw [h_arg1] | rw [h_arg2] | rw [h_arg3] | rw [h_arg4] | rw [h_arg5] | rw [h_arg6] | rw [h_arg7])
    try rfl
  · after_results_simp
    try simp only [TRef.ofBuf, TRef.toBuf, cast_eq]
    try simp only [h_arg0, h_arg1, h_arg2, h_arg3, h_arg4, h_arg5, h_arg6, h_arg7]
    repeat (first | rw [h_arg0] | rw [h_arg1] | rw [h_arg2] | rw [h_arg3] | rw [h_arg4] | rw [h_arg5] | rw [h_arg6] | rw [h_arg7])
    try rfl
  · after_results_simp
    try simp only [TRef.ofBuf, TRef.toBuf, cast_eq]
    try simp only [h_arg0, h_arg1, h_arg2, h_arg3, h_arg4, h_arg5, h_arg6, h_arg7]
    repeat (first | rw [h_arg0] | rw [h_arg1] | rw [h_arg2] | rw [h_arg3] | rw [h_arg4] | rw [h_arg5] | rw [h_arg6] | rw [h_arg7])
    try rfl
  · after_results_simp
    try simp only [TRef.ofBuf, TRef.toBuf, cast_eq]
    try simp only [h_arg0, h_arg1, h_arg2, h_arg3, h_arg4, h_arg5, h_arg6, h_arg7]
    repeat (first | rw [h_arg0] | rw [h_arg1] | rw [h_arg2] | rw [h_arg3] | rw [h_arg4] | rw [h_arg5] | rw [h_arg6] | rw [h_arg7])
    try rfl
  · after_results_simp
    try simp only [TRef.ofBuf, TRef.toBuf, cast_eq]
    try simp only [h_arg0, h_arg1, h_arg2, h_arg3, h_arg4, h_arg5, h_arg6, h_arg7]
    repeat (first | rw [h_arg0] | rw [h_arg1] | rw [h_arg2] | rw [h_arg3] | rw [h_arg4] | rw [h_arg5] | rw [h_arg6] | rw [h_arg7])
    try rfl
  · after_results_simp
    try simp only [TRef.ofBuf, TRef.toBuf, cast_eq]
    try simp only [h_arg0, h_arg1, h_arg2, h_arg3, h_arg4, h_arg5, h_arg6, h_arg7]
    repeat (first | rw [h_arg0] | rw [h_arg1] | rw [h_arg2] | rw [h_arg3] | rw [h_arg4] | rw [h_arg5] | rw [h_arg6] | rw [h_arg7])
    try rfl

end Cert.ReferenceIdeal.RunP

end
-- ==== Proof.Ref.Stage1.lean ====
/-
  Part 1 of the reference's @main takes the boundary facts before it to the boundary facts after it: each buffer the
  part computes is its operation applied to the buffers it reads, and those hold their stage values; every other live
  buffer is untouched.
-/
import proofs.«109971_j31181462569594_2_alg».proof.Proof.Ref.Inv

noncomputable section

namespace Cert.ReferenceIdeal.RunP

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

set_option maxRecDepth 16384 in
set_option maxHeartbeats 4000000 in
theorem step1 (V W : Valuation τ sig (Elt F)) (h : Inv0 V W) : Inv1 V (after ops_part1 W) := by
  obtain ⟨h_arg0, h_arg1, h_arg2, h_arg3, h_arg4, h_arg5, h_arg6, h_arg7, h_v8, h_v36, h_v50, h_v51, h_v52, h_v53⟩ := h
  refine ⟨?_, ?_, ?_, ?_, ?_, ?_, ?_, ?_, ?_, ?_, ?_, ?_, ?_, ?_, ?_, ?_, ?_, ?_, ?_⟩
  · after_results_simp
    try simp only [TRef.ofBuf, TRef.toBuf, cast_eq]
    try simp only [h_arg0, h_arg1, h_arg2, h_arg3, h_arg4, h_arg5, h_arg6, h_arg7, h_v8, h_v36, h_v50, h_v51, h_v52, h_v53]
    repeat (first | rw [h_arg0] | rw [h_arg1] | rw [h_arg2] | rw [h_arg3] | rw [h_arg4] | rw [h_arg5] | rw [h_arg6] | rw [h_arg7] | rw [h_v8] | rw [h_v36] | rw [h_v50] | rw [h_v51] | rw [h_v52] | rw [h_v53])
    try rfl
  · after_results_simp
    try simp only [TRef.ofBuf, TRef.toBuf, cast_eq]
    try simp only [h_arg0, h_arg1, h_arg2, h_arg3, h_arg4, h_arg5, h_arg6, h_arg7, h_v8, h_v36, h_v50, h_v51, h_v52, h_v53]
    repeat (first | rw [h_arg0] | rw [h_arg1] | rw [h_arg2] | rw [h_arg3] | rw [h_arg4] | rw [h_arg5] | rw [h_arg6] | rw [h_arg7] | rw [h_v8] | rw [h_v36] | rw [h_v50] | rw [h_v51] | rw [h_v52] | rw [h_v53])
    try rfl
  · after_results_simp
    try simp only [TRef.ofBuf, TRef.toBuf, cast_eq]
    try simp only [h_arg0, h_arg1, h_arg2, h_arg3, h_arg4, h_arg5, h_arg6, h_arg7, h_v8, h_v36, h_v50, h_v51, h_v52, h_v53]
    repeat (first | rw [h_arg0] | rw [h_arg1] | rw [h_arg2] | rw [h_arg3] | rw [h_arg4] | rw [h_arg5] | rw [h_arg6] | rw [h_arg7] | rw [h_v8] | rw [h_v36] | rw [h_v50] | rw [h_v51] | rw [h_v52] | rw [h_v53])
    try rfl
  · after_results_simp
    try simp only [TRef.ofBuf, TRef.toBuf, cast_eq]
    try simp only [h_arg0, h_arg1, h_arg2, h_arg3, h_arg4, h_arg5, h_arg6, h_arg7, h_v8, h_v36, h_v50, h_v51, h_v52, h_v53]
    repeat (first | rw [h_arg0] | rw [h_arg1] | rw [h_arg2] | rw [h_arg3] | rw [h_arg4] | rw [h_arg5] | rw [h_arg6] | rw [h_arg7] | rw [h_v8] | rw [h_v36] | rw [h_v50] | rw [h_v51] | rw [h_v52] | rw [h_v53])
    try rfl
  · after_results_simp
    try simp only [TRef.ofBuf, TRef.toBuf, cast_eq]
    try simp only [h_arg0, h_arg1, h_arg2, h_arg3, h_arg4, h_arg5, h_arg6, h_arg7, h_v8, h_v36, h_v50, h_v51, h_v52, h_v53]
    repeat (first | rw [h_arg0] | rw [h_arg1] | rw [h_arg2] | rw [h_arg3] | rw [h_arg4] | rw [h_arg5] | rw [h_arg6] | rw [h_arg7] | rw [h_v8] | rw [h_v36] | rw [h_v50] | rw [h_v51] | rw [h_v52] | rw [h_v53])
    try rfl
  · after_results_simp
    try simp only [TRef.ofBuf, TRef.toBuf, cast_eq]
    try simp only [h_arg0, h_arg1, h_arg2, h_arg3, h_arg4, h_arg5, h_arg6, h_arg7, h_v8, h_v36, h_v50, h_v51, h_v52, h_v53]
    repeat (first | rw [h_arg0] | rw [h_arg1] | rw [h_arg2] | rw [h_arg3] | rw [h_arg4] | rw [h_arg5] | rw [h_arg6] | rw [h_arg7] | rw [h_v8] | rw [h_v36] | rw [h_v50] | rw [h_v51] | rw [h_v52] | rw [h_v53])
    try rfl
  · after_results_simp
    try simp only [TRef.ofBuf, TRef.toBuf, cast_eq]
    try simp only [h_arg0, h_arg1, h_arg2, h_arg3, h_arg4, h_arg5, h_arg6, h_arg7, h_v8, h_v36, h_v50, h_v51, h_v52, h_v53]
    repeat (first | rw [h_arg0] | rw [h_arg1] | rw [h_arg2] | rw [h_arg3] | rw [h_arg4] | rw [h_arg5] | rw [h_arg6] | rw [h_arg7] | rw [h_v8] | rw [h_v36] | rw [h_v50] | rw [h_v51] | rw [h_v52] | rw [h_v53])
    try rfl
  · after_results_simp
    try simp only [TRef.ofBuf, TRef.toBuf, cast_eq]
    try simp only [h_arg0, h_arg1, h_arg2, h_arg3, h_arg4, h_arg5, h_arg6, h_arg7, h_v8, h_v36, h_v50, h_v51, h_v52, h_v53]
    repeat (first | rw [h_arg0] | rw [h_arg1] | rw [h_arg2] | rw [h_arg3] | rw [h_arg4] | rw [h_arg5] | rw [h_arg6] | rw [h_arg7] | rw [h_v8] | rw [h_v36] | rw [h_v50] | rw [h_v51] | rw [h_v52] | rw [h_v53])
    try rfl
  · after_results_simp
    try simp only [TRef.ofBuf, TRef.toBuf, cast_eq]
    try simp only [h_arg0, h_arg1, h_arg2, h_arg3, h_arg4, h_arg5, h_arg6, h_arg7, h_v8, h_v36, h_v50, h_v51, h_v52, h_v53]
    repeat (first | rw [h_arg0] | rw [h_arg1] | rw [h_arg2] | rw [h_arg3] | rw [h_arg4] | rw [h_arg5] | rw [h_arg6] | rw [h_arg7] | rw [h_v8] | rw [h_v36] | rw [h_v50] | rw [h_v51] | rw [h_v52] | rw [h_v53])
    try rfl
  · after_results_simp
    try simp only [TRef.ofBuf, TRef.toBuf, cast_eq]
    try simp only [h_arg0, h_arg1, h_arg2, h_arg3, h_arg4, h_arg5, h_arg6, h_arg7, h_v8, h_v36, h_v50, h_v51, h_v52, h_v53]
    repeat (first | rw [h_arg0] | rw [h_arg1] | rw [h_arg2] | rw [h_arg3] | rw [h_arg4] | rw [h_arg5] | rw [h_arg6] | rw [h_arg7] | rw [h_v8] | rw [h_v36] | rw [h_v50] | rw [h_v51] | rw [h_v52] | rw [h_v53])
    try rfl
  · after_results
    try (dsimp only [vec4_0, vec4_1, vec4_2, vec4_3])
    more_results
    try (dsimp only [vec4_0, vec4_1, vec4_2, vec4_3])
    more_results
    try (dsimp only [vec4_0, vec4_1, vec4_2, vec4_3])
    more_results
    try simp only [TRef.ofBuf, TRef.toBuf, cast_eq]
    try simp only [h_arg0, h_arg1, h_arg2, h_arg3, h_arg4, h_arg5, h_arg6, h_arg7, h_v8, h_v36, h_v50, h_v51, h_v52, h_v53]
    repeat (first | rw [h_arg0] | rw [h_arg1] | rw [h_arg2] | rw [h_arg3] | rw [h_arg4] | rw [h_arg5] | rw [h_arg6] | rw [h_arg7] | rw [h_v8] | rw [h_v36] | rw [h_v50] | rw [h_v51] | rw [h_v52] | rw [h_v53])
    try rfl
  · after_results_simp
    try simp only [TRef.ofBuf, TRef.toBuf, cast_eq]
    try simp only [h_arg0, h_arg1, h_arg2, h_arg3, h_arg4, h_arg5, h_arg6, h_arg7, h_v8, h_v36, h_v50, h_v51, h_v52, h_v53]
    repeat (first | rw [h_arg0] | rw [h_arg1] | rw [h_arg2] | rw [h_arg3] | rw [h_arg4] | rw [h_arg5] | rw [h_arg6] | rw [h_arg7] | rw [h_v8] | rw [h_v36] | rw [h_v50] | rw [h_v51] | rw [h_v52] | rw [h_v53])
    try rfl
  · after_results_simp
    try simp only [TRef.ofBuf, TRef.toBuf, cast_eq]
    try simp only [h_arg0, h_arg1, h_arg2, h_arg3, h_arg4, h_arg5, h_arg6, h_arg7, h_v8, h_v36, h_v50, h_v51, h_v52, h_v53]
    repeat (first | rw [h_arg0] | rw [h_arg1] | rw [h_arg2] | rw [h_arg3] | rw [h_arg4] | rw [h_arg5] | rw [h_arg6] | rw [h_arg7] | rw [h_v8] | rw [h_v36] | rw [h_v50] | rw [h_v51] | rw [h_v52] | rw [h_v53])
    try rfl
  · after_results_simp
    try simp only [TRef.ofBuf, TRef.toBuf, cast_eq]
    try simp only [h_arg0, h_arg1, h_arg2, h_arg3, h_arg4, h_arg5, h_arg6, h_arg7, h_v8, h_v36, h_v50, h_v51, h_v52, h_v53]
    repeat (first | rw [h_arg0] | rw [h_arg1] | rw [h_arg2] | rw [h_arg3] | rw [h_arg4] | rw [h_arg5] | rw [h_arg6] | rw [h_arg7] | rw [h_v8] | rw [h_v36] | rw [h_v50] | rw [h_v51] | rw [h_v52] | rw [h_v53])
    try rfl
  · after_results_simp
    try simp only [TRef.ofBuf, TRef.toBuf, cast_eq]
    try simp only [h_arg0, h_arg1, h_arg2, h_arg3, h_arg4, h_arg5, h_arg6, h_arg7, h_v8, h_v36, h_v50, h_v51, h_v52, h_v53]
    repeat (first | rw [h_arg0] | rw [h_arg1] | rw [h_arg2] | rw [h_arg3] | rw [h_arg4] | rw [h_arg5] | rw [h_arg6] | rw [h_arg7] | rw [h_v8] | rw [h_v36] | rw [h_v50] | rw [h_v51] | rw [h_v52] | rw [h_v53])
    try rfl
  · after_results_simp
    try simp only [TRef.ofBuf, TRef.toBuf, cast_eq]
    try simp only [h_arg0, h_arg1, h_arg2, h_arg3, h_arg4, h_arg5, h_arg6, h_arg7, h_v8, h_v36, h_v50, h_v51, h_v52, h_v53]
    repeat (first | rw [h_arg0] | rw [h_arg1] | rw [h_arg2] | rw [h_arg3] | rw [h_arg4] | rw [h_arg5] | rw [h_arg6] | rw [h_arg7] | rw [h_v8] | rw [h_v36] | rw [h_v50] | rw [h_v51] | rw [h_v52] | rw [h_v53])
    try rfl
  · after_results_simp
    try simp only [TRef.ofBuf, TRef.toBuf, cast_eq]
    try simp only [h_arg0, h_arg1, h_arg2, h_arg3, h_arg4, h_arg5, h_arg6, h_arg7, h_v8, h_v36, h_v50, h_v51, h_v52, h_v53]
    repeat (first | rw [h_arg0] | rw [h_arg1] | rw [h_arg2] | rw [h_arg3] | rw [h_arg4] | rw [h_arg5] | rw [h_arg6] | rw [h_arg7] | rw [h_v8] | rw [h_v36] | rw [h_v50] | rw [h_v51] | rw [h_v52] | rw [h_v53])
    try rfl
  · after_results_simp
    try simp only [TRef.ofBuf, TRef.toBuf, cast_eq]
    try simp only [h_arg0, h_arg1, h_arg2, h_arg3, h_arg4, h_arg5, h_arg6, h_arg7, h_v8, h_v36, h_v50, h_v51, h_v52, h_v53]
    repeat (first | rw [h_arg0] | rw [h_arg1] | rw [h_arg2] | rw [h_arg3] | rw [h_arg4] | rw [h_arg5] | rw [h_arg6] | rw [h_arg7] | rw [h_v8] | rw [h_v36] | rw [h_v50] | rw [h_v51] | rw [h_v52] | rw [h_v53])
    try rfl
  · after_results_simp
    try simp only [TRef.ofBuf, TRef.toBuf, cast_eq]
    try simp only [h_arg0, h_arg1, h_arg2, h_arg3, h_arg4, h_arg5, h_arg6, h_arg7, h_v8, h_v36, h_v50, h_v51, h_v52, h_v53]
    repeat (first | rw [h_arg0] | rw [h_arg1] | rw [h_arg2] | rw [h_arg3] | rw [h_arg4] | rw [h_arg5] | rw [h_arg6] | rw [h_arg7] | rw [h_v8] | rw [h_v36] | rw [h_v50] | rw [h_v51] | rw [h_v52] | rw [h_v53])
    try rfl

end Cert.ReferenceIdeal.RunP

end
-- ==== Proof.Ref.Stage2.lean ====
/-
  Part 2 of the reference's @main takes the boundary facts before it to the boundary facts after it: each buffer the
  part computes is its operation applied to the buffers it reads, and those hold their stage values; every other live
  buffer is untouched.
-/
import proofs.«109971_j31181462569594_2_alg».proof.Proof.Ref.Inv

noncomputable section

namespace Cert.ReferenceIdeal.RunP

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

set_option maxRecDepth 16384 in
set_option maxHeartbeats 4000000 in
theorem step2 (V W : Valuation τ sig (Elt F)) (h : Inv1 V W) : Inv2 V (after ops_part2 W) := by
  obtain ⟨h_arg0, h_arg1, h_arg2, h_arg3, h_arg4, h_arg5, h_arg6, h_arg7, h_v8, h_v36, h_v58, h_v71, h_v83, h_v95, h_v96, h_v98, h_v100, h_v102, h_v103⟩ := h
  refine ⟨?_, ?_, ?_, ?_, ?_, ?_, ?_, ?_, ?_, ?_, ?_, ?_, ?_, ?_, ?_, ?_, ?_⟩
  · after_results_simp
    try simp only [TRef.ofBuf, TRef.toBuf, cast_eq]
    try simp only [h_arg0, h_arg1, h_arg2, h_arg3, h_arg4, h_arg5, h_arg6, h_arg7, h_v8, h_v36, h_v58, h_v71, h_v83, h_v95, h_v96, h_v98, h_v100, h_v102, h_v103]
    repeat (first | rw [h_arg0] | rw [h_arg1] | rw [h_arg2] | rw [h_arg3] | rw [h_arg4] | rw [h_arg5] | rw [h_arg6] | rw [h_arg7] | rw [h_v8] | rw [h_v36] | rw [h_v58] | rw [h_v71] | rw [h_v83] | rw [h_v95] | rw [h_v96] | rw [h_v98] | rw [h_v100] | rw [h_v102] | rw [h_v103])
    try rfl
  · after_results_simp
    try simp only [TRef.ofBuf, TRef.toBuf, cast_eq]
    try simp only [h_arg0, h_arg1, h_arg2, h_arg3, h_arg4, h_arg5, h_arg6, h_arg7, h_v8, h_v36, h_v58, h_v71, h_v83, h_v95, h_v96, h_v98, h_v100, h_v102, h_v103]
    repeat (first | rw [h_arg0] | rw [h_arg1] | rw [h_arg2] | rw [h_arg3] | rw [h_arg4] | rw [h_arg5] | rw [h_arg6] | rw [h_arg7] | rw [h_v8] | rw [h_v36] | rw [h_v58] | rw [h_v71] | rw [h_v83] | rw [h_v95] | rw [h_v96] | rw [h_v98] | rw [h_v100] | rw [h_v102] | rw [h_v103])
    try rfl
  · after_results_simp
    try simp only [TRef.ofBuf, TRef.toBuf, cast_eq]
    try simp only [h_arg0, h_arg1, h_arg2, h_arg3, h_arg4, h_arg5, h_arg6, h_arg7, h_v8, h_v36, h_v58, h_v71, h_v83, h_v95, h_v96, h_v98, h_v100, h_v102, h_v103]
    repeat (first | rw [h_arg0] | rw [h_arg1] | rw [h_arg2] | rw [h_arg3] | rw [h_arg4] | rw [h_arg5] | rw [h_arg6] | rw [h_arg7] | rw [h_v8] | rw [h_v36] | rw [h_v58] | rw [h_v71] | rw [h_v83] | rw [h_v95] | rw [h_v96] | rw [h_v98] | rw [h_v100] | rw [h_v102] | rw [h_v103])
    try rfl
  · after_results_simp
    try simp only [TRef.ofBuf, TRef.toBuf, cast_eq]
    try simp only [h_arg0, h_arg1, h_arg2, h_arg3, h_arg4, h_arg5, h_arg6, h_arg7, h_v8, h_v36, h_v58, h_v71, h_v83, h_v95, h_v96, h_v98, h_v100, h_v102, h_v103]
    repeat (first | rw [h_arg0] | rw [h_arg1] | rw [h_arg2] | rw [h_arg3] | rw [h_arg4] | rw [h_arg5] | rw [h_arg6] | rw [h_arg7] | rw [h_v8] | rw [h_v36] | rw [h_v58] | rw [h_v71] | rw [h_v83] | rw [h_v95] | rw [h_v96] | rw [h_v98] | rw [h_v100] | rw [h_v102] | rw [h_v103])
    try rfl
  · after_results_simp
    try simp only [TRef.ofBuf, TRef.toBuf, cast_eq]
    try simp only [h_arg0, h_arg1, h_arg2, h_arg3, h_arg4, h_arg5, h_arg6, h_arg7, h_v8, h_v36, h_v58, h_v71, h_v83, h_v95, h_v96, h_v98, h_v100, h_v102, h_v103]
    repeat (first | rw [h_arg0] | rw [h_arg1] | rw [h_arg2] | rw [h_arg3] | rw [h_arg4] | rw [h_arg5] | rw [h_arg6] | rw [h_arg7] | rw [h_v8] | rw [h_v36] | rw [h_v58] | rw [h_v71] | rw [h_v83] | rw [h_v95] | rw [h_v96] | rw [h_v98] | rw [h_v100] | rw [h_v102] | rw [h_v103])
    try rfl
  · after_results_simp
    try simp only [TRef.ofBuf, TRef.toBuf, cast_eq]
    try simp only [h_arg0, h_arg1, h_arg2, h_arg3, h_arg4, h_arg5, h_arg6, h_arg7, h_v8, h_v36, h_v58, h_v71, h_v83, h_v95, h_v96, h_v98, h_v100, h_v102, h_v103]
    repeat (first | rw [h_arg0] | rw [h_arg1] | rw [h_arg2] | rw [h_arg3] | rw [h_arg4] | rw [h_arg5] | rw [h_arg6] | rw [h_arg7] | rw [h_v8] | rw [h_v36] | rw [h_v58] | rw [h_v71] | rw [h_v83] | rw [h_v95] | rw [h_v96] | rw [h_v98] | rw [h_v100] | rw [h_v102] | rw [h_v103])
    try rfl
  · after_results_simp
    try simp only [TRef.ofBuf, TRef.toBuf, cast_eq]
    try simp only [h_arg0, h_arg1, h_arg2, h_arg3, h_arg4, h_arg5, h_arg6, h_arg7, h_v8, h_v36, h_v58, h_v71, h_v83, h_v95, h_v96, h_v98, h_v100, h_v102, h_v103]
    repeat (first | rw [h_arg0] | rw [h_arg1] | rw [h_arg2] | rw [h_arg3] | rw [h_arg4] | rw [h_arg5] | rw [h_arg6] | rw [h_arg7] | rw [h_v8] | rw [h_v36] | rw [h_v58] | rw [h_v71] | rw [h_v83] | rw [h_v95] | rw [h_v96] | rw [h_v98] | rw [h_v100] | rw [h_v102] | rw [h_v103])
    try rfl
  · after_results_simp
    try simp only [TRef.ofBuf, TRef.toBuf, cast_eq]
    try simp only [h_arg0, h_arg1, h_arg2, h_arg3, h_arg4, h_arg5, h_arg6, h_arg7, h_v8, h_v36, h_v58, h_v71, h_v83, h_v95, h_v96, h_v98, h_v100, h_v102, h_v103]
    repeat (first | rw [h_arg0] | rw [h_arg1] | rw [h_arg2] | rw [h_arg3] | rw [h_arg4] | rw [h_arg5] | rw [h_arg6] | rw [h_arg7] | rw [h_v8] | rw [h_v36] | rw [h_v58] | rw [h_v71] | rw [h_v83] | rw [h_v95] | rw [h_v96] | rw [h_v98] | rw [h_v100] | rw [h_v102] | rw [h_v103])
    try rfl
  · after_results_simp
    try simp only [TRef.ofBuf, TRef.toBuf, cast_eq]
    try simp only [h_arg0, h_arg1, h_arg2, h_arg3, h_arg4, h_arg5, h_arg6, h_arg7, h_v8, h_v36, h_v58, h_v71, h_v83, h_v95, h_v96, h_v98, h_v100, h_v102, h_v103]
    repeat (first | rw [h_arg0] | rw [h_arg1] | rw [h_arg2] | rw [h_arg3] | rw [h_arg4] | rw [h_arg5] | rw [h_arg6] | rw [h_arg7] | rw [h_v8] | rw [h_v36] | rw [h_v58] | rw [h_v71] | rw [h_v83] | rw [h_v95] | rw [h_v96] | rw [h_v98] | rw [h_v100] | rw [h_v102] | rw [h_v103])
    try rfl
  · after_results_simp
    try simp only [TRef.ofBuf, TRef.toBuf, cast_eq]
    try simp only [h_arg0, h_arg1, h_arg2, h_arg3, h_arg4, h_arg5, h_arg6, h_arg7, h_v8, h_v36, h_v58, h_v71, h_v83, h_v95, h_v96, h_v98, h_v100, h_v102, h_v103]
    repeat (first | rw [h_arg0] | rw [h_arg1] | rw [h_arg2] | rw [h_arg3] | rw [h_arg4] | rw [h_arg5] | rw [h_arg6] | rw [h_arg7] | rw [h_v8] | rw [h_v36] | rw [h_v58] | rw [h_v71] | rw [h_v83] | rw [h_v95] | rw [h_v96] | rw [h_v98] | rw [h_v100] | rw [h_v102] | rw [h_v103])
    try rfl
  · after_results_simp
    try simp only [TRef.ofBuf, TRef.toBuf, cast_eq]
    try simp only [h_arg0, h_arg1, h_arg2, h_arg3, h_arg4, h_arg5, h_arg6, h_arg7, h_v8, h_v36, h_v58, h_v71, h_v83, h_v95, h_v96, h_v98, h_v100, h_v102, h_v103]
    repeat (first | rw [h_arg0] | rw [h_arg1] | rw [h_arg2] | rw [h_arg3] | rw [h_arg4] | rw [h_arg5] | rw [h_arg6] | rw [h_arg7] | rw [h_v8] | rw [h_v36] | rw [h_v58] | rw [h_v71] | rw [h_v83] | rw [h_v95] | rw [h_v96] | rw [h_v98] | rw [h_v100] | rw [h_v102] | rw [h_v103])
    try rfl
  · after_results_simp
    try simp only [TRef.ofBuf, TRef.toBuf, cast_eq]
    try simp only [h_arg0, h_arg1, h_arg2, h_arg3, h_arg4, h_arg5, h_arg6, h_arg7, h_v8, h_v36, h_v58, h_v71, h_v83, h_v95, h_v96, h_v98, h_v100, h_v102, h_v103]
    repeat (first | rw [h_arg0] | rw [h_arg1] | rw [h_arg2] | rw [h_arg3] | rw [h_arg4] | rw [h_arg5] | rw [h_arg6] | rw [h_arg7] | rw [h_v8] | rw [h_v36] | rw [h_v58] | rw [h_v71] | rw [h_v83] | rw [h_v95] | rw [h_v96] | rw [h_v98] | rw [h_v100] | rw [h_v102] | rw [h_v103])
    try rfl
  · after_results_simp
    try simp only [TRef.ofBuf, TRef.toBuf, cast_eq]
    try simp only [h_arg0, h_arg1, h_arg2, h_arg3, h_arg4, h_arg5, h_arg6, h_arg7, h_v8, h_v36, h_v58, h_v71, h_v83, h_v95, h_v96, h_v98, h_v100, h_v102, h_v103]
    repeat (first | rw [h_arg0] | rw [h_arg1] | rw [h_arg2] | rw [h_arg3] | rw [h_arg4] | rw [h_arg5] | rw [h_arg6] | rw [h_arg7] | rw [h_v8] | rw [h_v36] | rw [h_v58] | rw [h_v71] | rw [h_v83] | rw [h_v95] | rw [h_v96] | rw [h_v98] | rw [h_v100] | rw [h_v102] | rw [h_v103])
    try rfl
  · after_results_simp
    try simp only [TRef.ofBuf, TRef.toBuf, cast_eq]
    try simp only [h_arg0, h_arg1, h_arg2, h_arg3, h_arg4, h_arg5, h_arg6, h_arg7, h_v8, h_v36, h_v58, h_v71, h_v83, h_v95, h_v96, h_v98, h_v100, h_v102, h_v103]
    repeat (first | rw [h_arg0] | rw [h_arg1] | rw [h_arg2] | rw [h_arg3] | rw [h_arg4] | rw [h_arg5] | rw [h_arg6] | rw [h_arg7] | rw [h_v8] | rw [h_v36] | rw [h_v58] | rw [h_v71] | rw [h_v83] | rw [h_v95] | rw [h_v96] | rw [h_v98] | rw [h_v100] | rw [h_v102] | rw [h_v103])
    try rfl
  · after_results
    try (dsimp only [vec4_0, vec4_1, vec4_2, vec4_3])
    more_results
    try (dsimp only [vec4_0, vec4_1, vec4_2, vec4_3])
    more_results
    try (dsimp only [vec4_0, vec4_1, vec4_2, vec4_3])
    more_results
    try simp only [TRef.ofBuf, TRef.toBuf, cast_eq]
    try simp only [h_arg0, h_arg1, h_arg2, h_arg3, h_arg4, h_arg5, h_arg6, h_arg7, h_v8, h_v36, h_v58, h_v71, h_v83, h_v95, h_v96, h_v98, h_v100, h_v102, h_v103]
    repeat (first | rw [h_arg0] | rw [h_arg1] | rw [h_arg2] | rw [h_arg3] | rw [h_arg4] | rw [h_arg5] | rw [h_arg6] | rw [h_arg7] | rw [h_v8] | rw [h_v36] | rw [h_v58] | rw [h_v71] | rw [h_v83] | rw [h_v95] | rw [h_v96] | rw [h_v98] | rw [h_v100] | rw [h_v102] | rw [h_v103])
    try rfl
  · after_results
    try (dsimp only [vec4_0, vec4_1, vec4_2, vec4_3])
    more_results
    try (dsimp only [vec4_0, vec4_1, vec4_2, vec4_3])
    more_results
    try (dsimp only [vec4_0, vec4_1, vec4_2, vec4_3])
    more_results
    try simp only [TRef.ofBuf, TRef.toBuf, cast_eq]
    try simp only [h_arg0, h_arg1, h_arg2, h_arg3, h_arg4, h_arg5, h_arg6, h_arg7, h_v8, h_v36, h_v58, h_v71, h_v83, h_v95, h_v96, h_v98, h_v100, h_v102, h_v103]
    repeat (first | rw [h_arg0] | rw [h_arg1] | rw [h_arg2] | rw [h_arg3] | rw [h_arg4] | rw [h_arg5] | rw [h_arg6] | rw [h_arg7] | rw [h_v8] | rw [h_v36] | rw [h_v58] | rw [h_v71] | rw [h_v83] | rw [h_v95] | rw [h_v96] | rw [h_v98] | rw [h_v100] | rw [h_v102] | rw [h_v103])
    try rfl
  · after_results_simp
    try simp only [TRef.ofBuf, TRef.toBuf, cast_eq]
    try simp only [h_arg0, h_arg1, h_arg2, h_arg3, h_arg4, h_arg5, h_arg6, h_arg7, h_v8, h_v36, h_v58, h_v71, h_v83, h_v95, h_v96, h_v98, h_v100, h_v102, h_v103]
    repeat (first | rw [h_arg0] | rw [h_arg1] | rw [h_arg2] | rw [h_arg3] | rw [h_arg4] | rw [h_arg5] | rw [h_arg6] | rw [h_arg7] | rw [h_v8] | rw [h_v36] | rw [h_v58] | rw [h_v71] | rw [h_v83] | rw [h_v95] | rw [h_v96] | rw [h_v98] | rw [h_v100] | rw [h_v102] | rw [h_v103])
    try rfl

end Cert.ReferenceIdeal.RunP

end
-- ==== Proof.Ref.Stage3.lean ====
/-
  Part 3 of the reference's @main takes the boundary facts before it to the boundary facts after it: each buffer the
  part computes is its operation applied to the buffers it reads, and those hold their stage values; every other live
  buffer is untouched.
-/
import proofs.«109971_j31181462569594_2_alg».proof.Proof.Ref.Inv

noncomputable section

namespace Cert.ReferenceIdeal.RunP

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

set_option maxRecDepth 16384 in
set_option maxHeartbeats 4000000 in
theorem step3 (V W : Valuation τ sig (Elt F)) (h : Inv2 V W) : Inv3 V (after ops_part3 W) := by
  obtain ⟨h_arg0, h_arg1, h_arg2, h_arg3, h_arg4, h_arg5, h_arg6, h_arg7, h_v36, h_v58, h_v71, h_v83, h_v95, h_v96, h_v124, h_v152, h_v155⟩ := h
  refine ⟨?_, ?_, ?_, ?_, ?_, ?_, ?_, ?_, ?_, ?_, ?_, ?_, ?_, ?_, ?_, ?_⟩
  · after_results_simp
    try simp only [TRef.ofBuf, TRef.toBuf, cast_eq]
    try simp only [h_arg0, h_arg1, h_arg2, h_arg3, h_arg4, h_arg5, h_arg6, h_arg7, h_v36, h_v58, h_v71, h_v83, h_v95, h_v96, h_v124, h_v152, h_v155]
    repeat (first | rw [h_arg0] | rw [h_arg1] | rw [h_arg2] | rw [h_arg3] | rw [h_arg4] | rw [h_arg5] | rw [h_arg6] | rw [h_arg7] | rw [h_v36] | rw [h_v58] | rw [h_v71] | rw [h_v83] | rw [h_v95] | rw [h_v96] | rw [h_v124] | rw [h_v152] | rw [h_v155])
    try rfl
  · after_results_simp
    try simp only [TRef.ofBuf, TRef.toBuf, cast_eq]
    try simp only [h_arg0, h_arg1, h_arg2, h_arg3, h_arg4, h_arg5, h_arg6, h_arg7, h_v36, h_v58, h_v71, h_v83, h_v95, h_v96, h_v124, h_v152, h_v155]
    repeat (first | rw [h_arg0] | rw [h_arg1] | rw [h_arg2] | rw [h_arg3] | rw [h_arg4] | rw [h_arg5] | rw [h_arg6] | rw [h_arg7] | rw [h_v36] | rw [h_v58] | rw [h_v71] | rw [h_v83] | rw [h_v95] | rw [h_v96] | rw [h_v124] | rw [h_v152] | rw [h_v155])
    try rfl
  · after_results_simp
    try simp only [TRef.ofBuf, TRef.toBuf, cast_eq]
    try simp only [h_arg0, h_arg1, h_arg2, h_arg3, h_arg4, h_arg5, h_arg6, h_arg7, h_v36, h_v58, h_v71, h_v83, h_v95, h_v96, h_v124, h_v152, h_v155]
    repeat (first | rw [h_arg0] | rw [h_arg1] | rw [h_arg2] | rw [h_arg3] | rw [h_arg4] | rw [h_arg5] | rw [h_arg6] | rw [h_arg7] | rw [h_v36] | rw [h_v58] | rw [h_v71] | rw [h_v83] | rw [h_v95] | rw [h_v96] | rw [h_v124] | rw [h_v152] | rw [h_v155])
    try rfl
  · after_results_simp
    try simp only [TRef.ofBuf, TRef.toBuf, cast_eq]
    try simp only [h_arg0, h_arg1, h_arg2, h_arg3, h_arg4, h_arg5, h_arg6, h_arg7, h_v36, h_v58, h_v71, h_v83, h_v95, h_v96, h_v124, h_v152, h_v155]
    repeat (first | rw [h_arg0] | rw [h_arg1] | rw [h_arg2] | rw [h_arg3] | rw [h_arg4] | rw [h_arg5] | rw [h_arg6] | rw [h_arg7] | rw [h_v36] | rw [h_v58] | rw [h_v71] | rw [h_v83] | rw [h_v95] | rw [h_v96] | rw [h_v124] | rw [h_v152] | rw [h_v155])
    try rfl
  · after_results_simp
    try simp only [TRef.ofBuf, TRef.toBuf, cast_eq]
    try simp only [h_arg0, h_arg1, h_arg2, h_arg3, h_arg4, h_arg5, h_arg6, h_arg7, h_v36, h_v58, h_v71, h_v83, h_v95, h_v96, h_v124, h_v152, h_v155]
    repeat (first | rw [h_arg0] | rw [h_arg1] | rw [h_arg2] | rw [h_arg3] | rw [h_arg4] | rw [h_arg5] | rw [h_arg6] | rw [h_arg7] | rw [h_v36] | rw [h_v58] | rw [h_v71] | rw [h_v83] | rw [h_v95] | rw [h_v96] | rw [h_v124] | rw [h_v152] | rw [h_v155])
    try rfl
  · after_results_simp
    try simp only [TRef.ofBuf, TRef.toBuf, cast_eq]
    try simp only [h_arg0, h_arg1, h_arg2, h_arg3, h_arg4, h_arg5, h_arg6, h_arg7, h_v36, h_v58, h_v71, h_v83, h_v95, h_v96, h_v124, h_v152, h_v155]
    repeat (first | rw [h_arg0] | rw [h_arg1] | rw [h_arg2] | rw [h_arg3] | rw [h_arg4] | rw [h_arg5] | rw [h_arg6] | rw [h_arg7] | rw [h_v36] | rw [h_v58] | rw [h_v71] | rw [h_v83] | rw [h_v95] | rw [h_v96] | rw [h_v124] | rw [h_v152] | rw [h_v155])
    try rfl
  · after_results_simp
    try simp only [TRef.ofBuf, TRef.toBuf, cast_eq]
    try simp only [h_arg0, h_arg1, h_arg2, h_arg3, h_arg4, h_arg5, h_arg6, h_arg7, h_v36, h_v58, h_v71, h_v83, h_v95, h_v96, h_v124, h_v152, h_v155]
    repeat (first | rw [h_arg0] | rw [h_arg1] | rw [h_arg2] | rw [h_arg3] | rw [h_arg4] | rw [h_arg5] | rw [h_arg6] | rw [h_arg7] | rw [h_v36] | rw [h_v58] | rw [h_v71] | rw [h_v83] | rw [h_v95] | rw [h_v96] | rw [h_v124] | rw [h_v152] | rw [h_v155])
    try rfl
  · after_results_simp
    try simp only [TRef.ofBuf, TRef.toBuf, cast_eq]
    try simp only [h_arg0, h_arg1, h_arg2, h_arg3, h_arg4, h_arg5, h_arg6, h_arg7, h_v36, h_v58, h_v71, h_v83, h_v95, h_v96, h_v124, h_v152, h_v155]
    repeat (first | rw [h_arg0] | rw [h_arg1] | rw [h_arg2] | rw [h_arg3] | rw [h_arg4] | rw [h_arg5] | rw [h_arg6] | rw [h_arg7] | rw [h_v36] | rw [h_v58] | rw [h_v71] | rw [h_v83] | rw [h_v95] | rw [h_v96] | rw [h_v124] | rw [h_v152] | rw [h_v155])
    try rfl
  · after_results_simp
    try simp only [TRef.ofBuf, TRef.toBuf, cast_eq]
    try simp only [h_arg0, h_arg1, h_arg2, h_arg3, h_arg4, h_arg5, h_arg6, h_arg7, h_v36, h_v58, h_v71, h_v83, h_v95, h_v96, h_v124, h_v152, h_v155]
    repeat (first | rw [h_arg0] | rw [h_arg1] | rw [h_arg2] | rw [h_arg3] | rw [h_arg4] | rw [h_arg5] | rw [h_arg6] | rw [h_arg7] | rw [h_v36] | rw [h_v58] | rw [h_v71] | rw [h_v83] | rw [h_v95] | rw [h_v96] | rw [h_v124] | rw [h_v152] | rw [h_v155])
    try rfl
  · after_results_simp
    try simp only [TRef.ofBuf, TRef.toBuf, cast_eq]
    try simp only [h_arg0, h_arg1, h_arg2, h_arg3, h_arg4, h_arg5, h_arg6, h_arg7, h_v36, h_v58, h_v71, h_v83, h_v95, h_v96, h_v124, h_v152, h_v155]
    repeat (first | rw [h_arg0] | rw [h_arg1] | rw [h_arg2] | rw [h_arg3] | rw [h_arg4] | rw [h_arg5] | rw [h_arg6] | rw [h_arg7] | rw [h_v36] | rw [h_v58] | rw [h_v71] | rw [h_v83] | rw [h_v95] | rw [h_v96] | rw [h_v124] | rw [h_v152] | rw [h_v155])
    try rfl
  · after_results_simp
    try simp only [TRef.ofBuf, TRef.toBuf, cast_eq]
    try simp only [h_arg0, h_arg1, h_arg2, h_arg3, h_arg4, h_arg5, h_arg6, h_arg7, h_v36, h_v58, h_v71, h_v83, h_v95, h_v96, h_v124, h_v152, h_v155]
    repeat (first | rw [h_arg0] | rw [h_arg1] | rw [h_arg2] | rw [h_arg3] | rw [h_arg4] | rw [h_arg5] | rw [h_arg6] | rw [h_arg7] | rw [h_v36] | rw [h_v58] | rw [h_v71] | rw [h_v83] | rw [h_v95] | rw [h_v96] | rw [h_v124] | rw [h_v152] | rw [h_v155])
    try rfl
  · after_results_simp
    try simp only [TRef.ofBuf, TRef.toBuf, cast_eq]
    try simp only [h_arg0, h_arg1, h_arg2, h_arg3, h_arg4, h_arg5, h_arg6, h_arg7, h_v36, h_v58, h_v71, h_v83, h_v95, h_v96, h_v124, h_v152, h_v155]
    repeat (first | rw [h_arg0] | rw [h_arg1] | rw [h_arg2] | rw [h_arg3] | rw [h_arg4] | rw [h_arg5] | rw [h_arg6] | rw [h_arg7] | rw [h_v36] | rw [h_v58] | rw [h_v71] | rw [h_v83] | rw [h_v95] | rw [h_v96] | rw [h_v124] | rw [h_v152] | rw [h_v155])
    try rfl
  · after_results_simp
    try simp only [TRef.ofBuf, TRef.toBuf, cast_eq]
    try simp only [h_arg0, h_arg1, h_arg2, h_arg3, h_arg4, h_arg5, h_arg6, h_arg7, h_v36, h_v58, h_v71, h_v83, h_v95, h_v96, h_v124, h_v152, h_v155]
    repeat (first | rw [h_arg0] | rw [h_arg1] | rw [h_arg2] | rw [h_arg3] | rw [h_arg4] | rw [h_arg5] | rw [h_arg6] | rw [h_arg7] | rw [h_v36] | rw [h_v58] | rw [h_v71] | rw [h_v83] | rw [h_v95] | rw [h_v96] | rw [h_v124] | rw [h_v152] | rw [h_v155])
    try rfl
  · after_results_simp
    try simp only [TRef.ofBuf, TRef.toBuf, cast_eq]
    try simp only [h_arg0, h_arg1, h_arg2, h_arg3, h_arg4, h_arg5, h_arg6, h_arg7, h_v36, h_v58, h_v71, h_v83, h_v95, h_v96, h_v124, h_v152, h_v155]
    repeat (first | rw [h_arg0] | rw [h_arg1] | rw [h_arg2] | rw [h_arg3] | rw [h_arg4] | rw [h_arg5] | rw [h_arg6] | rw [h_arg7] | rw [h_v36] | rw [h_v58] | rw [h_v71] | rw [h_v83] | rw [h_v95] | rw [h_v96] | rw [h_v124] | rw [h_v152] | rw [h_v155])
    try rfl
  · after_results_simp
    try simp only [TRef.ofBuf, TRef.toBuf, cast_eq]
    try simp only [h_arg0, h_arg1, h_arg2, h_arg3, h_arg4, h_arg5, h_arg6, h_arg7, h_v36, h_v58, h_v71, h_v83, h_v95, h_v96, h_v124, h_v152, h_v155]
    repeat (first | rw [h_arg0] | rw [h_arg1] | rw [h_arg2] | rw [h_arg3] | rw [h_arg4] | rw [h_arg5] | rw [h_arg6] | rw [h_arg7] | rw [h_v36] | rw [h_v58] | rw [h_v71] | rw [h_v83] | rw [h_v95] | rw [h_v96] | rw [h_v124] | rw [h_v152] | rw [h_v155])
    try rfl
  · after_results_simp
    try simp only [TRef.ofBuf, TRef.toBuf, cast_eq]
    try simp only [h_arg0, h_arg1, h_arg2, h_arg3, h_arg4, h_arg5, h_arg6, h_arg7, h_v36, h_v58, h_v71, h_v83, h_v95, h_v96, h_v124, h_v152, h_v155]
    repeat (first | rw [h_arg0] | rw [h_arg1] | rw [h_arg2] | rw [h_arg3] | rw [h_arg4] | rw [h_arg5] | rw [h_arg6] | rw [h_arg7] | rw [h_v36] | rw [h_v58] | rw [h_v71] | rw [h_v83] | rw [h_v95] | rw [h_v96] | rw [h_v124] | rw [h_v152] | rw [h_v155])
    try rfl

end Cert.ReferenceIdeal.RunP

end
-- ==== Proof.Ref.Stage4.lean ====
/-
  Part 4 of the reference's @main takes the boundary facts before it to the boundary facts after it: each buffer the
  part computes is its operation applied to the buffers it reads, and those hold their stage values; every other live
  buffer is untouched.
-/
import proofs.«109971_j31181462569594_2_alg».proof.Proof.Ref.Inv

noncomputable section

namespace Cert.ReferenceIdeal.RunP

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

set_option maxRecDepth 16384 in
set_option maxHeartbeats 4000000 in
theorem step4 (V W : Valuation τ sig (Elt F)) (h : Inv3 V W) : Inv4 V (after ops_part4 W) := by
  obtain ⟨h_arg0, h_arg1, h_arg2, h_arg3, h_arg4, h_arg5, h_arg6, h_arg7, h_v36, h_v71, h_v83, h_v95, h_v124, h_v152, h_v208, h_v211⟩ := h
  refine ⟨?_, ?_, ?_, ?_, ?_, ?_, ?_, ?_, ?_, ?_, ?_, ?_, ?_, ?_, ?_, ?_, ?_, ?_, ?_, ?_⟩
  · after_results_simp
    try simp only [TRef.ofBuf, TRef.toBuf, cast_eq]
    try simp only [h_arg0, h_arg1, h_arg2, h_arg3, h_arg4, h_arg5, h_arg6, h_arg7, h_v36, h_v71, h_v83, h_v95, h_v124, h_v152, h_v208, h_v211]
    repeat (first | rw [h_arg0] | rw [h_arg1] | rw [h_arg2] | rw [h_arg3] | rw [h_arg4] | rw [h_arg5] | rw [h_arg6] | rw [h_arg7] | rw [h_v36] | rw [h_v71] | rw [h_v83] | rw [h_v95] | rw [h_v124] | rw [h_v152] | rw [h_v208] | rw [h_v211])
    try rfl
  · after_results_simp
    try simp only [TRef.ofBuf, TRef.toBuf, cast_eq]
    try simp only [h_arg0, h_arg1, h_arg2, h_arg3, h_arg4, h_arg5, h_arg6, h_arg7, h_v36, h_v71, h_v83, h_v95, h_v124, h_v152, h_v208, h_v211]
    repeat (first | rw [h_arg0] | rw [h_arg1] | rw [h_arg2] | rw [h_arg3] | rw [h_arg4] | rw [h_arg5] | rw [h_arg6] | rw [h_arg7] | rw [h_v36] | rw [h_v71] | rw [h_v83] | rw [h_v95] | rw [h_v124] | rw [h_v152] | rw [h_v208] | rw [h_v211])
    try rfl
  · after_results_simp
    try simp only [TRef.ofBuf, TRef.toBuf, cast_eq]
    try simp only [h_arg0, h_arg1, h_arg2, h_arg3, h_arg4, h_arg5, h_arg6, h_arg7, h_v36, h_v71, h_v83, h_v95, h_v124, h_v152, h_v208, h_v211]
    repeat (first | rw [h_arg0] | rw [h_arg1] | rw [h_arg2] | rw [h_arg3] | rw [h_arg4] | rw [h_arg5] | rw [h_arg6] | rw [h_arg7] | rw [h_v36] | rw [h_v71] | rw [h_v83] | rw [h_v95] | rw [h_v124] | rw [h_v152] | rw [h_v208] | rw [h_v211])
    try rfl
  · after_results_simp
    try simp only [TRef.ofBuf, TRef.toBuf, cast_eq]
    try simp only [h_arg0, h_arg1, h_arg2, h_arg3, h_arg4, h_arg5, h_arg6, h_arg7, h_v36, h_v71, h_v83, h_v95, h_v124, h_v152, h_v208, h_v211]
    repeat (first | rw [h_arg0] | rw [h_arg1] | rw [h_arg2] | rw [h_arg3] | rw [h_arg4] | rw [h_arg5] | rw [h_arg6] | rw [h_arg7] | rw [h_v36] | rw [h_v71] | rw [h_v83] | rw [h_v95] | rw [h_v124] | rw [h_v152] | rw [h_v208] | rw [h_v211])
    try rfl
  · after_results_simp
    try simp only [TRef.ofBuf, TRef.toBuf, cast_eq]
    try simp only [h_arg0, h_arg1, h_arg2, h_arg3, h_arg4, h_arg5, h_arg6, h_arg7, h_v36, h_v71, h_v83, h_v95, h_v124, h_v152, h_v208, h_v211]
    repeat (first | rw [h_arg0] | rw [h_arg1] | rw [h_arg2] | rw [h_arg3] | rw [h_arg4] | rw [h_arg5] | rw [h_arg6] | rw [h_arg7] | rw [h_v36] | rw [h_v71] | rw [h_v83] | rw [h_v95] | rw [h_v124] | rw [h_v152] | rw [h_v208] | rw [h_v211])
    try rfl
  · after_results_simp
    try simp only [TRef.ofBuf, TRef.toBuf, cast_eq]
    try simp only [h_arg0, h_arg1, h_arg2, h_arg3, h_arg4, h_arg5, h_arg6, h_arg7, h_v36, h_v71, h_v83, h_v95, h_v124, h_v152, h_v208, h_v211]
    repeat (first | rw [h_arg0] | rw [h_arg1] | rw [h_arg2] | rw [h_arg3] | rw [h_arg4] | rw [h_arg5] | rw [h_arg6] | rw [h_arg7] | rw [h_v36] | rw [h_v71] | rw [h_v83] | rw [h_v95] | rw [h_v124] | rw [h_v152] | rw [h_v208] | rw [h_v211])
    try rfl
  · after_results_simp
    try simp only [TRef.ofBuf, TRef.toBuf, cast_eq]
    try simp only [h_arg0, h_arg1, h_arg2, h_arg3, h_arg4, h_arg5, h_arg6, h_arg7, h_v36, h_v71, h_v83, h_v95, h_v124, h_v152, h_v208, h_v211]
    repeat (first | rw [h_arg0] | rw [h_arg1] | rw [h_arg2] | rw [h_arg3] | rw [h_arg4] | rw [h_arg5] | rw [h_arg6] | rw [h_arg7] | rw [h_v36] | rw [h_v71] | rw [h_v83] | rw [h_v95] | rw [h_v124] | rw [h_v152] | rw [h_v208] | rw [h_v211])
    try rfl
  · after_results_simp
    try simp only [TRef.ofBuf, TRef.toBuf, cast_eq]
    try simp only [h_arg0, h_arg1, h_arg2, h_arg3, h_arg4, h_arg5, h_arg6, h_arg7, h_v36, h_v71, h_v83, h_v95, h_v124, h_v152, h_v208, h_v211]
    repeat (first | rw [h_arg0] | rw [h_arg1] | rw [h_arg2] | rw [h_arg3] | rw [h_arg4] | rw [h_arg5] | rw [h_arg6] | rw [h_arg7] | rw [h_v36] | rw [h_v71] | rw [h_v83] | rw [h_v95] | rw [h_v124] | rw [h_v152] | rw [h_v208] | rw [h_v211])
    try rfl
  · after_results_simp
    try simp only [TRef.ofBuf, TRef.toBuf, cast_eq]
    try simp only [h_arg0, h_arg1, h_arg2, h_arg3, h_arg4, h_arg5, h_arg6, h_arg7, h_v36, h_v71, h_v83, h_v95, h_v124, h_v152, h_v208, h_v211]
    repeat (first | rw [h_arg0] | rw [h_arg1] | rw [h_arg2] | rw [h_arg3] | rw [h_arg4] | rw [h_arg5] | rw [h_arg6] | rw [h_arg7] | rw [h_v36] | rw [h_v71] | rw [h_v83] | rw [h_v95] | rw [h_v124] | rw [h_v152] | rw [h_v208] | rw [h_v211])
    try rfl
  · after_results_simp
    try simp only [TRef.ofBuf, TRef.toBuf, cast_eq]
    try simp only [h_arg0, h_arg1, h_arg2, h_arg3, h_arg4, h_arg5, h_arg6, h_arg7, h_v36, h_v71, h_v83, h_v95, h_v124, h_v152, h_v208, h_v211]
    repeat (first | rw [h_arg0] | rw [h_arg1] | rw [h_arg2] | rw [h_arg3] | rw [h_arg4] | rw [h_arg5] | rw [h_arg6] | rw [h_arg7] | rw [h_v36] | rw [h_v71] | rw [h_v83] | rw [h_v95] | rw [h_v124] | rw [h_v152] | rw [h_v208] | rw [h_v211])
    try rfl
  · after_results_simp
    try simp only [TRef.ofBuf, TRef.toBuf, cast_eq]
    try simp only [h_arg0, h_arg1, h_arg2, h_arg3, h_arg4, h_arg5, h_arg6, h_arg7, h_v36, h_v71, h_v83, h_v95, h_v124, h_v152, h_v208, h_v211]
    repeat (first | rw [h_arg0] | rw [h_arg1] | rw [h_arg2] | rw [h_arg3] | rw [h_arg4] | rw [h_arg5] | rw [h_arg6] | rw [h_arg7] | rw [h_v36] | rw [h_v71] | rw [h_v83] | rw [h_v95] | rw [h_v124] | rw [h_v152] | rw [h_v208] | rw [h_v211])
    try rfl
  · after_results_simp
    try simp only [TRef.ofBuf, TRef.toBuf, cast_eq]
    try simp only [h_arg0, h_arg1, h_arg2, h_arg3, h_arg4, h_arg5, h_arg6, h_arg7, h_v36, h_v71, h_v83, h_v95, h_v124, h_v152, h_v208, h_v211]
    repeat (first | rw [h_arg0] | rw [h_arg1] | rw [h_arg2] | rw [h_arg3] | rw [h_arg4] | rw [h_arg5] | rw [h_arg6] | rw [h_arg7] | rw [h_v36] | rw [h_v71] | rw [h_v83] | rw [h_v95] | rw [h_v124] | rw [h_v152] | rw [h_v208] | rw [h_v211])
    try rfl
  · after_results_simp
    try simp only [TRef.ofBuf, TRef.toBuf, cast_eq]
    try simp only [h_arg0, h_arg1, h_arg2, h_arg3, h_arg4, h_arg5, h_arg6, h_arg7, h_v36, h_v71, h_v83, h_v95, h_v124, h_v152, h_v208, h_v211]
    repeat (first | rw [h_arg0] | rw [h_arg1] | rw [h_arg2] | rw [h_arg3] | rw [h_arg4] | rw [h_arg5] | rw [h_arg6] | rw [h_arg7] | rw [h_v36] | rw [h_v71] | rw [h_v83] | rw [h_v95] | rw [h_v124] | rw [h_v152] | rw [h_v208] | rw [h_v211])
    try rfl
  · after_results_simp
    try simp only [TRef.ofBuf, TRef.toBuf, cast_eq]
    try simp only [h_arg0, h_arg1, h_arg2, h_arg3, h_arg4, h_arg5, h_arg6, h_arg7, h_v36, h_v71, h_v83, h_v95, h_v124, h_v152, h_v208, h_v211]
    repeat (first | rw [h_arg0] | rw [h_arg1] | rw [h_arg2] | rw [h_arg3] | rw [h_arg4] | rw [h_arg5] | rw [h_arg6] | rw [h_arg7] | rw [h_v36] | rw [h_v71] | rw [h_v83] | rw [h_v95] | rw [h_v124] | rw [h_v152] | rw [h_v208] | rw [h_v211])
    try rfl
  · after_results_simp
    try simp only [TRef.ofBuf, TRef.toBuf, cast_eq]
    try simp only [h_arg0, h_arg1, h_arg2, h_arg3, h_arg4, h_arg5, h_arg6, h_arg7, h_v36, h_v71, h_v83, h_v95, h_v124, h_v152, h_v208, h_v211]
    repeat (first | rw [h_arg0] | rw [h_arg1] | rw [h_arg2] | rw [h_arg3] | rw [h_arg4] | rw [h_arg5] | rw [h_arg6] | rw [h_arg7] | rw [h_v36] | rw [h_v71] | rw [h_v83] | rw [h_v95] | rw [h_v124] | rw [h_v152] | rw [h_v208] | rw [h_v211])
    try rfl
  · after_results_simp
    try simp only [TRef.ofBuf, TRef.toBuf, cast_eq]
    try simp only [h_arg0, h_arg1, h_arg2, h_arg3, h_arg4, h_arg5, h_arg6, h_arg7, h_v36, h_v71, h_v83, h_v95, h_v124, h_v152, h_v208, h_v211]
    repeat (first | rw [h_arg0] | rw [h_arg1] | rw [h_arg2] | rw [h_arg3] | rw [h_arg4] | rw [h_arg5] | rw [h_arg6] | rw [h_arg7] | rw [h_v36] | rw [h_v71] | rw [h_v83] | rw [h_v95] | rw [h_v124] | rw [h_v152] | rw [h_v208] | rw [h_v211])
    try rfl
  · after_results_simp
    try simp only [TRef.ofBuf, TRef.toBuf, cast_eq]
    try simp only [h_arg0, h_arg1, h_arg2, h_arg3, h_arg4, h_arg5, h_arg6, h_arg7, h_v36, h_v71, h_v83, h_v95, h_v124, h_v152, h_v208, h_v211]
    repeat (first | rw [h_arg0] | rw [h_arg1] | rw [h_arg2] | rw [h_arg3] | rw [h_arg4] | rw [h_arg5] | rw [h_arg6] | rw [h_arg7] | rw [h_v36] | rw [h_v71] | rw [h_v83] | rw [h_v95] | rw [h_v124] | rw [h_v152] | rw [h_v208] | rw [h_v211])
    try rfl
  · after_results_simp
    try simp only [TRef.ofBuf, TRef.toBuf, cast_eq]
    try simp only [h_arg0, h_arg1, h_arg2, h_arg3, h_arg4, h_arg5, h_arg6, h_arg7, h_v36, h_v71, h_v83, h_v95, h_v124, h_v152, h_v208, h_v211]
    repeat (first | rw [h_arg0] | rw [h_arg1] | rw [h_arg2] | rw [h_arg3] | rw [h_arg4] | rw [h_arg5] | rw [h_arg6] | rw [h_arg7] | rw [h_v36] | rw [h_v71] | rw [h_v83] | rw [h_v95] | rw [h_v124] | rw [h_v152] | rw [h_v208] | rw [h_v211])
    try rfl
  · after_results_simp
    try simp only [TRef.ofBuf, TRef.toBuf, cast_eq]
    try simp only [h_arg0, h_arg1, h_arg2, h_arg3, h_arg4, h_arg5, h_arg6, h_arg7, h_v36, h_v71, h_v83, h_v95, h_v124, h_v152, h_v208, h_v211]
    repeat (first | rw [h_arg0] | rw [h_arg1] | rw [h_arg2] | rw [h_arg3] | rw [h_arg4] | rw [h_arg5] | rw [h_arg6] | rw [h_arg7] | rw [h_v36] | rw [h_v71] | rw [h_v83] | rw [h_v95] | rw [h_v124] | rw [h_v152] | rw [h_v208] | rw [h_v211])
    try rfl
  · after_results_simp
    try simp only [TRef.ofBuf, TRef.toBuf, cast_eq]
    try simp only [h_arg0, h_arg1, h_arg2, h_arg3, h_arg4, h_arg5, h_arg6, h_arg7, h_v36, h_v71, h_v83, h_v95, h_v124, h_v152, h_v208, h_v211]
    repeat (first | rw [h_arg0] | rw [h_arg1] | rw [h_arg2] | rw [h_arg3] | rw [h_arg4] | rw [h_arg5] | rw [h_arg6] | rw [h_arg7] | rw [h_v36] | rw [h_v71] | rw [h_v83] | rw [h_v95] | rw [h_v124] | rw [h_v152] | rw [h_v208] | rw [h_v211])
    try rfl

end Cert.ReferenceIdeal.RunP

end
-- ==== Proof.Ref.Stage5.lean ====
/-
  Part 5 of the reference's @main takes the boundary facts before it to the boundary facts after it: each buffer the
  part computes is its operation applied to the buffers it reads, and those hold their stage values; every other live
  buffer is untouched.
-/
import proofs.«109971_j31181462569594_2_alg».proof.Proof.Ref.Inv

noncomputable section

namespace Cert.ReferenceIdeal.RunP

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

set_option maxRecDepth 16384 in
set_option maxHeartbeats 4000000 in
theorem step5 (V W : Valuation τ sig (Elt F)) (h : Inv4 V W) : Inv5 V (after ops_part5 W) := by
  obtain ⟨h_arg0, h_arg1, h_arg2, h_arg3, h_arg4, h_arg5, h_arg6, h_arg7, h_v36, h_v71, h_v83, h_v95, h_v124, h_v152, h_v208, h_v211, h_v260, h_v261, h_v268, h_v270⟩ := h
  refine ⟨?_, ?_, ?_, ?_, ?_, ?_, ?_, ?_, ?_, ?_, ?_, ?_, ?_, ?_, ?_, ?_, ?_, ?_, ?_, ?_⟩
  · after_results_simp
    try simp only [TRef.ofBuf, TRef.toBuf, cast_eq]
    try simp only [h_arg0, h_arg1, h_arg2, h_arg3, h_arg4, h_arg5, h_arg6, h_arg7, h_v36, h_v71, h_v83, h_v95, h_v124, h_v152, h_v208, h_v211, h_v260, h_v261, h_v268, h_v270]
    repeat (first | rw [h_arg0] | rw [h_arg1] | rw [h_arg2] | rw [h_arg3] | rw [h_arg4] | rw [h_arg5] | rw [h_arg6] | rw [h_arg7] | rw [h_v36] | rw [h_v71] | rw [h_v83] | rw [h_v95] | rw [h_v124] | rw [h_v152] | rw [h_v208] | rw [h_v211] | rw [h_v260] | rw [h_v261] | rw [h_v268] | rw [h_v270])
    try rfl
  · after_results_simp
    try simp only [TRef.ofBuf, TRef.toBuf, cast_eq]
    try simp only [h_arg0, h_arg1, h_arg2, h_arg3, h_arg4, h_arg5, h_arg6, h_arg7, h_v36, h_v71, h_v83, h_v95, h_v124, h_v152, h_v208, h_v211, h_v260, h_v261, h_v268, h_v270]
    repeat (first | rw [h_arg0] | rw [h_arg1] | rw [h_arg2] | rw [h_arg3] | rw [h_arg4] | rw [h_arg5] | rw [h_arg6] | rw [h_arg7] | rw [h_v36] | rw [h_v71] | rw [h_v83] | rw [h_v95] | rw [h_v124] | rw [h_v152] | rw [h_v208] | rw [h_v211] | rw [h_v260] | rw [h_v261] | rw [h_v268] | rw [h_v270])
    try rfl
  · after_results_simp
    try simp only [TRef.ofBuf, TRef.toBuf, cast_eq]
    try simp only [h_arg0, h_arg1, h_arg2, h_arg3, h_arg4, h_arg5, h_arg6, h_arg7, h_v36, h_v71, h_v83, h_v95, h_v124, h_v152, h_v208, h_v211, h_v260, h_v261, h_v268, h_v270]
    repeat (first | rw [h_arg0] | rw [h_arg1] | rw [h_arg2] | rw [h_arg3] | rw [h_arg4] | rw [h_arg5] | rw [h_arg6] | rw [h_arg7] | rw [h_v36] | rw [h_v71] | rw [h_v83] | rw [h_v95] | rw [h_v124] | rw [h_v152] | rw [h_v208] | rw [h_v211] | rw [h_v260] | rw [h_v261] | rw [h_v268] | rw [h_v270])
    try rfl
  · after_results_simp
    try simp only [TRef.ofBuf, TRef.toBuf, cast_eq]
    try simp only [h_arg0, h_arg1, h_arg2, h_arg3, h_arg4, h_arg5, h_arg6, h_arg7, h_v36, h_v71, h_v83, h_v95, h_v124, h_v152, h_v208, h_v211, h_v260, h_v261, h_v268, h_v270]
    repeat (first | rw [h_arg0] | rw [h_arg1] | rw [h_arg2] | rw [h_arg3] | rw [h_arg4] | rw [h_arg5] | rw [h_arg6] | rw [h_arg7] | rw [h_v36] | rw [h_v71] | rw [h_v83] | rw [h_v95] | rw [h_v124] | rw [h_v152] | rw [h_v208] | rw [h_v211] | rw [h_v260] | rw [h_v261] | rw [h_v268] | rw [h_v270])
    try rfl
  · after_results_simp
    try simp only [TRef.ofBuf, TRef.toBuf, cast_eq]
    try simp only [h_arg0, h_arg1, h_arg2, h_arg3, h_arg4, h_arg5, h_arg6, h_arg7, h_v36, h_v71, h_v83, h_v95, h_v124, h_v152, h_v208, h_v211, h_v260, h_v261, h_v268, h_v270]
    repeat (first | rw [h_arg0] | rw [h_arg1] | rw [h_arg2] | rw [h_arg3] | rw [h_arg4] | rw [h_arg5] | rw [h_arg6] | rw [h_arg7] | rw [h_v36] | rw [h_v71] | rw [h_v83] | rw [h_v95] | rw [h_v124] | rw [h_v152] | rw [h_v208] | rw [h_v211] | rw [h_v260] | rw [h_v261] | rw [h_v268] | rw [h_v270])
    try rfl
  · after_results_simp
    try simp only [TRef.ofBuf, TRef.toBuf, cast_eq]
    try simp only [h_arg0, h_arg1, h_arg2, h_arg3, h_arg4, h_arg5, h_arg6, h_arg7, h_v36, h_v71, h_v83, h_v95, h_v124, h_v152, h_v208, h_v211, h_v260, h_v261, h_v268, h_v270]
    repeat (first | rw [h_arg0] | rw [h_arg1] | rw [h_arg2] | rw [h_arg3] | rw [h_arg4] | rw [h_arg5] | rw [h_arg6] | rw [h_arg7] | rw [h_v36] | rw [h_v71] | rw [h_v83] | rw [h_v95] | rw [h_v124] | rw [h_v152] | rw [h_v208] | rw [h_v211] | rw [h_v260] | rw [h_v261] | rw [h_v268] | rw [h_v270])
    try rfl
  · after_results_simp
    try simp only [TRef.ofBuf, TRef.toBuf, cast_eq]
    try simp only [h_arg0, h_arg1, h_arg2, h_arg3, h_arg4, h_arg5, h_arg6, h_arg7, h_v36, h_v71, h_v83, h_v95, h_v124, h_v152, h_v208, h_v211, h_v260, h_v261, h_v268, h_v270]
    repeat (first | rw [h_arg0] | rw [h_arg1] | rw [h_arg2] | rw [h_arg3] | rw [h_arg4] | rw [h_arg5] | rw [h_arg6] | rw [h_arg7] | rw [h_v36] | rw [h_v71] | rw [h_v83] | rw [h_v95] | rw [h_v124] | rw [h_v152] | rw [h_v208] | rw [h_v211] | rw [h_v260] | rw [h_v261] | rw [h_v268] | rw [h_v270])
    try rfl
  · after_results_simp
    try simp only [TRef.ofBuf, TRef.toBuf, cast_eq]
    try simp only [h_arg0, h_arg1, h_arg2, h_arg3, h_arg4, h_arg5, h_arg6, h_arg7, h_v36, h_v71, h_v83, h_v95, h_v124, h_v152, h_v208, h_v211, h_v260, h_v261, h_v268, h_v270]
    repeat (first | rw [h_arg0] | rw [h_arg1] | rw [h_arg2] | rw [h_arg3] | rw [h_arg4] | rw [h_arg5] | rw [h_arg6] | rw [h_arg7] | rw [h_v36] | rw [h_v71] | rw [h_v83] | rw [h_v95] | rw [h_v124] | rw [h_v152] | rw [h_v208] | rw [h_v211] | rw [h_v260] | rw [h_v261] | rw [h_v268] | rw [h_v270])
    try rfl
  · after_results_simp
    try simp only [TRef.ofBuf, TRef.toBuf, cast_eq]
    try simp only [h_arg0, h_arg1, h_arg2, h_arg3, h_arg4, h_arg5, h_arg6, h_arg7, h_v36, h_v71, h_v83, h_v95, h_v124, h_v152, h_v208, h_v211, h_v260, h_v261, h_v268, h_v270]
    repeat (first | rw [h_arg0] | rw [h_arg1] | rw [h_arg2] | rw [h_arg3] | rw [h_arg4] | rw [h_arg5] | rw [h_arg6] | rw [h_arg7] | rw [h_v36] | rw [h_v71] | rw [h_v83] | rw [h_v95] | rw [h_v124] | rw [h_v152] | rw [h_v208] | rw [h_v211] | rw [h_v260] | rw [h_v261] | rw [h_v268] | rw [h_v270])
    try rfl
  · after_results_simp
    try simp only [TRef.ofBuf, TRef.toBuf, cast_eq]
    try simp only [h_arg0, h_arg1, h_arg2, h_arg3, h_arg4, h_arg5, h_arg6, h_arg7, h_v36, h_v71, h_v83, h_v95, h_v124, h_v152, h_v208, h_v211, h_v260, h_v261, h_v268, h_v270]
    repeat (first | rw [h_arg0] | rw [h_arg1] | rw [h_arg2] | rw [h_arg3] | rw [h_arg4] | rw [h_arg5] | rw [h_arg6] | rw [h_arg7] | rw [h_v36] | rw [h_v71] | rw [h_v83] | rw [h_v95] | rw [h_v124] | rw [h_v152] | rw [h_v208] | rw [h_v211] | rw [h_v260] | rw [h_v261] | rw [h_v268] | rw [h_v270])
    try rfl
  · after_results_simp
    try simp only [TRef.ofBuf, TRef.toBuf, cast_eq]
    try simp only [h_arg0, h_arg1, h_arg2, h_arg3, h_arg4, h_arg5, h_arg6, h_arg7, h_v36, h_v71, h_v83, h_v95, h_v124, h_v152, h_v208, h_v211, h_v260, h_v261, h_v268, h_v270]
    repeat (first | rw [h_arg0] | rw [h_arg1] | rw [h_arg2] | rw [h_arg3] | rw [h_arg4] | rw [h_arg5] | rw [h_arg6] | rw [h_arg7] | rw [h_v36] | rw [h_v71] | rw [h_v83] | rw [h_v95] | rw [h_v124] | rw [h_v152] | rw [h_v208] | rw [h_v211] | rw [h_v260] | rw [h_v261] | rw [h_v268] | rw [h_v270])
    try rfl
  · after_results_simp
    try simp only [TRef.ofBuf, TRef.toBuf, cast_eq]
    try simp only [h_arg0, h_arg1, h_arg2, h_arg3, h_arg4, h_arg5, h_arg6, h_arg7, h_v36, h_v71, h_v83, h_v95, h_v124, h_v152, h_v208, h_v211, h_v260, h_v261, h_v268, h_v270]
    repeat (first | rw [h_arg0] | rw [h_arg1] | rw [h_arg2] | rw [h_arg3] | rw [h_arg4] | rw [h_arg5] | rw [h_arg6] | rw [h_arg7] | rw [h_v36] | rw [h_v71] | rw [h_v83] | rw [h_v95] | rw [h_v124] | rw [h_v152] | rw [h_v208] | rw [h_v211] | rw [h_v260] | rw [h_v261] | rw [h_v268] | rw [h_v270])
    try rfl
  · after_results_simp
    try simp only [TRef.ofBuf, TRef.toBuf, cast_eq]
    try simp only [h_arg0, h_arg1, h_arg2, h_arg3, h_arg4, h_arg5, h_arg6, h_arg7, h_v36, h_v71, h_v83, h_v95, h_v124, h_v152, h_v208, h_v211, h_v260, h_v261, h_v268, h_v270]
    repeat (first | rw [h_arg0] | rw [h_arg1] | rw [h_arg2] | rw [h_arg3] | rw [h_arg4] | rw [h_arg5] | rw [h_arg6] | rw [h_arg7] | rw [h_v36] | rw [h_v71] | rw [h_v83] | rw [h_v95] | rw [h_v124] | rw [h_v152] | rw [h_v208] | rw [h_v211] | rw [h_v260] | rw [h_v261] | rw [h_v268] | rw [h_v270])
    try rfl
  · after_results_simp
    try simp only [TRef.ofBuf, TRef.toBuf, cast_eq]
    try simp only [h_arg0, h_arg1, h_arg2, h_arg3, h_arg4, h_arg5, h_arg6, h_arg7, h_v36, h_v71, h_v83, h_v95, h_v124, h_v152, h_v208, h_v211, h_v260, h_v261, h_v268, h_v270]
    repeat (first | rw [h_arg0] | rw [h_arg1] | rw [h_arg2] | rw [h_arg3] | rw [h_arg4] | rw [h_arg5] | rw [h_arg6] | rw [h_arg7] | rw [h_v36] | rw [h_v71] | rw [h_v83] | rw [h_v95] | rw [h_v124] | rw [h_v152] | rw [h_v208] | rw [h_v211] | rw [h_v260] | rw [h_v261] | rw [h_v268] | rw [h_v270])
    try rfl
  · after_results_simp
    try simp only [TRef.ofBuf, TRef.toBuf, cast_eq]
    try simp only [h_arg0, h_arg1, h_arg2, h_arg3, h_arg4, h_arg5, h_arg6, h_arg7, h_v36, h_v71, h_v83, h_v95, h_v124, h_v152, h_v208, h_v211, h_v260, h_v261, h_v268, h_v270]
    repeat (first | rw [h_arg0] | rw [h_arg1] | rw [h_arg2] | rw [h_arg3] | rw [h_arg4] | rw [h_arg5] | rw [h_arg6] | rw [h_arg7] | rw [h_v36] | rw [h_v71] | rw [h_v83] | rw [h_v95] | rw [h_v124] | rw [h_v152] | rw [h_v208] | rw [h_v211] | rw [h_v260] | rw [h_v261] | rw [h_v268] | rw [h_v270])
    try rfl
  · after_results_simp
    try simp only [TRef.ofBuf, TRef.toBuf, cast_eq]
    try simp only [h_arg0, h_arg1, h_arg2, h_arg3, h_arg4, h_arg5, h_arg6, h_arg7, h_v36, h_v71, h_v83, h_v95, h_v124, h_v152, h_v208, h_v211, h_v260, h_v261, h_v268, h_v270]
    repeat (first | rw [h_arg0] | rw [h_arg1] | rw [h_arg2] | rw [h_arg3] | rw [h_arg4] | rw [h_arg5] | rw [h_arg6] | rw [h_arg7] | rw [h_v36] | rw [h_v71] | rw [h_v83] | rw [h_v95] | rw [h_v124] | rw [h_v152] | rw [h_v208] | rw [h_v211] | rw [h_v260] | rw [h_v261] | rw [h_v268] | rw [h_v270])
    try rfl
  · after_results_simp
    try simp only [TRef.ofBuf, TRef.toBuf, cast_eq]
    try simp only [h_arg0, h_arg1, h_arg2, h_arg3, h_arg4, h_arg5, h_arg6, h_arg7, h_v36, h_v71, h_v83, h_v95, h_v124, h_v152, h_v208, h_v211, h_v260, h_v261, h_v268, h_v270]
    repeat (first | rw [h_arg0] | rw [h_arg1] | rw [h_arg2] | rw [h_arg3] | rw [h_arg4] | rw [h_arg5] | rw [h_arg6] | rw [h_arg7] | rw [h_v36] | rw [h_v71] | rw [h_v83] | rw [h_v95] | rw [h_v124] | rw [h_v152] | rw [h_v208] | rw [h_v211] | rw [h_v260] | rw [h_v261] | rw [h_v268] | rw [h_v270])
    try rfl
  · after_results_simp
    try simp only [TRef.ofBuf, TRef.toBuf, cast_eq]
    try simp only [h_arg0, h_arg1, h_arg2, h_arg3, h_arg4, h_arg5, h_arg6, h_arg7, h_v36, h_v71, h_v83, h_v95, h_v124, h_v152, h_v208, h_v211, h_v260, h_v261, h_v268, h_v270]
    repeat (first | rw [h_arg0] | rw [h_arg1] | rw [h_arg2] | rw [h_arg3] | rw [h_arg4] | rw [h_arg5] | rw [h_arg6] | rw [h_arg7] | rw [h_v36] | rw [h_v71] | rw [h_v83] | rw [h_v95] | rw [h_v124] | rw [h_v152] | rw [h_v208] | rw [h_v211] | rw [h_v260] | rw [h_v261] | rw [h_v268] | rw [h_v270])
    try rfl
  · after_results_simp
    try simp only [TRef.ofBuf, TRef.toBuf, cast_eq]
    try simp only [h_arg0, h_arg1, h_arg2, h_arg3, h_arg4, h_arg5, h_arg6, h_arg7, h_v36, h_v71, h_v83, h_v95, h_v124, h_v152, h_v208, h_v211, h_v260, h_v261, h_v268, h_v270]
    repeat (first | rw [h_arg0] | rw [h_arg1] | rw [h_arg2] | rw [h_arg3] | rw [h_arg4] | rw [h_arg5] | rw [h_arg6] | rw [h_arg7] | rw [h_v36] | rw [h_v71] | rw [h_v83] | rw [h_v95] | rw [h_v124] | rw [h_v152] | rw [h_v208] | rw [h_v211] | rw [h_v260] | rw [h_v261] | rw [h_v268] | rw [h_v270])
    try rfl
  · after_results_simp
    try simp only [TRef.ofBuf, TRef.toBuf, cast_eq]
    try simp only [h_arg0, h_arg1, h_arg2, h_arg3, h_arg4, h_arg5, h_arg6, h_arg7, h_v36, h_v71, h_v83, h_v95, h_v124, h_v152, h_v208, h_v211, h_v260, h_v261, h_v268, h_v270]
    repeat (first | rw [h_arg0] | rw [h_arg1] | rw [h_arg2] | rw [h_arg3] | rw [h_arg4] | rw [h_arg5] | rw [h_arg6] | rw [h_arg7] | rw [h_v36] | rw [h_v71] | rw [h_v83] | rw [h_v95] | rw [h_v124] | rw [h_v152] | rw [h_v208] | rw [h_v211] | rw [h_v260] | rw [h_v261] | rw [h_v268] | rw [h_v270])
    try rfl

end Cert.ReferenceIdeal.RunP

end
-- ==== Proof.Ref.Stage6.lean ====
/-
  Part 6 of the reference's @main takes the boundary facts before it to the boundary facts after it: each buffer the
  part computes is its operation applied to the buffers it reads, and those hold their stage values; every other live
  buffer is untouched.
-/
import proofs.«109971_j31181462569594_2_alg».proof.Proof.Ref.Inv

noncomputable section

namespace Cert.ReferenceIdeal.RunP

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

set_option maxRecDepth 16384 in
set_option maxHeartbeats 4000000 in
theorem step6 (V W : Valuation τ sig (Elt F)) (h : Inv5 V W) : Inv6 V (after ops_part6 W) := by
  obtain ⟨h_arg0, h_arg1, h_arg2, h_arg3, h_arg4, h_arg5, h_arg6, h_arg7, h_v36, h_v71, h_v83, h_v95, h_v124, h_v208, h_v211, h_v286, h_v297, h_v308, h_v326, h_v327⟩ := h
  refine ⟨?_, ?_, ?_, ?_, ?_, ?_, ?_, ?_, ?_, ?_, ?_, ?_, ?_, ?_, ?_⟩
  · after_results_simp
    try simp only [TRef.ofBuf, TRef.toBuf, cast_eq]
    try simp only [h_arg0, h_arg1, h_arg2, h_arg3, h_arg4, h_arg5, h_arg6, h_arg7, h_v36, h_v71, h_v83, h_v95, h_v124, h_v208, h_v211, h_v286, h_v297, h_v308, h_v326, h_v327]
    repeat (first | rw [h_arg0] | rw [h_arg1] | rw [h_arg2] | rw [h_arg3] | rw [h_arg4] | rw [h_arg5] | rw [h_arg6] | rw [h_arg7] | rw [h_v36] | rw [h_v71] | rw [h_v83] | rw [h_v95] | rw [h_v124] | rw [h_v208] | rw [h_v211] | rw [h_v286] | rw [h_v297] | rw [h_v308] | rw [h_v326] | rw [h_v327])
    try rfl
  · after_results_simp
    try simp only [TRef.ofBuf, TRef.toBuf, cast_eq]
    try simp only [h_arg0, h_arg1, h_arg2, h_arg3, h_arg4, h_arg5, h_arg6, h_arg7, h_v36, h_v71, h_v83, h_v95, h_v124, h_v208, h_v211, h_v286, h_v297, h_v308, h_v326, h_v327]
    repeat (first | rw [h_arg0] | rw [h_arg1] | rw [h_arg2] | rw [h_arg3] | rw [h_arg4] | rw [h_arg5] | rw [h_arg6] | rw [h_arg7] | rw [h_v36] | rw [h_v71] | rw [h_v83] | rw [h_v95] | rw [h_v124] | rw [h_v208] | rw [h_v211] | rw [h_v286] | rw [h_v297] | rw [h_v308] | rw [h_v326] | rw [h_v327])
    try rfl
  · after_results_simp
    try simp only [TRef.ofBuf, TRef.toBuf, cast_eq]
    try simp only [h_arg0, h_arg1, h_arg2, h_arg3, h_arg4, h_arg5, h_arg6, h_arg7, h_v36, h_v71, h_v83, h_v95, h_v124, h_v208, h_v211, h_v286, h_v297, h_v308, h_v326, h_v327]
    repeat (first | rw [h_arg0] | rw [h_arg1] | rw [h_arg2] | rw [h_arg3] | rw [h_arg4] | rw [h_arg5] | rw [h_arg6] | rw [h_arg7] | rw [h_v36] | rw [h_v71] | rw [h_v83] | rw [h_v95] | rw [h_v124] | rw [h_v208] | rw [h_v211] | rw [h_v286] | rw [h_v297] | rw [h_v308] | rw [h_v326] | rw [h_v327])
    try rfl
  · after_results_simp
    try simp only [TRef.ofBuf, TRef.toBuf, cast_eq]
    try simp only [h_arg0, h_arg1, h_arg2, h_arg3, h_arg4, h_arg5, h_arg6, h_arg7, h_v36, h_v71, h_v83, h_v95, h_v124, h_v208, h_v211, h_v286, h_v297, h_v308, h_v326, h_v327]
    repeat (first | rw [h_arg0] | rw [h_arg1] | rw [h_arg2] | rw [h_arg3] | rw [h_arg4] | rw [h_arg5] | rw [h_arg6] | rw [h_arg7] | rw [h_v36] | rw [h_v71] | rw [h_v83] | rw [h_v95] | rw [h_v124] | rw [h_v208] | rw [h_v211] | rw [h_v286] | rw [h_v297] | rw [h_v308] | rw [h_v326] | rw [h_v327])
    try rfl
  · after_results_simp
    try simp only [TRef.ofBuf, TRef.toBuf, cast_eq]
    try simp only [h_arg0, h_arg1, h_arg2, h_arg3, h_arg4, h_arg5, h_arg6, h_arg7, h_v36, h_v71, h_v83, h_v95, h_v124, h_v208, h_v211, h_v286, h_v297, h_v308, h_v326, h_v327]
    repeat (first | rw [h_arg0] | rw [h_arg1] | rw [h_arg2] | rw [h_arg3] | rw [h_arg4] | rw [h_arg5] | rw [h_arg6] | rw [h_arg7] | rw [h_v36] | rw [h_v71] | rw [h_v83] | rw [h_v95] | rw [h_v124] | rw [h_v208] | rw [h_v211] | rw [h_v286] | rw [h_v297] | rw [h_v308] | rw [h_v326] | rw [h_v327])
    try rfl
  · after_results_simp
    try simp only [TRef.ofBuf, TRef.toBuf, cast_eq]
    try simp only [h_arg0, h_arg1, h_arg2, h_arg3, h_arg4, h_arg5, h_arg6, h_arg7, h_v36, h_v71, h_v83, h_v95, h_v124, h_v208, h_v211, h_v286, h_v297, h_v308, h_v326, h_v327]
    repeat (first | rw [h_arg0] | rw [h_arg1] | rw [h_arg2] | rw [h_arg3] | rw [h_arg4] | rw [h_arg5] | rw [h_arg6] | rw [h_arg7] | rw [h_v36] | rw [h_v71] | rw [h_v83] | rw [h_v95] | rw [h_v124] | rw [h_v208] | rw [h_v211] | rw [h_v286] | rw [h_v297] | rw [h_v308] | rw [h_v326] | rw [h_v327])
    try rfl
  · after_results_simp
    try simp only [TRef.ofBuf, TRef.toBuf, cast_eq]
    try simp only [h_arg0, h_arg1, h_arg2, h_arg3, h_arg4, h_arg5, h_arg6, h_arg7, h_v36, h_v71, h_v83, h_v95, h_v124, h_v208, h_v211, h_v286, h_v297, h_v308, h_v326, h_v327]
    repeat (first | rw [h_arg0] | rw [h_arg1] | rw [h_arg2] | rw [h_arg3] | rw [h_arg4] | rw [h_arg5] | rw [h_arg6] | rw [h_arg7] | rw [h_v36] | rw [h_v71] | rw [h_v83] | rw [h_v95] | rw [h_v124] | rw [h_v208] | rw [h_v211] | rw [h_v286] | rw [h_v297] | rw [h_v308] | rw [h_v326] | rw [h_v327])
    try rfl
  · after_results_simp
    try simp only [TRef.ofBuf, TRef.toBuf, cast_eq]
    try simp only [h_arg0, h_arg1, h_arg2, h_arg3, h_arg4, h_arg5, h_arg6, h_arg7, h_v36, h_v71, h_v83, h_v95, h_v124, h_v208, h_v211, h_v286, h_v297, h_v308, h_v326, h_v327]
    repeat (first | rw [h_arg0] | rw [h_arg1] | rw [h_arg2] | rw [h_arg3] | rw [h_arg4] | rw [h_arg5] | rw [h_arg6] | rw [h_arg7] | rw [h_v36] | rw [h_v71] | rw [h_v83] | rw [h_v95] | rw [h_v124] | rw [h_v208] | rw [h_v211] | rw [h_v286] | rw [h_v297] | rw [h_v308] | rw [h_v326] | rw [h_v327])
    try rfl
  · after_results_simp
    try simp only [TRef.ofBuf, TRef.toBuf, cast_eq]
    try simp only [h_arg0, h_arg1, h_arg2, h_arg3, h_arg4, h_arg5, h_arg6, h_arg7, h_v36, h_v71, h_v83, h_v95, h_v124, h_v208, h_v211, h_v286, h_v297, h_v308, h_v326, h_v327]
    repeat (first | rw [h_arg0] | rw [h_arg1] | rw [h_arg2] | rw [h_arg3] | rw [h_arg4] | rw [h_arg5] | rw [h_arg6] | rw [h_arg7] | rw [h_v36] | rw [h_v71] | rw [h_v83] | rw [h_v95] | rw [h_v124] | rw [h_v208] | rw [h_v211] | rw [h_v286] | rw [h_v297] | rw [h_v308] | rw [h_v326] | rw [h_v327])
    try rfl
  · after_results_simp
    try simp only [TRef.ofBuf, TRef.toBuf, cast_eq]
    try simp only [h_arg0, h_arg1, h_arg2, h_arg3, h_arg4, h_arg5, h_arg6, h_arg7, h_v36, h_v71, h_v83, h_v95, h_v124, h_v208, h_v211, h_v286, h_v297, h_v308, h_v326, h_v327]
    repeat (first | rw [h_arg0] | rw [h_arg1] | rw [h_arg2] | rw [h_arg3] | rw [h_arg4] | rw [h_arg5] | rw [h_arg6] | rw [h_arg7] | rw [h_v36] | rw [h_v71] | rw [h_v83] | rw [h_v95] | rw [h_v124] | rw [h_v208] | rw [h_v211] | rw [h_v286] | rw [h_v297] | rw [h_v308] | rw [h_v326] | rw [h_v327])
    try rfl
  · after_results_simp
    try simp only [TRef.ofBuf, TRef.toBuf, cast_eq]
    try simp only [h_arg0, h_arg1, h_arg2, h_arg3, h_arg4, h_arg5, h_arg6, h_arg7, h_v36, h_v71, h_v83, h_v95, h_v124, h_v208, h_v211, h_v286, h_v297, h_v308, h_v326, h_v327]
    repeat (first | rw [h_arg0] | rw [h_arg1] | rw [h_arg2] | rw [h_arg3] | rw [h_arg4] | rw [h_arg5] | rw [h_arg6] | rw [h_arg7] | rw [h_v36] | rw [h_v71] | rw [h_v83] | rw [h_v95] | rw [h_v124] | rw [h_v208] | rw [h_v211] | rw [h_v286] | rw [h_v297] | rw [h_v308] | rw [h_v326] | rw [h_v327])
    try rfl
  · after_results_simp
    try simp only [TRef.ofBuf, TRef.toBuf, cast_eq]
    try simp only [h_arg0, h_arg1, h_arg2, h_arg3, h_arg4, h_arg5, h_arg6, h_arg7, h_v36, h_v71, h_v83, h_v95, h_v124, h_v208, h_v211, h_v286, h_v297, h_v308, h_v326, h_v327]
    repeat (first | rw [h_arg0] | rw [h_arg1] | rw [h_arg2] | rw [h_arg3] | rw [h_arg4] | rw [h_arg5] | rw [h_arg6] | rw [h_arg7] | rw [h_v36] | rw [h_v71] | rw [h_v83] | rw [h_v95] | rw [h_v124] | rw [h_v208] | rw [h_v211] | rw [h_v286] | rw [h_v297] | rw [h_v308] | rw [h_v326] | rw [h_v327])
    try rfl
  · after_results_simp
    try simp only [TRef.ofBuf, TRef.toBuf, cast_eq]
    try simp only [h_arg0, h_arg1, h_arg2, h_arg3, h_arg4, h_arg5, h_arg6, h_arg7, h_v36, h_v71, h_v83, h_v95, h_v124, h_v208, h_v211, h_v286, h_v297, h_v308, h_v326, h_v327]
    repeat (first | rw [h_arg0] | rw [h_arg1] | rw [h_arg2] | rw [h_arg3] | rw [h_arg4] | rw [h_arg5] | rw [h_arg6] | rw [h_arg7] | rw [h_v36] | rw [h_v71] | rw [h_v83] | rw [h_v95] | rw [h_v124] | rw [h_v208] | rw [h_v211] | rw [h_v286] | rw [h_v297] | rw [h_v308] | rw [h_v326] | rw [h_v327])
    try rfl
  · after_results_simp
    try simp only [TRef.ofBuf, TRef.toBuf, cast_eq]
    try simp only [h_arg0, h_arg1, h_arg2, h_arg3, h_arg4, h_arg5, h_arg6, h_arg7, h_v36, h_v71, h_v83, h_v95, h_v124, h_v208, h_v211, h_v286, h_v297, h_v308, h_v326, h_v327]
    repeat (first | rw [h_arg0] | rw [h_arg1] | rw [h_arg2] | rw [h_arg3] | rw [h_arg4] | rw [h_arg5] | rw [h_arg6] | rw [h_arg7] | rw [h_v36] | rw [h_v71] | rw [h_v83] | rw [h_v95] | rw [h_v124] | rw [h_v208] | rw [h_v211] | rw [h_v286] | rw [h_v297] | rw [h_v308] | rw [h_v326] | rw [h_v327])
    try rfl
  · after_results_simp
    try simp only [TRef.ofBuf, TRef.toBuf, cast_eq]
    try simp only [h_arg0, h_arg1, h_arg2, h_arg3, h_arg4, h_arg5, h_arg6, h_arg7, h_v36, h_v71, h_v83, h_v95, h_v124, h_v208, h_v211, h_v286, h_v297, h_v308, h_v326, h_v327]
    repeat (first | rw [h_arg0] | rw [h_arg1] | rw [h_arg2] | rw [h_arg3] | rw [h_arg4] | rw [h_arg5] | rw [h_arg6] | rw [h_arg7] | rw [h_v36] | rw [h_v71] | rw [h_v83] | rw [h_v95] | rw [h_v124] | rw [h_v208] | rw [h_v211] | rw [h_v286] | rw [h_v297] | rw [h_v308] | rw [h_v326] | rw [h_v327])
    try rfl

end Cert.ReferenceIdeal.RunP

end
-- ==== Proof.Ref.Stage7.lean ====
/-
  Part 7 of the reference's @main takes the boundary facts before it to the boundary facts after it: each buffer the
  part computes is its operation applied to the buffers it reads, and those hold their stage values; every other live
  buffer is untouched.
-/
import proofs.«109971_j31181462569594_2_alg».proof.Proof.Ref.Inv

noncomputable section

namespace Cert.ReferenceIdeal.RunP

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

set_option maxRecDepth 16384 in
set_option maxHeartbeats 4000000 in
theorem step7 (V W : Valuation τ sig (Elt F)) (h : Inv6 V W) : Inv7 V (after ops_part7 W) := by
  obtain ⟨h_arg0, h_arg1, h_arg2, h_arg3, h_arg4, h_arg5, h_arg6, h_arg7, h_v71, h_v95, h_v208, h_v211, h_v286, h_v361, h_v380⟩ := h
  refine ⟨?_, ?_, ?_, ?_, ?_, ?_, ?_, ?_, ?_, ?_⟩
  · after_results_simp
    try simp only [TRef.ofBuf, TRef.toBuf, cast_eq]
    try simp only [h_arg0, h_arg1, h_arg2, h_arg3, h_arg4, h_arg5, h_arg6, h_arg7, h_v71, h_v95, h_v208, h_v211, h_v286, h_v361, h_v380]
    repeat (first | rw [h_arg0] | rw [h_arg1] | rw [h_arg2] | rw [h_arg3] | rw [h_arg4] | rw [h_arg5] | rw [h_arg6] | rw [h_arg7] | rw [h_v71] | rw [h_v95] | rw [h_v208] | rw [h_v211] | rw [h_v286] | rw [h_v361] | rw [h_v380])
    try rfl
  · after_results_simp
    try simp only [TRef.ofBuf, TRef.toBuf, cast_eq]
    try simp only [h_arg0, h_arg1, h_arg2, h_arg3, h_arg4, h_arg5, h_arg6, h_arg7, h_v71, h_v95, h_v208, h_v211, h_v286, h_v361, h_v380]
    repeat (first | rw [h_arg0] | rw [h_arg1] | rw [h_arg2] | rw [h_arg3] | rw [h_arg4] | rw [h_arg5] | rw [h_arg6] | rw [h_arg7] | rw [h_v71] | rw [h_v95] | rw [h_v208] | rw [h_v211] | rw [h_v286] | rw [h_v361] | rw [h_v380])
    try rfl
  · after_results_simp
    try simp only [TRef.ofBuf, TRef.toBuf, cast_eq]
    try simp only [h_arg0, h_arg1, h_arg2, h_arg3, h_arg4, h_arg5, h_arg6, h_arg7, h_v71, h_v95, h_v208, h_v211, h_v286, h_v361, h_v380]
    repeat (first | rw [h_arg0] | rw [h_arg1] | rw [h_arg2] | rw [h_arg3] | rw [h_arg4] | rw [h_arg5] | rw [h_arg6] | rw [h_arg7] | rw [h_v71] | rw [h_v95] | rw [h_v208] | rw [h_v211] | rw [h_v286] | rw [h_v361] | rw [h_v380])
    try rfl
  · after_results_simp
    try simp only [TRef.ofBuf, TRef.toBuf, cast_eq]
    try simp only [h_arg0, h_arg1, h_arg2, h_arg3, h_arg4, h_arg5, h_arg6, h_arg7, h_v71, h_v95, h_v208, h_v211, h_v286, h_v361, h_v380]
    repeat (first | rw [h_arg0] | rw [h_arg1] | rw [h_arg2] | rw [h_arg3] | rw [h_arg4] | rw [h_arg5] | rw [h_arg6] | rw [h_arg7] | rw [h_v71] | rw [h_v95] | rw [h_v208] | rw [h_v211] | rw [h_v286] | rw [h_v361] | rw [h_v380])
    try rfl
  · after_results_simp
    try simp only [TRef.ofBuf, TRef.toBuf, cast_eq]
    try simp only [h_arg0, h_arg1, h_arg2, h_arg3, h_arg4, h_arg5, h_arg6, h_arg7, h_v71, h_v95, h_v208, h_v211, h_v286, h_v361, h_v380]
    repeat (first | rw [h_arg0] | rw [h_arg1] | rw [h_arg2] | rw [h_arg3] | rw [h_arg4] | rw [h_arg5] | rw [h_arg6] | rw [h_arg7] | rw [h_v71] | rw [h_v95] | rw [h_v208] | rw [h_v211] | rw [h_v286] | rw [h_v361] | rw [h_v380])
    try rfl
  · after_results_simp
    try simp only [TRef.ofBuf, TRef.toBuf, cast_eq]
    try simp only [h_arg0, h_arg1, h_arg2, h_arg3, h_arg4, h_arg5, h_arg6, h_arg7, h_v71, h_v95, h_v208, h_v211, h_v286, h_v361, h_v380]
    repeat (first | rw [h_arg0] | rw [h_arg1] | rw [h_arg2] | rw [h_arg3] | rw [h_arg4] | rw [h_arg5] | rw [h_arg6] | rw [h_arg7] | rw [h_v71] | rw [h_v95] | rw [h_v208] | rw [h_v211] | rw [h_v286] | rw [h_v361] | rw [h_v380])
    try rfl
  · after_results_simp
    try simp only [TRef.ofBuf, TRef.toBuf, cast_eq]
    try simp only [h_arg0, h_arg1, h_arg2, h_arg3, h_arg4, h_arg5, h_arg6, h_arg7, h_v71, h_v95, h_v208, h_v211, h_v286, h_v361, h_v380]
    repeat (first | rw [h_arg0] | rw [h_arg1] | rw [h_arg2] | rw [h_arg3] | rw [h_arg4] | rw [h_arg5] | rw [h_arg6] | rw [h_arg7] | rw [h_v71] | rw [h_v95] | rw [h_v208] | rw [h_v211] | rw [h_v286] | rw [h_v361] | rw [h_v380])
    try rfl
  · after_results_simp
    try simp only [TRef.ofBuf, TRef.toBuf, cast_eq]
    try simp only [h_arg0, h_arg1, h_arg2, h_arg3, h_arg4, h_arg5, h_arg6, h_arg7, h_v71, h_v95, h_v208, h_v211, h_v286, h_v361, h_v380]
    repeat (first | rw [h_arg0] | rw [h_arg1] | rw [h_arg2] | rw [h_arg3] | rw [h_arg4] | rw [h_arg5] | rw [h_arg6] | rw [h_arg7] | rw [h_v71] | rw [h_v95] | rw [h_v208] | rw [h_v211] | rw [h_v286] | rw [h_v361] | rw [h_v380])
    try rfl
  · after_results_simp
    try simp only [TRef.ofBuf, TRef.toBuf, cast_eq]
    try simp only [h_arg0, h_arg1, h_arg2, h_arg3, h_arg4, h_arg5, h_arg6, h_arg7, h_v71, h_v95, h_v208, h_v211, h_v286, h_v361, h_v380]
    repeat (first | rw [h_arg0] | rw [h_arg1] | rw [h_arg2] | rw [h_arg3] | rw [h_arg4] | rw [h_arg5] | rw [h_arg6] | rw [h_arg7] | rw [h_v71] | rw [h_v95] | rw [h_v208] | rw [h_v211] | rw [h_v286] | rw [h_v361] | rw [h_v380])
    try rfl
  · after_results_simp
    try simp only [TRef.ofBuf, TRef.toBuf, cast_eq]
    try simp only [h_arg0, h_arg1, h_arg2, h_arg3, h_arg4, h_arg5, h_arg6, h_arg7, h_v71, h_v95, h_v208, h_v211, h_v286, h_v361, h_v380]
    repeat (first | rw [h_arg0] | rw [h_arg1] | rw [h_arg2] | rw [h_arg3] | rw [h_arg4] | rw [h_arg5] | rw [h_arg6] | rw [h_arg7] | rw [h_v71] | rw [h_v95] | rw [h_v208] | rw [h_v211] | rw [h_v286] | rw [h_v361] | rw [h_v380])
    try rfl

end Cert.ReferenceIdeal.RunP

end
-- ==== Proof.Ref.Run.lean ====
/-
  The reference program's run, over its stage values. The eight parts of @main, one after the other, take the launch
  contents to contents at which the two results hold the last stage functions of the arguments and every argument is
  as launched; and the program terminates with every buffer at those contents.
-/
import proofs.«109971_j31181462569594_2_alg».proof.Proof.Ref.Stage0
import proofs.«109971_j31181462569594_2_alg».proof.Proof.Ref.Stage1
import proofs.«109971_j31181462569594_2_alg».proof.Proof.Ref.Stage2
import proofs.«109971_j31181462569594_2_alg».proof.Proof.Ref.Stage3
import proofs.«109971_j31181462569594_2_alg».proof.Proof.Ref.Stage4
import proofs.«109971_j31181462569594_2_alg».proof.Proof.Ref.Stage5
import proofs.«109971_j31181462569594_2_alg».proof.Proof.Ref.Stage6
import proofs.«109971_j31181462569594_2_alg».proof.Proof.Ref.Stage7

noncomputable section

namespace Cert.ReferenceIdeal.RunP

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- After all eight parts. -/
theorem inv_end (V : Valuation τ sig (Elt F)) : Inv7 V (after ops V) := by
  have h := step7 V _ (step6 V _ (step5 V _ (step4 V _ (step3 V _ (step2 V _ (step1 V _ (step0 V V (invStart V))))))))
  simpa only [ops, StableHlo.after_append] using h

/-- On every device, for any float values, from any memory with zero counters: every weakly fair execution of @main
    terminates with the two results at their stage values of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v406) = val_main_v406 (F := F) (m ((c.tc : Thread nD τ).loc main_arg0)) (m ((c.tc : Thread nD τ).loc main_arg1)) (m ((c.tc : Thread nD τ).loc main_arg3)) (m ((c.tc : Thread nD τ).loc main_arg5)) (m ((c.tc : Thread nD τ).loc main_arg6)) (m ((c.tc : Thread nD τ).loc main_arg7))
      ∧ r.2.mem ((c.tc : Thread nD τ).loc main_v409) = val_main_v409 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => by
    obtain ⟨a0, a1, a2, a3, a4, a5, a6, a7, r0, r1⟩ := inv_end (F := F) (launchContents m c)
    exact ⟨(h c main_v406).trans r0, (h c main_v409).trans r1, (h c main_arg0).trans a0, (h c main_arg1).trans a1, (h c main_arg2).trans a2,
      (h c main_arg3).trans a3, (h c main_arg4).trans a4, (h c main_arg5).trans a5, (h c main_arg6).trans a6, (h c main_arg7).trans a7⟩) (run0 m ρ)

end Cert.ReferenceIdeal.RunP

end
-- ==== Proof.Ref.Val.lean ====
/-
  The reference program's two results read at an index, at the ideal instance: each entry is the matching cost of the
  spec. The reference computes the whole batch at once: it scales every box through a concatenation of its four corners,
  takes the softmax of every row of logits, forms the class-distance matrices by a batched matrix product, the overlap of
  every entity box with every relation box through rank-four arrays (and transposes the result), and multiplies the
  three factors. Against the spec the differences are the order of the two boxes in the overlap (entity first), a
  maximum with minus infinity before the softmax's shift, and a zero added to its sum.
-/
import proofs.«109971_j31181462569594_2_alg».proof.Proof.Ref.ReadP
import proofs.«109971_j31181462569594_2_alg».proof.Proof.LibLayout
import proofs.«109971_j31181462569594_2_alg».proof.Proof.LibHost
import proofs.«109971_j31181462569594_2_alg».proof.Proof.Spec

noncomputable section

namespace Cert.ReferenceIdeal.RefVal

open Cert.ReferenceIdeal Cert.ReferenceIdeal.Gen Cert.ReferenceIdeal.Read Idealize.ShloMosaic Idealize.ShloMosaic.ValueIdx Cert.LibLayout Cert.LibHost Cert.Spec

variable [Cert.ReferenceIdeal.Facts]

/-! ## Laws on the extended reals -/

/-- Minus infinity is the least extended real: the maximum with it changes nothing. -/
theorem max_negInf (m : EReal) : max (Ideal.ofBits .f32 0xFF800000#32) m = m := by
  have h : Ideal.ofBits .f32 0xFF800000#32 = (⊥ : EReal) := by simp [Ideal.ofBits, Ideal.ieee]
  rw [h]; exact max_bot_left m

/-- Zero added on the left changes nothing. -/
theorem zero_add_bits (s : EReal) : Ideal.ofBits .f32 0x00000000#32 + s = s := by
  rw [Ideal.ofBits_zero_f32]; exact zero_add s

/-- The positive part, with the zero written first. -/
theorem clip_eq (x : EReal) : max (Ideal.ofBits .f32 0x00000000#32) x = max x (Ideal.ofBits .f32 0x00000000#32) := max_comm _ _

/-- The intersection, the union, the hull and so the generalized overlap do not depend on the order of the two boxes. -/
theorem inter_swap (ax0 ay0 ax1 ay1 bx0 by0 bx1 by1 : EReal) :
    inter ax0 ay0 ax1 ay1 bx0 by0 bx1 by1 = inter bx0 by0 bx1 by1 ax0 ay0 ax1 ay1 := by
  unfold inter; rw [min_comm ax1 bx1, max_comm ax0 bx0, min_comm ay1 by1, max_comm ay0 by0]

theorem union_swap (ax0 ay0 ax1 ay1 bx0 by0 bx1 by1 : EReal) :
    union ax0 ay0 ax1 ay1 bx0 by0 bx1 by1 = union bx0 by0 bx1 by1 ax0 ay0 ax1 ay1 := by
  unfold union; rw [inter_swap, add_comm]

theorem hull_swap (ax0 ay0 ax1 ay1 bx0 by0 bx1 by1 : EReal) :
    hull ax0 ay0 ax1 ay1 bx0 by0 bx1 by1 = hull bx0 by0 bx1 by1 ax0 ay0 ax1 ay1 := by
  unfold hull; rw [max_comm ax1 bx1, min_comm ax0 bx0, max_comm ay1 by1, min_comm ay0 by0]

theorem giou_swap (ax0 ay0 ax1 ay1 bx0 by0 bx1 by1 : EReal) :
    giou ax0 ay0 ax1 ay1 bx0 by0 bx1 by1 = giou bx0 by0 bx1 by1 ax0 ay0 ax1 ay1 := by
  unfold giou; rw [inter_swap, union_swap, hull_swap]

/-! ## Layout operations read at an index -/

section Rules
variable {α : Type}

/-- A concatenation of four unit-width pieces along the last axis of a rank-three array, read at each of its four last coordinates. -/
theorem concat3_c0 {n m : ℕ} (ax : Fin 3) (y0 y1 y2 y3 : (⟨3, ![n, m, 1]⟩ : Shape).Idx → α)
    (h : Shape.Concatenates (([⟨⟨3, ![n, m, 1]⟩, y0⟩, ⟨⟨3, ![n, m, 1]⟩, y1⟩, ⟨⟨3, ![n, m, 1]⟩, y2⟩, ⟨⟨3, ![n, m, 1]⟩, y3⟩] : List ((s : Shape) × (s.Idx → α))).map (·.1)) ⟨3, ![n, m, 4]⟩ ax)
    (hax : ax = 2) (b : Fin n) (e : Fin m) :
    concatenate ⟨3, ![n, m, 4]⟩ ax [⟨⟨3, ![n, m, 1]⟩, y0⟩, ⟨⟨3, ![n, m, 1]⟩, y1⟩, ⟨⟨3, ![n, m, 1]⟩, y2⟩, ⟨⟨3, ![n, m, 1]⟩, y3⟩] h (ix3 b e (0 : Fin 4)) = y0 (ix3 b e (0 : Fin 1)) :=
  (concat4_cols3 ax y0 y1 y2 y3 h hax b e).1
theorem concat3_c1 {n m : ℕ} (ax : Fin 3) (y0 y1 y2 y3 : (⟨3, ![n, m, 1]⟩ : Shape).Idx → α)
    (h : Shape.Concatenates (([⟨⟨3, ![n, m, 1]⟩, y0⟩, ⟨⟨3, ![n, m, 1]⟩, y1⟩, ⟨⟨3, ![n, m, 1]⟩, y2⟩, ⟨⟨3, ![n, m, 1]⟩, y3⟩] : List ((s : Shape) × (s.Idx → α))).map (·.1)) ⟨3, ![n, m, 4]⟩ ax)
    (hax : ax = 2) (b : Fin n) (e : Fin m) :
    concatenate ⟨3, ![n, m, 4]⟩ ax [⟨⟨3, ![n, m, 1]⟩, y0⟩, ⟨⟨3, ![n, m, 1]⟩, y1⟩, ⟨⟨3, ![n, m, 1]⟩, y2⟩, ⟨⟨3, ![n, m, 1]⟩, y3⟩] h (ix3 b e (1 : Fin 4)) = y1 (ix3 b e (0 : Fin 1)) :=
  (concat4_cols3 ax y0 y1 y2 y3 h hax b e).2.1
theorem concat3_c2 {n m : ℕ} (ax : Fin 3) (y0 y1 y2 y3 : (⟨3, ![n, m, 1]⟩ : Shape).Idx → α)
    (h : Shape.Concatenates (([⟨⟨3, ![n, m, 1]⟩, y0⟩, ⟨⟨3, ![n, m, 1]⟩, y1⟩, ⟨⟨3, ![n, m, 1]⟩, y2⟩, ⟨⟨3, ![n, m, 1]⟩, y3⟩] : List ((s : Shape) × (s.Idx → α))).map (·.1)) ⟨3, ![n, m, 4]⟩ ax)
    (hax : ax = 2) (b : Fin n) (e : Fin m) :
    concatenate ⟨3, ![n, m, 4]⟩ ax [⟨⟨3, ![n, m, 1]⟩, y0⟩, ⟨⟨3, ![n, m, 1]⟩, y1⟩, ⟨⟨3, ![n, m, 1]⟩, y2⟩, ⟨⟨3, ![n, m, 1]⟩, y3⟩] h (ix3 b e (2 : Fin 4)) = y2 (ix3 b e (0 : Fin 1)) :=
  (concat4_cols3 ax y0 y1 y2 y3 h hax b e).2.2.1
theorem concat3_c3 {n m : ℕ} (ax : Fin 3) (y0 y1 y2 y3 : (⟨3, ![n, m, 1]⟩ : Shape).Idx → α)
    (h : Shape.Concatenates (([⟨⟨3, ![n, m, 1]⟩, y0⟩, ⟨⟨3, ![n, m, 1]⟩, y1⟩, ⟨⟨3, ![n, m, 1]⟩, y2⟩, ⟨⟨3, ![n, m, 1]⟩, y3⟩] : List ((s : Shape) × (s.Idx → α))).map (·.1)) ⟨3, ![n, m, 4]⟩ ax)
    (hax : ax = 2) (b : Fin n) (e : Fin m) :
    concatenate ⟨3, ![n, m, 4]⟩ ax [⟨⟨3, ![n, m, 1]⟩, y0⟩, ⟨⟨3, ![n, m, 1]⟩, y1⟩, ⟨⟨3, ![n, m, 1]⟩, y2⟩, ⟨⟨3, ![n, m, 1]⟩, y3⟩] h (ix3 b e (3 : Fin 4)) = y3 (ix3 b e (0 : Fin 1)) :=
  (concat4_cols3 ax y0 y1 y2 y3 h hax b e).2.2.2

/-- The same at rank two. -/
theorem concat2_c0 {n : ℕ} (ax : Fin 2) (y0 y1 y2 y3 : (⟨2, ![n, 1]⟩ : Shape).Idx → α)
    (h : Shape.Concatenates (([⟨⟨2, ![n, 1]⟩, y0⟩, ⟨⟨2, ![n, 1]⟩, y1⟩, ⟨⟨2, ![n, 1]⟩, y2⟩, ⟨⟨2, ![n, 1]⟩, y3⟩] : List ((s : Shape) × (s.Idx → α))).map (·.1)) ⟨2, ![n, 4]⟩ ax)
    (hax : ax = 1) (b : Fin n) :
    concatenate ⟨2, ![n, 4]⟩ ax [⟨⟨2, ![n, 1]⟩, y0⟩, ⟨⟨2, ![n, 1]⟩, y1⟩, ⟨⟨2, ![n, 1]⟩, y2⟩, ⟨⟨2, ![n, 1]⟩, y3⟩] h (ix2 b (0 : Fin 4)) = y0 (ix2 b (0 : Fin 1)) :=
  (concat4_cols2 ax y0 y1 y2 y3 h hax b).1
theorem concat2_c1 {n : ℕ} (ax : Fin 2) (y0 y1 y2 y3 : (⟨2, ![n, 1]⟩ : Shape).Idx → α)
    (h : Shape.Concatenates (([⟨⟨2, ![n, 1]⟩, y0⟩, ⟨⟨2, ![n, 1]⟩, y1⟩, ⟨⟨2, ![n, 1]⟩, y2⟩, ⟨⟨2, ![n, 1]⟩, y3⟩] : List ((s : Shape) × (s.Idx → α))).map (·.1)) ⟨2, ![n, 4]⟩ ax)
    (hax : ax = 1) (b : Fin n) :
    concatenate ⟨2, ![n, 4]⟩ ax [⟨⟨2, ![n, 1]⟩, y0⟩, ⟨⟨2, ![n, 1]⟩, y1⟩, ⟨⟨2, ![n, 1]⟩, y2⟩, ⟨⟨2, ![n, 1]⟩, y3⟩] h (ix2 b (1 : Fin 4)) = y1 (ix2 b (0 : Fin 1)) :=
  (concat4_cols2 ax y0 y1 y2 y3 h hax b).2.1
theorem concat2_c2 {n : ℕ} (ax : Fin 2) (y0 y1 y2 y3 : (⟨2, ![n, 1]⟩ : Shape).Idx → α)
    (h : Shape.Concatenates (([⟨⟨2, ![n, 1]⟩, y0⟩, ⟨⟨2, ![n, 1]⟩, y1⟩, ⟨⟨2, ![n, 1]⟩, y2⟩, ⟨⟨2, ![n, 1]⟩, y3⟩] : List ((s : Shape) × (s.Idx → α))).map (·.1)) ⟨2, ![n, 4]⟩ ax)
    (hax : ax = 1) (b : Fin n) :
    concatenate ⟨2, ![n, 4]⟩ ax [⟨⟨2, ![n, 1]⟩, y0⟩, ⟨⟨2, ![n, 1]⟩, y1⟩, ⟨⟨2, ![n, 1]⟩, y2⟩, ⟨⟨2, ![n, 1]⟩, y3⟩] h (ix2 b (2 : Fin 4)) = y2 (ix2 b (0 : Fin 1)) :=
  (concat4_cols2 ax y0 y1 y2 y3 h hax b).2.2.1
theorem concat2_c3 {n : ℕ} (ax : Fin 2) (y0 y1 y2 y3 : (⟨2, ![n, 1]⟩ : Shape).Idx → α)
    (h : Shape.Concatenates (([⟨⟨2, ![n, 1]⟩, y0⟩, ⟨⟨2, ![n, 1]⟩, y1⟩, ⟨⟨2, ![n, 1]⟩, y2⟩, ⟨⟨2, ![n, 1]⟩, y3⟩] : List ((s : Shape) × (s.Idx → α))).map (·.1)) ⟨2, ![n, 4]⟩ ax)
    (hax : ax = 1) (b : Fin n) :
    concatenate ⟨2, ![n, 4]⟩ ax [⟨⟨2, ![n, 1]⟩, y0⟩, ⟨⟨2, ![n, 1]⟩, y1⟩, ⟨⟨2, ![n, 1]⟩, y2⟩, ⟨⟨2, ![n, 1]⟩, y3⟩] h (ix2 b (3 : Fin 4)) = y3 (ix2 b (0 : Fin 1)) :=
  (concat4_cols2 ax y0 y1 y2 y3 h hax b).2.2.2

/-- A stack of matrices, each transposed, reads at `(k, j, i)` the operand at `(k, i, j)`. -/
theorem tr021_at {m a b : ℕ} (perm : List (Fin 3)) (x : (⟨3, ![m, a, b]⟩ : Shape).Idx → α)
    (h : (⟨3, ![m, a, b]⟩ : Shape).Transposes perm ⟨3, ![m, b, a]⟩) (hp : perm = [0, 2, 1]) (k : Fin m) (j : Fin b) (i : Fin a) :
    transpose ⟨3, ![m, b, a]⟩ perm x h (ix3 k j i) = x (ix3 k i j) := by
  subst hp; exact transpose_ix3_021_apply x h k j i

end Rules

/-! ## Pointwise operations read at an index

A pointwise operation of the program, read at an index, is the same operation of the extended reals applied to the
operands' entries at that index. -/

section RulesAt
variable {s : Shape} {φ : FTy}

theorem mulf_at (a b : FVec Ideal s φ) (i : s.Idx) : mulf a b i = a i * b i := id rfl
theorem addf_at (a b : FVec Ideal s φ) (i : s.Idx) : addf a b i = a i + b i := id rfl
theorem subf_at (a b : FVec Ideal s φ) (i : s.Idx) : subf a b i = a i - b i := id rfl
theorem maxf_at (a b : FVec Ideal s φ) (i : s.Idx) : maximumf a b i = max (a i) (b i) := id rfl
theorem minf_at (a b : FVec Ideal s φ) (i : s.Idx) : minimumf a b i = min (a i) (b i) := id rfl
theorem const_at (w : BitVec φ.bits) (i : s.Idx) : constant (F := Ideal) s φ w i = Ideal.ofBits φ w := id rfl
theorem hexp_at (a : FVec Ideal s φ) (i : s.Idx) : Host.exp a i = Ideal.exp (a i) := id rfl
theorem hsqrt_at (a : FVec Ideal s φ) (i : s.Idx) : Host.sqrt a i = Ideal.sqrt (a i) := id rfl
theorem hdivf_at (a b : FVec Ideal s φ) (i : s.Idx) : Host.divf a b i = Ideal.div (a i) (b i) := id rfl
theorem habsf_at (a : FVec Ideal s φ) (i : s.Idx) : Host.absf a i = max (a i) (-(a i)) := id rfl

end RulesAt

/-- The rules that read a pointwise or a layout operation at an index. -/
local macro "host_simp" "[" ls:Lean.Parser.Tactic.simpLemma,* "]" : tactic =>
  `(tactic| simp (disch := first | rfl | decide) only [mulf_at, subf_at, addf_at, maxf_at, minf_at, const_at, id_eq,
    hexp_at, hsqrt_at, hdivf_at, habsf_at,
    bcast_scalar, bcast_a_a1, bcast_ab_ab1, bcast_ac_a1c, bcast_a1c_abc, bcast_ab1_abc, bcast_abd_ab1d, bcast_acd_a1cd, bcast_ab1d_abcd, bcast_a1cd_abcd,
    shapeCast_ab1_ab_apply, shapeCast_abc1_abc_apply, shapeCast_a1_a_apply,
    concat3_c0, concat3_c1, concat3_c2, concat3_c3, concat2_c0, concat2_c1, concat2_c2, concat2_c3, tr021_at, $ls,*])

/-! ## The scale of an image: width, height, width, height -/

theorem scale_c0 (x7 : (⟨S64x2, .f32⟩ : BufTy).Contents (Elt Ideal)) (b : Fin 64) :
    val_main_v8 (F := Ideal) x7 (ix2 b (0 : Fin 4)) = imgW x7 b := by
  unfold val_main_v8 val_main_v7 val_main_v6 val_main_v5 val_main_v4 val_main_v3 val_main_v2 val_main_v1 val_main_v0 imgW
  host_simp [slice2_axis1_eq]
  rfl

theorem scale_c1 (x7 : (⟨S64x2, .f32⟩ : BufTy).Contents (Elt Ideal)) (b : Fin 64) :
    val_main_v8 (F := Ideal) x7 (ix2 b (1 : Fin 4)) = imgH x7 b := by
  unfold val_main_v8 val_main_v7 val_main_v6 val_main_v5 val_main_v4 val_main_v3 val_main_v2 val_main_v1 val_main_v0 imgH
  host_simp [slice2_axis1_eq]
  rfl

theorem scale_c2 (x7 : (⟨S64x2, .f32⟩ : BufTy).Contents (Elt Ideal)) (b : Fin 64) :
    val_main_v8 (F := Ideal) x7 (ix2 b (2 : Fin 4)) = imgW x7 b := by
  unfold val_main_v8 val_main_v7 val_main_v6 val_main_v5 val_main_v4 val_main_v3 val_main_v2 val_main_v1 val_main_v0 imgW
  host_simp [slice2_axis1_eq]
  rfl

theorem scale_c3 (x7 : (⟨S64x2, .f32⟩ : BufTy).Contents (Elt Ideal)) (b : Fin 64) :
    val_main_v8 (F := Ideal) x7 (ix2 b (3 : Fin 4)) = imgH x7 b := by
  unfold val_main_v8 val_main_v7 val_main_v6 val_main_v5 val_main_v4 val_main_v3 val_main_v2 val_main_v1 val_main_v0 imgH
  host_simp [slice2_axis1_eq]
  rfl

/-- The same, at a last coordinate given by its value. -/
theorem scale0_at (x7 : (⟨S64x2, .f32⟩ : BufTy).Contents (Elt Ideal)) (b : Fin 64) (k : Fin 4) (hk : k.val = 0) :
    val_main_v8 (F := Ideal) x7 (ix2 b k) = imgW x7 b := by
  obtain rfl : k = (0 : Fin 4) := Fin.ext hk
  exact scale_c0 x7 b

theorem scale1_at (x7 : (⟨S64x2, .f32⟩ : BufTy).Contents (Elt Ideal)) (b : Fin 64) (k : Fin 4) (hk : k.val = 1) :
    val_main_v8 (F := Ideal) x7 (ix2 b k) = imgH x7 b := by
  obtain rfl : k = (1 : Fin 4) := Fin.ext hk
  exact scale_c1 x7 b

theorem scale2_at (x7 : (⟨S64x2, .f32⟩ : BufTy).Contents (Elt Ideal)) (b : Fin 64) (k : Fin 4) (hk : k.val = 2) :
    val_main_v8 (F := Ideal) x7 (ix2 b k) = imgW x7 b := by
  obtain rfl : k = (2 : Fin 4) := Fin.ext hk
  exact scale_c2 x7 b

theorem scale3_at (x7 : (⟨S64x2, .f32⟩ : BufTy).Contents (Elt Ideal)) (b : Fin 64) (k : Fin 4) (hk : k.val = 3) :
    val_main_v8 (F := Ideal) x7 (ix2 b k) = imgH x7 b := by
  obtain rfl : k = (3 : Fin 4) := Fin.ext hk
  exact scale_c3 x7 b

/-! ## The four scaled corners of an entity box -/

theorem ent_c0 (x0 : (⟨S64x500x4, .f32⟩ : BufTy).Contents (Elt Ideal)) (x7 : (⟨S64x2, .f32⟩ : BufTy).Contents (Elt Ideal)) (b : Fin 64) (i : Fin 500) :
    val_main_v36 (F := Ideal) x0 x7 (ix3 b i (0 : Fin 4)) = boxX0 x0 x7 b i := by
  unfold val_main_v36 val_main_v35 val_main_v34 val_main_v33 val_main_v32 val_main_v31 val_main_v30 val_main_v29 val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_cst val_main_cst_0 val_main_cst_1 val_main_cst_2 boxX0 lo
  host_simp [slice3_axis2_eq, scale_c0]
  rfl

theorem ent_c1 (x0 : (⟨S64x500x4, .f32⟩ : BufTy).Contents (Elt Ideal)) (x7 : (⟨S64x2, .f32⟩ : BufTy).Contents (Elt Ideal)) (b : Fin 64) (i : Fin 500) :
    val_main_v36 (F := Ideal) x0 x7 (ix3 b i (1 : Fin 4)) = boxY0 x0 x7 b i := by
  unfold val_main_v36 val_main_v35 val_main_v34 val_main_v33 val_main_v32 val_main_v31 val_main_v30 val_main_v29 val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_cst val_main_cst_0 val_main_cst_1 val_main_cst_2 boxY0 lo
  host_simp [slice3_axis2_eq, scale_c1]
  rfl

theorem ent_c2 (x0 : (⟨S64x500x4, .f32⟩ : BufTy).Contents (Elt Ideal)) (x7 : (⟨S64x2, .f32⟩ : BufTy).Contents (Elt Ideal)) (b : Fin 64) (i : Fin 500) :
    val_main_v36 (F := Ideal) x0 x7 (ix3 b i (2 : Fin 4)) = boxX1 x0 x7 b i := by
  unfold val_main_v36 val_main_v35 val_main_v34 val_main_v33 val_main_v32 val_main_v31 val_main_v30 val_main_v29 val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_cst val_main_cst_0 val_main_cst_1 val_main_cst_2 boxX1 hi
  host_simp [slice3_axis2_eq, scale_c2]
  rfl

theorem ent_c3 (x0 : (⟨S64x500x4, .f32⟩ : BufTy).Contents (Elt Ideal)) (x7 : (⟨S64x2, .f32⟩ : BufTy).Contents (Elt Ideal)) (b : Fin 64) (i : Fin 500) :
    val_main_v36 (F := Ideal) x0 x7 (ix3 b i (3 : Fin 4)) = boxY1 x0 x7 b i := by
  unfold val_main_v36 val_main_v35 val_main_v34 val_main_v33 val_main_v32 val_main_v31 val_main_v30 val_main_v29 val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_cst val_main_cst_0 val_main_cst_1 val_main_cst_2 boxY1 hi
  host_simp [slice3_axis2_eq, scale_c3]
  rfl

theorem ent0_at (x0 : (⟨S64x500x4, .f32⟩ : BufTy).Contents (Elt Ideal)) (x7 : (⟨S64x2, .f32⟩ : BufTy).Contents (Elt Ideal)) (b : Fin 64) (i : Fin 500) (k : Fin 4) (hk : k.val = 0) :
    val_main_v36 (F := Ideal) x0 x7 (ix3 b i k) = boxX0 x0 x7 b i := by
  obtain rfl : k = (0 : Fin 4) := Fin.ext hk
  exact ent_c0 x0 x7 b i

theorem ent1_at (x0 : (⟨S64x500x4, .f32⟩ : BufTy).Contents (Elt Ideal)) (x7 : (⟨S64x2, .f32⟩ : BufTy).Contents (Elt Ideal)) (b : Fin 64) (i : Fin 500) (k : Fin 4) (hk : k.val = 1) :
    val_main_v36 (F := Ideal) x0 x7 (ix3 b i k) = boxY0 x0 x7 b i := by
  obtain rfl : k = (1 : Fin 4) := Fin.ext hk
  exact ent_c1 x0 x7 b i

theorem ent2_at (x0 : (⟨S64x500x4, .f32⟩ : BufTy).Contents (Elt Ideal)) (x7 : (⟨S64x2, .f32⟩ : BufTy).Contents (Elt Ideal)) (b : Fin 64) (i : Fin 500) (k : Fin 4) (hk : k.val = 2) :
    val_main_v36 (F := Ideal) x0 x7 (ix3 b i k) = boxX1 x0 x7 b i := by
  obtain rfl : k = (2 : Fin 4) := Fin.ext hk
  exact ent_c2 x0 x7 b i

theorem ent3_at (x0 : (⟨S64x500x4, .f32⟩ : BufTy).Contents (Elt Ideal)) (x7 : (⟨S64x2, .f32⟩ : BufTy).Contents (Elt Ideal)) (b : Fin 64) (i : Fin 500) (k : Fin 4) (hk : k.val = 3) :
    val_main_v36 (F := Ideal) x0 x7 (ix3 b i k) = boxY1 x0 x7 b i := by
  obtain rfl : k = (3 : Fin 4) := Fin.ext hk
  exact ent_c3 x0 x7 b i

/-! ## The four scaled corners of a relation's object box -/

theorem obx_c0 (x4 : (⟨S64x500x4, .f32⟩ : BufTy).Contents (Elt Ideal)) (x7 : (⟨S64x2, .f32⟩ : BufTy).Contents (Elt Ideal)) (b : Fin 64) (i : Fin 500) :
    val_main_v124 (F := Ideal) x4 x7 (ix3 b i (0 : Fin 4)) = boxX0 x4 x7 b i := by
  unfold val_main_v124 val_main_v123 val_main_v122 val_main_v121 val_main_v120 val_main_v119 val_main_v118 val_main_v117 val_main_v116 val_main_v115 val_main_v114 val_main_v113 val_main_v112 val_main_v111 val_main_v110 val_main_v109 val_main_v108 val_main_v107 val_main_v106 val_main_v105 val_main_v104 val_main_v103 val_main_v102 val_main_v101 val_main_v100 val_main_v99 val_main_v98 val_main_v97 val_main_cst_15 val_main_cst_16 val_main_cst_17 val_main_cst_18 boxX0 lo
  host_simp [slice3_axis2_eq, scale_c0]
  rfl

theorem obx_c1 (x4 : (⟨S64x500x4, .f32⟩ : BufTy).Contents (Elt Ideal)) (x7 : (⟨S64x2, .f32⟩ : BufTy).Contents (Elt Ideal)) (b : Fin 64) (i : Fin 500) :
    val_main_v124 (F := Ideal) x4 x7 (ix3 b i (1 : Fin 4)) = boxY0 x4 x7 b i := by
  unfold val_main_v124 val_main_v123 val_main_v122 val_main_v121 val_main_v120 val_main_v119 val_main_v118 val_main_v117 val_main_v116 val_main_v115 val_main_v114 val_main_v113 val_main_v112 val_main_v111 val_main_v110 val_main_v109 val_main_v108 val_main_v107 val_main_v106 val_main_v105 val_main_v104 val_main_v103 val_main_v102 val_main_v101 val_main_v100 val_main_v99 val_main_v98 val_main_v97 val_main_cst_15 val_main_cst_16 val_main_cst_17 val_main_cst_18 boxY0 lo
  host_simp [slice3_axis2_eq, scale_c1]
  rfl

theorem obx_c2 (x4 : (⟨S64x500x4, .f32⟩ : BufTy).Contents (Elt Ideal)) (x7 : (⟨S64x2, .f32⟩ : BufTy).Contents (Elt Ideal)) (b : Fin 64) (i : Fin 500) :
    val_main_v124 (F := Ideal) x4 x7 (ix3 b i (2 : Fin 4)) = boxX1 x4 x7 b i := by
  unfold val_main_v124 val_main_v123 val_main_v122 val_main_v121 val_main_v120 val_main_v119 val_main_v118 val_main_v117 val_main_v116 val_main_v115 val_main_v114 val_main_v113 val_main_v112 val_main_v111 val_main_v110 val_main_v109 val_main_v108 val_main_v107 val_main_v106 val_main_v105 val_main_v104 val_main_v103 val_main_v102 val_main_v101 val_main_v100 val_main_v99 val_main_v98 val_main_v97 val_main_cst_15 val_main_cst_16 val_main_cst_17 val_main_cst_18 boxX1 hi
  host_simp [slice3_axis2_eq, scale_c2]
  rfl

theorem obx_c3 (x4 : (⟨S64x500x4, .f32⟩ : BufTy).Contents (Elt Ideal)) (x7 : (⟨S64x2, .f32⟩ : BufTy).Contents (Elt Ideal)) (b : Fin 64) (i : Fin 500) :
    val_main_v124 (F := Ideal) x4 x7 (ix3 b i (3 : Fin 4)) = boxY1 x4 x7 b i := by
  unfold val_main_v124 val_main_v123 val_main_v122 val_main_v121 val_main_v120 val_main_v119 val_main_v118 val_main_v117 val_main_v116 val_main_v115 val_main_v114 val_main_v113 val_main_v112 val_main_v111 val_main_v110 val_main_v109 val_main_v108 val_main_v107 val_main_v106 val_main_v105 val_main_v104 val_main_v103 val_main_v102 val_main_v101 val_main_v100 val_main_v99 val_main_v98 val_main_v97 val_main_cst_15 val_main_cst_16 val_main_cst_17 val_main_cst_18 boxY1 hi
  host_simp [slice3_axis2_eq, scale_c3]
  rfl

theorem obx0_at (x4 : (⟨S64x500x4, .f32⟩ : BufTy).Contents (Elt Ideal)) (x7 : (⟨S64x2, .f32⟩ : BufTy).Contents (Elt Ideal)) (b : Fin 64) (i : Fin 500) (k : Fin 4) (hk : k.val = 0) :
    val_main_v124 (F := Ideal) x4 x7 (ix3 b i k) = boxX0 x4 x7 b i := by
  obtain rfl : k = (0 : Fin 4) := Fin.ext hk
  exact obx_c0 x4 x7 b i

theorem obx1_at (x4 : (⟨S64x500x4, .f32⟩ : BufTy).Contents (Elt Ideal)) (x7 : (⟨S64x2, .f32⟩ : BufTy).Contents (Elt Ideal)) (b : Fin 64) (i : Fin 500) (k : Fin 4) (hk : k.val = 1) :
    val_main_v124 (F := Ideal) x4 x7 (ix3 b i k) = boxY0 x4 x7 b i := by
  obtain rfl : k = (1 : Fin 4) := Fin.ext hk
  exact obx_c1 x4 x7 b i

theorem obx2_at (x4 : (⟨S64x500x4, .f32⟩ : BufTy).Contents (Elt Ideal)) (x7 : (⟨S64x2, .f32⟩ : BufTy).Contents (Elt Ideal)) (b : Fin 64) (i : Fin 500) (k : Fin 4) (hk : k.val = 2) :
    val_main_v124 (F := Ideal) x4 x7 (ix3 b i k) = boxX1 x4 x7 b i := by
  obtain rfl : k = (2 : Fin 4) := Fin.ext hk
  exact obx_c2 x4 x7 b i

theorem obx3_at (x4 : (⟨S64x500x4, .f32⟩ : BufTy).Contents (Elt Ideal)) (x7 : (⟨S64x2, .f32⟩ : BufTy).Contents (Elt Ideal)) (b : Fin 64) (i : Fin 500) (k : Fin 4) (hk : k.val = 3) :
    val_main_v124 (F := Ideal) x4 x7 (ix3 b i k) = boxY1 x4 x7 b i := by
  obtain rfl : k = (3 : Fin 4) := Fin.ext hk
  exact obx_c3 x4 x7 b i

/-! ## The four scaled corners of a relation's subject box -/

theorem sbx_c0 (x5 : (⟨S64x500x4, .f32⟩ : BufTy).Contents (Elt Ideal)) (x7 : (⟨S64x2, .f32⟩ : BufTy).Contents (Elt Ideal)) (b : Fin 64) (i : Fin 500) :
    val_main_v152 (F := Ideal) x5 x7 (ix3 b i (0 : Fin 4)) = boxX0 x5 x7 b i := by
  unfold val_main_v152 val_main_v151 val_main_v150 val_main_v149 val_main_v148 val_main_v147 val_main_v146 val_main_v145 val_main_v144 val_main_v143 val_main_v142 val_main_v141 val_main_v140 val_main_v139 val_main_v138 val_main_v137 val_main_v136 val_main_v135 val_main_v134 val_main_v133 val_main_v132 val_main_v131 val_main_v130 val_main_v129 val_main_v128 val_main_v127 val_main_v126 val_main_v125 val_main_cst_19 val_main_cst_20 val_main_cst_21 val_main_cst_22 boxX0 lo
  host_simp [slice3_axis2_eq, scale_c0]
  rfl

theorem sbx_c1 (x5 : (⟨S64x500x4, .f32⟩ : BufTy).Contents (Elt Ideal)) (x7 : (⟨S64x2, .f32⟩ : BufTy).Contents (Elt Ideal)) (b : Fin 64) (i : Fin 500) :
    val_main_v152 (F := Ideal) x5 x7 (ix3 b i (1 : Fin 4)) = boxY0 x5 x7 b i := by
  unfold val_main_v152 val_main_v151 val_main_v150 val_main_v149 val_main_v148 val_main_v147 val_main_v146 val_main_v145 val_main_v144 val_main_v143 val_main_v142 val_main_v141 val_main_v140 val_main_v139 val_main_v138 val_main_v137 val_main_v136 val_main_v135 val_main_v134 val_main_v133 val_main_v132 val_main_v131 val_main_v130 val_main_v129 val_main_v128 val_main_v127 val_main_v126 val_main_v125 val_main_cst_19 val_main_cst_20 val_main_cst_21 val_main_cst_22 boxY0 lo
  host_simp [slice3_axis2_eq, scale_c1]
  rfl

theorem sbx_c2 (x5 : (⟨S64x500x4, .f32⟩ : BufTy).Contents (Elt Ideal)) (x7 : (⟨S64x2, .f32⟩ : BufTy).Contents (Elt Ideal)) (b : Fin 64) (i : Fin 500) :
    val_main_v152 (F := Ideal) x5 x7 (ix3 b i (2 : Fin 4)) = boxX1 x5 x7 b i := by
  unfold val_main_v152 val_main_v151 val_main_v150 val_main_v149 val_main_v148 val_main_v147 val_main_v146 val_main_v145 val_main_v144 val_main_v143 val_main_v142 val_main_v141 val_main_v140 val_main_v139 val_main_v138 val_main_v137 val_main_v136 val_main_v135 val_main_v134 val_main_v133 val_main_v132 val_main_v131 val_main_v130 val_main_v129 val_main_v128 val_main_v127 val_main_v126 val_main_v125 val_main_cst_19 val_main_cst_20 val_main_cst_21 val_main_cst_22 boxX1 hi
  host_simp [slice3_axis2_eq, scale_c2]
  rfl

theorem sbx_c3 (x5 : (⟨S64x500x4, .f32⟩ : BufTy).Contents (Elt Ideal)) (x7 : (⟨S64x2, .f32⟩ : BufTy).Contents (Elt Ideal)) (b : Fin 64) (i : Fin 500) :
    val_main_v152 (F := Ideal) x5 x7 (ix3 b i (3 : Fin 4)) = boxY1 x5 x7 b i := by
  unfold val_main_v152 val_main_v151 val_main_v150 val_main_v149 val_main_v148 val_main_v147 val_main_v146 val_main_v145 val_main_v144 val_main_v143 val_main_v142 val_main_v141 val_main_v140 val_main_v139 val_main_v138 val_main_v137 val_main_v136 val_main_v135 val_main_v134 val_main_v133 val_main_v132 val_main_v131 val_main_v130 val_main_v129 val_main_v128 val_main_v127 val_main_v126 val_main_v125 val_main_cst_19 val_main_cst_20 val_main_cst_21 val_main_cst_22 boxY1 hi
  host_simp [slice3_axis2_eq, scale_c3]
  rfl

theorem sbx0_at (x5 : (⟨S64x500x4, .f32⟩ : BufTy).Contents (Elt Ideal)) (x7 : (⟨S64x2, .f32⟩ : BufTy).Contents (Elt Ideal)) (b : Fin 64) (i : Fin 500) (k : Fin 4) (hk : k.val = 0) :
    val_main_v152 (F := Ideal) x5 x7 (ix3 b i k) = boxX0 x5 x7 b i := by
  obtain rfl : k = (0 : Fin 4) := Fin.ext hk
  exact sbx_c0 x5 x7 b i

theorem sbx1_at (x5 : (⟨S64x500x4, .f32⟩ : BufTy).Contents (Elt Ideal)) (x7 : (⟨S64x2, .f32⟩ : BufTy).Contents (Elt Ideal)) (b : Fin 64) (i : Fin 500) (k : Fin 4) (hk : k.val = 1) :
    val_main_v152 (F := Ideal) x5 x7 (ix3 b i k) = boxY0 x5 x7 b i := by
  obtain rfl : k = (1 : Fin 4) := Fin.ext hk
  exact sbx_c1 x5 x7 b i

theorem sbx2_at (x5 : (⟨S64x500x4, .f32⟩ : BufTy).Contents (Elt Ideal)) (x7 : (⟨S64x2, .f32⟩ : BufTy).Contents (Elt Ideal)) (b : Fin 64) (i : Fin 500) (k : Fin 4) (hk : k.val = 2) :
    val_main_v152 (F := Ideal) x5 x7 (ix3 b i k) = boxX1 x5 x7 b i := by
  obtain rfl : k = (2 : Fin 4) := Fin.ext hk
  exact sbx_c2 x5 x7 b i

theorem sbx3_at (x5 : (⟨S64x500x4, .f32⟩ : BufTy).Contents (Elt Ideal)) (x7 : (⟨S64x2, .f32⟩ : BufTy).Contents (Elt Ideal)) (b : Fin 64) (i : Fin 500) (k : Fin 4) (hk : k.val = 3) :
    val_main_v152 (F := Ideal) x5 x7 (ix3 b i k) = boxY1 x5 x7 b i := by
  obtain rfl : k = (3 : Fin 4) := Fin.ext hk
  exact sbx_c3 x5 x7 b i

/-! ## The centre of an entity box -/

theorem cx_at (x0 : (⟨S64x500x4, .f32⟩ : BufTy).Contents (Elt Ideal)) (x7 : (⟨S64x2, .f32⟩ : BufTy).Contents (Elt Ideal)) (b : Fin 64) (e : Fin 500) :
    val_main_v47 (F := Ideal) x0 x7 (ix2 b e) = mid (boxX0 x0 x7 b e) (boxX1 x0 x7 b e) := by
  unfold val_main_v47 val_main_v46 val_main_v45 val_main_v42 val_main_v41 val_main_v38 val_main_v37 val_main_cst_3 mid
  host_simp [slice3_axis2_eq, ent0_at, ent2_at]

theorem cy_at (x0 : (⟨S64x500x4, .f32⟩ : BufTy).Contents (Elt Ideal)) (x7 : (⟨S64x2, .f32⟩ : BufTy).Contents (Elt Ideal)) (b : Fin 64) (e : Fin 500) :
    val_main_v50 (F := Ideal) x0 x7 (ix2 b e) = mid (boxY0 x0 x7 b e) (boxY1 x0 x7 b e) := by
  unfold val_main_v50 val_main_v49 val_main_v48 val_main_v44 val_main_v43 val_main_v40 val_main_v39 val_main_cst_4 mid
  host_simp [slice3_axis2_eq, ent1_at, ent3_at]

theorem ctr0_at (x0 : (⟨S64x500x4, .f32⟩ : BufTy).Contents (Elt Ideal)) (x7 : (⟨S64x2, .f32⟩ : BufTy).Contents (Elt Ideal)) (b : Fin 64) (e : Fin 500) (k : Fin 4) (hk : k.val = 0) :
    val_main_v57 (F := Ideal) x0 x7 (ix3 b e k) = mid (boxX0 x0 x7 b e) (boxX1 x0 x7 b e) := by
  obtain rfl : k = (0 : Fin 4) := Fin.ext hk
  unfold val_main_v57 val_main_v53
  host_simp [cx_at]

theorem ctr1_at (x0 : (⟨S64x500x4, .f32⟩ : BufTy).Contents (Elt Ideal)) (x7 : (⟨S64x2, .f32⟩ : BufTy).Contents (Elt Ideal)) (b : Fin 64) (e : Fin 500) (k : Fin 4) (hk : k.val = 1) :
    val_main_v57 (F := Ideal) x0 x7 (ix3 b e k) = mid (boxY0 x0 x7 b e) (boxY1 x0 x7 b e) := by
  obtain rfl : k = (1 : Fin 4) := Fin.ext hk
  unfold val_main_v57 val_main_v54
  host_simp [cy_at]

theorem v160_at (x0 : (⟨S64x500x4, .f32⟩ : BufTy).Contents (Elt Ideal)) (x7 : (⟨S64x2, .f32⟩ : BufTy).Contents (Elt Ideal)) (b : Fin 64) (e : Fin 500) :
    val_main_v160 (F := Ideal) x0 x7 (ix2 b e) = mid (boxX0 x0 x7 b e) (boxX1 x0 x7 b e) := by
  unfold val_main_v160 val_main_v159 val_main_v58
  host_simp [slice3_axis2_eq, ctr0_at]

theorem v170_at (x0 : (⟨S64x500x4, .f32⟩ : BufTy).Contents (Elt Ideal)) (x7 : (⟨S64x2, .f32⟩ : BufTy).Contents (Elt Ideal)) (b : Fin 64) (e : Fin 500) :
    val_main_v170 (F := Ideal) x0 x7 (ix2 b e) = mid (boxY0 x0 x7 b e) (boxY1 x0 x7 b e) := by
  unfold val_main_v170 val_main_v169 val_main_v58
  host_simp [slice3_axis2_eq, ctr1_at]

theorem v181_at (x0 : (⟨S64x500x4, .f32⟩ : BufTy).Contents (Elt Ideal)) (x7 : (⟨S64x2, .f32⟩ : BufTy).Contents (Elt Ideal)) (b : Fin 64) (e : Fin 500) :
    val_main_v181 (F := Ideal) x0 x7 (ix2 b e) = mid (boxX0 x0 x7 b e) (boxX1 x0 x7 b e) := by
  unfold val_main_v181 val_main_v180 val_main_v58
  host_simp [slice3_axis2_eq, ctr0_at]

theorem v191_at (x0 : (⟨S64x500x4, .f32⟩ : BufTy).Contents (Elt Ideal)) (x7 : (⟨S64x2, .f32⟩ : BufTy).Contents (Elt Ideal)) (b : Fin 64) (e : Fin 500) :
    val_main_v191 (F := Ideal) x0 x7 (ix2 b e) = mid (boxY0 x0 x7 b e) (boxY1 x0 x7 b e) := by
  unfold val_main_v191 val_main_v190 val_main_v58
  host_simp [slice3_axis2_eq, ctr1_at]

/-! ## The relation vector's endpoints, scaled -/

theorem rv0_at (x6 : (⟨S64x500x4, .f32⟩ : BufTy).Contents (Elt Ideal)) (x7 : (⟨S64x2, .f32⟩ : BufTy).Contents (Elt Ideal)) (b : Fin 64) (r : Fin 500) (k : Fin 4) (hk : k.val = 0) :
    val_main_v155 (F := Ideal) x6 x7 (ix3 b r k) = x6 (ix3 b r (0 : Fin 4)) * imgW x7 b := by
  obtain rfl : k = (0 : Fin 4) := Fin.ext hk
  unfold val_main_v155 val_main_v154 val_main_v153
  host_simp [scale_c0]

theorem rv1_at (x6 : (⟨S64x500x4, .f32⟩ : BufTy).Contents (Elt Ideal)) (x7 : (⟨S64x2, .f32⟩ : BufTy).Contents (Elt Ideal)) (b : Fin 64) (r : Fin 500) (k : Fin 4) (hk : k.val = 1) :
    val_main_v155 (F := Ideal) x6 x7 (ix3 b r k) = x6 (ix3 b r (1 : Fin 4)) * imgH x7 b := by
  obtain rfl : k = (1 : Fin 4) := Fin.ext hk
  unfold val_main_v155 val_main_v154 val_main_v153
  host_simp [scale_c1]

theorem rv2_at (x6 : (⟨S64x500x4, .f32⟩ : BufTy).Contents (Elt Ideal)) (x7 : (⟨S64x2, .f32⟩ : BufTy).Contents (Elt Ideal)) (b : Fin 64) (r : Fin 500) (k : Fin 4) (hk : k.val = 2) :
    val_main_v155 (F := Ideal) x6 x7 (ix3 b r k) = x6 (ix3 b r (2 : Fin 4)) * imgW x7 b := by
  obtain rfl : k = (2 : Fin 4) := Fin.ext hk
  unfold val_main_v155 val_main_v154 val_main_v153
  host_simp [scale_c2]

theorem rv3_at (x6 : (⟨S64x500x4, .f32⟩ : BufTy).Contents (Elt Ideal)) (x7 : (⟨S64x2, .f32⟩ : BufTy).Contents (Elt Ideal)) (b : Fin 64) (r : Fin 500) (k : Fin 4) (hk : k.val = 3) :
    val_main_v155 (F := Ideal) x6 x7 (ix3 b r k) = x6 (ix3 b r (3 : Fin 4)) * imgH x7 b := by
  obtain rfl : k = (3 : Fin 4) := Fin.ext hk
  unfold val_main_v155 val_main_v154 val_main_v153
  host_simp [scale_c3]

/-! ## Reductions along the last axis, at this program's extents -/

theorem max151_at (axes : List (Fin 3)) (x : (⟨3, ![64, 500, 151]⟩ : Shape).Idx → EReal) (init : (⟨0, ![]⟩ : Shape).Idx → EReal)
    (h' : (⟨3, ![64, 500, 151]⟩ : Shape).ReducesTo axes ⟨2, ![64, 500]⟩) (hu : 0 < (⟨0, ![]⟩ : Shape).numel) (hax : axes = [2]) (b : Fin 64) (r : Fin 500) :
    Host.reduce (FloatOps.maximumf (F := Ideal) (φ := .f32)) x init h' hu (ix2 b r)
      = (Finset.univ : Finset (Fin 151)).fold max (init ix0) (fun k => x (ix3 b r k)) :=
  hostMax_last3 axes x init h' hu hax (by decide) b r
theorem max150_at (axes : List (Fin 3)) (x : (⟨3, ![64, 500, 150]⟩ : Shape).Idx → EReal) (init : (⟨0, ![]⟩ : Shape).Idx → EReal)
    (h' : (⟨3, ![64, 500, 150]⟩ : Shape).ReducesTo axes ⟨2, ![64, 500]⟩) (hu : 0 < (⟨0, ![]⟩ : Shape).numel) (hax : axes = [2]) (b : Fin 64) (r : Fin 500) :
    Host.reduce (FloatOps.maximumf (F := Ideal) (φ := .f32)) x init h' hu (ix2 b r)
      = (Finset.univ : Finset (Fin 150)).fold max (init ix0) (fun k => x (ix3 b r k)) :=
  hostMax_last3 axes x init h' hu hax (by decide) b r
theorem sum151_at (axes : List (Fin 3)) (x : FVec Ideal ⟨3, ![64, 500, 151]⟩ .f32) (init : (⟨0, ![]⟩ : Shape).Idx → EReal)
    (h' : (⟨3, ![64, 500, 151]⟩ : Shape).ReducesTo axes ⟨2, ![64, 500]⟩) (hu : 0 < (⟨0, ![]⟩ : Shape).numel) (hax : axes = [2]) (b : Fin 64) (r : Fin 500) :
    Host.reduceAdd (F := Ideal) x init h' hu (ix2 b r) = init ix0 + ∑ k : Fin 151, x (ix3 b r k) :=
  hostSum_last3 axes x init h' hu hax (by decide) b r
theorem sum150_at (axes : List (Fin 3)) (x : FVec Ideal ⟨3, ![64, 500, 150]⟩ .f32) (init : (⟨0, ![]⟩ : Shape).Idx → EReal)
    (h' : (⟨3, ![64, 500, 150]⟩ : Shape).ReducesTo axes ⟨2, ![64, 500]⟩) (hu : 0 < (⟨0, ![]⟩ : Shape).numel) (hax : axes = [2]) (b : Fin 64) (r : Fin 500) :
    Host.reduceAdd (F := Ideal) x init h' hu (ix2 b r) = init ix0 + ∑ k : Fin 150, x (ix3 b r k) :=
  hostSum_last3 axes x init h' hu hax (by decide) b r

/-! ## The class distribution of a relation's object logits -/

theorem red2_at (x2 : (⟨S64x500x151, .f32⟩ : BufTy).Contents (Elt Ideal)) (b : Fin 64) (r : Fin 500) :
    val_main_v60 (F := Ideal) x2 (ix2 b r) = rowMax (fun j => x2 (ix3 b r j)) := by
  unfold val_main_v60 val_main_cst_5 rowMax
  host_simp [max151_at]

theorem rmax2_at (x2 : (⟨S64x500x151, .f32⟩ : BufTy).Contents (Elt Ideal)) (b : Fin 64) (r : Fin 500) :
    val_main_v62 (F := Ideal) x2 (ix2 b r) = rowMax (fun j => x2 (ix3 b r j)) := by
  unfold val_main_v62 val_main_v61 val_main_cst_6
  host_simp [red2_at, max_negInf]

theorem ex2_at (x2 : (⟨S64x500x151, .f32⟩ : BufTy).Contents (Elt Ideal)) (b : Fin 64) (r : Fin 500) (j : Fin 151) :
    val_main_v66 (F := Ideal) x2 (ix3 b r j) = Ideal.exp (x2 (ix3 b r j) - rowMax (fun j => x2 (ix3 b r j))) := by
  unfold val_main_v66 val_main_v65 val_main_v64 val_main_v63
  host_simp [rmax2_at]

theorem sum2_at (x2 : (⟨S64x500x151, .f32⟩ : BufTy).Contents (Elt Ideal)) (b : Fin 64) (r : Fin 500) :
    val_main_v67 (F := Ideal) x2 (ix2 b r) = ∑ j : Fin 151, Ideal.exp (x2 (ix3 b r j) - rowMax (fun j => x2 (ix3 b r j))) := by
  unfold val_main_v67 val_main_cst_7
  host_simp [sum151_at, ex2_at, zero_add_bits]

theorem prob2_at (x2 : (⟨S64x500x151, .f32⟩ : BufTy).Contents (Elt Ideal)) (b : Fin 64) (r : Fin 500) (k : Fin 150) :
    val_main_v71 (F := Ideal) x2 (ix3 b r k) = prob (fun j => x2 (ix3 b r j)) k := by
  unfold val_main_v71 val_main_v70 val_main_v69 val_main_v68 prob softmax
  host_simp [slice3_head_eq, ex2_at, sum2_at]

/-! ## The class distribution of a relation's subject logits -/

theorem red3_at (x3 : (⟨S64x500x151, .f32⟩ : BufTy).Contents (Elt Ideal)) (b : Fin 64) (r : Fin 500) :
    val_main_v72 (F := Ideal) x3 (ix2 b r) = rowMax (fun j => x3 (ix3 b r j)) := by
  unfold val_main_v72 val_main_cst_8 rowMax
  host_simp [max151_at]

theorem rmax3_at (x3 : (⟨S64x500x151, .f32⟩ : BufTy).Contents (Elt Ideal)) (b : Fin 64) (r : Fin 500) :
    val_main_v74 (F := Ideal) x3 (ix2 b r) = rowMax (fun j => x3 (ix3 b r j)) := by
  unfold val_main_v74 val_main_v73 val_main_cst_9
  host_simp [red3_at, max_negInf]

theorem ex3_at (x3 : (⟨S64x500x151, .f32⟩ : BufTy).Contents (Elt Ideal)) (b : Fin 64) (r : Fin 500) (j : Fin 151) :
    val_main_v78 (F := Ideal) x3 (ix3 b r j) = Ideal.exp (x3 (ix3 b r j) - rowMax (fun j => x3 (ix3 b r j))) := by
  unfold val_main_v78 val_main_v77 val_main_v76 val_main_v75
  host_simp [rmax3_at]

theorem sum3_at (x3 : (⟨S64x500x151, .f32⟩ : BufTy).Contents (Elt Ideal)) (b : Fin 64) (r : Fin 500) :
    val_main_v79 (F := Ideal) x3 (ix2 b r) = ∑ j : Fin 151, Ideal.exp (x3 (ix3 b r j) - rowMax (fun j => x3 (ix3 b r j))) := by
  unfold val_main_v79 val_main_cst_10
  host_simp [sum151_at, ex3_at, zero_add_bits]

theorem prob3_at (x3 : (⟨S64x500x151, .f32⟩ : BufTy).Contents (Elt Ideal)) (b : Fin 64) (r : Fin 500) (k : Fin 150) :
    val_main_v83 (F := Ideal) x3 (ix3 b r k) = prob (fun j => x3 (ix3 b r j)) k := by
  unfold val_main_v83 val_main_v82 val_main_v81 val_main_v80 prob softmax
  host_simp [slice3_head_eq, ex3_at, sum3_at]

/-! ## The class distribution of an entity's logits -/

theorem red1_at (x1 : (⟨S64x500x151, .f32⟩ : BufTy).Contents (Elt Ideal)) (b : Fin 64) (r : Fin 500) :
    val_main_v84 (F := Ideal) x1 (ix2 b r) = rowMax (fun j => x1 (ix3 b r j)) := by
  unfold val_main_v84 val_main_cst_11 rowMax
  host_simp [max151_at]

theorem rmax1_at (x1 : (⟨S64x500x151, .f32⟩ : BufTy).Contents (Elt Ideal)) (b : Fin 64) (r : Fin 500) :
    val_main_v86 (F := Ideal) x1 (ix2 b r) = rowMax (fun j => x1 (ix3 b r j)) := by
  unfold val_main_v86 val_main_v85 val_main_cst_12
  host_simp [red1_at, max_negInf]

theorem ex1_at (x1 : (⟨S64x500x151, .f32⟩ : BufTy).Contents (Elt Ideal)) (b : Fin 64) (r : Fin 500) (j : Fin 151) :
    val_main_v90 (F := Ideal) x1 (ix3 b r j) = Ideal.exp (x1 (ix3 b r j) - rowMax (fun j => x1 (ix3 b r j))) := by
  unfold val_main_v90 val_main_v89 val_main_v88 val_main_v87
  host_simp [rmax1_at]

theorem sum1_at (x1 : (⟨S64x500x151, .f32⟩ : BufTy).Contents (Elt Ideal)) (b : Fin 64) (r : Fin 500) :
    val_main_v91 (F := Ideal) x1 (ix2 b r) = ∑ j : Fin 151, Ideal.exp (x1 (ix3 b r j) - rowMax (fun j => x1 (ix3 b r j))) := by
  unfold val_main_v91 val_main_cst_13
  host_simp [sum151_at, ex1_at, zero_add_bits]

theorem prob1_at (x1 : (⟨S64x500x151, .f32⟩ : BufTy).Contents (Elt Ideal)) (b : Fin 64) (r : Fin 500) (k : Fin 150) :
    val_main_v95 (F := Ideal) x1 (ix3 b r k) = prob (fun j => x1 (ix3 b r j)) k := by
  unfold val_main_v95 val_main_v94 val_main_v93 val_main_v92 prob softmax
  host_simp [slice3_head_eq, ex1_at, sum1_at]

/-- An entity's confidence: its largest class probability. -/
theorem score_at (x1 : (⟨S64x500x151, .f32⟩ : BufTy).Contents (Elt Ideal)) (b : Fin 64) (e : Fin 500) :
    val_main_v96 (F := Ideal) x1 (ix2 b e) = score (fun j => x1 (ix3 b e j)) := by
  unfold val_main_v96 val_main_cst_14 score
  host_simp [max150_at, prob1_at]

/-! ## Squared norms and inner products of class distributions -/

theorem sq3_at (x3 : (⟨S64x500x151, .f32⟩ : BufTy).Contents (Elt Ideal)) (b : Fin 64) (r : Fin 500) :
    val_main_v363 (F := Ideal) x3 (ix2 b r) = sqNorm (prob (fun j => x3 (ix3 b r j))) := by
  unfold val_main_v363 val_main_v362 val_main_cst_33 sqNorm
  host_simp [sum150_at, prob3_at, zero_add_bits]

theorem sq1a_at (x1 : (⟨S64x500x151, .f32⟩ : BufTy).Contents (Elt Ideal)) (b : Fin 64) (r : Fin 500) :
    val_main_v366 (F := Ideal) x1 (ix2 b r) = sqNorm (prob (fun j => x1 (ix3 b r j))) := by
  unfold val_main_v366 val_main_v365 val_main_cst_34 sqNorm
  host_simp [sum150_at, prob1_at, zero_add_bits]

theorem sq2_at (x2 : (⟨S64x500x151, .f32⟩ : BufTy).Contents (Elt Ideal)) (b : Fin 64) (r : Fin 500) :
    val_main_v384 (F := Ideal) x2 (ix2 b r) = sqNorm (prob (fun j => x2 (ix3 b r j))) := by
  unfold val_main_v384 val_main_v383 val_main_cst_39 sqNorm
  host_simp [sum150_at, prob2_at, zero_add_bits]

theorem sq1b_at (x1 : (⟨S64x500x151, .f32⟩ : BufTy).Contents (Elt Ideal)) (b : Fin 64) (r : Fin 500) :
    val_main_v387 (F := Ideal) x1 (ix2 b r) = sqNorm (prob (fun j => x1 (ix3 b r j))) := by
  unfold val_main_v387 val_main_v386 val_main_cst_40 sqNorm
  host_simp [sum150_at, prob1_at, zero_add_bits]

theorem dotSub_at (x1 x3 : (⟨S64x500x151, .f32⟩ : BufTy).Contents (Elt Ideal)) (b : Fin 64) (r e : Fin 500) :
    val_main_v372 (F := Ideal) x1 x3 (ix3 b r e) = dotp (prob (fun j => x3 (ix3 b r j))) (prob (fun j => x1 (ix3 b e j))) := by
  have h : val_main_v372 (F := Ideal) x1 x3 (ix3 b r e)
      = ∑ k : Fin 150, val_main_v83 (F := Ideal) x3 (ix3 b r k) * val_main_v371 (F := Ideal) x1 (ix3 b k e) := by
    rw [val_main_v372_apply]
    refine Finset.sum_congr rfl fun k _ => ?_
    exact congrArg₂ (fun i j => val_main_v83 (F := Ideal) x3 i * val_main_v371 (F := Ideal) x1 j)
      (funext fun a => match a with | ⟨0, _⟩ => rfl | ⟨1, _⟩ => rfl | ⟨2, _⟩ => rfl)
      (funext fun a => match a with | ⟨0, _⟩ => rfl | ⟨1, _⟩ => rfl | ⟨2, _⟩ => rfl)
  rw [h]
  unfold val_main_v371 dotp
  host_simp [prob3_at, prob1_at]

theorem dotObj_at (x1 x2 : (⟨S64x500x151, .f32⟩ : BufTy).Contents (Elt Ideal)) (b : Fin 64) (r e : Fin 500) :
    val_main_v393 (F := Ideal) x1 x2 (ix3 b r e) = dotp (prob (fun j => x2 (ix3 b r j))) (prob (fun j => x1 (ix3 b e j))) := by
  have h : val_main_v393 (F := Ideal) x1 x2 (ix3 b r e)
      = ∑ k : Fin 150, val_main_v71 (F := Ideal) x2 (ix3 b r k) * val_main_v392 (F := Ideal) x1 (ix3 b k e) := by
    rw [val_main_v393_apply]
    refine Finset.sum_congr rfl fun k _ => ?_
    exact congrArg₂ (fun i j => val_main_v71 (F := Ideal) x2 i * val_main_v392 (F := Ideal) x1 j)
      (funext fun a => match a with | ⟨0, _⟩ => rfl | ⟨1, _⟩ => rfl | ⟨2, _⟩ => rfl)
      (funext fun a => match a with | ⟨0, _⟩ => rfl | ⟨1, _⟩ => rfl | ⟨2, _⟩ => rfl)
  rw [h]
  unfold val_main_v392 dotp
  host_simp [prob2_at, prob1_at]

/-! ## The class match of a relation row against an entity column -/

theorem clsSub_at (x1 x3 : (⟨S64x500x151, .f32⟩ : BufTy).Contents (Elt Ideal)) (b : Fin 64) (r e : Fin 500) :
    val_main_v382 (F := Ideal) x1 x3 (ix3 b r e) = clsOf (fun j => x3 (ix3 b r j)) (fun j => x1 (ix3 b e j)) := by
  unfold val_main_v382 val_main_v381 val_main_v380 val_main_v379 val_main_v378 val_main_v377 val_main_v376 val_main_v375 val_main_v374 val_main_v373 val_main_v370 val_main_v369 val_main_v368 val_main_v367 val_main_v364 val_main_cst_35 val_main_cst_36 val_main_cst_37 val_main_cst_38 clsOf cls
  host_simp [dotSub_at, sq3_at, sq1a_at]

theorem clsObj_at (x1 x2 : (⟨S64x500x151, .f32⟩ : BufTy).Contents (Elt Ideal)) (b : Fin 64) (r e : Fin 500) :
    val_main_v403 (F := Ideal) x1 x2 (ix3 b r e) = clsOf (fun j => x2 (ix3 b r j)) (fun j => x1 (ix3 b e j)) := by
  unfold val_main_v403 val_main_v402 val_main_v401 val_main_v400 val_main_v399 val_main_v398 val_main_v397 val_main_v396 val_main_v395 val_main_v394 val_main_v391 val_main_v390 val_main_v389 val_main_v388 val_main_v385 val_main_cst_41 val_main_cst_42 val_main_cst_43 val_main_cst_44 clsOf cls
  host_simp [dotObj_at, sq2_at, sq1b_at]

/-! ## The endpoint match, weighted by the entity's confidence -/

theorem matchSub_at (x0 : (⟨S64x500x4, .f32⟩ : BufTy).Contents (Elt Ideal)) (x1 : (⟨S64x500x151, .f32⟩ : BufTy).Contents (Elt Ideal)) (x6 : (⟨S64x500x4, .f32⟩ : BufTy).Contents (Elt Ideal)) (x7 : (⟨S64x2, .f32⟩ : BufTy).Contents (Elt Ideal)) (b : Fin 64) (r e : Fin 500) :
    val_main_v208 (F := Ideal) x0 x1 x6 x7 (ix3 b r e) = endMatch x0 x1 x6 x7 0 1 b r e := by
  unfold val_main_v208 val_main_v207 val_main_v206 val_main_v201 val_main_v200 val_main_v199 val_main_v198 val_main_v176 val_main_v175 val_main_v174 val_main_v173 val_main_v172 val_main_v171 val_main_v168 val_main_v167 val_main_v166 val_main_v165 val_main_v164 val_main_v163 val_main_v162 val_main_v161 val_main_v158 val_main_v157 val_main_v156 val_main_cst_23 val_main_cst_24 endMatch weight l1 absv
  host_simp [slice3_axis2_eq, rv0_at, rv1_at, v160_at, v170_at, score_at]

theorem matchObj_at (x0 : (⟨S64x500x4, .f32⟩ : BufTy).Contents (Elt Ideal)) (x1 : (⟨S64x500x151, .f32⟩ : BufTy).Contents (Elt Ideal)) (x6 : (⟨S64x500x4, .f32⟩ : BufTy).Contents (Elt Ideal)) (x7 : (⟨S64x2, .f32⟩ : BufTy).Contents (Elt Ideal)) (b : Fin 64) (r e : Fin 500) :
    val_main_v211 (F := Ideal) x0 x1 x6 x7 (ix3 b r e) = endMatch x0 x1 x6 x7 2 3 b r e := by
  unfold val_main_v211 val_main_v210 val_main_v209 val_main_v205 val_main_v204 val_main_v203 val_main_v202 val_main_v197 val_main_v196 val_main_v195 val_main_v194 val_main_v193 val_main_v192 val_main_v189 val_main_v188 val_main_v187 val_main_v186 val_main_v185 val_main_v184 val_main_v183 val_main_v182 val_main_v179 val_main_v178 val_main_v177 val_main_cst_25 val_main_cst_26 endMatch weight l1 absv
  host_simp [slice3_axis2_eq, rv2_at, rv3_at, v181_at, v191_at, score_at]

/-! ## Areas -/

theorem areaEs_at (x0 : (⟨S64x500x4, .f32⟩ : BufTy).Contents (Elt Ideal)) (x7 : (⟨S64x2, .f32⟩ : BufTy).Contents (Elt Ideal)) (b : Fin 64) (i : Fin 500) :
    val_main_v222 (F := Ideal) x0 x7 (ix2 b i) = area (boxX0 x0 x7 b i) (boxY0 x0 x7 b i) (boxX1 x0 x7 b i) (boxY1 x0 x7 b i) := by
  unfold val_main_v222 val_main_v221 val_main_v220 val_main_v219 val_main_v218 val_main_v217 val_main_v216 val_main_v215 val_main_v214 val_main_v213 val_main_v212 area
  host_simp [slice3_axis2_eq, ent0_at, ent1_at, ent2_at, ent3_at]

theorem areaS_at (x5 : (⟨S64x500x4, .f32⟩ : BufTy).Contents (Elt Ideal)) (x7 : (⟨S64x2, .f32⟩ : BufTy).Contents (Elt Ideal)) (b : Fin 64) (i : Fin 500) :
    val_main_v233 (F := Ideal) x5 x7 (ix2 b i) = area (boxX0 x5 x7 b i) (boxY0 x5 x7 b i) (boxX1 x5 x7 b i) (boxY1 x5 x7 b i) := by
  unfold val_main_v233 val_main_v232 val_main_v231 val_main_v230 val_main_v229 val_main_v228 val_main_v227 val_main_v226 val_main_v225 val_main_v224 val_main_v223 area
  host_simp [slice3_axis2_eq, sbx0_at, sbx1_at, sbx2_at, sbx3_at]

theorem areaEo_at (x0 : (⟨S64x500x4, .f32⟩ : BufTy).Contents (Elt Ideal)) (x7 : (⟨S64x2, .f32⟩ : BufTy).Contents (Elt Ideal)) (b : Fin 64) (i : Fin 500) :
    val_main_v297 (F := Ideal) x0 x7 (ix2 b i) = area (boxX0 x0 x7 b i) (boxY0 x0 x7 b i) (boxX1 x0 x7 b i) (boxY1 x0 x7 b i) := by
  unfold val_main_v297 val_main_v296 val_main_v295 val_main_v294 val_main_v293 val_main_v292 val_main_v291 val_main_v290 val_main_v289 val_main_v288 val_main_v287 area
  host_simp [slice3_axis2_eq, ent0_at, ent1_at, ent2_at, ent3_at]

theorem areaO_at (x4 : (⟨S64x500x4, .f32⟩ : BufTy).Contents (Elt Ideal)) (x7 : (⟨S64x2, .f32⟩ : BufTy).Contents (Elt Ideal)) (b : Fin 64) (i : Fin 500) :
    val_main_v308 (F := Ideal) x4 x7 (ix2 b i) = area (boxX0 x4 x7 b i) (boxY0 x4 x7 b i) (boxX1 x4 x7 b i) (boxY1 x4 x7 b i) := by
  unfold val_main_v308 val_main_v307 val_main_v306 val_main_v305 val_main_v304 val_main_v303 val_main_v302 val_main_v301 val_main_v300 val_main_v299 val_main_v298 area
  host_simp [slice3_axis2_eq, obx0_at, obx1_at, obx2_at, obx3_at]

/-! ## The extents of the intersection and of the hull, entity box first -/

theorem intXs_at (x0 x5 : (⟨S64x500x4, .f32⟩ : BufTy).Contents (Elt Ideal)) (x7 : (⟨S64x2, .f32⟩ : BufTy).Contents (Elt Ideal)) (b : Fin 64) (e r : Fin 500) :
    val_main_v251 (F := Ideal) x0 x5 x7 (ix3 b e r)
      = max (min (boxX1 x0 x7 b e) (boxX1 x5 x7 b r) - max (boxX0 x0 x7 b e) (boxX0 x5 x7 b r)) cZero := by
  unfold val_main_v251 val_main_v250 val_main_v249 val_main_v248 val_main_v247 val_main_v246 val_main_v245 val_main_v244 val_main_v243 val_main_v242 val_main_v241 val_main_v240 val_main_v239 val_main_v238 val_main_v237 val_main_v236 val_main_v235 val_main_v234 val_main_call0_v1 val_main_call0_v0 val_main_cst_27
  host_simp [slice3_axis2_eq, slice4_axis3_eq, clip_eq, ent0_at, ent2_at, sbx0_at, sbx2_at]

theorem intYs_at (x0 x5 : (⟨S64x500x4, .f32⟩ : BufTy).Contents (Elt Ideal)) (x7 : (⟨S64x2, .f32⟩ : BufTy).Contents (Elt Ideal)) (b : Fin 64) (e r : Fin 500) :
    val_main_v253 (F := Ideal) x0 x5 x7 (ix3 b e r)
      = max (min (boxY1 x0 x7 b e) (boxY1 x5 x7 b r) - max (boxY0 x0 x7 b e) (boxY0 x5 x7 b r)) cZero := by
  unfold val_main_v253 val_main_v252 val_main_v249 val_main_v248 val_main_v247 val_main_v246 val_main_v245 val_main_v244 val_main_v243 val_main_v242 val_main_v241 val_main_v240 val_main_v239 val_main_v238 val_main_v237 val_main_v236 val_main_v235 val_main_v234 val_main_call0_v1 val_main_call0_v0 val_main_cst_27
  host_simp [slice3_axis2_eq, slice4_axis3_eq, clip_eq, ent1_at, ent3_at, sbx1_at, sbx3_at]

theorem hullXs_at (x0 x5 : (⟨S64x500x4, .f32⟩ : BufTy).Contents (Elt Ideal)) (x7 : (⟨S64x2, .f32⟩ : BufTy).Contents (Elt Ideal)) (b : Fin 64) (e r : Fin 500) :
    val_main_v279 (F := Ideal) x0 x5 x7 (ix3 b e r)
      = max (max (boxX1 x0 x7 b e) (boxX1 x5 x7 b r) - min (boxX0 x0 x7 b e) (boxX0 x5 x7 b r)) cZero := by
  unfold val_main_v279 val_main_v278 val_main_v277 val_main_v276 val_main_v275 val_main_v274 val_main_v273 val_main_v272 val_main_v271 val_main_v270 val_main_v269 val_main_v268 val_main_v267 val_main_v266 val_main_v265 val_main_v264 val_main_v263 val_main_v262 val_main_call1_v1 val_main_call1_v0 val_main_cst_28
  host_simp [slice3_axis2_eq, slice4_axis3_eq, clip_eq, ent0_at, ent2_at, sbx0_at, sbx2_at]

theorem hullYs_at (x0 x5 : (⟨S64x500x4, .f32⟩ : BufTy).Contents (Elt Ideal)) (x7 : (⟨S64x2, .f32⟩ : BufTy).Contents (Elt Ideal)) (b : Fin 64) (e r : Fin 500) :
    val_main_v281 (F := Ideal) x0 x5 x7 (ix3 b e r)
      = max (max (boxY1 x0 x7 b e) (boxY1 x5 x7 b r) - min (boxY0 x0 x7 b e) (boxY0 x5 x7 b r)) cZero := by
  unfold val_main_v281 val_main_v280 val_main_v277 val_main_v276 val_main_v275 val_main_v274 val_main_v273 val_main_v272 val_main_v271 val_main_v270 val_main_v269 val_main_v268 val_main_v267 val_main_v266 val_main_v265 val_main_v264 val_main_v263 val_main_v262 val_main_call1_v1 val_main_call1_v0 val_main_cst_28
  host_simp [slice3_axis2_eq, slice4_axis3_eq, clip_eq, ent1_at, ent3_at, sbx1_at, sbx3_at]

theorem intXo_at (x0 x4 : (⟨S64x500x4, .f32⟩ : BufTy).Contents (Elt Ideal)) (x7 : (⟨S64x2, .f32⟩ : BufTy).Contents (Elt Ideal)) (b : Fin 64) (e r : Fin 500) :
    val_main_v326 (F := Ideal) x0 x4 x7 (ix3 b e r)
      = max (min (boxX1 x0 x7 b e) (boxX1 x4 x7 b r) - max (boxX0 x0 x7 b e) (boxX0 x4 x7 b r)) cZero := by
  unfold val_main_v326 val_main_v325 val_main_v324 val_main_v323 val_main_v322 val_main_v321 val_main_v320 val_main_v319 val_main_v318 val_main_v317 val_main_v316 val_main_v315 val_main_v314 val_main_v313 val_main_v312 val_main_v311 val_main_v310 val_main_v309 val_main_call3_v1 val_main_call3_v0 val_main_cst_30
  host_simp [slice3_axis2_eq, slice4_axis3_eq, clip_eq, ent0_at, ent2_at, obx0_at, obx2_at]

theorem intYo_at (x0 x4 : (⟨S64x500x4, .f32⟩ : BufTy).Contents (Elt Ideal)) (x7 : (⟨S64x2, .f32⟩ : BufTy).Contents (Elt Ideal)) (b : Fin 64) (e r : Fin 500) :
    val_main_v328 (F := Ideal) x0 x4 x7 (ix3 b e r)
      = max (min (boxY1 x0 x7 b e) (boxY1 x4 x7 b r) - max (boxY0 x0 x7 b e) (boxY0 x4 x7 b r)) cZero := by
  unfold val_main_v328 val_main_v327 val_main_v324 val_main_v323 val_main_v322 val_main_v321 val_main_v320 val_main_v319 val_main_v318 val_main_v317 val_main_v316 val_main_v315 val_main_v314 val_main_v313 val_main_v312 val_main_v311 val_main_v310 val_main_v309 val_main_call3_v1 val_main_call3_v0 val_main_cst_30
  host_simp [slice3_axis2_eq, slice4_axis3_eq, clip_eq, ent1_at, ent3_at, obx1_at, obx3_at]

theorem hullXo_at (x0 x4 : (⟨S64x500x4, .f32⟩ : BufTy).Contents (Elt Ideal)) (x7 : (⟨S64x2, .f32⟩ : BufTy).Contents (Elt Ideal)) (b : Fin 64) (e r : Fin 500) :
    val_main_v354 (F := Ideal) x0 x4 x7 (ix3 b e r)
      = max (max (boxX1 x0 x7 b e) (boxX1 x4 x7 b r) - min (boxX0 x0 x7 b e) (boxX0 x4 x7 b r)) cZero := by
  unfold val_main_v354 val_main_v353 val_main_v352 val_main_v351 val_main_v350 val_main_v349 val_main_v348 val_main_v347 val_main_v346 val_main_v345 val_main_v344 val_main_v343 val_main_v342 val_main_v341 val_main_v340 val_main_v339 val_main_v338 val_main_v337 val_main_call4_v1 val_main_call4_v0 val_main_cst_31
  host_simp [slice3_axis2_eq, slice4_axis3_eq, clip_eq, ent0_at, ent2_at, obx0_at, obx2_at]

theorem hullYo_at (x0 x4 : (⟨S64x500x4, .f32⟩ : BufTy).Contents (Elt Ideal)) (x7 : (⟨S64x2, .f32⟩ : BufTy).Contents (Elt Ideal)) (b : Fin 64) (e r : Fin 500) :
    val_main_v356 (F := Ideal) x0 x4 x7 (ix3 b e r)
      = max (max (boxY1 x0 x7 b e) (boxY1 x4 x7 b r) - min (boxY0 x0 x7 b e) (boxY0 x4 x7 b r)) cZero := by
  unfold val_main_v356 val_main_v355 val_main_v352 val_main_v351 val_main_v350 val_main_v349 val_main_v348 val_main_v347 val_main_v346 val_main_v345 val_main_v344 val_main_v343 val_main_v342 val_main_v341 val_main_v340 val_main_v339 val_main_v338 val_main_v337 val_main_call4_v1 val_main_call4_v0 val_main_cst_31
  host_simp [slice3_axis2_eq, slice4_axis3_eq, clip_eq, ent1_at, ent3_at, obx1_at, obx3_at]

/-! ## The positive part of the generalized overlap

The reference takes the entity box first and the relation box second; the overlap does not depend on the order. -/

theorem giouSub_at (x0 x5 : (⟨S64x500x4, .f32⟩ : BufTy).Contents (Elt Ideal)) (x7 : (⟨S64x2, .f32⟩ : BufTy).Contents (Elt Ideal)) (b : Fin 64) (e r : Fin 500) :
    val_main_v286 (F := Ideal) x0 x5 x7 (ix3 b e r) = boxGiou x5 x0 x7 b r e := by
  have h : val_main_v286 (F := Ideal) x0 x5 x7 (ix3 b e r)
      = pos (giou (boxX0 x0 x7 b e) (boxY0 x0 x7 b e) (boxX1 x0 x7 b e) (boxY1 x0 x7 b e) (boxX0 x5 x7 b r) (boxY0 x5 x7 b r) (boxX1 x5 x7 b r) (boxY1 x5 x7 b r)) := by
    unfold val_main_v286 val_main_v285 val_main_v284 val_main_v283 val_main_v282 val_main_v261 val_main_v260 val_main_v259 val_main_v258 val_main_v257 val_main_v256 val_main_v255 val_main_v254 val_main_call2_v1 val_main_call2_v0 val_main_cst_29 pos giou union hull inter
    host_simp [clip_eq, intXs_at, intYs_at, hullXs_at, hullYs_at, areaEs_at, areaS_at]
  rw [h, giou_swap]
  rfl

theorem giouObj_at (x0 x4 : (⟨S64x500x4, .f32⟩ : BufTy).Contents (Elt Ideal)) (x7 : (⟨S64x2, .f32⟩ : BufTy).Contents (Elt Ideal)) (b : Fin 64) (e r : Fin 500) :
    val_main_v361 (F := Ideal) x0 x4 x7 (ix3 b e r) = boxGiou x4 x0 x7 b r e := by
  have h : val_main_v361 (F := Ideal) x0 x4 x7 (ix3 b e r)
      = pos (giou (boxX0 x0 x7 b e) (boxY0 x0 x7 b e) (boxX1 x0 x7 b e) (boxY1 x0 x7 b e) (boxX0 x4 x7 b r) (boxY0 x4 x7 b r) (boxX1 x4 x7 b r) (boxY1 x4 x7 b r)) := by
    unfold val_main_v361 val_main_v360 val_main_v359 val_main_v358 val_main_v357 val_main_v336 val_main_v335 val_main_v334 val_main_v333 val_main_v332 val_main_v331 val_main_v330 val_main_v329 val_main_call5_v1 val_main_call5_v0 val_main_cst_32 pos giou union hull inter
    host_simp [clip_eq, intXo_at, intYo_at, hullXo_at, hullYo_at, areaEo_at, areaO_at]
  rw [h, giou_swap]
  rfl

/-- The first result: the subject cost. -/
theorem ref_sub (x0 : (⟨S64x500x4, .f32⟩ : BufTy).Contents (Elt Ideal)) (x1 x3 : (⟨S64x500x151, .f32⟩ : BufTy).Contents (Elt Ideal))
    (x5 x6 : (⟨S64x500x4, .f32⟩ : BufTy).Contents (Elt Ideal)) (x7 : (⟨S64x2, .f32⟩ : BufTy).Contents (Elt Ideal)) (b : Fin 64) (r e : Fin 500) :
    val_main_v406 (F := Ideal) x0 x1 x3 x5 x6 x7 (ix3 b r e) = subEntry x0 x1 x3 x5 x6 x7 b r e := by
  unfold val_main_v406 val_main_v405 val_main_v404 subEntry entry
  host_simp [matchSub_at, clsSub_at, giouSub_at]

/-- The second result: the object cost. -/
theorem ref_obj (x0 : (⟨S64x500x4, .f32⟩ : BufTy).Contents (Elt Ideal)) (x1 x2 : (⟨S64x500x151, .f32⟩ : BufTy).Contents (Elt Ideal))
    (x4 x6 : (⟨S64x500x4, .f32⟩ : BufTy).Contents (Elt Ideal)) (x7 : (⟨S64x2, .f32⟩ : BufTy).Contents (Elt Ideal)) (b : Fin 64) (r e : Fin 500) :
    val_main_v409 (F := Ideal) x0 x1 x2 x4 x6 x7 (ix3 b r e) = objEntry x0 x1 x2 x4 x6 x7 b r e := by
  unfold val_main_v409 val_main_v408 val_main_v407 objEntry entry
  host_simp [matchObj_at, clsObj_at, giouObj_at]

end Cert.ReferenceIdeal.RefVal

end
-- ==== Proof.RefRun.lean ====
/-
  The reference program's frame and results. Every operation of the reference is a host operation, so the program
  terminates with each result at its stage value of the arguments and leaves its arguments unchanged; the stage values,
  read at an index, are the matching costs of the spec.
-/
import proofs.«109971_j31181462569594_2_alg».proof.Defs
import proofs.«109971_j31181462569594_2_alg».proof.Proof.Gen.Pre_finite_inputs
import proofs.«109971_j31181462569594_2_alg».proof.Proof.Ref.Run
import proofs.«109971_j31181462569594_2_alg».proof.Proof.Ref.Val

noncomputable section

namespace Cert.Proof.Ref

open Idealize.ShloMosaic Idealize.ShloMosaic.TcCoe Idealize.SL.Sem Idealize.ShloMosaic.ValueIdx Cert.Spec

/-- The reference leaves its eight arguments as launched. -/
theorem frame_ri : Cert.frame_ReferenceIdeal (hReferenceIdeal := Cert.ReferenceIdeal.Gen.facts) (hPre_finite_inputs := Cert.Pre_finite_inputs.Gen.facts) := fun m ρ _ =>
  (θ_run Cert.ReferenceIdeal.defs _ _).mono (fun _ h c => (h c).2.2) (Cert.ReferenceIdeal.RunP.run (F := Ideal) m ρ)

/-- The reference's first stage value is the array of subject costs. -/
theorem res0_eq (x0 : Boxes) (x1 x3 : Logits) (x5 x6 : Boxes) (x7 : Sizes) :
    Cert.ReferenceIdeal.Read.val_main_v406 (F := Ideal) x0 x1 x3 x5 x6 x7 = fun y => subEntry x0 x1 x3 x5 x6 x7 (y 0) (y 1) (y 2) := by
  funext y
  obtain ⟨b, r, e, rfl⟩ : ∃ (b : Fin 64) (r e : Fin 500), y = ix3 b r e := ⟨y 0, y 1, y 2, ValueIdx.eq_ix3 y⟩
  exact Cert.ReferenceIdeal.RefVal.ref_sub x0 x1 x3 x5 x6 x7 b r e

/-- The reference's second stage value is the array of object costs. -/
theorem res1_eq (x0 : Boxes) (x1 x2 : Logits) (x4 x6 : Boxes) (x7 : Sizes) :
    Cert.ReferenceIdeal.Read.val_main_v409 (F := Ideal) x0 x1 x2 x4 x6 x7 = fun y => objEntry x0 x1 x2 x4 x6 x7 (y 0) (y 1) (y 2) := by
  funext y
  obtain ⟨b, r, e, rfl⟩ : ∃ (b : Fin 64) (r e : Fin 500), y = ix3 b r e := ⟨y 0, y 1, y 2, ValueIdx.eq_ix3 y⟩
  exact Cert.ReferenceIdeal.RefVal.ref_obj x0 x1 x2 x4 x6 x7 b r e

end Cert.Proof.Ref

end
-- ==== Proof.lean ====
/- The proof of `Cert.Claim`: the two kernel programs' frames, the reference's frame, the idealization's (empty) ledger,
   and the algebraic claim. The kernel body's run, the shape and cover of what it leaves in the two outputs, and the
   launch give each kernel program's frame (at any float instance). At the ideal instance every strip the body stores
   agrees, entry by entry, with the matching cost of the spec computed from the image's blocks, the blocks are the
   arguments' rows of the image, and the 64 points' blocks tile the two results; the reference's two results, read at
   an index through its operations, are the same cost. -/
import proofs.«109971_j31181462569594_2_alg».proof.Defs
import proofs.«109971_j31181462569594_2_alg».proof.Proof.Gen.Kernel
import proofs.«109971_j31181462569594_2_alg».proof.Proof.Gen.Kernel.Skeleton
import proofs.«109971_j31181462569594_2_alg».proof.Proof.Gen.Kernel.Loops
import proofs.«109971_j31181462569594_2_alg».proof.Proof.Gen.Kernel.Launch
import proofs.«109971_j31181462569594_2_alg».proof.Proof.Gen.Kernel.Points
import proofs.«109971_j31181462569594_2_alg».proof.Proof.Gen.KernelIdeal
import proofs.«109971_j31181462569594_2_alg».proof.Proof.Gen.KernelIdeal.Skeleton
import proofs.«109971_j31181462569594_2_alg».proof.Proof.Gen.KernelIdeal.Loops
import proofs.«109971_j31181462569594_2_alg».proof.Proof.Gen.KernelIdeal.Launch
import proofs.«109971_j31181462569594_2_alg».proof.Proof.Gen.KernelIdeal.Points
import proofs.«109971_j31181462569594_2_alg».proof.Proof.Gen.ReferenceIdeal
import proofs.«109971_j31181462569594_2_alg».proof.Proof.Gen.Pre_finite_inputs
import Idealize.ShloMosaic.Adequacy
import Idealize.ShloMosaic.Init
import proofs.«109971_j31181462569594_2_alg».proof.Proof.K.Frame
import proofs.«109971_j31181462569594_2_alg».proof.Proof.KI.Final
import proofs.«109971_j31181462569594_2_alg».proof.Proof.RefRun

noncomputable section

namespace Cert.Proof

open Idealize.ShloMosaic Idealize.SL.Sem Cert.Kernel

/-- The two programs' results agree over the extended reals: both are the arrays of matching costs of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m g m' g' _ hagree
  refine ⟨Cert.KernelIdeal.Frame.subArr m, Cert.KernelIdeal.Frame.objArr m, Cert.KernelIdeal.Frame.value_run m g, ?_⟩
  refine (θ_run Cert.ReferenceIdeal.defs _ _).mono (fun r h c => ?_) (Cert.ReferenceIdeal.RunP.run (F := Ideal) m' g')
  obtain ⟨h0, h1, hrest⟩ := h c
  obtain ⟨e0, e1, e2, e3, e4, e5, e6, e7⟩ := hagree c
  refine ⟨h0.trans ?_, h1.trans ?_, hrest⟩
  · rw [Cert.Proof.Ref.res0_eq, e0, e1, e3, e5, e6, e7]; rfl
  · rw [Cert.Proof.Ref.res1_eq, e0, e1, e2, e4, e6, e7]; rfl

theorem claim : Cert.Claim := ⟨Cert.Kernel.Gen.facts, Cert.KernelIdeal.Gen.facts, Cert.ReferenceIdeal.Gen.facts, Cert.Pre_finite_inputs.Gen.facts,
  fun m ρ _ => Cert.Kernel.Frame.frame m ρ,
  fun m ρ _ => Cert.KernelIdeal.Frame.frame m ρ,
  Cert.Proof.Ref.frame_ri,
  trivial,
  algebraic⟩

end Cert.Proof

end
